-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256 : Shape := ⟨2, ![128, 256]⟩
abbrev S128 : Shape := ⟨1, ![128]⟩
abbrev S6145x256 : Shape := ⟨2, ![6145, 256]⟩
abbrev S256x256 : Shape := ⟨2, ![256, 256]⟩
abbrev S256 : Shape := ⟨1, ![256]⟩
abbrev S_ : Shape := ⟨0, ![]⟩

class Facts : Prop where
  bcast_S_S128x256 : S_.BroadcastsInDim S128x256 (![] : Fin 0 → Fin S128x256.rank)
  reducesTo_S128x256_S_d0_1 : S128x256.ReducesTo [0, 1] S_
  h_S_ : 0 < S_.numel
  bcast_S_S6145x256 : S_.BroadcastsInDim S6145x256 (![] : Fin 0 → Fin S6145x256.rank)
  reducesTo_S6145x256_S_d0_1 : S6145x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S128x256 .f32) (main_arg1 : IVec S128 32) (main_arg2 : FVec F S6145x256 .f32) (main_arg3 : FVec F S256x256 .f32) (main_arg4 : FVec F S256x256 .f32) (main_arg5 : FVec F S256 .f32) : IVec S_ 1 :=
  let main_v0 : FVec F S128x256 .f32 := Host.absf main_arg0
  let main_cst : FVec F S_ .f32 := constant S_ .f32 0x7F800000#32
  let main_v1 : FVec F S128x256 .f32 := broadcastInDim S128x256 ![] bcast_S_S128x256 main_cst
  let main_v2 : IVec S128x256 1 := cmpf .olt main_v0 main_v1
  let main_c : IVec S_ 1 := constantI S_ 1 1#1
  let main_v3 : IVec S_ 1 := (fun x v => Host.reduce IntOp.andi x v reducesTo_S128x256_S_d0_1 h_S_) main_v2 main_c
  let main_v4 : FVec F S6145x256 .f32 := Host.absf main_arg2
  let main_cst_0 : FVec F S_ .f32 := constant S_ .f32 0x7F800000#32
  let main_v5 : FVec F S6145x256 .f32 := broadcastInDim S6145x256 ![] bcast_S_S6145x256 main_cst_0
  let main_v6 : IVec S6145x256 1 := cmpf .olt main_v4 main_v5
  let main_c_1 : IVec S_ 1 := constantI S_ 1 1#1
  let main_v7 : IVec S_ 1 := (fun x v => Host.reduce IntOp.andi x v reducesTo_S6145x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_v13 main_v16
-- ==== Kernel.lean ====
abbrev S128x256 : Shape := ⟨2, ![128, 256]⟩
abbrev S128 : Shape := ⟨1, ![128]⟩
abbrev S6145x256 : Shape := ⟨2, ![6145, 256]⟩
abbrev S256x256 : Shape := ⟨2, ![256, 256]⟩
abbrev S256 : Shape := ⟨1, ![256]⟩
abbrev S_ : Shape := ⟨0, ![]⟩
abbrev S128x1 : Shape := ⟨2, ![128, 1]⟩
abbrev S6144x256 : Shape := ⟨2, ![6144, 256]⟩
abbrev S1x256 : Shape := ⟨2, ![1, 256]⟩
abbrev S64x256 : Shape := ⟨2, ![64, 256]⟩
abbrev S64x1 : Shape := ⟨2, ![64, 1]⟩
abbrev S1x128x256 : Shape := ⟨3, ![1, 128, 256]⟩
abbrev S64x1x256 : Shape := ⟨3, ![64, 1, 256]⟩
abbrev S64x128x256 : Shape := ⟨3, ![64, 128, 256]⟩
abbrev S64x128 : Shape := ⟨2, ![64, 128]⟩
abbrev S1x128 : Shape := ⟨2, ![1, 128]⟩
abbrev S64 : Shape := ⟨1, ![64]⟩

abbrev nBuf : Space → Nat
  | .hbm => 62
  | .vmem => 32
  | .smem => 0
  | _ => 0

abbrev bufTy : (tb : Table) → Fin (tcTables nBuf tb) → BufTy
  | .hbm, ⟨0, _⟩ => ⟨S128x256, .f32⟩
  | .hbm, ⟨1, _⟩ => ⟨S128, .i32⟩
  | .hbm, ⟨2, _⟩ => ⟨S6145x256, .f32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S_, .i32⟩
  | .hbm, ⟨7, _⟩ => ⟨S128, .i32⟩
  | .hbm, ⟨8, _⟩ => ⟨S128, .i1⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S128, .i32⟩
  | .hbm, ⟨13, _⟩ => ⟨S128, .i32⟩
  | .hbm, ⟨14, _⟩ => ⟨S_, .i32⟩
  | .hbm, ⟨15, _⟩ => ⟨S128, .i32⟩
  | .hbm, ⟨16, _⟩ => ⟨S128, .i32⟩
  | .hbm, ⟨17, _⟩ => ⟨S128x1, .i32⟩
  | .hbm, ⟨18, _⟩ => ⟨S_, .i32⟩
  | .hbm, ⟨19, _⟩ => ⟨S128, .i32⟩
  | .hbm, ⟨20, _⟩ => ⟨S128, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S128, .i32⟩
  | .hbm, ⟨25, _⟩ => ⟨S128, .i32⟩
  | .hbm, ⟨26, _⟩ => ⟨S_, .i32⟩
  | .hbm, ⟨27, _⟩ => ⟨S128, .i32⟩
  | .hbm, ⟨28, _⟩ => ⟨S128, .i32⟩
  | .hbm, ⟨29, _⟩ => ⟨S128x1, .i32⟩
  | .hbm, ⟨30, _⟩ => ⟨S6144x256, .f32⟩
  | .hbm, ⟨31, _⟩ => ⟨S1x256, .f32⟩
  | .hbm, ⟨32, _⟩ => ⟨S1x256, .f32⟩
  | .hbm, ⟨33, _⟩ => ⟨S128x1, .f32⟩
  | .hbm, ⟨34, _⟩ => ⟨S128x1, .f32⟩
  | .hbm, ⟨35, _⟩ => ⟨S128x1, .f32⟩
  | .hbm, ⟨36, _⟩ => ⟨S128x1, .f32⟩
  | .hbm, ⟨37, _⟩ => ⟨S128x1, .f32⟩
  | .hbm, ⟨38, _⟩ => ⟨S128, .f32⟩
  | .hbm, ⟨39, _⟩ => ⟨S128, .f32⟩
  | .hbm, ⟨40, _⟩ => ⟨S128, .f32⟩
  | .hbm, ⟨41, _⟩ => ⟨S128, .f32⟩
  | .hbm, ⟨42, _⟩ => ⟨S128, .f32⟩
  | .hbm, ⟨43, _⟩ => ⟨S128, .f32⟩
  | .hbm, ⟨44, _⟩ => ⟨S128, .f32⟩
  | .hbm, ⟨45, _⟩ => ⟨S128, .f32⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .local _ .vmem, ⟨0, _⟩ => ⟨S64x256, .f32⟩
  | .local _ .vmem, ⟨1, _⟩ => ⟨S64x256, .f32⟩
  | .local _ .vmem, ⟨2, _⟩ => ⟨S128x256, .f32⟩
  | .local _ .vmem, ⟨3, _⟩ => ⟨S128x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S64x1, .i32⟩
  | .local _ .vmem, ⟨8, _⟩ => ⟨S64x1, .i32⟩
  | .local _ .vmem, ⟨9, _⟩ => ⟨S64x1, .i32⟩
  | .local _ .vmem, ⟨10, _⟩ => ⟨S64x1, .i32⟩
  | .local _ .vmem, ⟨11, _⟩ => ⟨S64x1, .f32⟩
  | .local _ .vmem, ⟨12, _⟩ => ⟨S64x1, .f32⟩
  | .local _ .vmem, ⟨13, _⟩ => ⟨S64x1, .f32⟩
  | .local _ .vmem, ⟨14, _⟩ => ⟨S64x1, .f32⟩
  | .local _ .vmem, ⟨15, _⟩ => ⟨S64x1, .f32⟩
  | .local _ .vmem, ⟨16, _⟩ => ⟨S64x1, .f32⟩
  | .local _ .vmem, ⟨17, _⟩ => ⟨S64x1, .f32⟩
  | .local _ .vmem, ⟨18, _⟩ => ⟨S64x1, .f32⟩
  | .local _ .vmem, ⟨19, _⟩ => ⟨S64x256, .f32⟩
  | .local _ .vmem, ⟨20, _⟩ => ⟨S64x1, .f32⟩
  | .local _ .vmem, ⟨21, _⟩ => ⟨S64x1, .f32⟩
  | .local _ .vmem, ⟨22, _⟩ => ⟨S64x1, .f32⟩
  | .local _ .vmem, ⟨23, _⟩ => ⟨S64x1, .f32⟩
  | .local _ .vmem, ⟨24, _⟩ => ⟨S64x1, .f32⟩
  | .local _ .vmem, ⟨25, _⟩ => ⟨S64x1, .f32⟩
  | .local _ .vmem, ⟨26, _⟩ => ⟨S128x256, .f32⟩
  | .local _ .vmem, ⟨27, _⟩ => ⟨S1x256, .f32⟩
  | .local _ .vmem, ⟨28, _⟩ => ⟨S256x256, .f32⟩
  | .local _ .vmem, ⟨29, _⟩ => ⟨S256x256, .f32⟩
  | .local _ .vmem, ⟨30, _⟩ => ⟨S1x256, .f32⟩
  | .local _ .vmem, ⟨31, _⟩ => ⟨S128x1, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v2 : Ref sig .tc := ⟨.hbm, 16, rfl⟩
abbrev main_v3 : Ref sig .tc := ⟨.hbm, 17, rfl⟩
abbrev main_c_2 : Ref sig .tc := ⟨.hbm, 18, rfl⟩
abbrev main_v4 : Ref sig .tc := ⟨.hbm, 19, rfl⟩
abbrev main_v5 : Ref sig .tc := ⟨.hbm, 20, rfl⟩
abbrev main_c_3 : Ref sig .tc := ⟨.hbm, 21, rfl⟩
abbrev main_c_4 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11_0 : Ref sig .tc := ⟨.hbm, 33, rfl⟩
abbrev main_v11_1 : Ref sig .tc := ⟨.hbm, 34, rfl⟩
abbrev main_v11_2 : Ref sig .tc := ⟨.hbm, 35, rfl⟩
abbrev main_v11_3 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst : Ref sig .tc := ⟨.hbm, 58, rfl⟩
abbrev main_v33 : Ref sig .tc := ⟨.hbm, 59, rfl⟩
abbrev main_cst_5 : Ref sig .tc := ⟨.hbm, 60, rfl⟩
abbrev main_v34 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc1_stg0_0 : Ref sig .tc := ⟨.vmem, 26, rfl⟩
abbrev cc1_stg1_0 : Ref sig .tc := ⟨.vmem, 27, rfl⟩
abbrev cc1_stg2_0 : Ref sig .tc := ⟨.vmem, 28, rfl⟩
abbrev cc1_stg3_0 : Ref sig .tc := ⟨.vmem, 29, rfl⟩
abbrev cc1_stg4_0 : Ref sig .tc := ⟨.vmem, 30, rfl⟩
abbrev cc1_stg5_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc1_sem0_0 : DmaSem sig := 19
abbrev cc1_sem1_0 : DmaSem sig := 20
abbrev cc1_sem2_0 : DmaSem sig := 21
abbrev cc1_sem3_0 : DmaSem sig := 22
abbrev cc1_sem4_0 : DmaSem sig := 23
abbrev cc1_sem5_0 : DmaSem sig := 24

abbrev nD : Nat := 1
abbrev τ : Topo := Topo.v7x

variable {F : FTy → Type} [FloatOps F]

abbrev grid0 : Pipeline.Grid := ⟨2, ![2, 48], ![false, false]⟩

def k0_cond4 (i : grid0.Coords) : BitVec 1 :=
  let arg1 : BitVec 32 := BitVec.ofNat 32 (i 1).val
  let c47_i32 : BitVec 32 := 47#32
  let v33 : BitVec 1 := Scalar.cmpi .eq arg1 c47_i32
  let v34 : BitVec 32 := Scalar.extui v33
  let c0_i32_14 : BitVec 32 := 0#32
  let v35 : BitVec 1 := Scalar.cmpi .ne v34 c0_i32_14
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S64x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S64x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S64x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S64x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S64x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S64x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S128x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  bcast_S_S128 : S_.BroadcastsInDim S128 (![] : Fin 0 → Fin S128.rank)
  shapeCasts_S128_S128x1 : S128.ShapeCasts S128x1
  slices_S6145x256_S6144x256_0_0 : S6145x256.Slices ![0, 0] S6144x256
  slices_S6145x256_S1x256_6144_0 : S6145x256.Slices ![6144, 0] S1x256
  shapeCasts_S256_S1x256 : S256.ShapeCasts S1x256
  inb_S64x256_S64x256_0_0 : ∀ a, (![0, 0] : Fin 2 → Nat) a + S64x256.size a ≤ S64x256.size a
  h_S64x256 : 0 < S64x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  shapeCasts_S64x256_S64x256 : S64x256.ShapeCasts S64x256
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S128x256_S1x128x256 : S128x256.ShapeCasts S1x128x256
  shapeCasts_S64x256_S64x1x256 : S64x256.ShapeCasts S64x1x256
  broadcasts_S1x128x256_S64x128x256 : S1x128x256.Broadcasts S64x128x256
  broadcasts_S64x1x256_S64x128x256 : S64x1x256.Broadcasts S64x128x256
  reduces_S64x128x256_S64x128 : S64x128x256.Reduces [2] S64x128
  iota_S1x128_d1_w32 : S1x128.Iotas .tc 32 [1]
  broadcasts_S64x1_S64x128 : S64x1.Broadcasts S64x128
  broadcasts_S1x128_S64x128 : S1x128.Broadcasts S64x128
  reduces_S64x128_S64 : S64x128.Reduces [1] S64
  shapeCasts_S64_S64x1 : S64.ShapeCasts S64x1
  broadcasts_S1x256_S128x256 : S1x256.Broadcasts S128x256
  reduces_S128x256_S128 : S128x256.Reduces [1] S128
  inb_S128x1_S128x1_0_0 : ∀ a, (![0, 0] : Fin 2 → Nat) a + S128x1.size a ≤ S128x1.size a
  h_S128x1 : 0 < S128x1.numel
  shapeCasts_S128x1_S128 : S128x1.ShapeCasts S128
  reducesTo_S128_S_d0 : S128.ReducesTo [0] S_
  h_S_ : 0 < S_.numel
  dot_S64x256_S256x256_S64x256_1_0_0_1_n_n_wf : DotDims.WF S64x256 S256x256 S64x256 [1] [0] [0] [1] [] []
  dot_S128x256_S256x256_S128x256_1_0_0_1_n_n_wf : DotDims.WF S128x256 S256x256 S128x256 [1] [0] [0] [1] [] []
  dot_S1x256_S256x256_S1x256_1_0_0_1_n_n_wf : DotDims.WF S1x256 S256x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256.size a ≤ S128x256.size a
  hwx0_0 : ∀ i : grid0.Coords, EltTy.bits .f32 = 32 ∨ (Rect.block (s := S128x256) S64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S6144x256.size a
  hwx0_1 : ∀ i : grid0.Coords, EltTy.bits .f32 = 32 ∨ (Rect.block (s := S6144x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S128x1.size a
  hwx0_5 : ∀ i : grid0.Coords, EltTy.bits .i32 = 32 ∨ (Rect.block (s := S128x1) S64x1.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S128x1.size a
  hwx0_6 : ∀ i : grid0.Coords, EltTy.bits .i32 = 32 ∨ (Rect.block (s := S128x1) S64x1.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S128x1.size a
  hwx0_7 : ∀ i : grid0.Coords, EltTy.bits .f32 = 32 ∨ (Rect.block (s := S128x1) S64x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x1.size a ≤ S128x1.size a
  hwx0_8 : ∀ i : grid0.Coords, EltTy.bits .f32 = 32 ∨ (Rect.block (s := S128x1) S64x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x1.size a ≤ S128x1.size a
  hwx0_9 : ∀ i : grid0.Coords, EltTy.bits .f32 = 32 ∨ (Rect.block (s := S128x1) S64x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S64x1.size a ≤ S128x1.size a
  hwx0_10 : ∀ i : grid0.Coords, EltTy.bits .f32 = 32 ∨ (Rect.block (s := S128x1) S64x1.size (cc0_transform_10 i) (hinb0_10 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x256.size a ≤ S128x256.size a
  hwx1_0 : ∀ i : grid1.Coords, EltTy.bits .f32 = 32 ∨ (Rect.block (s := S128x256) S128x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x1.size a ≤ S128x1.size a
  hwx1_5 : ∀ i : grid1.Coords, EltTy.bits .f32 = 32 ∨ (Rect.block (s := S128x1) S128x1.size (cc1_transform_5 i) (hinb1_5 i)).WholeWords (EltTy.packing .f32)

variable [Facts₀]

def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf

abbrev win0_0 : Pipeline.Window sig grid0 :=
  Pipeline.Window.ofSpec (Memref.whole main_arg0) S64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S64x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S64x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v11_0) S64x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11_1) S64x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11_2) S64x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v11_3) S64x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun i => !(k0_cond4 i == 1#1) | 8 => fun i => !(k0_cond4 i == 1#1) | 9 => fun i => !(k0_cond4 i == 1#1) | 10 => fun i => !(k0_cond4 i == 1#1) | ⟨_ + 11, h⟩ => absurd h (Nat.not_lt.2 (Nat.le_add_left _ _))

abbrev win1_0 : Pipeline.Window sig grid1 :=
  Pipeline.Window.ofSpec (Memref.whole main_arg0) S128x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S128x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S128x256 : Shape := ⟨2, ![128, 256]⟩
abbrev S128 : Shape := ⟨1, ![128]⟩
abbrev S6145x256 : Shape := ⟨2, ![6145, 256]⟩
abbrev S256x256 : Shape := ⟨2, ![256, 256]⟩
abbrev S256 : Shape := ⟨1, ![256]⟩
abbrev S1 : Shape := ⟨1, ![1]⟩
abbrev S2048 : Shape := ⟨1, ![2048]⟩
abbrev S2049 : Shape := ⟨1, ![2049]⟩
abbrev S_ : Shape := ⟨0, ![]⟩
abbrev S2049x1 : Shape := ⟨2, ![2049, 1]⟩
abbrev S2049x256 : Shape := ⟨2, ![2049, 256]⟩
abbrev S1x256 : Shape := ⟨2, ![1, 256]⟩
abbrev S128x1x256 : Shape := ⟨3, ![128, 1, 256]⟩
abbrev S1x2049x256 : Shape := ⟨3, ![1, 2049, 256]⟩
abbrev S128x2049x256 : Shape := ⟨3, ![128, 2049, 256]⟩
abbrev S128x2049 : Shape := ⟨2, ![128, 2049]⟩
abbrev S128x1 : Shape := ⟨2, ![128, 1]⟩
abbrev S4096x256 : Shape := ⟨2, ![4096, 256]⟩
abbrev S1x4096x256 : Shape := ⟨3, ![1, 4096, 256]⟩
abbrev S128x4096x256 : Shape := ⟨3, ![128, 4096, 256]⟩
abbrev S128x4096 : Shape := ⟨2, ![128, 4096]⟩
abbrev S128x1x1 : Shape := ⟨3, ![128, 1, 1]⟩
abbrev S1x1x1 : Shape := ⟨3, ![1, 1, 1]⟩

abbrev nBuf : Space → Nat
  | .hbm => 175
  | .vmem => 0
  | .smem => 0
  | _ => 0

abbrev hbmTy0_0 (i : Nat) : BufTy := match i % 128 with
  | 0 => ⟨S128x256, .f32⟩
  | 1 => ⟨S128, .i32⟩
  | 2 => ⟨S6145x256, .f32⟩
  | 3 => ⟨S256x256, .f32⟩
  | 4 => ⟨S256x256, .f32⟩
  | 5 => ⟨S256, .f32⟩
  | 6 => ⟨S1, .i32⟩
  | 7 => ⟨S2048, .i32⟩
  | 8 => ⟨S2049, .i32⟩
  | 9 => ⟨S_, .i32⟩
  | 10 => ⟨S2049, .i32⟩
  | 11 => ⟨S2049, .i1⟩
  | 12 => ⟨S_, .i32⟩
  | 13 => ⟨S2049, .i32⟩
  | 14 => ⟨S2049, .i32⟩
  | 15 => ⟨S2049, .i32⟩
  | 16 => ⟨S2049x1, .i32⟩
  | 17 => ⟨S2049x256, .f32⟩
  | 18 => ⟨S2049x256, .f32⟩
  | 19 => ⟨S128x256, .f32⟩
  | 20 => ⟨S1x256, .f32⟩
  | 21 => ⟨S128x256, .f32⟩
  | 22 => ⟨S128x256, .f32⟩
  | 23 => ⟨S128x1x256, .f32⟩
  | 24 => ⟨S1x2049x256, .f32⟩
  | 25 => ⟨S128x2049x256, .f32⟩
  | 26 => ⟨S128x2049x256, .f32⟩
  | 27 => ⟨S128x2049x256, .f32⟩
  | 28 => ⟨S128x2049x256, .f32⟩
  | 29 => ⟨S128x1x256, .f32⟩
  | 30 => ⟨S128x2049x256, .f32⟩
  | 31 => ⟨S128x2049x256, .f32⟩
  | 32 => ⟨S128x2049x256, .f32⟩
  | 33 => ⟨S_, .f32⟩
  | 34 => ⟨S128x2049, .f32⟩
  | 35 => ⟨S_, .f32⟩
  | 36 => ⟨S128x2049, .f32⟩
  | 37 => ⟨S128x2049, .f32⟩
  | 38 => ⟨S_, .f32⟩
  | 39 => ⟨S128x2049, .f32⟩
  | 40 => ⟨S128x2049, .f32⟩
  | 41 => ⟨S_, .f32⟩
  | 42 => ⟨S128, .f32⟩
  | 43 => ⟨S_, .f32⟩
  | 44 => ⟨S128, .f32⟩
  | 45 => ⟨S128, .f32⟩
  | 46 => ⟨S128x1, .f32⟩
  | 47 => ⟨S128x2049, .f32⟩
  | 48 => ⟨S128x2049, .f32⟩
  | 49 => ⟨S128x2049, .f32⟩
  | 50 => ⟨S_, .f32⟩
  | 51 => ⟨S128, .f32⟩
  | 52 => ⟨S128x1, .f32⟩
  | 53 => ⟨S128x1, .f32⟩
  | 54 => ⟨S128x2049, .f32⟩
  | 55 => ⟨S128x2049, .f32⟩
  | 56 => ⟨S4096x256, .f32⟩
  | 57 => ⟨S4096x256, .f32⟩
  | 58 => ⟨S128x256, .f32⟩
  | 59 => ⟨S1x256, .f32⟩
  | 60 => ⟨S128x256, .f32⟩
  | 61 => ⟨S128x256, .f32⟩
  | 62 => ⟨S128x1x256, .f32⟩
  | 63 => ⟨S1x4096x256, .f32⟩
  | 64 => ⟨S128x4096x256, .f32⟩
  | 65 => ⟨S128x4096x256, .f32⟩
  | 66 => ⟨S128x4096x256, .f32⟩
  | 67 => ⟨S128x4096x256, .f32⟩
  | 68 => ⟨S128x1x256, .f32⟩
  | 69 => ⟨S128x4096x256, .f32⟩
  | 70 => ⟨S128x4096x256, .f32⟩
  | 71 => ⟨S128x4096x256, .f32⟩
  | 72 => ⟨S_, .f32⟩
  | 73 => ⟨S128x4096, .f32⟩
  | 74 => ⟨S_, .f32⟩
  | 75 => ⟨S128x4096, .f32⟩
  | 76 => ⟨S128x4096, .f32⟩
  | 77 => ⟨S_, .f32⟩
  | 78 => ⟨S128x4096, .f32⟩
  | 79 => ⟨S128x4096, .f32⟩
  | 80 => ⟨S_, .f32⟩
  | 81 => ⟨S128, .f32⟩
  | 82 => ⟨S_, .f32⟩
  | 83 => ⟨S128, .f32⟩
  | 84 => ⟨S128, .f32⟩
  | 85 => ⟨S128x1, .f32⟩
  | 86 => ⟨S128x4096, .f32⟩
  | 87 => ⟨S128x4096, .f32⟩
  | 88 => ⟨S128x4096, .f32⟩
  | 89 => ⟨S_, .f32⟩
  | 90 => ⟨S128, .f32⟩
  | 91 => ⟨S128x1, .f32⟩
  | 92 => ⟨S128x1, .f32⟩
  | 93 => ⟨S128x4096, .f32⟩
  | 94 => ⟨S128x4096, .f32⟩
  | 95 => ⟨S_, .i32⟩
  | 96 => ⟨S128, .i32⟩
  | 97 => ⟨S128, .i1⟩
  | 98 => ⟨S_, .i32⟩
  | 99 => ⟨S_, .i32⟩
  | 100 => ⟨S_, .i32⟩
  | 101 => ⟨S128, .i32⟩
  | 102 => ⟨S128, .i32⟩
  | 103 => ⟨S_, .i32⟩
  | 104 => ⟨S128, .i32⟩
  | 105 => ⟨S128, .i32⟩
  | 106 => ⟨S_, .i32⟩
  | 107 => ⟨S128, .i32⟩
  | 108 => ⟨S128, .i32⟩
  | 109 => ⟨S_, .i32⟩
  | 110 => ⟨S_, .i32⟩
  | 111 => ⟨S_, .i32⟩
  | 112 => ⟨S128, .i32⟩
  | 113 => ⟨S128, .i32⟩
  | 114 => ⟨S_, .i32⟩
  | 115 => ⟨S128, .i32⟩
  | 116 => ⟨S128, .i32⟩
  | 117 => ⟨S128x1, .i32⟩
  | 118 => ⟨S_, .i32⟩
  | 119 => ⟨S128x1, .i32⟩
  | 120 => ⟨S128x1, .i1⟩
  | 121 => ⟨S_, .i32⟩
  | 122 => ⟨S128x1, .i32⟩
  | 123 => ⟨S128x1, .i32⟩
  | 124 => ⟨S128x1, .i32⟩
  | 125 => ⟨S128x1x1, .i32⟩
  | 126 => ⟨S1, .i32⟩
  | 127 => ⟨S_, .i32⟩
  | _ => ⟨S128x256, .f32⟩

abbrev hbmTy0_1 (i : Nat) : BufTy := match i % 128 with
  | 0 => ⟨S128x1x1, .i32⟩
  | 1 => ⟨S128x1x1, .i1⟩
  | 2 => ⟨S1x1x1, .i32⟩
  | 3 => ⟨S128x1x1, .i32⟩
  | 4 => ⟨S128x1x1, .i1⟩
  | 5 => ⟨S128x1x1, .i1⟩
  | 6 => ⟨S_, .i1⟩
  | 7 => ⟨S128x1, .i1⟩
  | 8 => ⟨S128x1, .f32⟩
  | 9 => ⟨S_, .f32⟩
  | 10 => ⟨S128x1, .f32⟩
  | 11 => ⟨S128x1, .f32⟩
  | 12 => ⟨S128, .f32⟩
  | 13 => ⟨S128, .f32⟩
  | 14 => ⟨S128x1, .f32⟩
  | 15 => ⟨S128, .f32⟩
  | 16 => ⟨S128x1, .i32⟩
  | 17 => ⟨S_, .i32⟩
  | 18 => ⟨S128x1, .i32⟩
  | 19 => ⟨S128x1, .i1⟩
  | 20 => ⟨S_, .i32⟩
  | 21 => ⟨S128x1, .i32⟩
  | 22 => ⟨S128x1, .i32⟩
  | 23 => ⟨S128x1, .i32⟩
  | 24 => ⟨S128x1x1, .i32⟩
  | 25 => ⟨S1, .i32⟩
  | 26 => ⟨S_, .i32⟩
  | 27 => ⟨S128x1x1, .i32⟩
  | 28 => ⟨S128x1x1, .i1⟩
  | 29 => ⟨S1x1x1, .i32⟩
  | 30 => ⟨S128x1x1, .i32⟩
  | 31 => ⟨S128x1x1, .i1⟩
  | 32 => ⟨S128x1x1, .i1⟩
  | 33 => ⟨S_, .i1⟩
  | 34 => ⟨S128x1, .i1⟩
  | 35 => ⟨S128x1, .f32⟩
  | 36 => ⟨S_, .f32⟩
  | 37 => ⟨S128x1, .f32⟩
  | 38 => ⟨S128x1, .f32⟩
  | 39 => ⟨S128, .f32⟩
  | 40 => ⟨S128, .f32⟩
  | 41 => ⟨S128, .f32⟩
  | 42 => ⟨S128, .f32⟩
  | 43 => ⟨S_, .f32⟩
  | 44 => ⟨S_, .f32⟩
  | 45 => ⟨S_, .f32⟩
  | 46 => ⟨S_, .f32⟩
  | _ => ⟨S128x256, .f32⟩

abbrev hbmTy (i : Nat) : BufTy := match i / 128 with
  | 0 => hbmTy0_0 i
  | 1 => hbmTy0_1 i
  | _ => ⟨S128x256, .f32⟩

abbrev bufTy : (tb : Table) → Fin (tcTables nBuf tb) → BufTy
  | .hbm, ⟨i, _⟩ => hbmTy i
  | _, _ => ⟨S128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_call0_cst : Ref sig .tc := ⟨.hbm, 41, rfl⟩
abbrev main_call0_v0 : Ref sig .tc := ⟨.hbm, 42, rfl⟩
abbrev main_call0_cst_0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_cst_1 : Ref sig .tc := ⟨.hbm, 50, rfl⟩
abbrev main_call0_v7 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_4 : Ref sig .tc := ⟨.hbm, 72, rfl⟩
abbrev main_v46 : Ref sig .tc := ⟨.hbm, 73, rfl⟩
abbrev main_cst_5 : Ref sig .tc := ⟨.hbm, 74, rfl⟩
abbrev main_v47 : Ref sig .tc := ⟨.hbm, 75, rfl⟩
abbrev main_v48 : Ref sig .tc := ⟨.hbm, 76, rfl⟩
abbrev main_cst_6 : Ref sig .tc := ⟨.hbm, 77, rfl⟩
abbrev main_v49 : Ref sig .tc := ⟨.hbm, 78, rfl⟩
abbrev main_v50 : Ref sig .tc := ⟨.hbm, 79, rfl⟩
abbrev main_call1_cst : Ref sig .tc := ⟨.hbm, 80, rfl⟩
abbrev main_call1_v0 : Ref sig .tc := ⟨.hbm, 81, rfl⟩
abbrev main_call1_cst_0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_cst_1 : Ref sig .tc := ⟨.hbm, 89, rfl⟩
abbrev main_call1_v7 : Ref sig .tc := ⟨.hbm, 90, rfl⟩
abbrev main_call1_v8 : Ref sig .tc := ⟨.hbm, 91, rfl⟩
abbrev main_call1_v9 : Ref sig .tc := ⟨.hbm, 92, rfl⟩
abbrev main_call1_v10 : Ref sig .tc := ⟨.hbm, 93, rfl⟩
abbrev main_v51 : Ref sig .tc := ⟨.hbm, 94, rfl⟩
abbrev main_c_7 : Ref sig .tc := ⟨.hbm, 95, rfl⟩
abbrev main_v52 : Ref sig .tc := ⟨.hbm, 96, rfl⟩
abbrev main_v53 : Ref sig .tc := ⟨.hbm, 97, rfl⟩
abbrev main_c_8 : Ref sig .tc := ⟨.hbm, 98, rfl⟩
abbrev main_c_9 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_v54 : Ref sig .tc := ⟨.hbm, 105, rfl⟩
abbrev main_c_10 : Ref sig .tc := ⟨.hbm, 106, rfl⟩
abbrev main_v55 : Ref sig .tc := ⟨.hbm, 107, rfl⟩
abbrev main_v56 : Ref sig .tc := ⟨.hbm, 108, rfl⟩
abbrev main_c_11 : Ref sig .tc := ⟨.hbm, 109, rfl⟩
abbrev main_c_12 : Ref sig .tc := ⟨.hbm, 110, rfl⟩
abbrev main_call3_v0 : Ref sig .tc := ⟨.hbm, 111, rfl⟩
abbrev main_call3_v1 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_v57 : Ref sig .tc := ⟨.hbm, 116, rfl⟩
abbrev main_v58 : Ref sig .tc := ⟨.hbm, 117, rfl⟩
abbrev main_call4_c : Ref sig .tc := ⟨.hbm, 118, rfl⟩
abbrev main_call4_v0 : Ref sig .tc := ⟨.hbm, 119, rfl⟩
abbrev main_call4_v1 : Ref sig .tc := ⟨.hbm, 120, rfl⟩
abbrev main_call4_c_0 : Ref sig .tc := ⟨.hbm, 121, rfl⟩
abbrev main_call4_v2 : Ref sig .tc := ⟨.hbm, 122, rfl⟩
abbrev main_call4_v3 : Ref sig .tc := ⟨.hbm, 123, rfl⟩
abbrev main_call4_v4 : Ref sig .tc := ⟨.hbm, 124, rfl⟩
abbrev main_call4_v5 : Ref sig .tc := ⟨.hbm, 125, rfl⟩
abbrev main_call4_c_1 : Ref sig .tc := ⟨.hbm, 126, rfl⟩
abbrev main_call4_c_2 : Ref sig .tc := ⟨.hbm, 127, rfl⟩
abbrev main_call4_v6 : Ref sig .tc := ⟨.hbm, 128, rfl⟩
abbrev main_call4_v7 : Ref sig .tc := ⟨.hbm, 129, rfl⟩
abbrev main_call4_v8 : Ref sig .tc := ⟨.hbm, 130, rfl⟩
abbrev main_call4_v9 : Ref sig .tc := ⟨.hbm, 131, rfl⟩
abbrev main_call4_v10 : Ref sig .tc := ⟨.hbm, 132, rfl⟩
abbrev main_call4_v11 : Ref sig .tc := ⟨.hbm, 133, rfl⟩
abbrev main_call4_c_3 : Ref sig .tc := ⟨.hbm, 134, rfl⟩
abbrev main_call4_v12 : Ref sig .tc := ⟨.hbm, 135, rfl⟩
abbrev main_call4_v13 : Ref sig .tc := ⟨.hbm, 136, rfl⟩
abbrev main_call4_cst : Ref sig .tc := ⟨.hbm, 137, rfl⟩
abbrev main_call4_v14 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_call5_c : Ref sig .tc := ⟨.hbm, 145, rfl⟩
abbrev main_call5_v0 : Ref sig .tc := ⟨.hbm, 146, rfl⟩
abbrev main_call5_v1 : Ref sig .tc := ⟨.hbm, 147, rfl⟩
abbrev main_call5_c_0 : Ref sig .tc := ⟨.hbm, 148, rfl⟩
abbrev main_call5_v2 : Ref sig .tc := ⟨.hbm, 149, rfl⟩
abbrev main_call5_v3 : Ref sig .tc := ⟨.hbm, 150, rfl⟩
abbrev main_call5_v4 : Ref sig .tc := ⟨.hbm, 151, rfl⟩
abbrev main_call5_v5 : Ref sig .tc := ⟨.hbm, 152, rfl⟩
abbrev main_call5_c_1 : Ref sig .tc := ⟨.hbm, 153, rfl⟩
abbrev main_call5_c_2 : Ref sig .tc := ⟨.hbm, 154, rfl⟩
abbrev main_call5_v6 : Ref sig .tc := ⟨.hbm, 155, rfl⟩
abbrev main_call5_v7 : Ref sig .tc := ⟨.hbm, 156, rfl⟩
abbrev main_call5_v8 : Ref sig .tc := ⟨.hbm, 157, rfl⟩
abbrev main_call5_v9 : Ref sig .tc := ⟨.hbm, 158, rfl⟩
abbrev main_call5_v10 : Ref sig .tc := ⟨.hbm, 159, rfl⟩
abbrev main_call5_v11 : Ref sig .tc := ⟨.hbm, 160, rfl⟩
abbrev main_call5_c_3 : Ref sig .tc := ⟨.hbm, 161, rfl⟩
abbrev main_call5_v12 : Ref sig .tc := ⟨.hbm, 162, rfl⟩
abbrev main_call5_v13 : Ref sig .tc := ⟨.hbm, 163, rfl⟩
abbrev main_call5_cst : Ref sig .tc := ⟨.hbm, 164, rfl⟩
abbrev main_call5_v14 : Ref sig .tc := ⟨.hbm, 165, rfl⟩
abbrev main_v65 : Ref sig .tc := ⟨.hbm, 166, rfl⟩
abbrev main_v66 : Ref sig .tc := ⟨.hbm, 167, rfl⟩
abbrev main_v67 : Ref sig .tc := ⟨.hbm, 168, rfl⟩
abbrev main_v68 : Ref sig .tc := ⟨.hbm, 169, rfl⟩
abbrev main_v69 : Ref sig .tc := ⟨.hbm, 170, rfl⟩
abbrev main_cst_13 : Ref sig .tc := ⟨.hbm, 171, rfl⟩
abbrev main_v70 : Ref sig .tc := ⟨.hbm, 172, rfl⟩
abbrev main_cst_14 : Ref sig .tc := ⟨.hbm, 173, rfl⟩
abbrev main_v71 : Ref sig .tc := ⟨.hbm, 174, rfl⟩

abbrev nD : Nat := 1
abbrev τ : Topo := Topo.v7x

variable {F : FTy → Type} [FloatOps F]

class Facts₀ : Prop where
  concatenates_S2048_S1_S2049_d0 : Shape.Concatenates [S2048, S1] S2049 0
  bcast_S_S2049 : S_.BroadcastsInDim S2049 (![] : Fin 0 → Fin S2049.rank)
  bcast_S2049_S2049x1_0 : S2049.BroadcastsInDim S2049x1 (![0] : Fin 1 → Fin S2049x1.rank)
  bcast_S256_S1x256_1 : S256.BroadcastsInDim S1x256 (![1] : Fin 1 → Fin S1x256.rank)
  bcast_S1x256_S128x256_0_1 : S1x256.BroadcastsInDim S128x256 (![0, 1] : Fin 2 → Fin S128x256.rank)
  bcast_S128x256_S128x1x256_0_2 : S128x256.BroadcastsInDim S128x1x256 (![0, 2] : Fin 2 → Fin S128x1x256.rank)
  bcast_S2049x256_S1x2049x256_1_2 : S2049x256.BroadcastsInDim S1x2049x256 (![1, 2] : Fin 2 → Fin S1x2049x256.rank)
  bcast_S1x2049x256_S128x2049x256_0_1_2 : S1x2049x256.BroadcastsInDim S128x2049x256 (![0, 1, 2] : Fin 3 → Fin S128x2049x256.rank)
  bcast_S128x1x256_S128x2049x256_0_1_2 : S128x1x256.BroadcastsInDim S128x2049x256 (![0, 1, 2] : Fin 3 → Fin S128x2049x256.rank)
  reducesTo_S128x2049x256_S128x2049_d2 : S128x2049x256.ReducesTo [2] S128x2049
  h_S_ : 0 < S_.numel
  bcast_S_S128x2049 : S_.BroadcastsInDim S128x2049 (![] : Fin 0 → Fin S128x2049.rank)
  reducesTo_S128x2049_S128_d1 : S128x2049.ReducesTo [1] S128
  bcast_S_S128 : S_.BroadcastsInDim S128 (![] : Fin 0 → Fin S128.rank)
  bcast_S128_S128x1_0 : S128.BroadcastsInDim S128x1 (![0] : Fin 1 → Fin S128x1.rank)
  bcast_S128x1_S128x2049_0_1 : S128x1.BroadcastsInDim S128x2049 (![0, 1] : Fin 2 → Fin S128x2049.rank)
  slices_S6145x256_S4096x256_2048_0 : S6145x256.Slices ![2048, 0] S4096x256
  bcast_S4096x256_S1x4096x256_1_2 : S4096x256.BroadcastsInDim S1x4096x256 (![1, 2] : Fin 2 → Fin S1x4096x256.rank)
  bcast_S1x4096x256_S128x4096x256_0_1_2 : S1x4096x256.BroadcastsInDim S128x4096x256 (![0, 1, 2] : Fin 3 → Fin S128x4096x256.rank)
  bcast_S128x1x256_S128x4096x256_0_1_2 : S128x1x256.BroadcastsInDim S128x4096x256 (![0, 1, 2] : Fin 3 → Fin S128x4096x256.rank)
  reducesTo_S128x4096x256_S128x4096_d2 : S128x4096x256.ReducesTo [2] S128x4096
  bcast_S_S128x4096 : S_.BroadcastsInDim S128x4096 (![] : Fin 0 → Fin S128x4096.rank)
  reducesTo_S128x4096_S128_d1 : S128x4096.ReducesTo [1] S128
  bcast_S128x1_S128x4096_0_1 : S128x1.BroadcastsInDim S128x4096 (![0, 1] : Fin 2 → Fin S128x4096.rank)
  bcast_S_S128x1 : S_.BroadcastsInDim S128x1 (![] : Fin 0 → Fin S128x1.rank)
  shapeCasts_S128x1_S128x1x1 : S128x1.ShapeCasts S128x1x1
  bcast_S_S128x1x1 : S_.BroadcastsInDim S128x1x1 (![] : Fin 0 → Fin S128x1x1.rank)
  bcast_S1_S1x1x1_2 : S1.BroadcastsInDim S1x1x1 (![2] : Fin 1 → Fin S1x1x1.rank)
  bcast_S1x1x1_S128x1x1_0_1_2 : S1x1x1.BroadcastsInDim S128x1x1 (![0, 1, 2] : Fin 3 → Fin S128x1x1.rank)
  reducesTo_S128x1x1_S128x1_d2 : S128x1x1.ReducesTo [2] S128x1
  shapeCasts_S128x1_S128 : S128x1.ShapeCasts S128
  slices_S128x2049_S128x1_0_2048 : S128x2049.Slices ![0, 2048] S128x1
  reducesTo_S128_S_d0 : S128.ReducesTo [0] S_
  gather_S6145x256_S2049x1_S2049x256_1_0_n_n_0_1_1256_wf : GatherDims.WF S6145x256 S2049x1 S2049x256 [1] [0] [] [0] [] 1 ![1, 256]
  dot_S2049x256_S256x256_S2049x256_1_0_0_1_n_n_wf : DotDims.WF S2049x256 S256x256 S2049x256 [1] [0] [0] [1] [] []
  dot_S128x256_S256x256_S128x256_1_0_0_1_n_n_wf : DotDims.WF S128x256 S256x256 S128x256 [1] [0] [0] [1] [] []
  dot_S4096x256_S256x256_S4096x256_1_0_0_1_n_n_wf : DotDims.WF S4096x256 S256x256 S4096x256 [1] [0] [0] [1] [] []
  gather_S128x2049_S128x1x1_S128x1_n_1_0_0_1_2_11_wf : GatherDims.WF S128x2049 S128x1x1 S128x1 [] [1] [0] [1] [0] 2 ![1, 1]
  gather_S128x4096_S128x1x1_S128x1_n_1_0_0_1_2_11_wf : GatherDims.WF S128x4096 S128x1x1 S128x1 [] [1] [0] [1] [0] 2 ![1, 1]

variable [Facts₀]

def gather_S6145x256_S2049x1_S2049x256_1_0_n_n_0_1_1256 : GatherDims S6145x256 S2049x1 S2049x256 where
  offsetDims := [1]
  collapsedSliceDims := [0]
  operandBatchingDims := []
  startIndicesBatchingDims := []
  startIndexMap := [0]
  indexVectorDim := 1
  sliceSizes := ![1, 256]
  wf := gather_S6145x256_S2049x1_S2049x256_1_0_n_n_0_1_1256_wf
def dot_S2049x256_S256x256_S2049x256_1_0_0_1_n_n : DotDims S2049x256 S256x256 S2049x256 where
  lhsContracting := [1]
  rhsContracting := [0]
  lhsNonContracting := [0]
  rhsNonContracting := [1]
  lhsBatch := []
  rhsBatch := []
  wf := dot_S2049x256_S256x256_S2049x256_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def gather_S128x2049_S128x1x1_S128x1_n_1_0_0_1_2_11 : GatherDims S128x2049 S128x1x1 S128x1 where
  offsetDims := []
  collapsedSliceDims := [1]
  operandBatchingDims := [0]
  startIndicesBatchingDims := [0]
  startIndexMap := [1]
  indexVectorDim := 2
  sliceSizes := ![1, 1]
  wf := gather_S128x2049_S128x1x1_S128x1_n_1_0_0_1_2_11_wf
def gather_S128x4096_S128x1x1_S128x1_n_1_0_0_1_2_11 : GatherDims S128x4096 S128x1x1 S128x1 where
  offsetDims := []
  collapsedSliceDims := [1]
  operandBatchingDims := [0]
  startIndicesBatchingDims := [0]
  startIndexMap := [1]
  indexVectorDim := 2
  sliceSizes := ![1, 1]
  wf := gather_S128x4096_S128x1x1_S128x1_n_1_0_0_1_2_11_wf

class Facts : Prop extends Facts₀ where

variable [Facts]
-- ==== Proof.KernelIdeal.Base0.lean ====
/-
  Region 0 (the chunked walk over the vocabulary, grid 2 × 48), what every later module about it shares, stated at a
  parameter `V`: the contents of the TensorCore's buffers when the region is entered.

  * Each input window's block at a grid point, read off its array, and that the window's current staging buffer
    holds exactly that block at every point, fetched there or not (a window whose block index does not move is not
    fetched again: rows of `h` and the target columns move only with the row tile, the two matrices and the bias
    never, the vocabulary chunk at every point).
  * The body's four branch conditions on the chunk number c = t mod 48 in closed form: c = 0 (reset), c < 16 (head
    chunk), 16 ≤ c (tail chunk), c = 47 (write the four results). So a point is in one of four cases:
    A (c = 0), B (1 ≤ c ≤ 15), C (16 ≤ c ≤ 46), D (c = 47).
  * The four result windows are stored only in case D; at every other point they are idle and not written back.
  * Names for the staging memrefs as the pipeline passes them, for the seven scratch buffers the walk carries from
    point to point, and the class invariant opened into those seven buffers and the generator register.
-/
import proofs.«430609_j28260884807701_2_alg».proof.Proof.Gen.KernelIdeal.Launch
import proofs.«430609_j28260884807701_2_alg».proof.Proof.Gen.KernelIdeal.Skeleton
import proofs.«430609_j28260884807701_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section AtV

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, for any proof data whose array is `V`'s
    and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, for any proof data whose array is `V`'s
    and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, for any proof data whose array is `V`'s
    and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, for any proof data whose array is `V`'s
    and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, for any proof data whose array is `V`'s
    and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, for any proof data whose array is `V`'s
    and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

end AtV

/-! ## The body's branch conditions on the chunk number -/

/-- c = 0: the reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 48 = 0 :=
  (by decide +kernel : ∀ t : Fin grid0.N, cond0_0 (grid0.coords t) ↔ t.val % 48 = 0)
/-- c < 16: a head chunk. -/
abbrev cond0_1 (i : grid0.Coords) : Prop := (Scalar.cmpi .ne (Scalar.extui (Scalar.cmpi .slt (BitVec.ofNat 32 (i 1).val) 16#32)) 0#32) = 1#1
theorem hcond0_1 : ∀ t : Fin cfg0.N, cond0_1 (grid0.coords t) ↔ t.val % 48 < 16 :=
  (by decide +kernel : ∀ t : Fin grid0.N, cond0_1 (grid0.coords t) ↔ t.val % 48 < 16)
/-- 16 ≤ c: a tail chunk. -/
abbrev cond0_2 (i : grid0.Coords) : Prop := (Scalar.cmpi .ne (Scalar.extui (Scalar.cmpi .sge (BitVec.ofNat 32 (i 1).val) 16#32)) 0#32) = 1#1
theorem hcond0_2 : ∀ t : Fin cfg0.N, cond0_2 (grid0.coords t) ↔ 16 ≤ t.val % 48 :=
  (by decide +kernel : ∀ t : Fin grid0.N, cond0_2 (grid0.coords t) ↔ 16 ≤ t.val % 48)
/-- c = 47: the last chunk, where the four results are stored. -/
abbrev cond0_3 (i : grid0.Coords) : Prop := k0_cond4 i = 1#1
theorem hcond0_3 : ∀ t : Fin cfg0.N, cond0_3 (grid0.coords t) ↔ t.val % 48 = 47 :=
  (by decide +kernel : ∀ t : Fin grid0.N, cond0_3 (grid0.coords t) ↔ t.val % 48 = 47)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Result window 7: idle and not written back away from the last chunk, live at it. -/
theorem idleAt0_7 : ∀ t : Fin cfg0.N, ¬cond0_3 (grid0.coords t) → cfg0.idle 7 (grid0.coords t) = true := by decide +kernel
theorem noFlush0_7 : ∀ t : Fin cfg0.N, ¬cond0_3 (grid0.coords t) → (cfg0.win 7).flush t = false := by decide +kernel
theorem liveAt0_7 : ∀ t : Fin cfg0.N, cond0_3 (grid0.coords t) → cfg0.idle 7 (grid0.coords t) = false := by decide +kernel
/-- Result window 8: idle and not written back away from the last chunk, live at it. -/
theorem idleAt0_8 : ∀ t : Fin cfg0.N, ¬cond0_3 (grid0.coords t) → cfg0.idle 8 (grid0.coords t) = true := by decide +kernel
theorem noFlush0_8 : ∀ t : Fin cfg0.N, ¬cond0_3 (grid0.coords t) → (cfg0.win 8).flush t = false := by decide +kernel
theorem liveAt0_8 : ∀ t : Fin cfg0.N, cond0_3 (grid0.coords t) → cfg0.idle 8 (grid0.coords t) = false := by decide +kernel
/-- Result window 9: idle and not written back away from the last chunk, live at it. -/
theorem idleAt0_9 : ∀ t : Fin cfg0.N, ¬cond0_3 (grid0.coords t) → cfg0.idle 9 (grid0.coords t) = true := by decide +kernel
theorem noFlush0_9 : ∀ t : Fin cfg0.N, ¬cond0_3 (grid0.coords t) → (cfg0.win 9).flush t = false := by decide +kernel
theorem liveAt0_9 : ∀ t : Fin cfg0.N, cond0_3 (grid0.coords t) → cfg0.idle 9 (grid0.coords t) = false := by decide +kernel
/-- Result window 10: idle and not written back away from the last chunk, live at it. -/
theorem idleAt0_10 : ∀ t : Fin cfg0.N, ¬cond0_3 (grid0.coords t) → cfg0.idle 10 (grid0.coords t) = true := by decide +kernel
theorem noFlush0_10 : ∀ t : Fin cfg0.N, ¬cond0_3 (grid0.coords t) → (cfg0.win 10).flush t = false := by decide +kernel
theorem liveAt0_10 : ∀ t : Fin cfg0.N, cond0_3 (grid0.coords t) → cfg0.idle 10 (grid0.coords t) = false := by decide +kernel

/-! ## The memrefs the body is called with -/

abbrev ms0_0 (t : Fin cfg0.N) : Memref sig .tc .vmem S64x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x1 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x1 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S64x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x1 .f32 := win0_10.stage (cfg0.slots t 10)
abbrev hs0_10 (t : Fin cfg0.N) : (ms0_10 t).IsWhole := hstage0_10 ((cfg0.slots t 10).cast nbuf0_10)
/-- One staging buffer of each result window, through which its contents are stated (the choice does not matter). -/
abbrev VO0_7 : View sig .tc .vmem S64x1 .f32 := (Memref.whole cc0_stg7_0 : Memref sig .tc .vmem S64x1 .f32).view
abbrev VO0_8 : View sig .tc .vmem S64x1 .f32 := (Memref.whole cc0_stg8_0 : Memref sig .tc .vmem S64x1 .f32).view
abbrev VO0_9 : View sig .tc .vmem S64x1 .f32 := (Memref.whole cc0_stg9_0 : Memref sig .tc .vmem S64x1 .f32).view
abbrev VO0_10 : View sig .tc .vmem S64x1 .f32 := (Memref.whole cc0_stg10_0 : Memref sig .tc .vmem S64x1 .f32).view
/-- The seven scratch buffers the walk carries from point to point: h · U + b for the row tile, then maximum, sum and
    masked sum of the head level and of the tail level. -/
abbrev scM0_0 : Memref sig .tc .vmem S64x256 .f32 := Memref.whole cc0_scratch0
abbrev VS0_0 : View sig .tc .vmem S64x256 .f32 := scM0_0.view
abbrev scM0_1 : Memref sig .tc .vmem S64x1 .f32 := Memref.whole cc0_scratch1
abbrev VS0_1 : View sig .tc .vmem S64x1 .f32 := scM0_1.view
abbrev scM0_2 : Memref sig .tc .vmem S64x1 .f32 := Memref.whole cc0_scratch2
abbrev VS0_2 : View sig .tc .vmem S64x1 .f32 := scM0_2.view
abbrev scM0_3 : Memref sig .tc .vmem S64x1 .f32 := Memref.whole cc0_scratch3
abbrev VS0_3 : View sig .tc .vmem S64x1 .f32 := scM0_3.view
abbrev scM0_4 : Memref sig .tc .vmem S64x1 .f32 := Memref.whole cc0_scratch4
abbrev VS0_4 : View sig .tc .vmem S64x1 .f32 := scM0_4.view
abbrev scM0_5 : Memref sig .tc .vmem S64x1 .f32 := Memref.whole cc0_scratch5
abbrev VS0_5 : View sig .tc .vmem S64x1 .f32 := scM0_5.view
abbrev scM0_6 : Memref sig .tc .vmem S64x1 .f32 := Memref.whole cc0_scratch6
abbrev VS0_6 : View sig .tc .vmem S64x1 .f32 := scM0_6.view

/-- The scoped buffers of the core that are neither a staging buffer of this region nor one of its scratch buffers
    (the other region's six staging buffers), each whole at some contents: the walk never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f))

/-- The class invariant with the seven scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ rest0 c) ∗ (∃ r, prngReg c r)) := by
  unfold Pipeline.ΦA rest0; rw [scopedRest0_eq]; simp only [scM0_0, scM0_1, scM0_2, scM0_3, scM0_4, scM0_5, scM0_6, owns_whole]; try rfl

end Cert.KernelIdeal.Hand

end
-- ==== Proof.KernelIdeal.Bounds.lean ====
/-
  The TensorCore's buffer contents at the boundaries of @main's first items: at launch, and after each of the five
  stretches of host operations that precede the first kernel region (the clipped target words, the two slices of the
  embedding table, the bias as a row). `V5` is the view the first region is entered from.
-/
import proofs.«430609_j28260884807701_2_alg».proof.Proof.KernelIdeal.Base0

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first stretch (the constants and the head/tail flag of each target). -/
abbrev W1 : Dev nD → Valuation τ sig (Elt F) := fun c => StableHlo.after hostOps0 (W0 m ρ c)
/-- After the target's clip into the head's words. -/
abbrev W2 : Dev nD → Valuation τ sig (Elt F) := fun c => StableHlo.after hostOps0_1 (W1 m ρ c)
/-- After the head words as a column and the target moved down by the split. -/
abbrev W3 : Dev nD → Valuation τ sig (Elt F) := fun c => StableHlo.after hostOps0_2 (W2 m ρ c)
/-- After the clip into the tail's words. -/
abbrev W4 : Dev nD → Valuation τ sig (Elt F) := fun c => StableHlo.after hostOps0_3 (W3 m ρ c)
/-- After the tail words as a column, the two slices of the embedding table and the bias as a row: the first region's entry. -/
abbrev W5 : Dev nD → Valuation τ sig (Elt F) := fun c => StableHlo.after hostOps0_4 (W4 m ρ c)
/-- The same read at the TensorCore's references. -/
abbrev V5 : (c : Dev nD) → (b : Ref sig .tc) → Buf (Elt F) ((c : Thread nD τ).loc b) := fun c b => W5 m ρ c b

end Cert.KernelIdeal.Hand

end
-- ==== Proof.KernelIdeal.Cases0.lean ====
/-
  Region 0, case by case: what the body leaves in each buffer it stores, as explicit terms over the skeleton's payloads.

  Every store of the body covers its whole buffer, so after a case each stored buffer holds the value of its LAST
  store, a pure function of the blocks the case loaded and of what the scratch buffers held when the point began.
  With  k  the chunk's scores for the row tile (`scores`: from the row tile of `h`, the chunk of `emb`, `W` and the
  scratch `h · U + b`), a head chunk replaces (m, l, g) of the head level by
      m' = max m (row maximum of k),   l' = exp (m − m') · l + Σ exp (k − m'),   g' = g + Σ [target column] k,
  a tail chunk does the same to the tail level's (m, l, g) with the tail target and columns counted from chunk 16,
  the reset (chunk 0) first stores  h · U + b  and (−∞, 0, 0) twice, and the last chunk also stores the four results
      m_head + log l_head,   g_head,   m_tail + log l_tail,   g_tail.
-/
import proofs.«430609_j28260884807701_2_alg».proof.Proof.KernelIdeal.Base0

noncomputable section

namespace Cert.KernelIdeal.Hand

open Cert.KernelIdeal Cert.KernelIdeal.Gen
open Idealize.ShloMosaic Idealize.ShloMosaic.TcCoe Idealize.SL.Sem

variable {F : FTy → Type} [FloatOps F]

/-- The chunk number as the word the body computes with. -/
abbrev chunkW (i : grid0.Coords) : BitVec 32 := BitVec.ofNat 32 (i 1).val
/-- The column numbers 0 … 127 of a chunk. -/
abbrev cols : IVec S1x128 32 := iota .tc S1x128 32 [1] iota_S1x128_d1_w32

/-- h · U + b for the row tile: from the tile of `h`, `U` and `b`. -/
abbrev hubOf (x0 : Vec F S64x256 .f32) (x3 : Vec F S256x256 .f32) (x4 : Vec F S1x256 .f32) : FVec F S64x256 .f32 := k0_pay3 x0 x3 x4
/-- The chunk's scores for the row tile: from the tile of `h`, the chunk of `emb`, `W`, and h · U + b. -/
abbrev scores (x0 : Vec F S64x256 .f32) (x1 : Vec F S128x256 .f32) (x2 : Vec F S256x256 .f32) (hub : Vec F S64x256 .f32) : FVec F S64x128 .f32 :=
  k0_pay17 x1 x2 x0 hub

/-- The head level after a chunk with scores `k`. -/
abbrev headM (k : FVec F S64x128 .f32) (m : Vec F S64x1 .f32) : FVec F S64x1 .f32 := k0_pay18 (k0_pay10 k m)
abbrev headL (k : FVec F S64x128 .f32) (m l : Vec F S64x1 .f32) : FVec F S64x1 .f32 := k0_pay11 k m m l
abbrev headG (a1 : BitVec 32) (k : FVec F S64x128 .f32) (hidx : Vec F S64x1 .i32) (g : Vec F S64x1 .f32) : FVec F S64x1 .f32 := k0_pay9 a1 k cols hidx g
/-- The tail level after a chunk with scores `k`. -/
abbrev tailM (k : FVec F S64x128 .f32) (m : Vec F S64x1 .f32) : FVec F S64x1 .f32 := k0_pay19 (k0_pay13 k m)
abbrev tailL (k : FVec F S64x128 .f32) (m l : Vec F S64x1 .f32) : FVec F S64x1 .f32 := k0_pay14 k m m l
abbrev tailG (a1 : BitVec 32) (k : FVec F S64x128 .f32) (tidx : Vec F S64x1 .i32) (g : Vec F S64x1 .f32) : FVec F S64x1 .f32 := k0_pay12 a1 k cols tidx g

/-- The seven scratch buffers' contents: h · U + b, then (m, l, g) of the head level, then of the tail level. -/
structure Scr (F : FTy → Type) where
  hub : Vec F S64x256 .f32
  mh : Vec F S64x1 .f32
  lh : Vec F S64x1 .f32
  gh : Vec F S64x1 .f32
  mt : Vec F S64x1 .f32
  lt : Vec F S64x1 .f32
  gt : Vec F S64x1 .f32

/-- Case A (chunk 0): the reset, then a head chunk over the fresh (−∞, 0, 0). -/
def scrA (a1 : BitVec 32) (x0 : Vec F S64x256 .f32) (x1 : Vec F S128x256 .f32) (x2 x3 : Vec F S256x256 .f32) (x4 : Vec F S1x256 .f32)
    (x5 : Vec F S64x1 .i32) : Scr F where
  hub := hubOf x0 x3 x4
  mh := headM (scores x0 x1 x2 (hubOf x0 x3 x4)) (k0_pay4 (F := F))
  lh := headL (scores x0 x1 x2 (hubOf x0 x3 x4)) (k0_pay4 (F := F)) (k0_pay5 (F := F))
  gh := headG a1 (scores x0 x1 x2 (hubOf x0 x3 x4)) x5 (k0_pay6 (F := F))
  mt := k0_pay7 (F := F)
  lt := k0_pay15 (k0_pay8 (F := F))
  gt := k0_pay16 (F := F)

/-- Case B (chunks 1 … 15): a head chunk; the tail level and h · U + b are not touched. -/
def scrB (a1 : BitVec 32) (x0 : Vec F S64x256 .f32) (x1 : Vec F S128x256 .f32) (x2 : Vec F S256x256 .f32) (x5 : Vec F S64x1 .i32) (s : Scr F) : Scr F :=
  { s with mh := headM (scores x0 x1 x2 s.hub) s.mh, lh := headL (scores x0 x1 x2 s.hub) s.mh s.lh, gh := headG a1 (scores x0 x1 x2 s.hub) x5 s.gh }

/-- Cases C and D (chunks 16 … 47): a tail chunk; the head level and h · U + b are not touched. -/
def scrC (a1 : BitVec 32) (x0 : Vec F S64x256 .f32) (x1 : Vec F S128x256 .f32) (x2 : Vec F S256x256 .f32) (x6 : Vec F S64x1 .i32) (s : Scr F) : Scr F :=
  { s with mt := tailM (scores x0 x1 x2 s.hub) s.mt, lt := tailL (scores x0 x1 x2 s.hub) s.mt s.lt, gt := tailG a1 (scores x0 x1 x2 s.hub) x6 s.gt }

/-- Case D (chunk 47) also stores the four results, from the scratch as the tail chunk has just left it. -/
def outLseH (s' : Scr F) : FVec F S64x1 .f32 := k0_pay1 s'.mh s'.lh
def outGH (s' : Scr F) : Vec F S64x1 .f32 := s'.gh
def outLseT (s' : Scr F) : FVec F S64x1 .f32 := k0_pay2 s'.mt s'.lt
def outGT (s' : Scr F) : Vec F S64x1 .f32 := s'.gt

end Cert.KernelIdeal.Hand

end
-- ==== Proof.KernelIdeal.Runs0Stmt.lean ====
/-
  Region 0: the four cases' runs as STATEMENTS (the body's triple in each case: on whole memrefs, every buffer the case
  touches at its contents before, and at the case's explicit contents after), bundled as one hypothesis. The proof
  data, the body obligation and the run of @main are stated over this hypothesis; the four statements are proved in
  modules of their own.
-/
import proofs.«430609_j28260884807701_2_alg».proof.Proof.KernelIdeal.Cases0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Case A's run, as a statement. -/
def StmtA (F : FTy → Type) [FloatOps F] : Prop :=
  ∀ (c : Dev nD) (i : grid0.Coords) (arg2 : Memref sig .tc .vmem S64x256 .f32) (harg2 : arg2.IsWhole) (arg3 : Memref sig .tc .vmem S128x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S64x1 .i32) (harg7 : arg7.IsWhole) (arg8 : Memref sig .tc .vmem S64x1 .i32) (harg8 : arg8.IsWhole) (arg9 : Memref sig .tc .vmem S64x1 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x1 .f32) (harg12 : arg12.IsWhole) (arg13 : Memref sig .tc .vmem S64x256 .f32) (harg13 : arg13.IsWhole) (arg14 : Memref sig .tc .vmem S64x1 .f32) (harg14 : arg14.IsWhole) (arg15 : Memref sig .tc .vmem S64x1 .f32) (harg15 : arg15.IsWhole) (arg16 : Memref sig .tc .vmem S64x1 .f32) (harg16 : arg16.IsWhole) (arg17 : Memref sig .tc .vmem S64x1 .f32) (harg17 : arg17.IsWhole) (arg18 : Memref sig .tc .vmem S64x1 .f32) (harg18 : arg18.IsWhole) (arg19 : Memref sig .tc .vmem S64x1 .f32) (harg19 : arg19.IsWhole)
    (hc0 : cond0_0 i) (hc1 : cond0_1 i) (hc2 : ¬cond0_2 i) (hc3 : ¬cond0_3 i)
    (x0 : Vec F S64x256 .f32) (x1 : Vec F S128x256 .f32) (x2 : Vec F S256x256 .f32) (x3 : Vec F S256x256 .f32) (x4 : Vec F S1x256 .f32) (x5 : Vec F S64x1 .i32)
    (E : Set ℕ) (K : PUnit → sProp (MT nD τ sig Unit (Elt F) ℕ (UR sig nD τ) ℕ)),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg13 fullShare (scrA (chunkW i) x0 x1 x2 x3 x4 x5).hub ∗ owns (c : Thread nD τ) arg14 fullShare (scrA (chunkW i) x0 x1 x2 x3 x4 x5).mh ∗ owns (c : Thread nD τ) arg15 fullShare (scrA (chunkW i) x0 x1 x2 x3 x4 x5).lh ∗ owns (c : Thread nD τ) arg16 fullShare (scrA (chunkW i) x0 x1 x2 x3 x4 x5).gh ∗ owns (c : Thread nD τ) arg17 fullShare (scrA (chunkW i) x0 x1 x2 x3 x4 x5).mt ∗ owns (c : Thread nD τ) arg18 fullShare (scrA (chunkW i) x0 x1 x2 x3 x4 x5).lt ∗ owns (c : Thread nD τ) arg19 fullShare (scrA (chunkW i) x0 x1 x2 x3 x4 x5).gt) -∗ K ⟨⟩))
      ⊢ wp frame (wpE (defs₀ (F := F)) Variants.none c none) E (cc0__fused_stats_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K

/-- Case B's run, as a statement. -/
def StmtB (F : FTy → Type) [FloatOps F] : Prop :=
  ∀ (c : Dev nD) (i : grid0.Coords) (arg2 : Memref sig .tc .vmem S64x256 .f32) (harg2 : arg2.IsWhole) (arg3 : Memref sig .tc .vmem S128x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S64x1 .i32) (harg7 : arg7.IsWhole) (arg8 : Memref sig .tc .vmem S64x1 .i32) (harg8 : arg8.IsWhole) (arg9 : Memref sig .tc .vmem S64x1 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x1 .f32) (harg12 : arg12.IsWhole) (arg13 : Memref sig .tc .vmem S64x256 .f32) (harg13 : arg13.IsWhole) (arg14 : Memref sig .tc .vmem S64x1 .f32) (harg14 : arg14.IsWhole) (arg15 : Memref sig .tc .vmem S64x1 .f32) (harg15 : arg15.IsWhole) (arg16 : Memref sig .tc .vmem S64x1 .f32) (harg16 : arg16.IsWhole) (arg17 : Memref sig .tc .vmem S64x1 .f32) (harg17 : arg17.IsWhole) (arg18 : Memref sig .tc .vmem S64x1 .f32) (harg18 : arg18.IsWhole) (arg19 : Memref sig .tc .vmem S64x1 .f32) (harg19 : arg19.IsWhole)
    (hc0 : ¬cond0_0 i) (hc1 : cond0_1 i) (hc2 : ¬cond0_2 i) (hc3 : ¬cond0_3 i)
    (x0 : Vec F S64x256 .f32) (x1 : Vec F S128x256 .f32) (x2 : Vec F S256x256 .f32) (x5 : Vec F S64x1 .i32) (s : Scr F)
    (E : Set ℕ) (K : PUnit → sProp (MT nD τ sig Unit (Elt F) ℕ (UR sig nD τ) ℕ)),
    iprop(owns (c : Thread nD τ) arg2 fullShare x0 ∗ owns (c : Thread nD τ) arg3 fullShare x1 ∗ owns (c : Thread nD τ) arg4 fullShare x2 ∗ owns (c : Thread nD τ) arg7 fullShare x5
        ∗ owns (c : Thread nD τ) arg13 fullShare s.hub ∗ owns (c : Thread nD τ) arg14 fullShare s.mh ∗ owns (c : Thread nD τ) arg15 fullShare s.lh ∗ owns (c : Thread nD τ) arg16 fullShare s.gh
        ∗ (iprop(owns (c : Thread nD τ) arg2 fullShare x0 ∗ owns (c : Thread nD τ) arg3 fullShare x1 ∗ owns (c : Thread nD τ) arg4 fullShare x2 ∗ owns (c : Thread nD τ) arg7 fullShare x5
            ∗ owns (c : Thread nD τ) arg13 fullShare s.hub ∗ owns (c : Thread nD τ) arg14 fullShare (scrB (chunkW i) x0 x1 x2 x5 s).mh ∗ owns (c : Thread nD τ) arg15 fullShare (scrB (chunkW i) x0 x1 x2 x5 s).lh ∗ owns (c : Thread nD τ) arg16 fullShare (scrB (chunkW i) x0 x1 x2 x5 s).gh) -∗ K ⟨⟩))
      ⊢ wp frame (wpE (defs₀ (F := F)) Variants.none c none) E (cc0__fused_stats_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K

/-- Case C's run, as a statement. -/
def StmtC (F : FTy → Type) [FloatOps F] : Prop :=
  ∀ (c : Dev nD) (i : grid0.Coords) (arg2 : Memref sig .tc .vmem S64x256 .f32) (harg2 : arg2.IsWhole) (arg3 : Memref sig .tc .vmem S128x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S64x1 .i32) (harg7 : arg7.IsWhole) (arg8 : Memref sig .tc .vmem S64x1 .i32) (harg8 : arg8.IsWhole) (arg9 : Memref sig .tc .vmem S64x1 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x1 .f32) (harg12 : arg12.IsWhole) (arg13 : Memref sig .tc .vmem S64x256 .f32) (harg13 : arg13.IsWhole) (arg14 : Memref sig .tc .vmem S64x1 .f32) (harg14 : arg14.IsWhole) (arg15 : Memref sig .tc .vmem S64x1 .f32) (harg15 : arg15.IsWhole) (arg16 : Memref sig .tc .vmem S64x1 .f32) (harg16 : arg16.IsWhole) (arg17 : Memref sig .tc .vmem S64x1 .f32) (harg17 : arg17.IsWhole) (arg18 : Memref sig .tc .vmem S64x1 .f32) (harg18 : arg18.IsWhole) (arg19 : Memref sig .tc .vmem S64x1 .f32) (harg19 : arg19.IsWhole)
    (hc0 : ¬cond0_0 i) (hc1 : ¬cond0_1 i) (hc2 : cond0_2 i) (hc3 : ¬cond0_3 i)
    (x0 : Vec F S64x256 .f32) (x1 : Vec F S128x256 .f32) (x2 : Vec F S256x256 .f32) (x6 : Vec F S64x1 .i32) (s : Scr F)
    (E : Set ℕ) (K : PUnit → sProp (MT nD τ sig Unit (Elt F) ℕ (UR sig nD τ) ℕ)),
    iprop(owns (c : Thread nD τ) arg2 fullShare x0 ∗ owns (c : Thread nD τ) arg3 fullShare x1 ∗ owns (c : Thread nD τ) arg4 fullShare x2 ∗ owns (c : Thread nD τ) arg8 fullShare x6
        ∗ owns (c : Thread nD τ) arg13 fullShare s.hub ∗ owns (c : Thread nD τ) arg17 fullShare s.mt ∗ owns (c : Thread nD τ) arg18 fullShare s.lt ∗ owns (c : Thread nD τ) arg19 fullShare s.gt
        ∗ (iprop(owns (c : Thread nD τ) arg2 fullShare x0 ∗ owns (c : Thread nD τ) arg3 fullShare x1 ∗ owns (c : Thread nD τ) arg4 fullShare x2 ∗ owns (c : Thread nD τ) arg8 fullShare x6
            ∗ owns (c : Thread nD τ) arg13 fullShare s.hub ∗ owns (c : Thread nD τ) arg17 fullShare (scrC (chunkW i) x0 x1 x2 x6 s).mt ∗ owns (c : Thread nD τ) arg18 fullShare (scrC (chunkW i) x0 x1 x2 x6 s).lt ∗ owns (c : Thread nD τ) arg19 fullShare (scrC (chunkW i) x0 x1 x2 x6 s).gt) -∗ K ⟨⟩))
      ⊢ wp frame (wpE (defs₀ (F := F)) Variants.none c none) E (cc0__fused_stats_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K

/-- Case D's run, as a statement. -/
def StmtD (F : FTy → Type) [FloatOps F] : Prop :=
  ∀ (c : Dev nD) (i : grid0.Coords) (arg2 : Memref sig .tc .vmem S64x256 .f32) (harg2 : arg2.IsWhole) (arg3 : Memref sig .tc .vmem S128x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S64x1 .i32) (harg7 : arg7.IsWhole) (arg8 : Memref sig .tc .vmem S64x1 .i32) (harg8 : arg8.IsWhole) (arg9 : Memref sig .tc .vmem S64x1 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x1 .f32) (harg12 : arg12.IsWhole) (arg13 : Memref sig .tc .vmem S64x256 .f32) (harg13 : arg13.IsWhole) (arg14 : Memref sig .tc .vmem S64x1 .f32) (harg14 : arg14.IsWhole) (arg15 : Memref sig .tc .vmem S64x1 .f32) (harg15 : arg15.IsWhole) (arg16 : Memref sig .tc .vmem S64x1 .f32) (harg16 : arg16.IsWhole) (arg17 : Memref sig .tc .vmem S64x1 .f32) (harg17 : arg17.IsWhole) (arg18 : Memref sig .tc .vmem S64x1 .f32) (harg18 : arg18.IsWhole) (arg19 : Memref sig .tc .vmem S64x1 .f32) (harg19 : arg19.IsWhole)
    (hc0 : ¬cond0_0 i) (hc1 : ¬cond0_1 i) (hc2 : cond0_2 i) (hc3 : cond0_3 i)
    (x0 : Vec F S64x256 .f32) (x1 : Vec F S128x256 .f32) (x2 : Vec F S256x256 .f32) (x6 : Vec F S64x1 .i32) (s : Scr F)
    (E : Set ℕ) (K : PUnit → sProp (MT nD τ sig Unit (Elt F) ℕ (UR sig nD τ) ℕ)),
    iprop(owns (c : Thread nD τ) arg2 fullShare x0 ∗ owns (c : Thread nD τ) arg3 fullShare x1 ∗ owns (c : Thread nD τ) arg4 fullShare x2 ∗ owns (c : Thread nD τ) arg8 fullShare x6
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ owns (c : Thread nD τ) arg13 fullShare s.hub ∗ owns (c : Thread nD τ) arg14 fullShare s.mh ∗ owns (c : Thread nD τ) arg15 fullShare s.lh ∗ owns (c : Thread nD τ) arg16 fullShare s.gh ∗ owns (c : Thread nD τ) arg17 fullShare s.mt ∗ owns (c : Thread nD τ) arg18 fullShare s.lt ∗ owns (c : Thread nD τ) arg19 fullShare s.gt
        ∗ (iprop(owns (c : Thread nD τ) arg2 fullShare x0 ∗ owns (c : Thread nD τ) arg3 fullShare x1 ∗ owns (c : Thread nD τ) arg4 fullShare x2 ∗ owns (c : Thread nD τ) arg8 fullShare x6
            ∗ owns (c : Thread nD τ) arg9 fullShare (outLseH (scrC (chunkW i) x0 x1 x2 x6 s)) ∗ owns (c : Thread nD τ) arg10 fullShare (outGH (scrC (chunkW i) x0 x1 x2 x6 s)) ∗ owns (c : Thread nD τ) arg11 fullShare (outLseT (scrC (chunkW i) x0 x1 x2 x6 s)) ∗ owns (c : Thread nD τ) arg12 fullShare (outGT (scrC (chunkW i) x0 x1 x2 x6 s))
            ∗ owns (c : Thread nD τ) arg13 fullShare s.hub ∗ owns (c : Thread nD τ) arg14 fullShare s.mh ∗ owns (c : Thread nD τ) arg15 fullShare s.lh ∗ owns (c : Thread nD τ) arg16 fullShare s.gh ∗ owns (c : Thread nD τ) arg17 fullShare (scrC (chunkW i) x0 x1 x2 x6 s).mt ∗ owns (c : Thread nD τ) arg18 fullShare (scrC (chunkW i) x0 x1 x2 x6 s).lt ∗ owns (c : Thread nD τ) arg19 fullShare (scrC (chunkW i) x0 x1 x2 x6 s).gt) -∗ K ⟨⟩))
      ⊢ wp frame (wpE (defs₀ (F := F)) Variants.none c none) E (cc0__fused_stats_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K

/-- The four cases' runs together. -/
structure Runs0 (F : FTy → Type) [FloatOps F] : Prop where
  A : StmtA F
  B : StmtB F
  C : StmtC F
  D : StmtD F

end Cert.KernelIdeal.Hand

end
-- ==== Proof.KernelIdeal.Data0.lean ====
/-
  Region 0 (the chunked walk over the vocabulary), the pipeline's proof data and the body's obligation.

  The walk carries seven scratch buffers from point to point: h · U + b for the row tile, and (maximum, sum of
  exponentials, masked sum) of the head level and of the tail level. What they hold after a point is a recursion on
  the point: at chunk 0 of a row tile everything is stored afresh from the point's blocks, at chunks 1 … 15 the head
  level is updated from what the point before left, at chunks 16 … 47 the tail level. The invariant between points
  says exactly that; before the first point it is the class's (every scratch buffer at anything). The four result
  windows are stored only at chunk 47, from the scratch as that chunk leaves it; at every other point they are idle,
  and their staging buffers go back as they came.
-/
import proofs.«430609_j28260884807701_2_alg».proof.Proof.KernelIdeal.Runs0Stmt

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section AtV

variable (V : (c : Dev nD) → (b : Ref sig .tc) → Buf (Elt F) ((c : Thread nD τ).loc b))

/-! ## What the scratch buffers hold after each point -/

/-- The seven scratch buffers after point `n`, by recursion on the point. -/
def scrAt0 (c : Dev nD) : (n : ℕ) → n < cfg0.N → Scr F
  | 0, hn => scrA (chunkW (grid0.coords ⟨0, hn⟩)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)
  | n + 1, hn =>
    if (n + 1) % 48 = 0 then scrA (chunkW (grid0.coords ⟨n + 1, hn⟩)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩)
    else if (n + 1) % 48 < 16 then scrB (chunkW (grid0.coords ⟨n + 1, hn⟩)) (iblk0 V c 0 ⟨n + 1, hn⟩) (iblk0 V c 1 ⟨n + 1, hn⟩) (iblk0 V c 2 ⟨n + 1, hn⟩) (iblk0 V c 5 ⟨n + 1, hn⟩) (scrAt0 c n (Nat.lt_of_succ_lt hn))
    else scrC (chunkW (grid0.coords ⟨n + 1, hn⟩)) (iblk0 V c 0 ⟨n + 1, hn⟩) (iblk0 V c 1 ⟨n + 1, hn⟩) (iblk0 V c 2 ⟨n + 1, hn⟩) (iblk0 V c 6 ⟨n + 1, hn⟩) (scrAt0 c n (Nat.lt_of_succ_lt hn))

/-- At chunk 0 of a row tile: everything afresh from the point's blocks. -/
theorem scrAt0_A (c : Dev nD) (t : Fin cfg0.N) (h : t.val % 48 = 0) :
    scrAt0 V c t.val t.isLt = scrA (chunkW (grid0.coords t)) (iblk0 V c 0 t) (iblk0 V c 1 t) (iblk0 V c 2 t) (iblk0 V c 3 t) (iblk0 V c 4 t) (iblk0 V c 5 t) := by
  obtain ⟨n, hn⟩ := t
  cases n with
  | zero => exact rfl
  | succ n => exact (if_pos h).trans rfl

/-- At a head chunk 1 … 15: the head level updated over what the point before left. -/
theorem scrAt0_B (c : Dev nD) (t : Fin cfg0.N) (h0 : ¬ t.val % 48 = 0) (h1 : t.val % 48 < 16) :
    scrAt0 V c t.val t.isLt = scrB (chunkW (grid0.coords t)) (iblk0 V c 0 t) (iblk0 V c 1 t) (iblk0 V c 2 t) (iblk0 V c 5 t) (scrAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans ((if_pos h1).trans rfl)

/-- At a tail chunk 16 … 47: the tail level updated over what the point before left. -/
theorem scrAt0_C (c : Dev nD) (t : Fin cfg0.N) (h1 : ¬ t.val % 48 < 16) :
    scrAt0 V c t.val t.isLt = scrC (chunkW (grid0.coords t)) (iblk0 V c 0 t) (iblk0 V c 1 t) (iblk0 V c 2 t) (iblk0 V c 6 t) (scrAt0 V c (t.val - 1) (Nat.lt_of_le_of_lt (Nat.sub_le _ _) t.isLt)) := by
  obtain ⟨n, hn⟩ := t
  cases n with
  | zero => exact (by exfalso; (try dsimp only at h1); exact h1 (by decide))
  | succ n =>
    have h0 : ¬ (n + 1) % 48 = 0 := fun h => h1 (by (try dsimp only); omega)
    exact (if_neg h0).trans ((if_neg h1).trans rfl)

/-! ## The invariant between points -/

/-- The region invariant before position `n`: before the first point the class's; afterwards the seven scratch buffers at what the point before left, the other region's staging buffers and the generator register at anything. -/
def PhiS0 (c : Dev nD) : (n : ℕ) → n ≤ cfg0.N → sProp 𝕄
  | 0, _ => Pipeline.ΦA spec0 c
  | n + 1, hn => iprop(iprop(owns (c : Thread nD τ) scM0_0 fullShare (scrAt0 V c n hn).hub ∗ owns (c : Thread nD τ) scM0_1 fullShare (scrAt0 V c n hn).mh ∗ owns (c : Thread nD τ) scM0_2 fullShare (scrAt0 V c n hn).lh ∗ owns (c : Thread nD τ) scM0_3 fullShare (scrAt0 V c n hn).gh ∗ owns (c : Thread nD τ) scM0_4 fullShare (scrAt0 V c n hn).mt ∗ owns (c : Thread nD τ) scM0_5 fullShare (scrAt0 V c n hn).lt ∗ owns (c : Thread nD τ) scM0_6 fullShare (scrAt0 V c n hn).gt ∗ rest0 c) ∗ (∃ r, prngReg c r))

theorem PhiS0_zero (c : Dev nD) (n : ℕ) (h : n ≤ cfg0.N) (hz : n = 0) : PhiS0 V c n h = Pipeline.ΦA spec0 c := by
  subst hz; rfl

/-- After point `n`: the scratch buffers at that point's contents. -/
theorem PhiS0_succ (c : Dev nD) (n : ℕ) (hn : n < cfg0.N) :
    PhiS0 V c (n + 1) hn = iprop(iprop(owns (c : Thread nD τ) scM0_0 fullShare (scrAt0 V c n hn).hub ∗ owns (c : Thread nD τ) scM0_1 fullShare (scrAt0 V c n hn).mh ∗ owns (c : Thread nD τ) scM0_2 fullShare (scrAt0 V c n hn).lh ∗ owns (c : Thread nD τ) scM0_3 fullShare (scrAt0 V c n hn).gh ∗ owns (c : Thread nD τ) scM0_4 fullShare (scrAt0 V c n hn).mt ∗ owns (c : Thread nD τ) scM0_5 fullShare (scrAt0 V c n hn).lt ∗ owns (c : Thread nD τ) scM0_6 fullShare (scrAt0 V c n hn).gt ∗ rest0 c) ∗ (∃ r, prngReg c r)) := rfl

/-- Before a point that is not the first: the scratch buffers at what the point before left. -/
theorem PhiS0_pos (c : Dev nD) (n : ℕ) (h : n ≤ cfg0.N) (hz : n ≠ 0) :
    PhiS0 V c n h = iprop(iprop(owns (c : Thread nD τ) scM0_0 fullShare (scrAt0 V c (n - 1) (by omega)).hub ∗ owns (c : Thread nD τ) scM0_1 fullShare (scrAt0 V c (n - 1) (by omega)).mh ∗ owns (c : Thread nD τ) scM0_2 fullShare (scrAt0 V c (n - 1) (by omega)).lh ∗ owns (c : Thread nD τ) scM0_3 fullShare (scrAt0 V c (n - 1) (by omega)).gh ∗ owns (c : Thread nD τ) scM0_4 fullShare (scrAt0 V c (n - 1) (by omega)).mt ∗ owns (c : Thread nD τ) scM0_5 fullShare (scrAt0 V c (n - 1) (by omega)).lt ∗ owns (c : Thread nD τ) scM0_6 fullShare (scrAt0 V c (n - 1) (by omega)).gt ∗ rest0 c) ∗ (∃ r, prngReg c r)) := by
  cases n with
  | zero => exact absurd rfl hz
  | succ n => rfl

/-! ## The proof data -/

/-- The pipeline's proof data on core `c`: the arrays as the region finds them; after the body at point `t` each input window's buffer at its block, the four result windows' at the results of the scratch as the point leaves it (consulted only at chunk 47, where they are stored); the invariant above; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t | ⟨1, _⟩ => iblk0 V c 1 t | ⟨2, _⟩ => iblk0 V c 2 t | ⟨3, _⟩ => iblk0 V c 3 t | ⟨4, _⟩ => iblk0 V c 4 t | ⟨5, _⟩ => iblk0 V c 5 t | ⟨6, _⟩ => iblk0 V c 6 t
    | ⟨7, _⟩ => outLseH (scrAt0 V c t.val t.isLt) | ⟨8, _⟩ => outGH (scrAt0 V c t.val t.isLt) | ⟨9, _⟩ => outLseT (scrAt0 V c t.val t.isLt) | ⟨10, _⟩ => outGT (scrAt0 V c t.val t.isLt)
  Φ t := PhiS0 V c t.val (Nat.le_of_lt_succ t.isLt)
  q _ := fullShare
  owed _ := 0

/-- The proof data's arrays are the contents the region finds. -/
theorem A_eq0 (c : Dev nD) (w : Fin cfg0.W) : (dat0 V c).A w = V c (Pipeline.arrRef spec0 w) := by
  dsimp only [dat0]

/-- The invariant at a point's start, restated at the point's number. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = outLseH (scrAt0 V c t.val t.isLt) := by dsimp only [dat0]
theorem after0_8 (c : Dev nD) (t : Fin cfg0.N) : (dat0 V c).after 8 t = outGH (scrAt0 V c t.val t.isLt) := by dsimp only [dat0]
theorem after0_9 (c : Dev nD) (t : Fin cfg0.N) : (dat0 V c).after 9 t = outLseT (scrAt0 V c t.val t.isLt) := by dsimp only [dat0]
theorem after0_10 (c : Dev nD) (t : Fin cfg0.N) : (dat0 V c).after 10 t = outGT (scrAt0 V c t.val t.isLt) := by dsimp only [dat0]

/-- Each input window's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: the scratch buffers' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HS2, HS3, HS4, HS5, HS6, Hr⟩, Hg⟩
  isplitr [Hg]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 96 := N_0; omega)

/-! ## The body obligation, at a generic point -/

/-- What the body is called with at point `t`: the invariant, what the core owes, and each window's current staging buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

/-- What it returns: the invariant at the next point, what the core owes, and each window's current staging buffer at what the body leaves. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t)

/-- Before any point the invariant gives each scratch buffer at some contents (the class's invariant, opened). -/
theorem Phi_open0 (c : Dev nD) (t : Fin cfg0.N) :
    (dat0 V c).Φ t.castSucc ⊢ (iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ rest0 c) ∗ (∃ r, prngReg c r)) : sProp 𝕄) := by
  by_cases hz : t.val = 0
  · rw [PhiS0_castSucc V c t, PhiS0_zero V c _ _ hz, PhiA0_eq]
    try exact Idealize.SL.BI.Entails.refl _
  · rw [PhiS0_castSucc V c t, PhiS0_pos V c _ _ hz]
    iintro ⟨⟨HS0, HS1, HS2, HS3, HS4, HS5, HS6, Hr⟩, Hg⟩
    isplitr [Hg]
    · isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      isplitl [HS6]; · iexists _; iexact HS6
      iexact Hr
    iexact Hg

set_option maxHeartbeats 4800000 in
/-- Chunk 0 of a row tile: whatever the scratch buffers held, the body stores all seven afresh; the result windows are idle. -/
theorem sound0_A (hR : Runs0 F) (c : Dev nD) (t : Fin cfg0.N) (h0 : t.val % 48 = 0) :
    bodyPre0 V c t ⊢ wp frame (wpE (defs₀ (F := F)) Variants.none c none) Set.univ (bodyAt0 t) (fun _ => bodyPost0 V c t) := by
  have hN : t.val < 96 := lt_of_lt_of_eq t.isLt (show cfg0.N = 96 from N_0)
  unfold bodyPre0 bodyPost0 bodyAt0
  simp only [before0_0 V, before0_1 V, before0_2 V, before0_3 V, before0_4 V, before0_5 V, before0_6 V]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  have hc0 : cond0_0 (grid0.coords t) := (hcond0_0 t).mpr h0
  have hc1 : cond0_1 (grid0.coords t) := (hcond0_1 t).mpr (by omega)
  have hc2 : ¬cond0_2 (grid0.coords t) := fun h => by have := (hcond0_2 t).mp h; omega
  have hc3 : ¬cond0_3 (grid0.coords t) := fun h => by have := (hcond0_3 t).mp h; omega
  rw [Dat.leavesExact_idle (dat0 V c) 7 t (idleAt0_7 t hc3) (noFlush0_7 t hc3)]
  rw [Dat.leavesExact_idle (dat0 V c) 8 t (idleAt0_8 t hc3) (noFlush0_8 t hc3)]
  rw [Dat.leavesExact_idle (dat0 V c) 9 t (idleAt0_9 t hc3) (noFlush0_9 t hc3)]
  rw [Dat.leavesExact_idle (dat0 V c) 10 t (idleAt0_10 t hc3) (noFlush0_10 t hc3)]
  rw [scrAt0_A V c t h0]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave ⟨⟨HS0, HS1, HS2, HS3, HS4, HS5, HS6, Hr⟩, Hg⟩ := (Phi_open0 V c t) $$ HP
  iapply (hR.A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 hc3 (iblk0 V c 0 t) (iblk0 V c 1 t) (iblk0 V c 2 t) (iblk0 V c 3 t) (iblk0 V c 4 t) (iblk0 V c 5 t) Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, HS0, HS1, HS2, HS3, HS4, HS5, HS6⟩
  isplitl [HS0 HS1 HS2 HS3 HS4 HS5 HS6 Hr Hg]
  · isplitr [Hg]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iexists _; iexact H10

set_option maxHeartbeats 4800000 in
/-- A head chunk 1 … 15: the head level is updated over what the point before left; h · U + b and the tail level stay; the result windows are idle. -/
theorem sound0_B (hR : Runs0 F) (c : Dev nD) (t : Fin cfg0.N) (h0 : ¬ t.val % 48 = 0) (h1 : t.val % 48 < 16) :
    bodyPre0 V c t ⊢ wp frame (wpE (defs₀ (F := F)) Variants.none c none) Set.univ (bodyAt0 t) (fun _ => bodyPost0 V c t) := by
  have hN : t.val < 96 := lt_of_lt_of_eq t.isLt (show cfg0.N = 96 from N_0)
  unfold bodyPre0 bodyPost0 bodyAt0
  simp only [before0_0 V, before0_1 V, before0_2 V, before0_3 V, before0_4 V, before0_5 V, before0_6 V]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  have hc0 : ¬cond0_0 (grid0.coords t) := fun h => h0 ((hcond0_0 t).mp h)
  have hc1 : cond0_1 (grid0.coords t) := (hcond0_1 t).mpr h1
  have hc2 : ¬cond0_2 (grid0.coords t) := fun h => by have := (hcond0_2 t).mp h; omega
  have hc3 : ¬cond0_3 (grid0.coords t) := fun h => by have := (hcond0_3 t).mp h; omega
  have hz : t.val ≠ 0 := by omega
  rw [Dat.leavesExact_idle (dat0 V c) 7 t (idleAt0_7 t hc3) (noFlush0_7 t hc3)]
  rw [Dat.leavesExact_idle (dat0 V c) 8 t (idleAt0_8 t hc3) (noFlush0_8 t hc3)]
  rw [Dat.leavesExact_idle (dat0 V c) 9 t (idleAt0_9 t hc3) (noFlush0_9 t hc3)]
  rw [Dat.leavesExact_idle (dat0 V c) 10 t (idleAt0_10 t hc3) (noFlush0_10 t hc3)]
  rw [scrAt0_B V c t h0 h1]
  rw [PhiS0_castSucc V c t, PhiS0_pos V c _ _ hz]
  iintro ⟨⟨⟨HS0, HS1, HS2, HS3, HS4, HS5, HS6, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (hR.B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 hc3 (iblk0 V c 0 t) (iblk0 V c 1 t) (iblk0 V c 2 t) (iblk0 V c 5 t) (scrAt0 V c (t.val - 1) (Nat.lt_of_le_of_lt (Nat.sub_le _ _) t.isLt)) Set.univ _)
  isplitl [H0]; · iexact H0
  isplitl [H1]; · iexact H1
  isplitl [H2]; · iexact H2
  isplitl [H5]; · iexact H5
  isplitl [HS0]; · iexact HS0
  isplitl [HS1]; · iexact HS1
  isplitl [HS2]; · iexact HS2
  isplitl [HS3]; · iexact HS3
  iintro ⟨H0, H1, H2, H5, HS0, HS1, HS2, HS3⟩
  isplitl [HS0 HS1 HS2 HS3 HS4 HS5 HS6 Hr Hg]
  · isplitr [Hg]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iexists _; iexact H10

set_option maxHeartbeats 4800000 in
/-- A tail chunk 16 … 46: the tail level is updated over what the point before left; h · U + b and the head level stay; the result windows are idle. -/
theorem sound0_C (hR : Runs0 F) (c : Dev nD) (t : Fin cfg0.N) (h1 : ¬ t.val % 48 < 16) (h3 : ¬ t.val % 48 = 47) :
    bodyPre0 V c t ⊢ wp frame (wpE (defs₀ (F := F)) Variants.none c none) Set.univ (bodyAt0 t) (fun _ => bodyPost0 V c t) := by
  have hN : t.val < 96 := lt_of_lt_of_eq t.isLt (show cfg0.N = 96 from N_0)
  unfold bodyPre0 bodyPost0 bodyAt0
  simp only [before0_0 V, before0_1 V, before0_2 V, before0_3 V, before0_4 V, before0_5 V, before0_6 V]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  have hc0 : ¬cond0_0 (grid0.coords t) := fun h => by have := (hcond0_0 t).mp h; omega
  have hc1 : ¬cond0_1 (grid0.coords t) := fun h => h1 ((hcond0_1 t).mp h)
  have hc2 : cond0_2 (grid0.coords t) := (hcond0_2 t).mpr (by omega)
  have hc3 : ¬cond0_3 (grid0.coords t) := fun h => h3 ((hcond0_3 t).mp h)
  have hz : t.val ≠ 0 := by omega
  rw [Dat.leavesExact_idle (dat0 V c) 7 t (idleAt0_7 t hc3) (noFlush0_7 t hc3)]
  rw [Dat.leavesExact_idle (dat0 V c) 8 t (idleAt0_8 t hc3) (noFlush0_8 t hc3)]
  rw [Dat.leavesExact_idle (dat0 V c) 9 t (idleAt0_9 t hc3) (noFlush0_9 t hc3)]
  rw [Dat.leavesExact_idle (dat0 V c) 10 t (idleAt0_10 t hc3) (noFlush0_10 t hc3)]
  rw [scrAt0_C V c t h1]
  rw [PhiS0_castSucc V c t, PhiS0_pos V c _ _ hz]
  iintro ⟨⟨⟨HS0, HS1, HS2, HS3, HS4, HS5, HS6, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (hR.C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 hc3 (iblk0 V c 0 t) (iblk0 V c 1 t) (iblk0 V c 2 t) (iblk0 V c 6 t) (scrAt0 V c (t.val - 1) (Nat.lt_of_le_of_lt (Nat.sub_le _ _) t.isLt)) Set.univ _)
  isplitl [H0]; · iexact H0
  isplitl [H1]; · iexact H1
  isplitl [H2]; · iexact H2
  isplitl [H6]; · iexact H6
  isplitl [HS0]; · iexact HS0
  isplitl [HS4]; · iexact HS4
  isplitl [HS5]; · iexact HS5
  isplitl [HS6]; · iexact HS6
  iintro ⟨H0, H1, H2, H6, HS0, HS4, HS5, HS6⟩
  isplitl [HS0 HS1 HS2 HS3 HS4 HS5 HS6 Hr Hg]
  · isplitr [Hg]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iexists _; iexact H10

set_option maxHeartbeats 4800000 in
/-- The last chunk 47: the tail level is updated as at any tail chunk, and the four results are stored from the scratch as this leaves it. -/
theorem sound0_D (hR : Runs0 F) (c : Dev nD) (t : Fin cfg0.N) (h3 : t.val % 48 = 47) :
    bodyPre0 V c t ⊢ wp frame (wpE (defs₀ (F := F)) Variants.none c none) Set.univ (bodyAt0 t) (fun _ => bodyPost0 V c t) := by
  have hN : t.val < 96 := lt_of_lt_of_eq t.isLt (show cfg0.N = 96 from N_0)
  unfold bodyPre0 bodyPost0 bodyAt0
  simp only [before0_0 V, before0_1 V, before0_2 V, before0_3 V, before0_4 V, before0_5 V, before0_6 V]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  have h1 : ¬ t.val % 48 < 16 := by omega
  have hc0 : ¬cond0_0 (grid0.coords t) := fun h => by have := (hcond0_0 t).mp h; omega
  have hc1 : ¬cond0_1 (grid0.coords t) := fun h => h1 ((hcond0_1 t).mp h)
  have hc2 : cond0_2 (grid0.coords t) := (hcond0_2 t).mpr (by omega)
  have hc3 : cond0_3 (grid0.coords t) := (hcond0_3 t).mpr h3
  have hz : t.val ≠ 0 := by omega
  rw [show (dat0 V c).leavesExact 7 t = owns (c : Thread nD τ) (ms0_7 t) fullShare ((dat0 V c).after 7 t) from by
    unfold Dat.leavesExact; rw [liveAt0_7 t hc3], after0_7]
  rw [show (dat0 V c).leavesExact 8 t = owns (c : Thread nD τ) (ms0_8 t) fullShare ((dat0 V c).after 8 t) from by
    unfold Dat.leavesExact; rw [liveAt0_8 t hc3], after0_8]
  rw [show (dat0 V c).leavesExact 9 t = owns (c : Thread nD τ) (ms0_9 t) fullShare ((dat0 V c).after 9 t) from by
    unfold Dat.leavesExact; rw [liveAt0_9 t hc3], after0_9]
  rw [show (dat0 V c).leavesExact 10 t = owns (c : Thread nD τ) (ms0_10 t) fullShare ((dat0 V c).after 10 t) from by
    unfold Dat.leavesExact; rw [liveAt0_10 t hc3], after0_10]
  rw [scrAt0_C V c t h1]
  rw [PhiS0_castSucc V c t, PhiS0_pos V c _ _ hz]
  iintro ⟨⟨⟨HS0, HS1, HS2, HS3, HS4, HS5, HS6, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (hR.D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 hc2 hc3 (iblk0 V c 0 t) (iblk0 V c 1 t) (iblk0 V c 2 t) (iblk0 V c 6 t) (scrAt0 V c (t.val - 1) (Nat.lt_of_le_of_lt (Nat.sub_le _ _) t.isLt)) Set.univ _)
  isplitl [H0]; · iexact H0
  isplitl [H1]; · iexact H1
  isplitl [H2]; · iexact H2
  isplitl [H6]; · iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H6, H7, H8, H9, H10, HS0, HS1, HS2, HS3, HS4, HS5, HS6⟩
  isplitl [HS0 HS1 HS2 HS3 HS4 HS5 HS6 Hr Hg]
  · isplitr [Hg]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body at any point: the chunk number says which of the four cases the point is in. -/
theorem sound_body0 (hR : Runs0 F) (c : Dev nD) (t : Fin cfg0.N) :
    bodyPre0 V c t ⊢ wp frame (wpE (defs₀ (F := F)) Variants.none c none) Set.univ (bodyAt0 t) (fun _ => bodyPost0 V c t) := by
  by_cases h0 : t.val % 48 = 0
  · exact sound0_A V hR c t h0
  · by_cases h1 : t.val % 48 < 16
    · exact sound0_B V hR c t h0 h1
    · by_cases h3 : t.val % 48 = 47
      · exact sound0_D V hR c t h3
      · exact sound0_C V hR c t h1 h3

/-- The library's body obligation, at every point, given the four cases' runs. -/
theorem body_obligation0 (hR : Runs0 F) (c : Dev nD) : BodyObligation (dat0 (F := F) V c) (defs₀ (F := F)) Variants.none () Set.univ := fun t => by
  rw [bigSep_W0, bigSep_W0]
  exact sound_body0 V hR c t

end AtV

end Cert.KernelIdeal.Hand

end
-- ==== Proof.KernelIdeal.Reg1.lean ====
/-
  Region 1 (the tail column: one grid point, five input windows and one result window), stated at a parameter
  V: the contents of the TensorCore's buffers when the region is entered.

  * Each window's block at the point, read off its array; each input window's staging buffer holds exactly that
    block when the body runs.
  * The body reads h, the one row erow of the embedding, the two matrices W and U and the bias b, and stores into the
    whole result block, per row r, 65 / (1 + Σ_d (h[r,d] − tanh (erow · W + (h · U + b))[r,d])²); what the result block
    held before is read and thrown away.
  * The proof data of the pipeline and its body obligation.
-/
import proofs.«430609_j28260884807701_2_alg».proof.Proof.KernelIdeal.Base0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section AtV1

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at the point, for any proof data whose array is V's and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at the point, likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at the point, likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at the point, likewise. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at the point, likewise. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- Each access of the body is through the whole of its buffer; the store's rectangle is the whole result block. -/
abbrev r1_5 : Rect S128x1 := Rect.unit (s := S128x1) ![0, 0] S128x1.size inb_S128x1_S128x1_0_0

/-- The two zero offsets, as a constant function. -/
private theorem zeros2 : (![0, 0] : Fin 2 → ℕ) = fun _ => 0 := by funext a; fin_cases a <;> rfl

/-! ## What the body leaves in the result window's buffer -/

/-- The one result block: 65 / (1 + Σ_d (h − tanh (erow · W + (h · U + b)))²) per row, from the five input blocks in window order. -/
def out1_5 (x0 : Vec F S128x256 .f32) (x1 : Vec F S1x256 .f32) (x2 x3 : Vec F S256x256 .f32) (x4 : Vec F S1x256 .f32) : FVec F S128x1 .f32 :=
  k1_pay1 x0 x3 x4 x1 x2 x0

/-- The one store is through the whole result block, so it covers it. -/
theorem cover1_5 (p0 : Vec F S128x1 .f32) (y : S128x1.Idx) :
    ∃ pc ∈ ([⟨r1_5, p0⟩] : List (View.Piece (Elt F) S128x1 .f32)), y ∈ pc.1.set :=
  View.cover_of_tiled [⟨r1_5, p0⟩] S128x1.size (by rfl) y

/-! ## The body's triple -/

set_option maxHeartbeats 1000000 in
/-- The kernel body on whole staging memrefs, the five inputs' at read contents x0 … x4 and the result's at anything,
    runs to the continuation holding the inputs' as they were and the result's at out1_5 of the inputs. -/
theorem sound_kernel1 (c : Dev nD) (E : Set ℕ) (i : grid1.Coords)
    (arg1 : Memref sig .tc .vmem S128x256 .f32) (harg1 : arg1.IsWhole) (arg2 : Memref sig .tc .vmem S1x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S128x1 .f32) (harg6 : arg6.IsWhole)
    (x0 : Vec F S128x256 .f32) (x1 : Vec F S1x256 .f32) (x2 x3 : Vec F S256x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__tailcol_kernel i arg1 harg1 arg2 harg2 arg3 harg3 arg4 harg4 arg5 harg5 arg6 harg6) K := by
  simp only [cc1__tailcol_kernel_eq_skeleton]; unfold cc1__tailcol_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  unfold out1_5
  rw [View.read_writes_eq_canon _ _ _ (cover1_5 _), View.canon_unit_zero (S := S128x1) zeros2]
  simp only [View.readAt_eq_ld, View.ld_unit_zero (S := S128x256) zeros2, View.ld_unit_zero (S := S256x256) zeros2,
    View.ld_unit_zero (S := S1x256) zeros2]

/-! ## The pipeline's proof data -/

/-- The proof data of pipeline 1 on core c: the arrays as the region finds them; after the body each input's
    buffer at its block and the result's at out1_5 of the input blocks; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's staging buffer holds its block when the body runs. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at the point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at the point: the inputs' memrefs hold their blocks, so the body's triple applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at the point. -/
theorem body_obligation1 (c : Dev nD) : BodyObligation (dat1 (F := F) V c) (defs₀ (F := F)) Variants.none () Set.univ := fun t => by
  rw [bigSep_W1, bigSep_W1]
  exact sound_body1 V c t

end AtV1

end Cert.KernelIdeal.Hand

end
-- ==== Proof.KernelIdeal.Bounds2.lean ====
/-
  The TensorCore's buffer contents at the boundaries of @main's later items: after each of the two kernel regions (a
  region leaves its windows' arrays at what its pipeline's write-backs make of them and every other buffer as it
  found it) and after each of the three stretches of host operations that follow them (the five results as vectors
  and their combination row by row, the choice between the head's and the tail's loss, the mean).
-/
import proofs.«430609_j28260884807701_2_alg».proof.Proof.KernelIdeal.Bounds
import proofs.«430609_j28260884807701_2_alg».proof.Proof.KernelIdeal.Data0
import proofs.«430609_j28260884807701_2_alg».proof.Proof.KernelIdeal.Reg1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The buffer contents at the later boundaries of @main: a fold through its items

The launch contents and the contents after each of the first five host stretches (`W0` … `W5`, and `V5`, the view region 0
is entered from) are stated with the boundaries of @main's first items; here the fold goes on through the two kernel
regions and the last three host stretches. -/

variable (m : (ℓ : Loc nD τ sig) → Buf (Elt F) ℓ) (ρ : Dev nD → PrngReg)

/-- At region 0's exit: its arrays at what the pipeline leaves (the inputs as entered, each result's write-backs
    folded), every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references: region 0's exit contents, which region 1 is entered from (no host
    operation lies between the two regions). -/
abbrev V6 : (c : Dev nD) → (b : Ref sig .tc) → Buf (Elt F) ((c : Thread nD τ).loc b) := fun c b => W6 m ρ c b
/-- At region 0's exit each of its arrays holds what the pipeline leaves and every other buffer what it held at entry. -/
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)
/-- At region 1's exit: its arrays at what the pipeline leaves, every other buffer as entered. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
/-- The same read at the TensorCore's references (region 1's exit contents). -/
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)
/-- After the sixth stretch (the five results reshaped and combined row by row). -/
abbrev W8 : Dev nD → Valuation τ sig (Elt F) := fun c => StableHlo.after hostOps2 (W7 m ρ c)
/-- After the seventh (the choice between the head's and the tail's loss). -/
abbrev W9 : Dev nD → Valuation τ sig (Elt F) := fun c => StableHlo.after hostOps2_1 (W8 m ρ c)
/-- After the eighth and last (the mean): what @main returns from. -/
abbrev W10 : Dev nD → Valuation τ sig (Elt F) := fun c => StableHlo.after hostOps2_2 (W9 m ρ c)

end Cert.KernelIdeal.Hand

end
-- ==== Proof.KernelIdeal.MainRun.lean ====
/-
  The run of @main. The program is ten items: five stretches of host operations, the two kernel regions (the chunked
  walk over the vocabulary; the cluster row's logits), three more stretches of host operations. Over the two regions'
  proof data and body obligations this module states the launch: every weakly fair execution of @main terminates
  with EVERY unscoped buffer of every core at a named valuation, the fold `W10` of the ten items over the launch
  memory. The frame claim (the six argument arrays end as launched) and the value claim (what the result buffer holds)
  are both read off that valuation.
-/
import proofs.«430609_j28260884807701_2_alg».proof.Proof.KernelIdeal.Bounds2
import proofs.«430609_j28260884807701_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: ten items from the launch to the return

The buffer contents at each boundary between two items are a fold through @main: `W0` at launch, `W1` … `W5` after the
first five host stretches, `W6` and `W7` at the two regions' exits, `W8`, `W9`, `W10` after the last three host stretches. -/

variable (hR : Runs0 F) (m : (ℓ : Loc nD τ sig) → Buf (Elt F) ℓ) (ρ : Dev nD → PrngReg)

/-! ## The proof data family -/

/-- Every pipeline's proof data, each at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V6 m ρ) c

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and what the core owes, which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves those
    references at the stretch's fold over `W`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W10 m ρ c) ∗ ∃ r, prngReg c r)

/-! ## The regions as segments -/

-- a library lemma stated over the pinned configuration unifies with the printed one only when unification may unfold
-- plain definitions in a metavariable's type
set_option backward.isDefEq.respectTransparency.types false in
/-- REGION 0 over the thread state: entered from every unscoped buffer at `W5`, left at `W6`. Its arrays are split out
    of the unscoped buffers and put back at the exit contents. The generator register and the scoped rest make the
    class invariant, which is the region's invariant before the first point; after the last point the region's
    invariant (the scratch buffers at the last point's contents) gives the class invariant back. Nothing owed; no
    semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) hR c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V5 m ρ) c)
    unfold Pipeline.ΦA
    iintro ⟨Hp, -, Hr⟩
    isplitl [Hr]; · iexact Hr
    iexact Hp
  hout c := by
    rw [Pipeline.ownSems0_none]
    refine BIBase.Entails.trans (hout0 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- as above
set_option backward.isDefEq.respectTransparency.types false in
/-- REGION 1 over the thread state: entered from every unscoped buffer at `W6` (region 0's exit), left at `W7`. Its
    invariant is the class's at every point. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's ten segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 hR m ρ),
    .region (reg1 m ρ),
    .host (hseg hostOps2 hostOps2_sub hostOps2_fresh (W7 m ρ)),
    .host (hseg hostOps2_1 hostOps2_1_sub hostOps2_1_fresh (W8 m ρ)),
    .host (hseg hostOps2_2 hostOps2_2_sub hostOps2_2_fresh (W9 m ρ)) ]

/-- @main IS the run of the segments: it is the chain of its ten items, and the segments' run is the chain of their
    fragments, which are those items. -/
theorem main_run (c : Dev nD) : main (F := F) c = Pipeline.Seg.run (segs hR m ρ) := by
  rw [main_chain c, Pipeline.Seg.run_eq_chain]; rfl

/-- The last segment's exit is the last thread state beside the core owing nothing (the same three conjuncts, regrouped). -/
theorem last_state (c : Dev nD) : iprop(StableHlo.held (c : Thread nD τ) (Pipeline.ucRefs τ sig) (W10 m ρ c) ∗ R c)
    ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

-- the launch theorem's implicit arguments are found by unifying its conclusion with this one, which takes unfolding
-- plain definitions in a metavariable's type
set_option backward.isDefEq.respectTransparency.types false in
include hR in
/-- THE RUN: at the compiled mesh, from any memory with zero counters, every weakly fair execution of @main on the
    TensorCores terminates, nothing faulting, and every final state has EVERY unscoped buffer of every core at the last
    boundary's contents `W10`: the launch over the ten segments, the last thread state read against the final state. -/
theorem run_all : θ_run defs (onTc (τ := τ) (main (F := F))) ⟨m, fun _ => 0, ρ⟩
    (fun r => ∀ c : Dev nD, ∀ b ∈ Pipeline.ucRefs τ sig, r.2.mem ((c : Thread nD τ).1, b) = W10 m ρ c b) :=
  Pipeline.θ_run_regions_kit (pcfgs (F := F)) adm (pdats m ρ) () cellOf_inj emb₁ defs₀ 𝒱₀ L lv m ρ main (segs hR m ρ)
    (fun c Q => by rw [main_run hR m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun _ h => h)

/-! ## The arguments end as launched

No host operation writes an argument, and a region reads one through an input window (whose array its write-backs never
touch) or not at all: the fold at an argument's buffer walks back, boundary by boundary, to the launch memory. -/

/-- `main_arg0` ends as launched: no host operation writes it, and each region reads it through input window 0. -/
theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := StableHlo.after_of_writes_sub hostOps2_2 _ hostOps2_2_writes (by decide)
    _ = W8 m ρ c (Proc.devRef .tc main_arg0) := StableHlo.after_of_writes_sub hostOps2_1 _ hostOps2_1_writes (by decide)
    _ = W7 m ρ c (Proc.devRef .tc main_arg0) := StableHlo.after_of_writes_sub hostOps2 _ hostOps2_writes (by decide)
    _ = W6 m ρ c (Proc.devRef .tc main_arg0) := (W7_arr m ρ c 0).trans (((dat1 (V6 m ρ) c).arrAt_in 0 rfl _).trans (A_eq1 (V6 m ρ) c 0))
    _ = W5 m ρ c (Proc.devRef .tc main_arg0) := (W6_arr m ρ c 0).trans (((dat0 (V5 m ρ) c).arrAt_in 0 rfl _).trans (A_eq0 (V5 m ρ) c 0))
    _ = W4 m ρ c (Proc.devRef .tc main_arg0) := StableHlo.after_of_writes_sub hostOps0_4 _ hostOps0_4_writes (by decide)
    _ = W3 m ρ c (Proc.devRef .tc main_arg0) := StableHlo.after_of_writes_sub hostOps0_3 _ hostOps0_3_writes (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

/-- `main_arg1` ends as launched: no host operation writes it, and no region has it as a window's array. -/
theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := StableHlo.after_of_writes_sub hostOps2_2 _ hostOps2_2_writes (by decide)
    _ = W8 m ρ c (Proc.devRef .tc main_arg1) := StableHlo.after_of_writes_sub hostOps2_1 _ hostOps2_1_writes (by decide)
    _ = W7 m ρ c (Proc.devRef .tc main_arg1) := StableHlo.after_of_writes_sub hostOps2 _ hostOps2_writes (by decide)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := StableHlo.after_of_writes_sub hostOps0_4 _ hostOps0_4_writes (by decide)
    _ = W3 m ρ c (Proc.devRef .tc main_arg1) := StableHlo.after_of_writes_sub hostOps0_3 _ hostOps0_3_writes (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

/-- `main_arg2` ends as launched: no host operation writes it, and no region has it as a window's array. -/
theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := StableHlo.after_of_writes_sub hostOps2_2 _ hostOps2_2_writes (by decide)
    _ = W8 m ρ c (Proc.devRef .tc main_arg2) := StableHlo.after_of_writes_sub hostOps2_1 _ hostOps2_1_writes (by decide)
    _ = W7 m ρ c (Proc.devRef .tc main_arg2) := StableHlo.after_of_writes_sub hostOps2 _ hostOps2_writes (by decide)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := StableHlo.after_of_writes_sub hostOps0_4 _ hostOps0_4_writes (by decide)
    _ = W3 m ρ c (Proc.devRef .tc main_arg2) := StableHlo.after_of_writes_sub hostOps0_3 _ hostOps0_3_writes (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

/-- `main_arg3` ends as launched: no host operation writes it, and each region reads it through input window 2. -/
theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := StableHlo.after_of_writes_sub hostOps2_2 _ hostOps2_2_writes (by decide)
    _ = W8 m ρ c (Proc.devRef .tc main_arg3) := StableHlo.after_of_writes_sub hostOps2_1 _ hostOps2_1_writes (by decide)
    _ = W7 m ρ c (Proc.devRef .tc main_arg3) := StableHlo.after_of_writes_sub hostOps2 _ hostOps2_writes (by decide)
    _ = W6 m ρ c (Proc.devRef .tc main_arg3) := (W7_arr m ρ c 2).trans (((dat1 (V6 m ρ) c).arrAt_in 2 rfl _).trans (A_eq1 (V6 m ρ) c 2))
    _ = W5 m ρ c (Proc.devRef .tc main_arg3) := (W6_arr m ρ c 2).trans (((dat0 (V5 m ρ) c).arrAt_in 2 rfl _).trans (A_eq0 (V5 m ρ) c 2))
    _ = W4 m ρ c (Proc.devRef .tc main_arg3) := StableHlo.after_of_writes_sub hostOps0_4 _ hostOps0_4_writes (by decide)
    _ = W3 m ρ c (Proc.devRef .tc main_arg3) := StableHlo.after_of_writes_sub hostOps0_3 _ hostOps0_3_writes (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

/-- `main_arg4` ends as launched: no host operation writes it, and each region reads it through input window 3. -/
theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := StableHlo.after_of_writes_sub hostOps2_2 _ hostOps2_2_writes (by decide)
    _ = W8 m ρ c (Proc.devRef .tc main_arg4) := StableHlo.after_of_writes_sub hostOps2_1 _ hostOps2_1_writes (by decide)
    _ = W7 m ρ c (Proc.devRef .tc main_arg4) := StableHlo.after_of_writes_sub hostOps2 _ hostOps2_writes (by decide)
    _ = W6 m ρ c (Proc.devRef .tc main_arg4) := (W7_arr m ρ c 3).trans (((dat1 (V6 m ρ) c).arrAt_in 3 rfl _).trans (A_eq1 (V6 m ρ) c 3))
    _ = W5 m ρ c (Proc.devRef .tc main_arg4) := (W6_arr m ρ c 3).trans (((dat0 (V5 m ρ) c).arrAt_in 3 rfl _).trans (A_eq0 (V5 m ρ) c 3))
    _ = W4 m ρ c (Proc.devRef .tc main_arg4) := StableHlo.after_of_writes_sub hostOps0_4 _ hostOps0_4_writes (by decide)
    _ = W3 m ρ c (Proc.devRef .tc main_arg4) := StableHlo.after_of_writes_sub hostOps0_3 _ hostOps0_3_writes (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

/-- `main_arg5` ends as launched: no host operation writes it, and no region has it as a window's array. -/
theorem W10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := StableHlo.after_of_writes_sub hostOps2_2 _ hostOps2_2_writes (by decide)
    _ = W8 m ρ c (Proc.devRef .tc main_arg5) := StableHlo.after_of_writes_sub hostOps2_1 _ hostOps2_1_writes (by decide)
    _ = W7 m ρ c (Proc.devRef .tc main_arg5) := StableHlo.after_of_writes_sub hostOps2 _ hostOps2_writes (by decide)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := StableHlo.after_of_writes_sub hostOps0_4 _ hostOps0_4_writes (by decide)
    _ = W3 m ρ c (Proc.devRef .tc main_arg5) := StableHlo.after_of_writes_sub hostOps0_3 _ hostOps0_3_writes (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

include hR in
/-- THE FRAME: every weakly fair execution of @main terminates and every final state has the six argument arrays as
    launched: each is an unscoped buffer, which the run leaves at `W10`, and `W10` there is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c)⟩) (run_all hR m ρ)

end Cert.KernelIdeal.Hand

end
-- ==== Proof.KernelIdeal.Run0A.lean ====
/-
  Region 0, case A: the body at chunk 0 of a row tile. On whole memrefs, the inputs it loads at their contents and the seven scratch buffers at anything, it runs to the continuation holding the inputs as they were and the scratch buffers at the reset's and the first head chunk's values (`scrA`).
-/
import proofs.«430609_j28260884807701_2_alg».proof.Proof.KernelIdeal.Cases0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a store at the origin, as the constant zero function. -/
private theorem hz2 : (![0, 0] : Fin 2 → Nat) = fun _ => 0 := funext fun a => by fin_cases a <;> rfl

set_option maxHeartbeats 4000000 in
theorem run0_A (c : Dev nD) (i : grid0.Coords) (arg2 : Memref sig .tc .vmem S64x256 .f32) (harg2 : arg2.IsWhole) (arg3 : Memref sig .tc .vmem S128x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S64x1 .i32) (harg7 : arg7.IsWhole) (arg8 : Memref sig .tc .vmem S64x1 .i32) (harg8 : arg8.IsWhole) (arg9 : Memref sig .tc .vmem S64x1 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x1 .f32) (harg12 : arg12.IsWhole) (arg13 : Memref sig .tc .vmem S64x256 .f32) (harg13 : arg13.IsWhole) (arg14 : Memref sig .tc .vmem S64x1 .f32) (harg14 : arg14.IsWhole) (arg15 : Memref sig .tc .vmem S64x1 .f32) (harg15 : arg15.IsWhole) (arg16 : Memref sig .tc .vmem S64x1 .f32) (harg16 : arg16.IsWhole) (arg17 : Memref sig .tc .vmem S64x1 .f32) (harg17 : arg17.IsWhole) (arg18 : Memref sig .tc .vmem S64x1 .f32) (harg18 : arg18.IsWhole) (arg19 : Memref sig .tc .vmem S64x1 .f32) (harg19 : arg19.IsWhole)
    (hc0 : cond0_0 i) (hc1 : cond0_1 i) (hc2 : ¬cond0_2 i) (hc3 : ¬cond0_3 i)
    (x0 : Vec F S64x256 .f32) (x1 : Vec F S128x256 .f32) (x2 : Vec F S256x256 .f32) (x3 : Vec F S256x256 .f32) (x4 : Vec F S1x256 .f32) (x5 : Vec F S64x1 .i32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg13 fullShare (scrA (chunkW i) x0 x1 x2 x3 x4 x5).hub ∗ owns (c : Thread nD τ) arg14 fullShare (scrA (chunkW i) x0 x1 x2 x3 x4 x5).mh ∗ owns (c : Thread nD τ) arg15 fullShare (scrA (chunkW i) x0 x1 x2 x3 x4 x5).lh ∗ owns (c : Thread nD τ) arg16 fullShare (scrA (chunkW i) x0 x1 x2 x3 x4 x5).gh ∗ owns (c : Thread nD τ) arg17 fullShare (scrA (chunkW i) x0 x1 x2 x3 x4 x5).mt ∗ owns (c : Thread nD τ) arg18 fullShare (scrA (chunkW i) x0 x1 x2 x3 x4 x5).lt ∗ owns (c : Thread nD τ) arg19 fullShare (scrA (chunkW i) x0 x1 x2 x3 x4 x5).gt) -∗ K ⟨⟩))
      ⊢ wp frame (wpE (defs₀ (F := F)) Variants.none c none) E (cc0__fused_stats_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__fused_stats_kernel_eq_skeleton]; unfold cc0__fused_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0 | exact hc1 | exact hc2 | exact hc3)
  sl_step
  iapply Hk
  -- an input's buffer holds what was read from it
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  -- h · U + b: one store over the whole buffer; the loads in its payload read the inputs
  isplitl [H13]
  · iexists _; isplitr; swap; · iexact H13
    ipureintro
    sl_unfold_words
    refine (View.read_writes_eq_canon _ _ _ (fun y => ⟨_, List.mem_singleton_self _, View.mem_set_unit_zero hz2 inb_S64x256_S64x256_0_0 y⟩)).trans ?_
    rw [View.canon_unit_zero (S := S64x256) hz2]
    simp only [View.readAt_eq_ld, harg2.read_unread, harg3.read_unread, harg4.read_unread, harg5.read_unread, harg6.read_unread, harg7.read_unread, View.ld_unit_zero (S := S64x256) hz2, View.ld_unit_zero (S := S128x256) hz2, View.ld_unit_zero (S := S256x256) hz2, View.ld_unit_zero (S := S1x256) hz2, View.ld_unit_zero (S := S64x1) hz2, View.readCov_unit_zero (S := S64x256) _ hz2, View.readCov_unit_zero (S := S64x1) _ hz2]
    rfl
  -- the head level (m, l, g): the chunk's store covers the whole buffer, so the reset's store under it is not seen;
  -- a load made after the reset's store reads that store's value (−∞, 0, 0), and the scores read the stored h · U + b
  isplitl [H14]
  · iexists _; isplitr; swap; · iexact H14
    ipureintro
    sl_unfold_words
    refine (View.read_writes_eq_canon _ _ _ (fun y => ⟨_, List.mem_cons_self, View.mem_set_unit_zero hz2 inb_S64x1_S64x1_0_0 y⟩)).trans ?_
    rw [View.canon_cons_unit_zero (S := S64x1) hz2]
    simp only [View.readAt_eq_ld, harg2.read_unread, harg3.read_unread, harg4.read_unread, harg5.read_unread, harg6.read_unread, harg7.read_unread, View.ld_unit_zero (S := S64x256) hz2, View.ld_unit_zero (S := S128x256) hz2, View.ld_unit_zero (S := S256x256) hz2, View.ld_unit_zero (S := S1x256) hz2, View.ld_unit_zero (S := S64x1) hz2, View.readCov_unit_zero (S := S64x256) _ hz2, View.readCov_unit_zero (S := S64x1) _ hz2]
    rfl
  isplitl [H15]
  · iexists _; isplitr; swap; · iexact H15
    ipureintro
    sl_unfold_words
    refine (View.read_writes_eq_canon _ _ _ (fun y => ⟨_, List.mem_cons_self, View.mem_set_unit_zero hz2 inb_S64x1_S64x1_0_0 y⟩)).trans ?_
    rw [View.canon_cons_unit_zero (S := S64x1) hz2]
    simp only [View.readAt_eq_ld, harg2.read_unread, harg3.read_unread, harg4.read_unread, harg5.read_unread, harg6.read_unread, harg7.read_unread, View.ld_unit_zero (S := S64x256) hz2, View.ld_unit_zero (S := S128x256) hz2, View.ld_unit_zero (S := S256x256) hz2, View.ld_unit_zero (S := S1x256) hz2, View.ld_unit_zero (S := S64x1) hz2, View.readCov_unit_zero (S := S64x256) _ hz2, View.readCov_unit_zero (S := S64x1) _ hz2]
    rfl
  isplitl [H16]
  · iexists _; isplitr; swap; · iexact H16
    ipureintro
    sl_unfold_words
    refine (View.read_writes_eq_canon _ _ _ (fun y => ⟨_, List.mem_cons_self, View.mem_set_unit_zero hz2 inb_S64x1_S64x1_0_0 y⟩)).trans ?_
    rw [View.canon_cons_unit_zero (S := S64x1) hz2]
    simp only [View.readAt_eq_ld, harg2.read_unread, harg3.read_unread, harg4.read_unread, harg5.read_unread, harg6.read_unread, harg7.read_unread, View.ld_unit_zero (S := S64x256) hz2, View.ld_unit_zero (S := S128x256) hz2, View.ld_unit_zero (S := S256x256) hz2, View.ld_unit_zero (S := S1x256) hz2, View.ld_unit_zero (S := S64x1) hz2, View.readCov_unit_zero (S := S64x256) _ hz2, View.readCov_unit_zero (S := S64x1) _ hz2]
    rfl
  -- the tail level (m, l, g): the reset's one store over the whole buffer
  isplitl [H17]
  · iexists _; isplitr; swap; · iexact H17
    ipureintro
    refine (View.read_writes_eq_canon _ _ _ (fun y => ⟨_, List.mem_singleton_self _, View.mem_set_unit_zero hz2 inb_S64x1_S64x1_0_0 y⟩)).trans ?_
    rw [View.canon_unit_zero (S := S64x1) hz2]
    rfl
  isplitl [H18]
  · iexists _; isplitr; swap; · iexact H18
    ipureintro
    refine (View.read_writes_eq_canon _ _ _ (fun y => ⟨_, List.mem_singleton_self _, View.mem_set_unit_zero hz2 inb_S64x1_S64x1_0_0 y⟩)).trans ?_
    rw [View.canon_unit_zero (S := S64x1) hz2]
    rfl
  iexists _; isplitr; swap; · iexact H19
  ipureintro
  refine (View.read_writes_eq_canon _ _ _ (fun y => ⟨_, List.mem_singleton_self _, View.mem_set_unit_zero hz2 inb_S64x1_S64x1_0_0 y⟩)).trans ?_
  rw [View.canon_unit_zero (S := S64x1) hz2]
  rfl

end Cert.KernelIdeal.Hand

end
-- ==== Proof.KernelIdeal.Run0B.lean ====
/-
  Region 0, case B: the body at a head chunk 1 … 15. On whole memrefs, the inputs it loads at their contents, h · U + b and the head level's three scratch buffers at what the point before left (`s`), it runs to the continuation holding the inputs and h · U + b as they were and the head level at the chunk's update (`scrB`). The tail level's buffers are not touched and do not appear.
-/
import proofs.«430609_j28260884807701_2_alg».proof.Proof.KernelIdeal.Cases0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a store at the origin, as the constant zero function. -/
private theorem hz2 : (![0, 0] : Fin 2 → Nat) = fun _ => 0 := funext fun a => by fin_cases a <;> rfl

set_option maxHeartbeats 4000000 in
theorem run0_B (c : Dev nD) (i : grid0.Coords) (arg2 : Memref sig .tc .vmem S64x256 .f32) (harg2 : arg2.IsWhole) (arg3 : Memref sig .tc .vmem S128x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S64x1 .i32) (harg7 : arg7.IsWhole) (arg8 : Memref sig .tc .vmem S64x1 .i32) (harg8 : arg8.IsWhole) (arg9 : Memref sig .tc .vmem S64x1 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x1 .f32) (harg12 : arg12.IsWhole) (arg13 : Memref sig .tc .vmem S64x256 .f32) (harg13 : arg13.IsWhole) (arg14 : Memref sig .tc .vmem S64x1 .f32) (harg14 : arg14.IsWhole) (arg15 : Memref sig .tc .vmem S64x1 .f32) (harg15 : arg15.IsWhole) (arg16 : Memref sig .tc .vmem S64x1 .f32) (harg16 : arg16.IsWhole) (arg17 : Memref sig .tc .vmem S64x1 .f32) (harg17 : arg17.IsWhole) (arg18 : Memref sig .tc .vmem S64x1 .f32) (harg18 : arg18.IsWhole) (arg19 : Memref sig .tc .vmem S64x1 .f32) (harg19 : arg19.IsWhole)
    (hc0 : ¬cond0_0 i) (hc1 : cond0_1 i) (hc2 : ¬cond0_2 i) (hc3 : ¬cond0_3 i)
    (x0 : Vec F S64x256 .f32) (x1 : Vec F S128x256 .f32) (x2 : Vec F S256x256 .f32) (x5 : Vec F S64x1 .i32) (s : Scr F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg7 fullShare x5
        ∗ owns (c : Thread nD τ) arg13 fullShare s.hub ∗ owns (c : Thread nD τ) arg14 fullShare s.mh ∗ owns (c : Thread nD τ) arg15 fullShare s.lh ∗ owns (c : Thread nD τ) arg16 fullShare s.gh
        ∗ (iprop(owns (c : Thread nD τ) arg2 fullShare x0 ∗ owns (c : Thread nD τ) arg3 fullShare x1 ∗ owns (c : Thread nD τ) arg4 fullShare x2 ∗ owns (c : Thread nD τ) arg7 fullShare x5
            ∗ owns (c : Thread nD τ) arg13 fullShare s.hub ∗ owns (c : Thread nD τ) arg14 fullShare (scrB (chunkW i) x0 x1 x2 x5 s).mh ∗ owns (c : Thread nD τ) arg15 fullShare (scrB (chunkW i) x0 x1 x2 x5 s).lh ∗ owns (c : Thread nD τ) arg16 fullShare (scrB (chunkW i) x0 x1 x2 x5 s).gh) -∗ K ⟨⟩))
      ⊢ wp frame (wpE (defs₀ (F := F)) Variants.none c none) E (cc0__fused_stats_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__fused_stats_kernel_eq_skeleton]; unfold cc0__fused_stats_kernel_skel
  unfold owns
  iintro ⟨⟨%f0, %hf0, H0⟩, ⟨%f1, %hf1, H1⟩, ⟨%f2, %hf2, H2⟩, ⟨%f5, %hf5, H5⟩, ⟨%f13, %hf13, H13⟩, ⟨%f14, %hf14, H14⟩, ⟨%f15, %hf15, H15⟩, ⟨%f16, %hf16, H16⟩, Hk⟩
  obtain rfl := harg2.eq_unread hf0; obtain rfl := harg3.eq_unread hf1; obtain rfl := harg4.eq_unread hf2; obtain rfl := harg7.eq_unread hf5
  obtain rfl := harg13.eq_unread hf13; obtain rfl := harg14.eq_unread hf14; obtain rfl := harg15.eq_unread hf15; obtain rfl := harg16.eq_unread hf16
  sl_exec (disch := first | exact hc0 | exact hc1 | exact hc2 | exact hc3)
  sl_step
  iapply Hk
  -- an input's buffer, and h · U + b, hold what was read from them
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr; · ipureintro; exact harg7.read_unread _
    iexact H5
  isplitl [H13]
  · iexists _; isplitr; · ipureintro; exact harg13.read_unread _
    iexact H13
  -- the head level (m, l, g): one store over the whole buffer each, made after every load of that buffer, so the loads
  -- in its payload read what the point before left
  isplitl [H14]
  · iexists _; isplitr; swap; · iexact H14
    ipureintro
    sl_unfold_words
    refine (View.read_writes_eq_canon _ _ _ (fun y => ⟨_, List.mem_singleton_self _, View.mem_set_unit_zero hz2 inb_S64x1_S64x1_0_0 y⟩)).trans ?_
    rw [View.canon_unit_zero (S := S64x1) hz2]
    simp only [View.readAt_eq_ld, harg2.read_unread, harg3.read_unread, harg4.read_unread, harg7.read_unread, harg13.read_unread, harg14.read_unread, harg15.read_unread, harg16.read_unread, View.ld_unit_zero (S := S64x256) hz2, View.ld_unit_zero (S := S128x256) hz2, View.ld_unit_zero (S := S256x256) hz2, View.ld_unit_zero (S := S64x1) hz2]
    rfl
  isplitl [H15]
  · iexists _; isplitr; swap; · iexact H15
    ipureintro
    sl_unfold_words
    refine (View.read_writes_eq_canon _ _ _ (fun y => ⟨_, List.mem_singleton_self _, View.mem_set_unit_zero hz2 inb_S64x1_S64x1_0_0 y⟩)).trans ?_
    rw [View.canon_unit_zero (S := S64x1) hz2]
    simp only [View.readAt_eq_ld, harg2.read_unread, harg3.read_unread, harg4.read_unread, harg7.read_unread, harg13.read_unread, harg14.read_unread, harg15.read_unread, harg16.read_unread, View.ld_unit_zero (S := S64x256) hz2, View.ld_unit_zero (S := S128x256) hz2, View.ld_unit_zero (S := S256x256) hz2, View.ld_unit_zero (S := S64x1) hz2]
    rfl
  iexists _; isplitr; swap; · iexact H16
  ipureintro
  sl_unfold_words
  refine (View.read_writes_eq_canon _ _ _ (fun y => ⟨_, List.mem_singleton_self _, View.mem_set_unit_zero hz2 inb_S64x1_S64x1_0_0 y⟩)).trans ?_
  rw [View.canon_unit_zero (S := S64x1) hz2]
  simp only [View.readAt_eq_ld, harg2.read_unread, harg3.read_unread, harg4.read_unread, harg7.read_unread, harg13.read_unread, harg14.read_unread, harg15.read_unread, harg16.read_unread, View.ld_unit_zero (S := S64x256) hz2, View.ld_unit_zero (S := S128x256) hz2, View.ld_unit_zero (S := S256x256) hz2, View.ld_unit_zero (S := S64x1) hz2]
  rfl

end Cert.KernelIdeal.Hand

end
-- ==== Proof.KernelIdeal.Run0C.lean ====
/-
  Region 0, case C: the body at a tail chunk 16 … 46. On whole memrefs, the inputs it loads at their contents, h · U + b and the tail level's three scratch buffers at what the point before left (`s`), it runs to the continuation holding the inputs and h · U + b as they were and the tail level at the chunk's update (`scrC`). The head level's buffers are not touched and do not appear.
-/
import proofs.«430609_j28260884807701_2_alg».proof.Proof.KernelIdeal.Cases0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two zero offsets, spelt as the constant function. -/
private theorem hz : (![0, 0] : Fin 2 → Nat) = fun _ => 0 := funext fun a => by fin_cases a <;> rfl

/-- One store through the whole-shape rectangle at zero offsets leaves its payload, whatever the buffer held. -/
private theorem read_store_whole {S : Shape} {e : EltTy} (v : View sig .tc .vmem S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

set_option maxHeartbeats 4000000 in
theorem run0_C (c : Dev nD) (i : grid0.Coords) (arg2 : Memref sig .tc .vmem S64x256 .f32) (harg2 : arg2.IsWhole) (arg3 : Memref sig .tc .vmem S128x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S64x1 .i32) (harg7 : arg7.IsWhole) (arg8 : Memref sig .tc .vmem S64x1 .i32) (harg8 : arg8.IsWhole) (arg9 : Memref sig .tc .vmem S64x1 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x1 .f32) (harg12 : arg12.IsWhole) (arg13 : Memref sig .tc .vmem S64x256 .f32) (harg13 : arg13.IsWhole) (arg14 : Memref sig .tc .vmem S64x1 .f32) (harg14 : arg14.IsWhole) (arg15 : Memref sig .tc .vmem S64x1 .f32) (harg15 : arg15.IsWhole) (arg16 : Memref sig .tc .vmem S64x1 .f32) (harg16 : arg16.IsWhole) (arg17 : Memref sig .tc .vmem S64x1 .f32) (harg17 : arg17.IsWhole) (arg18 : Memref sig .tc .vmem S64x1 .f32) (harg18 : arg18.IsWhole) (arg19 : Memref sig .tc .vmem S64x1 .f32) (harg19 : arg19.IsWhole)
    (hc0 : ¬cond0_0 i) (hc1 : ¬cond0_1 i) (hc2 : cond0_2 i) (hc3 : ¬cond0_3 i)
    (x0 : Vec F S64x256 .f32) (x1 : Vec F S128x256 .f32) (x2 : Vec F S256x256 .f32) (x6 : Vec F S64x1 .i32) (s : Scr F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg8 fullShare x6
        ∗ owns (c : Thread nD τ) arg13 fullShare s.hub ∗ owns (c : Thread nD τ) arg17 fullShare s.mt ∗ owns (c : Thread nD τ) arg18 fullShare s.lt ∗ owns (c : Thread nD τ) arg19 fullShare s.gt
        ∗ (iprop(owns (c : Thread nD τ) arg2 fullShare x0 ∗ owns (c : Thread nD τ) arg3 fullShare x1 ∗ owns (c : Thread nD τ) arg4 fullShare x2 ∗ owns (c : Thread nD τ) arg8 fullShare x6
            ∗ owns (c : Thread nD τ) arg13 fullShare s.hub ∗ owns (c : Thread nD τ) arg17 fullShare (scrC (chunkW i) x0 x1 x2 x6 s).mt ∗ owns (c : Thread nD τ) arg18 fullShare (scrC (chunkW i) x0 x1 x2 x6 s).lt ∗ owns (c : Thread nD τ) arg19 fullShare (scrC (chunkW i) x0 x1 x2 x6 s).gt) -∗ K ⟨⟩))
      ⊢ wp frame (wpE (defs₀ (F := F)) Variants.none c none) E (cc0__fused_stats_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__fused_stats_kernel_eq_skeleton]; unfold cc0__fused_stats_kernel_skel
  unfold owns
  iintro ⟨⟨%f0, %hf0, H0⟩, ⟨%f1, %hf1, H1⟩, ⟨%f2, %hf2, H2⟩, ⟨%f6, %hf6, H6⟩, ⟨%fs0, %hfs0, HS0⟩, ⟨%fs4, %hfs4, HS4⟩, ⟨%fs5, %hfs5, HS5⟩, ⟨%fs6, %hfs6, HS6⟩, Hk⟩
  obtain rfl := harg2.eq_unread hf0; obtain rfl := harg3.eq_unread hf1; obtain rfl := harg4.eq_unread hf2; obtain rfl := harg8.eq_unread hf6
  obtain rfl := harg13.eq_unread hfs0; obtain rfl := harg17.eq_unread hfs4; obtain rfl := harg18.eq_unread hfs5; obtain rfl := harg19.eq_unread hfs6
  sl_exec (disch := first | exact hc0 | exact hc1 | exact hc2 | exact hc3)
  sl_step
  iapply Hk
  -- the inputs and h · U + b were only loaded: each buffer is still its read contents
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H6]
  · iexists _; isplitr; · ipureintro; exact harg8.read_unread _
    iexact H6
  isplitl [HS0]
  · iexists _; isplitr; · ipureintro; exact harg13.read_unread _
    iexact HS0
  -- the tail level: each buffer holds the payload of its one whole-buffer store, whose loads read the contents
  -- the point began with
  isplitl [HS4]
  · iexists _; isplitr; swap; · iexact HS4
    ipureintro
    rw [read_store_whole _ _ hz]
    sl_unfold_words
    simp only [View.readAt_eq_ld, harg2.read_unread, harg3.read_unread, harg4.read_unread, harg13.read_unread, harg17.read_unread,
      View.ld_unit_zero (S := S64x256) hz, View.ld_unit_zero (S := S128x256) hz, View.ld_unit_zero (S := S256x256) hz, View.ld_unit_zero (S := S64x1) hz]
    rfl
  isplitl [HS5]
  · iexists _; isplitr; swap; · iexact HS5
    ipureintro
    rw [read_store_whole _ _ hz]
    sl_unfold_words
    simp only [View.readAt_eq_ld, harg2.read_unread, harg3.read_unread, harg4.read_unread, harg13.read_unread, harg17.read_unread, harg18.read_unread,
      View.ld_unit_zero (S := S64x256) hz, View.ld_unit_zero (S := S128x256) hz, View.ld_unit_zero (S := S256x256) hz, View.ld_unit_zero (S := S64x1) hz]
    rfl
  · iexists _; isplitr; swap; · iexact HS6
    ipureintro
    rw [read_store_whole _ _ hz]
    sl_unfold_words
    simp only [View.readAt_eq_ld, harg2.read_unread, harg3.read_unread, harg4.read_unread, harg8.read_unread, harg13.read_unread, harg19.read_unread,
      View.ld_unit_zero (S := S64x256) hz, View.ld_unit_zero (S := S128x256) hz, View.ld_unit_zero (S := S256x256) hz, View.ld_unit_zero (S := S64x1) hz]
    rfl

end Cert.KernelIdeal.Hand

end
-- ==== Proof.KernelIdeal.Run0D.lean ====
/-
  Region 0, case D: the body at the last chunk 47: a tail chunk, then the four results. On whole memrefs, the inputs it loads at their contents, all seven scratch buffers at what the point before left (`s`) and the four result buffers at anything, it runs to the continuation holding the inputs, h · U + b and the head level as they were, the tail level at the chunk's update (`scrC`), and the result buffers at  m_head + log l_head,  g_head,  m_tail + log l_tail,  g_tail  of the updated scratch.
-/
import proofs.«430609_j28260884807701_2_alg».proof.Proof.KernelIdeal.Cases0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two zero offsets, spelt as the constant function. -/
private theorem hz : (![0, 0] : Fin 2 → Nat) = fun _ => 0 := funext fun a => by fin_cases a <;> rfl

/-- One store through the whole-shape rectangle at zero offsets leaves its payload, whatever the buffer held. -/
private theorem read_store_whole {S : Shape} {e : EltTy} (v : View sig .tc .vmem S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

set_option maxHeartbeats 4000000 in
theorem run0_D (c : Dev nD) (i : grid0.Coords) (arg2 : Memref sig .tc .vmem S64x256 .f32) (harg2 : arg2.IsWhole) (arg3 : Memref sig .tc .vmem S128x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S64x1 .i32) (harg7 : arg7.IsWhole) (arg8 : Memref sig .tc .vmem S64x1 .i32) (harg8 : arg8.IsWhole) (arg9 : Memref sig .tc .vmem S64x1 .f32) (harg9 : arg9.IsWhole) (arg10 : Memref sig .tc .vmem S64x1 .f32) (harg10 : arg10.IsWhole) (arg11 : Memref sig .tc .vmem S64x1 .f32) (harg11 : arg11.IsWhole) (arg12 : Memref sig .tc .vmem S64x1 .f32) (harg12 : arg12.IsWhole) (arg13 : Memref sig .tc .vmem S64x256 .f32) (harg13 : arg13.IsWhole) (arg14 : Memref sig .tc .vmem S64x1 .f32) (harg14 : arg14.IsWhole) (arg15 : Memref sig .tc .vmem S64x1 .f32) (harg15 : arg15.IsWhole) (arg16 : Memref sig .tc .vmem S64x1 .f32) (harg16 : arg16.IsWhole) (arg17 : Memref sig .tc .vmem S64x1 .f32) (harg17 : arg17.IsWhole) (arg18 : Memref sig .tc .vmem S64x1 .f32) (harg18 : arg18.IsWhole) (arg19 : Memref sig .tc .vmem S64x1 .f32) (harg19 : arg19.IsWhole)
    (hc0 : ¬cond0_0 i) (hc1 : ¬cond0_1 i) (hc2 : cond0_2 i) (hc3 : cond0_3 i)
    (x0 : Vec F S64x256 .f32) (x1 : Vec F S128x256 .f32) (x2 : Vec F S256x256 .f32) (x6 : Vec F S64x1 .i32) (s : Scr F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg8 fullShare x6
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ owns (c : Thread nD τ) arg13 fullShare s.hub ∗ owns (c : Thread nD τ) arg14 fullShare s.mh ∗ owns (c : Thread nD τ) arg15 fullShare s.lh ∗ owns (c : Thread nD τ) arg16 fullShare s.gh ∗ owns (c : Thread nD τ) arg17 fullShare s.mt ∗ owns (c : Thread nD τ) arg18 fullShare s.lt ∗ owns (c : Thread nD τ) arg19 fullShare s.gt
        ∗ (iprop(owns (c : Thread nD τ) arg2 fullShare x0 ∗ owns (c : Thread nD τ) arg3 fullShare x1 ∗ owns (c : Thread nD τ) arg4 fullShare x2 ∗ owns (c : Thread nD τ) arg8 fullShare x6
            ∗ owns (c : Thread nD τ) arg9 fullShare (outLseH (scrC (chunkW i) x0 x1 x2 x6 s)) ∗ owns (c : Thread nD τ) arg10 fullShare (outGH (scrC (chunkW i) x0 x1 x2 x6 s)) ∗ owns (c : Thread nD τ) arg11 fullShare (outLseT (scrC (chunkW i) x0 x1 x2 x6 s)) ∗ owns (c : Thread nD τ) arg12 fullShare (outGT (scrC (chunkW i) x0 x1 x2 x6 s))
            ∗ owns (c : Thread nD τ) arg13 fullShare s.hub ∗ owns (c : Thread nD τ) arg14 fullShare s.mh ∗ owns (c : Thread nD τ) arg15 fullShare s.lh ∗ owns (c : Thread nD τ) arg16 fullShare s.gh ∗ owns (c : Thread nD τ) arg17 fullShare (scrC (chunkW i) x0 x1 x2 x6 s).mt ∗ owns (c : Thread nD τ) arg18 fullShare (scrC (chunkW i) x0 x1 x2 x6 s).lt ∗ owns (c : Thread nD τ) arg19 fullShare (scrC (chunkW i) x0 x1 x2 x6 s).gt) -∗ K ⟨⟩))
      ⊢ wp frame (wpE (defs₀ (F := F)) Variants.none c none) E (cc0__fused_stats_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__fused_stats_kernel_eq_skeleton]; unfold cc0__fused_stats_kernel_skel
  unfold owns
  iintro ⟨⟨%f0, %hf0, H0⟩, ⟨%f1, %hf1, H1⟩, ⟨%f2, %hf2, H2⟩, ⟨%f6, %hf6, H6⟩, ⟨%d7, %fo7, -, HO7⟩, ⟨%d8, %fo8, -, HO8⟩, ⟨%d9, %fo9, -, HO9⟩, ⟨%d10, %fo10, -, HO10⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, Hk⟩
  obtain rfl := harg2.eq_unread hf0; obtain rfl := harg3.eq_unread hf1; obtain rfl := harg4.eq_unread hf2; obtain rfl := harg8.eq_unread hf6
  obtain rfl := harg13.eq_unread hfs0; obtain rfl := harg14.eq_unread hfs1; obtain rfl := harg15.eq_unread hfs2; obtain rfl := harg16.eq_unread hfs3
  obtain rfl := harg17.eq_unread hfs4; obtain rfl := harg18.eq_unread hfs5; obtain rfl := harg19.eq_unread hfs6
  sl_exec (disch := first | exact hc0 | exact hc1 | exact hc2 | exact hc3)
  sl_step
  iapply Hk
  -- the inputs were only loaded: each buffer is still its read contents
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H6]
  · iexists _; isplitr; · ipureintro; exact harg8.read_unread _
    iexact H6
  -- the four results: each buffer holds the payload of its one whole-buffer store, whose loads read the head level
  -- as the point found it and the tail level as the chunk's update has just left it
  isplitl [HO7]
  · iexists _; isplitr; swap; · iexact HO7
    ipureintro
    sl_unfold_words
    rw [read_store_whole _ _ hz]
    simp only [View.readAt_eq_ld, View.readCov_unit_zero (S := S64x1) _ hz, harg2.read_unread, harg3.read_unread, harg4.read_unread, harg8.read_unread, harg13.read_unread, harg14.read_unread, harg15.read_unread, harg16.read_unread, harg17.read_unread, harg18.read_unread, harg19.read_unread,
      View.ld_unit_zero (S := S64x256) hz, View.ld_unit_zero (S := S128x256) hz, View.ld_unit_zero (S := S256x256) hz, View.ld_unit_zero (S := S64x1) hz]
    rfl
  isplitl [HO8]
  · iexists _; isplitr; swap; · iexact HO8
    ipureintro
    sl_unfold_words
    rw [read_store_whole _ _ hz]
    simp only [View.readAt_eq_ld, View.readCov_unit_zero (S := S64x1) _ hz, harg2.read_unread, harg3.read_unread, harg4.read_unread, harg8.read_unread, harg13.read_unread, harg14.read_unread, harg15.read_unread, harg16.read_unread, harg17.read_unread, harg18.read_unread, harg19.read_unread,
      View.ld_unit_zero (S := S64x256) hz, View.ld_unit_zero (S := S128x256) hz, View.ld_unit_zero (S := S256x256) hz, View.ld_unit_zero (S := S64x1) hz]
    rfl
  isplitl [HO9]
  · iexists _; isplitr; swap; · iexact HO9
    ipureintro
    sl_unfold_words
    rw [read_store_whole _ _ hz]
    simp only [View.readAt_eq_ld, View.readCov_unit_zero (S := S64x1) _ hz, harg2.read_unread, harg3.read_unread, harg4.read_unread, harg8.read_unread, harg13.read_unread, harg14.read_unread, harg15.read_unread, harg16.read_unread, harg17.read_unread, harg18.read_unread, harg19.read_unread,
      View.ld_unit_zero (S := S64x256) hz, View.ld_unit_zero (S := S128x256) hz, View.ld_unit_zero (S := S256x256) hz, View.ld_unit_zero (S := S64x1) hz]
    rfl
  isplitl [HO10]
  · iexists _; isplitr; swap; · iexact HO10
    ipureintro
    sl_unfold_words
    rw [read_store_whole _ _ hz]
    simp only [View.readAt_eq_ld, View.readCov_unit_zero (S := S64x1) _ hz, harg2.read_unread, harg3.read_unread, harg4.read_unread, harg8.read_unread, harg13.read_unread, harg14.read_unread, harg15.read_unread, harg16.read_unread, harg17.read_unread, harg18.read_unread, harg19.read_unread,
      View.ld_unit_zero (S := S64x256) hz, View.ld_unit_zero (S := S128x256) hz, View.ld_unit_zero (S := S256x256) hz, View.ld_unit_zero (S := S64x1) hz]
    rfl
  -- h · U + b and the head level were only loaded
  isplitl [HS0]
  · iexists _; isplitr; · ipureintro; exact harg13.read_unread _
    iexact HS0
  isplitl [HS1]
  · iexists _; isplitr; · ipureintro; exact harg14.read_unread _
    iexact HS1
  isplitl [HS2]
  · iexists _; isplitr; · ipureintro; exact harg15.read_unread _
    iexact HS2
  isplitl [HS3]
  · iexists _; isplitr; · ipureintro; exact harg16.read_unread _
    iexact HS3
  -- the tail level: each buffer holds the payload of its one whole-buffer store, whose loads read the contents
  -- the point began with
  isplitl [HS4]
  · iexists _; isplitr; swap; · iexact HS4
    ipureintro
    sl_unfold_words
    rw [read_store_whole _ _ hz]
    simp only [View.readAt_eq_ld, View.readCov_unit_zero (S := S64x1) _ hz, harg2.read_unread, harg3.read_unread, harg4.read_unread, harg8.read_unread, harg13.read_unread, harg14.read_unread, harg15.read_unread, harg16.read_unread, harg17.read_unread, harg18.read_unread, harg19.read_unread,
      View.ld_unit_zero (S := S64x256) hz, View.ld_unit_zero (S := S128x256) hz, View.ld_unit_zero (S := S256x256) hz, View.ld_unit_zero (S := S64x1) hz]
    rfl
  isplitl [HS5]
  · iexists _; isplitr; swap; · iexact HS5
    ipureintro
    sl_unfold_words
    rw [read_store_whole _ _ hz]
    simp only [View.readAt_eq_ld, View.readCov_unit_zero (S := S64x1) _ hz, harg2.read_unread, harg3.read_unread, harg4.read_unread, harg8.read_unread, harg13.read_unread, harg14.read_unread, harg15.read_unread, harg16.read_unread, harg17.read_unread, harg18.read_unread, harg19.read_unread,
      View.ld_unit_zero (S := S64x256) hz, View.ld_unit_zero (S := S128x256) hz, View.ld_unit_zero (S := S256x256) hz, View.ld_unit_zero (S := S64x1) hz]
    rfl
  · iexists _; isplitr; swap; · iexact HS6
    ipureintro
    sl_unfold_words
    rw [read_store_whole _ _ hz]
    simp only [View.readAt_eq_ld, View.readCov_unit_zero (S := S64x1) _ hz, harg2.read_unread, harg3.read_unread, harg4.read_unread, harg8.read_unread, harg13.read_unread, harg14.read_unread, harg15.read_unread, harg16.read_unread, harg17.read_unread, harg18.read_unread, harg19.read_unread,
      View.ld_unit_zero (S := S64x256) hz, View.ld_unit_zero (S := S128x256) hz, View.ld_unit_zero (S := S256x256) hz, View.ld_unit_zero (S := S64x1) hz]
    rfl

end Cert.KernelIdeal.Hand

end
-- ==== Proof.KernelIdeal.Runs0All.lean ====
/-
  Region 0: the four cases' runs, proved in their own modules, bundled as the hypothesis the proof data and the run of
  @main are stated over.
-/
import proofs.«430609_j28260884807701_2_alg».proof.Proof.KernelIdeal.Runs0Stmt
import proofs.«430609_j28260884807701_2_alg».proof.Proof.KernelIdeal.Run0A
import proofs.«430609_j28260884807701_2_alg».proof.Proof.KernelIdeal.Run0B
import proofs.«430609_j28260884807701_2_alg».proof.Proof.KernelIdeal.Run0C
import proofs.«430609_j28260884807701_2_alg».proof.Proof.KernelIdeal.Run0D

set_option maxRecDepth 16384

noncomputable section

namespace Cert.KernelIdeal.Hand

open Cert.KernelIdeal Cert.KernelIdeal.Gen
open Idealize.ShloMosaic

variable {F : FTy → Type} [FloatOps F]

/-- Every case of the body runs as stated. -/
theorem runs0 : Runs0 F where
  A := fun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 => run0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3
  B := fun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 => run0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3
  C := fun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 => run0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3
  D := fun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3 => run0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 hc3

end Cert.KernelIdeal.Hand

end
-- ==== Proof.Spec.lean ====
/-
  The mathematics both programs compute, with no program in scope.

  For a hidden row `n` and a vocabulary word `j` the score is
    k n j = 65 / (1 + Σ_d (h n d − tanh ((emb j · W) d + ((h n · U) d + b d)))²).
  The loss of row `n` with target `t` is a two-level cross entropy over these scores: the head level is the
  softmax over words 0 … 2047 together with the one extra word 6144, the tail level the softmax over words
  2048 … 6143. A head target pays  −(k n t − LSE_head);  a tail target pays
  −((k n 6144 − LSE_head) + (k n t − LSE_tail)).  The result is the mean of the 128 rows' losses.

  The two programs arrange this differently. One walks the 6144 words in 48 chunks of 128 and keeps, per row and per
  level, a running maximum `m`, a running sum `l` of exponentials taken relative to `m` (rescaled by exp (m − m')
  whenever the maximum moves to `m'`), and a running masked sum `g` that picks out the target's score; it then joins
  the 2048-word head sum with word 6144 by one more max / exp / log step. The other subtracts a level's maximum from
  every score of the level, sums the exponentials, takes the logarithm and subtracts. `stateAt` / `kernelRow` and
  `logSoftmax` / `refRow` below spell the two arrangements operation by operation on the extended reals; that they
  agree on real-valued scores is `rows_agree` (proved in another module from exp (a + b) = exp a · exp b and
  log (exp a) = a).
-/
import Idealize.ShloMosaic.PureOps.Ideal
import Idealize.ShloMosaic.PureOps.Vector
import Idealize.ShloMosaic.Lib.ValueIdx

noncomputable section

namespace Cert.Spec

open Idealize.ShloMosaic

/-! ## The literals, as the words both programs print -/

abbrev cNegInf : EReal := Ideal.ofBits .f32 0xFF800000#32
abbrev c0 : EReal := Ideal.ofBits .f32 0x00000000#32
abbrev c1 : EReal := Ideal.ofBits .f32 0x3F800000#32
abbrev c65 : EReal := Ideal.ofBits .f32 0x42820000#32
abbrev c128 : EReal := Ideal.ofBits .f32 0x43000000#32

/-! ## Arrays read by coordinates -/

/-- A rank-2 array as a function of its two coordinates. -/
def cur2 {α : Type} {a b : Nat} (x : (⟨2, ![a, b]⟩ : Shape).Idx → α) (p : Fin a) (q : Fin b) : α := x (ValueIdx.ix2 p q)
/-- A rank-1 array as a function of its coordinate. -/
def cur1 {α : Type} {a : Nat} (x : (⟨1, ![a]⟩ : Shape).Idx → α) (p : Fin a) : α := x (ValueIdx.ix1 p)

/-! ## The scores -/

section Scores

variable (h : Fin 128 → Fin 256 → EReal) (emb : Fin 6145 → Fin 256 → EReal)
  (W U : Fin 256 → Fin 256 → EReal) (b : Fin 256 → EReal)

/-- (h · U + b) at row `n`, feature `d`. -/
def hub (n : Fin 128) (d : Fin 256) : EReal := (∑ e : Fin 256, h n e * U e d) + b d
/-- (emb · W) at word `j`, feature `d`. -/
def ew (j : Fin 6145) (d : Fin 256) : EReal := ∑ e : Fin 256, emb j e * W e d
/-- h − tanh (emb · W + (h · U + b)) at row `n`, word `j`, feature `d`. -/
def diff (n : Fin 128) (j : Fin 6145) (d : Fin 256) : EReal :=
  h n d - Ideal.tanh (ew emb W j d + hub h U b n d)
/-- The score of word `j` for row `n`: 65 / (1 + squared distance). -/
def kmat (n : Fin 128) (j : Fin 6145) : EReal :=
  Ideal.div c65 (c1 + ∑ d : Fin 256, diff h emb W U b n j d * diff h emb W U b n j d)

end Scores

/-! ## The target words -/

/-- The target clipped into the head's words 0 … 2047. -/
def headWord (t : BitVec 32) : BitVec 32 := IntOp.minsi 2047#32 (IntOp.maxsi 0#32 t)
/-- The target moved down by 2048 and clipped into the tail's words 0 … 4095. -/
def tailWord (t : BitVec 32) : BitVec 32 := IntOp.minsi 4095#32 (IntOp.maxsi 0#32 (IntOp.subi t 2048#32))
/-- Whether the target is a head word. -/
def isHead (t : BitVec 32) : BitVec 1 := IntOp.cmpi .slt t 2048#32

/-! ## The chunked arrangement: running maximum, rescaled sum, masked sum -/

/-- One row's state across the chunks: maximum, rescaled sum of exponentials and masked sum, for the head level and
    for the tail level. -/
structure RowState where
  mh : EReal
  lh : EReal
  gh : EReal
  mt : EReal
  lt : EReal
  gt : EReal

/-- The largest score of a chunk (the fold of `max` from −∞). -/
def chunkMax (x : Fin 128 → EReal) : EReal := (Finset.univ : Finset (Fin 128)).fold max cNegInf x
/-- The running maximum after a chunk. -/
def mStep (m : EReal) (x : Fin 128 → EReal) : EReal := max m (chunkMax x)
/-- The running sum after a chunk: the old sum rescaled to the new maximum, plus the chunk's exponentials. -/
def lStep (m l : EReal) (x : Fin 128 → EReal) : EReal :=
  Ideal.exp (m - mStep m x) * l + ∑ q : Fin 128, Ideal.exp (x q - mStep m x)
/-- The masked sum after the chunk whose first word is number `128 · cb` of its level: the score at the target's
    column, if the target lies in this chunk, is added. -/
def gStep (g : EReal) (w : BitVec 32) (cb : ℕ) (x : Fin 128 → EReal) : EReal :=
  g + ∑ q : Fin 128, Scalar.select (IntOp.cmpi .eq w (BitVec.ofNat 32 (128 * cb + q.val))) (x q) c0

/-- Chunk `c` of a row of scores: words 128 c … 128 c + 127. -/
def chunk (K : Fin 6145 → EReal) (c : ℕ) (q : Fin 128) : EReal :=
  K ⟨(128 * c + q.val) % 6145, Nat.mod_lt _ (by norm_num)⟩

def initState : RowState := ⟨cNegInf, c0, c0, cNegInf, c0, c0⟩

/-- A head chunk updates the head level's three numbers. -/
def headStep (s : RowState) (w : BitVec 32) (c : ℕ) (x : Fin 128 → EReal) : RowState :=
  { s with gh := gStep s.gh w c x, lh := lStep s.mh s.lh x, mh := mStep s.mh x }
/-- A tail chunk (chunks 16 … 47) updates the tail level's three numbers. -/
def tailStep (s : RowState) (w : BitVec 32) (c : ℕ) (x : Fin 128 → EReal) : RowState :=
  { s with gt := gStep s.gt w (c - 16) x, lt := lStep s.mt s.lt x, mt := mStep s.mt x }

/-- The row's state after its first `c` chunks. -/
def stateAt (K : Fin 6145 → EReal) (hw tw : BitVec 32) : ℕ → RowState
  | 0 => initState
  | c + 1 =>
    if c < 16 then headStep (stateAt K hw tw c) hw c (chunk K c)
    else tailStep (stateAt K hw tw c) tw c (chunk K c)

/-- The four numbers the chunked walk hands on for a row, after all 48 chunks. -/
def lseHead (K : Fin 6145 → EReal) (hw tw : BitVec 32) : EReal :=
  (stateAt K hw tw 48).mh + Ideal.log (stateAt K hw tw 48).lh
def gHead (K : Fin 6145 → EReal) (hw tw : BitVec 32) : EReal := (stateAt K hw tw 48).gh
def lseTail (K : Fin 6145 → EReal) (hw tw : BitVec 32) : EReal :=
  (stateAt K hw tw 48).mt + Ideal.log (stateAt K hw tw 48).lt
def gTail (K : Fin 6145 → EReal) (hw tw : BitVec 32) : EReal := (stateAt K hw tw 48).gt

/-- The row's loss from those four numbers and the score `kt` of word 6144: the head's 2048-word log-sum-exp and
    `kt` joined by one more max / exp / log step, then the two-level cross entropy. -/
def combine (lseH gH lseT gT kt : EReal) (ih : BitVec 1) : EReal :=
  Scalar.select ih
    (-(gH - (max lseH kt + Ideal.log (Ideal.exp (lseH - max lseH kt) + Ideal.exp (kt - max lseH kt)))))
    (-((kt - (max lseH kt + Ideal.log (Ideal.exp (lseH - max lseH kt) + Ideal.exp (kt - max lseH kt)))) + (gT - lseT)))

/-- The row's loss in the chunked arrangement. -/
def kernelRow (K : Fin 6145 → EReal) (hw tw : BitVec 32) (ih : BitVec 1) : EReal :=
  combine (lseHead K hw tw) (gHead K hw tw) (lseTail K hw tw) (gTail K hw tw) (K ⟨6144, by norm_num⟩) ih

/-! ## The whole-level arrangement -/

/-- Word number `j` of the head level: words 0 … 2047, then word 6144. -/
def headId (j : Fin 2049) : Fin 6145 := if h : j.val < 2048 then ⟨j.val, by omega⟩ else ⟨6144, by norm_num⟩
/-- Word number `j` of the tail level. -/
def tailId (j : Fin 4096) : Fin 6145 := ⟨2048 + j.val, by omega⟩

/-- log-softmax of a level's scores at position `t`: subtract the maximum, subtract the log of the sum of
    exponentials. -/
def logSoftmax {N : ℕ} (x : Fin N → EReal) (t : Fin N) : EReal :=
  (x t - max cNegInf ((Finset.univ : Finset (Fin N)).fold max cNegInf x))
    - Ideal.log (c0 + ∑ j : Fin N, Ideal.exp (x j - max cNegInf ((Finset.univ : Finset (Fin N)).fold max cNegInf x)))

/-- The row's loss in the whole-level arrangement. -/
def refRow (K : Fin 6145 → EReal) (hw tw : BitVec 32) (ih : BitVec 1) : EReal :=
  Scalar.select ih
    (-(logSoftmax (fun j : Fin 2049 => K (headId j)) ⟨hw.toNat % 2049, Nat.mod_lt _ (by norm_num)⟩))
    (-(logSoftmax (fun j : Fin 2049 => K (headId j)) ⟨2048, by norm_num⟩
        + logSoftmax (fun j : Fin 4096 => K (tailId j)) ⟨tw.toNat % 4096, Nat.mod_lt _ (by norm_num)⟩))

/-! ## The mean over the rows -/

/-- The mean of the 128 rows' losses (a sum from zero, divided by 128). -/
def total (row : Fin 128 → EReal) : EReal := Ideal.div (c0 + ∑ n : Fin 128, row n) c128

/-- The result in the chunked arrangement, from the six argument arrays read by coordinates. -/
def kernelVal (h : Fin 128 → Fin 256 → EReal) (tg : Fin 128 → BitVec 32) (emb : Fin 6145 → Fin 256 → EReal)
    (W U : Fin 256 → Fin 256 → EReal) (b : Fin 256 → EReal) : EReal :=
  total fun n => kernelRow (kmat h emb W U b n) (headWord (tg n)) (tailWord (tg n)) (isHead (tg n))

/-- The result in the whole-level arrangement. -/
def refVal (h : Fin 128 → Fin 256 → EReal) (tg : Fin 128 → BitVec 32) (emb : Fin 6145 → Fin 256 → EReal)
    (W U : Fin 256 → Fin 256 → EReal) (b : Fin 256 → EReal) : EReal :=
  total fun n => refRow (kmat h emb W U b n) (headWord (tg n)) (tailWord (tg n)) (isHead (tg n))

end Cert.Spec

end
-- ==== Proof.Val.Args.lean ====
/-
  The six argument arrays of the idealized kernel program on core `c`, read by coordinates as extended reals (the
  targets as 32-bit words), the score row of a hidden row, and the hidden row that row `r` of the row tile of grid
  point `t` is: point `t` of the 2 × 48 grid works on row tile `t / 48` (64 rows) and vocabulary chunk `t % 48`.
-/
import proofs.«430609_j28260884807701_2_alg».proof.Proof.KernelIdeal.Bounds
import proofs.«430609_j28260884807701_2_alg».proof.Proof.Spec

noncomputable section

namespace Cert.KernelIdeal.Val

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (c : Dev nD)

/-- hiddens -/
abbrev aH : Fin 128 → Fin 256 → EReal := Cert.Spec.cur2 (a := 128) (b := 256) (α := EReal) (m ((c : Thread nD τ).loc main_arg0))
/-- targets -/
abbrev aT : Fin 128 → BitVec 32 := Cert.Spec.cur1 (a := 128) (α := BitVec 32) (m ((c : Thread nD τ).loc main_arg1))
/-- the embedding table -/
abbrev aE : Fin 6145 → Fin 256 → EReal := Cert.Spec.cur2 (a := 6145) (b := 256) (α := EReal) (m ((c : Thread nD τ).loc main_arg2))
/-- W -/
abbrev aW : Fin 256 → Fin 256 → EReal := Cert.Spec.cur2 (a := 256) (b := 256) (α := EReal) (m ((c : Thread nD τ).loc main_arg3))
/-- U -/
abbrev aU : Fin 256 → Fin 256 → EReal := Cert.Spec.cur2 (a := 256) (b := 256) (α := EReal) (m ((c : Thread nD τ).loc main_arg4))
/-- b -/
abbrev aB : Fin 256 → EReal := Cert.Spec.cur1 (a := 256) (α := EReal) (m ((c : Thread nD τ).loc main_arg5))

/-- The scores of hidden row `n` against every word. -/
abbrev kRow (n : Fin 128) : Fin 6145 → EReal := Cert.Spec.kmat (aH m c) (aE m c) (aW m c) (aU m c) (aB m c) n
/-- The clipped target words of hidden row `n`. -/
abbrev hwOf (n : Fin 128) : BitVec 32 := Cert.Spec.headWord (aT m c n)
abbrev twOf (n : Fin 128) : BitVec 32 := Cert.Spec.tailWord (aT m c n)

/-- The hidden row that row `r` of grid point `t`'s row tile is. -/
def rowOf (t : Fin cfg0.N) (r : Fin 64) : Fin 128 :=
  ⟨64 * (t.val / 48) + r.val, by have := t.isLt; have h : cfg0.N = 96 := N_0; have := r.isLt; omega⟩

end Cert.KernelIdeal.Val

end
-- ==== Proof.Val.Payloads.lean ====
/-
  The kernel's arithmetic read at an index, at the ideal instance: every float is an extended real, every operation is
  exact, and a change of format is the identity.

  The body's payloads are pure terms of vector operations. Read at a row r of the row tile (and a column q of the
  chunk, a feature d), each is the formula the specification spells on the extended reals:
    h · U + b            at (r, d)   is  Σ_e h(r, e) · U(e, d) + b(d),
    the chunk's scores   at (r, q)   is  65 / (1 + Σ_d (h(r, d) − tanh ((emb · W)(q, d) + (h · U + b)(r, d)))²),
    the running maximum  at r        is  max m (max over the chunk's columns, from −∞),
    the running sum      at r        is  exp (m − m') · l + Σ_q exp (k(r, q) − m'),
    the masked sum       at r        is  g + Σ_q [target = 128 · chunk + q] k(r, q),
  and the two log-sum-exp results are  m + log l.
  The layout operations in between (a cast that adds a unit axis, a broadcast along a unit axis) only rename the
  index; a lane reduction is a sum, or a fold of max, over the reduced coordinate; a matrix product into a zero
  accumulator is the sum over the contracted coordinate.
-/
import proofs.«430609_j28260884807701_2_alg».proof.Proof.KernelIdeal.Cases0
import proofs.«430609_j28260884807701_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Cert.KernelIdeal.Hand Idealize.ShloMosaic Idealize.ShloMosaic.ValueIdx

/-! ## Layout operations that add, or broadcast along, a unit axis -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, b, c]` array broadcast to `[a, b, c]` reads, at `(p, q, e)`, the operand at `(0, q, e)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (e : Fin c) :
    broadcastTo ⟨3, ![a, b, c]⟩ v h (ix3 p q e) = v (ix3 (0 : Fin 1) q e) := by
  refine broadcastTo_apply v h (ix3 p q e) (ix3 (0 : Fin 1) q e) fun ax => ?_
  match ax with
  | ⟨0, _⟩ => rfl
  | ⟨1, _⟩ =>
    show q.val = if b = 1 then 0 else q.val
    split
    · have := q.isLt; omega
    · rfl
  | ⟨2, _⟩ =>
    show e.val = if c = 1 then 0 else e.val
    split
    · have := e.isLt; omega
    · rfl

/-- An `[a, 1, c]` array broadcast to `[a, b, c]` reads, at `(p, q, e)`, the operand at `(p, 0, e)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (e : Fin c) :
    broadcastTo ⟨3, ![a, b, c]⟩ v h (ix3 p q e) = v (ix3 p (0 : Fin 1) e) := by
  refine broadcastTo_apply v h (ix3 p q e) (ix3 p (0 : Fin 1) e) fun ax => ?_
  match ax with
  | ⟨0, _⟩ =>
    show p.val = if a = 1 then 0 else p.val
    split
    · have := p.isLt; omega
    · rfl
  | ⟨1, _⟩ => rfl
  | ⟨2, _⟩ =>
    show e.val = if c = 1 then 0 else e.val
    split
    · have := e.isLt; omega
    · rfl

end Layout

/-! ## The index a one-axis reduction inserts its coordinate into -/

/-- Over row `r` of the `[64, 128]` scores, the reduced column `q` is the index `(r, q)`. -/
theorem lift_S64x128 (r : Fin 64) (q : Fin 128) : reduces_S64x128_S64.lift (ix1 r) q = ix2 r q :=
  funext fun c => Fin.ext (by match c with | ⟨0, _⟩ => rfl | ⟨1, _⟩ => rfl)

/-- Over `(r, q)` of the `[64, 128, 256]` squares, the reduced feature `d` is the index `(r, q, d)`. -/
theorem lift_S64x128x256 (r : Fin 64) (q : Fin 128) (d : Fin 256) :
    reduces_S64x128x256_S64x128.lift (ix2 r q) d = ix3 r q d :=
  funext fun c => Fin.ext (by match c with | ⟨0, _⟩ => rfl | ⟨1, _⟩ => rfl | ⟨2, _⟩ => rfl)

/-- Over row `n` of the `[128, 256]` squares, the reduced feature `d` is the index `(n, d)`. -/
theorem lift_S128x256 (n : Fin 128) (d : Fin 256) : reduces_S128x256_S128.lift (ix1 n) d = ix2 n d :=
  funext fun c => Fin.ext (by match c with | ⟨0, _⟩ => rfl | ⟨1, _⟩ => rfl)

/-! ## A matrix product into a zero accumulator, read at an index -/

/-- The row tile `[64, 256]` times a `[256, 256]` matrix: the four coordinates of the product's operand indices. -/
theorem lhs_tile_0 (i : S64x256.Idx) (q : dot_S64x256_S256x256_S64x256_1_0_0_1_n_n.contr.Idx) :
    (dot_S64x256_S256x256_S64x256_1_0_0_1_n_n.lhsIdx i q 0).val = (i 0).val := by
  unfold DotDims.lhsIdx
  rw [dif_neg (show ¬(0 : Fin S64x256.rank) ∈ dot_S64x256_S256x256_S64x256_1_0_0_1_n_n.lhsBatch by decide), dif_pos (show (0 : Fin S64x256.rank) ∈ dot_S64x256_S256x256_S64x256_1_0_0_1_n_n.lhsNonContracting by decide)]
  rfl
theorem lhs_tile_1 (i : S64x256.Idx) (q : dot_S64x256_S256x256_S64x256_1_0_0_1_n_n.contr.Idx) :
    (dot_S64x256_S256x256_S64x256_1_0_0_1_n_n.lhsIdx i q 1).val = (q ⟨0, by decide⟩).val :=
  dot_S64x256_S256x256_S64x256_1_0_0_1_n_n.lhsIdx_val_of_single rfl i q
theorem rhs_tile_0 (i : S64x256.Idx) (q : dot_S64x256_S256x256_S64x256_1_0_0_1_n_n.contr.Idx) :
    (dot_S64x256_S256x256_S64x256_1_0_0_1_n_n.rhsIdx i q 0).val = (q ⟨0, by decide⟩).val :=
  dot_S64x256_S256x256_S64x256_1_0_0_1_n_n.rhsIdx_val_of_single rfl i q
theorem rhs_tile_1 (i : S64x256.Idx) (q : dot_S64x256_S256x256_S64x256_1_0_0_1_n_n.contr.Idx) :
    (dot_S64x256_S256x256_S64x256_1_0_0_1_n_n.rhsIdx i q 1).val = (i 1).val := by
  unfold DotDims.rhsIdx
  rw [dif_neg (show ¬(1 : Fin S256x256.rank) ∈ dot_S64x256_S256x256_S64x256_1_0_0_1_n_n.rhsBatch by decide), dif_pos (show (1 : Fin S256x256.rank) ∈ dot_S64x256_S256x256_S64x256_1_0_0_1_n_n.rhsNonContracting by decide)]
  rfl
/-- The row tile `[64, 256]` times a `[256, 256]` matrix, into the zero accumulator, at `(r, d)`: the sum over the contracted feature `e` of the operands' products. -/
theorem matmul_tile_apply {φ₁ φ₂ : FTy} (l : FVec Ideal S64x256 φ₁) (w : FVec Ideal S256x256 φ₂) (r : Fin 64) (d : Fin 256) :
    matmul dot_S64x256_S256x256_S64x256_1_0_0_1_n_n none l w (constant (F := Ideal) S64x256 .f32 0x00000000#32) (ix2 r d)
      = ∑ e : Fin 256, l (ix2 r e) * w (ix2 e d) := by
  simp only [matmul]
  rw [Ideal.matmul_constant_zero_apply, ← Equiv.sum_comp (ValueIdx.contrEquiv1 dot_S64x256_S256x256_S64x256_1_0_0_1_n_n 256 rfl rfl).symm]
  refine Finset.sum_congr rfl fun k _ => ?_
  have hk := ValueIdx.contrEquiv1_symm_val dot_S64x256_S256x256_S64x256_1_0_0_1_n_n 256 rfl rfl k
  have el : dot_S64x256_S256x256_S64x256_1_0_0_1_n_n.lhsIdx (ix2 r d) ((ValueIdx.contrEquiv1 dot_S64x256_S256x256_S64x256_1_0_0_1_n_n 256 rfl rfl).symm k) = ix2 r k := funext fun a => Fin.ext (by
    match a with
    | ⟨0, _⟩ => exact lhs_tile_0 _ _
    | ⟨1, _⟩ => exact (lhs_tile_1 _ _).trans hk)
  have er : dot_S64x256_S256x256_S64x256_1_0_0_1_n_n.rhsIdx (ix2 r d) ((ValueIdx.contrEquiv1 dot_S64x256_S256x256_S64x256_1_0_0_1_n_n 256 rfl rfl).symm k) = ix2 k d := funext fun a => Fin.ext (by
    match a with
    | ⟨0, _⟩ => exact (rhs_tile_0 _ _).trans hk
    | ⟨1, _⟩ => exact rhs_tile_1 _ _)
  rw [el, er]

/-- A `[128, 256]` block times a `[256, 256]` matrix: the four coordinates of the product's operand indices. -/
theorem lhs_chunk_0 (i : S128x256.Idx) (q : dot_S128x256_S256x256_S128x256_1_0_0_1_n_n.contr.Idx) :
    (dot_S128x256_S256x256_S128x256_1_0_0_1_n_n.lhsIdx i q 0).val = (i 0).val := by
  unfold DotDims.lhsIdx
  rw [dif_neg (show ¬(0 : Fin S128x256.rank) ∈ dot_S128x256_S256x256_S128x256_1_0_0_1_n_n.lhsBatch by decide), dif_pos (show (0 : Fin S128x256.rank) ∈ dot_S128x256_S256x256_S128x256_1_0_0_1_n_n.lhsNonContracting by decide)]
  rfl
theorem lhs_chunk_1 (i : S128x256.Idx) (q : dot_S128x256_S256x256_S128x256_1_0_0_1_n_n.contr.Idx) :
    (dot_S128x256_S256x256_S128x256_1_0_0_1_n_n.lhsIdx i q 1).val = (q ⟨0, by decide⟩).val :=
  dot_S128x256_S256x256_S128x256_1_0_0_1_n_n.lhsIdx_val_of_single rfl i q
theorem rhs_chunk_0 (i : S128x256.Idx) (q : dot_S128x256_S256x256_S128x256_1_0_0_1_n_n.contr.Idx) :
    (dot_S128x256_S256x256_S128x256_1_0_0_1_n_n.rhsIdx i q 0).val = (q ⟨0, by decide⟩).val :=
  dot_S128x256_S256x256_S128x256_1_0_0_1_n_n.rhsIdx_val_of_single rfl i q
theorem rhs_chunk_1 (i : S128x256.Idx) (q : dot_S128x256_S256x256_S128x256_1_0_0_1_n_n.contr.Idx) :
    (dot_S128x256_S256x256_S128x256_1_0_0_1_n_n.rhsIdx i q 1).val = (i 1).val := by
  unfold DotDims.rhsIdx
  rw [dif_neg (show ¬(1 : Fin S256x256.rank) ∈ dot_S128x256_S256x256_S128x256_1_0_0_1_n_n.rhsBatch by decide), dif_pos (show (1 : Fin S256x256.rank) ∈ dot_S128x256_S256x256_S128x256_1_0_0_1_n_n.rhsNonContracting by decide)]
  rfl
/-- A `[128, 256]` block times a `[256, 256]` matrix, into the zero accumulator, at `(r, d)`: the sum over the contracted feature `e` of the operands' products. -/
theorem matmul_chunk_apply {φ₁ φ₂ : FTy} (l : FVec Ideal S128x256 φ₁) (w : FVec Ideal S256x256 φ₂) (r : Fin 128) (d : Fin 256) :
    matmul dot_S128x256_S256x256_S128x256_1_0_0_1_n_n none l w (constant (F := Ideal) S128x256 .f32 0x00000000#32) (ix2 r d)
      = ∑ e : Fin 256, l (ix2 r e) * w (ix2 e d) := by
  simp only [matmul]
  rw [Ideal.matmul_constant_zero_apply, ← Equiv.sum_comp (ValueIdx.contrEquiv1 dot_S128x256_S256x256_S128x256_1_0_0_1_n_n 256 rfl rfl).symm]
  refine Finset.sum_congr rfl fun k _ => ?_
  have hk := ValueIdx.contrEquiv1_symm_val dot_S128x256_S256x256_S128x256_1_0_0_1_n_n 256 rfl rfl k
  have el : dot_S128x256_S256x256_S128x256_1_0_0_1_n_n.lhsIdx (ix2 r d) ((ValueIdx.contrEquiv1 dot_S128x256_S256x256_S128x256_1_0_0_1_n_n 256 rfl rfl).symm k) = ix2 r k := funext fun a => Fin.ext (by
    match a with
    | ⟨0, _⟩ => exact lhs_chunk_0 _ _
    | ⟨1, _⟩ => exact (lhs_chunk_1 _ _).trans hk)
  have er : dot_S128x256_S256x256_S128x256_1_0_0_1_n_n.rhsIdx (ix2 r d) ((ValueIdx.contrEquiv1 dot_S128x256_S256x256_S128x256_1_0_0_1_n_n 256 rfl rfl).symm k) = ix2 k d := funext fun a => Fin.ext (by
    match a with
    | ⟨0, _⟩ => exact (rhs_chunk_0 _ _).trans hk
    | ⟨1, _⟩ => exact rhs_chunk_1 _ _)
  rw [el, er]

/-- One row `[1, 256]` times a `[256, 256]` matrix: the four coordinates of the product's operand indices. -/
theorem lhs_row_0 (i : S1x256.Idx) (q : dot_S1x256_S256x256_S1x256_1_0_0_1_n_n.contr.Idx) :
    (dot_S1x256_S256x256_S1x256_1_0_0_1_n_n.lhsIdx i q 0).val = (i 0).val := by
  unfold DotDims.lhsIdx
  rw [dif_neg (show ¬(0 : Fin S1x256.rank) ∈ dot_S1x256_S256x256_S1x256_1_0_0_1_n_n.lhsBatch by decide), dif_pos (show (0 : Fin S1x256.rank) ∈ dot_S1x256_S256x256_S1x256_1_0_0_1_n_n.lhsNonContracting by decide)]
  rfl
theorem lhs_row_1 (i : S1x256.Idx) (q : dot_S1x256_S256x256_S1x256_1_0_0_1_n_n.contr.Idx) :
    (dot_S1x256_S256x256_S1x256_1_0_0_1_n_n.lhsIdx i q 1).val = (q ⟨0, by decide⟩).val :=
  dot_S1x256_S256x256_S1x256_1_0_0_1_n_n.lhsIdx_val_of_single rfl i q
theorem rhs_row_0 (i : S1x256.Idx) (q : dot_S1x256_S256x256_S1x256_1_0_0_1_n_n.contr.Idx) :
    (dot_S1x256_S256x256_S1x256_1_0_0_1_n_n.rhsIdx i q 0).val = (q ⟨0, by decide⟩).val :=
  dot_S1x256_S256x256_S1x256_1_0_0_1_n_n.rhsIdx_val_of_single rfl i q
theorem rhs_row_1 (i : S1x256.Idx) (q : dot_S1x256_S256x256_S1x256_1_0_0_1_n_n.contr.Idx) :
    (dot_S1x256_S256x256_S1x256_1_0_0_1_n_n.rhsIdx i q 1).val = (i 1).val := by
  unfold DotDims.rhsIdx
  rw [dif_neg (show ¬(1 : Fin S256x256.rank) ∈ dot_S1x256_S256x256_S1x256_1_0_0_1_n_n.rhsBatch by decide), dif_pos (show (1 : Fin S256x256.rank) ∈ dot_S1x256_S256x256_S1x256_1_0_0_1_n_n.rhsNonContracting by decide)]
  rfl
/-- One row `[1, 256]` times a `[256, 256]` matrix, into the zero accumulator, at `(r, d)`: the sum over the contracted feature `e` of the operands' products. -/
theorem matmul_row_apply {φ₁ φ₂ : FTy} (l : FVec Ideal S1x256 φ₁) (w : FVec Ideal S256x256 φ₂) (r : Fin 1) (d : Fin 256) :
    matmul dot_S1x256_S256x256_S1x256_1_0_0_1_n_n none l w (constant (F := Ideal) S1x256 .f32 0x00000000#32) (ix2 r d)
      = ∑ e : Fin 256, l (ix2 r e) * w (ix2 e d) := by
  simp only [matmul]
  rw [Ideal.matmul_constant_zero_apply, ← Equiv.sum_comp (ValueIdx.contrEquiv1 dot_S1x256_S256x256_S1x256_1_0_0_1_n_n 256 rfl rfl).symm]
  refine Finset.sum_congr rfl fun k _ => ?_
  have hk := ValueIdx.contrEquiv1_symm_val dot_S1x256_S256x256_S1x256_1_0_0_1_n_n 256 rfl rfl k
  have el : dot_S1x256_S256x256_S1x256_1_0_0_1_n_n.lhsIdx (ix2 r d) ((ValueIdx.contrEquiv1 dot_S1x256_S256x256_S1x256_1_0_0_1_n_n 256 rfl rfl).symm k) = ix2 r k := funext fun a => Fin.ext (by
    match a with
    | ⟨0, _⟩ => exact lhs_row_0 _ _
    | ⟨1, _⟩ => exact (lhs_row_1 _ _).trans hk)
  have er : dot_S1x256_S256x256_S1x256_1_0_0_1_n_n.rhsIdx (ix2 r d) ((ValueIdx.contrEquiv1 dot_S1x256_S256x256_S1x256_1_0_0_1_n_n 256 rfl rfl).symm k) = ix2 k d := funext fun a => Fin.ext (by
    match a with
    | ⟨0, _⟩ => exact (rhs_row_0 _ _).trans hk
    | ⟨1, _⟩ => exact rhs_row_1 _ _)
  rw [el, er]

/-! ## The lane reductions of the `[64, 128]` scores, read at a row -/

/-- The row maximum from −∞: the fold of `max` over the chunk's columns. -/
theorem rowMax_apply (k : FVec Ideal S64x128 .f32) (hφ : FKind.Formats .f32)
    (hacc : (0xFF800000#32 : BitVec 32) = FKind.maximumf.neutral .f32 hφ) (r : Fin 64) :
    multiReduction .maximumf [1] S64 k 0xFF800000#32 reduces_S64x128_S64 hφ hacc (ix1 r)
      = Cert.Spec.chunkMax (fun q => k (ix2 r q)) := by
  refine (Ideal.multiReduction_maximumf_single k _ reduces_S64x128_S64 hφ hacc (ix1 r)).trans ?_
  exact congrArg (fun f : Fin 128 → EReal => (Finset.univ : Finset (Fin 128)).fold max Cert.Spec.cNegInf f)
    (funext fun q => congrArg k (lift_S64x128 r q))

/-- The row sum from zero: the sum over the chunk's columns. -/
theorem rowSum_apply (v : FVec Ideal S64x128 .f32) (hφ : FKind.Formats .f32)
    (hacc : (0x00000000#32 : BitVec 32) = FKind.add.neutral .f32 hφ) (r : Fin 64) :
    multiReduction .add [1] S64 v 0x00000000#32 reduces_S64x128_S64 hφ hacc (ix1 r) = ∑ q : Fin 128, v (ix2 r q) := by
  refine (Ideal.multiReduction_add_single v _ reduces_S64x128_S64 hφ hacc (ix1 r)).trans ?_
  exact Finset.sum_congr rfl fun q _ => congrArg v (lift_S64x128 r q)

/-! ## The constants the reset stores, and the two log-sum-exp results -/

theorem pay4_apply (r : Fin 64) : k0_pay4 (F := Ideal) (ix2 r (0 : Fin 1)) = Cert.Spec.cNegInf := rfl
theorem pay7_apply (r : Fin 64) : k0_pay7 (F := Ideal) (ix2 r (0 : Fin 1)) = Cert.Spec.cNegInf := rfl
theorem pay5_apply (r : Fin 64) : k0_pay5 (F := Ideal) (ix2 r (0 : Fin 1)) = Cert.Spec.c0 := rfl
theorem pay6_apply (r : Fin 64) : k0_pay6 (F := Ideal) (ix2 r (0 : Fin 1)) = Cert.Spec.c0 := rfl
theorem pay16_apply (r : Fin 64) : k0_pay16 (F := Ideal) (ix2 r (0 : Fin 1)) = Cert.Spec.c0 := rfl
theorem pay15_pay8_apply (r : Fin 64) : k0_pay15 (k0_pay8 (F := Ideal)) (ix2 r (0 : Fin 1)) = Cert.Spec.c0 := rfl

/-- The head level's log-sum-exp: m + log l. -/
theorem outLseH_apply (s : Scr Ideal) (r : Fin 64) :
    outLseH s (ix2 r (0 : Fin 1)) = s.mh (ix2 r 0) + Ideal.log (s.lh (ix2 r 0)) := rfl
/-- The tail level's log-sum-exp: m + log l. -/
theorem outLseT_apply (s : Scr Ideal) (r : Fin 64) :
    outLseT s (ix2 r (0 : Fin 1)) = s.mt (ix2 r 0) + Ideal.log (s.lt (ix2 r 0)) := rfl

/-! ## The running maximum -/

/-- The new maximum before its last (identity) cast: max of the old one and the chunk's row maximum. -/
theorem pay10_apply (k : FVec Ideal S64x128 .f32) (m : Vec Ideal S64x1 .f32) (r : Fin 64) :
    k0_pay10 (F := Ideal) k m (ix2 r (0 : Fin 1)) = Cert.Spec.mStep (m (ix2 r 0)) (fun q => k (ix2 r q)) := by
  unfold k0_pay10
  refine congrArg (max (m (ix2 r 0))) ?_
  refine (shapeCast_a_a1_apply _ shapeCasts_S64_S64x1 r 0).trans ?_
  exact rowMax_apply k _ _ r
theorem pay13_apply (k : FVec Ideal S64x128 .f32) (m : Vec Ideal S64x1 .f32) (r : Fin 64) :
    k0_pay13 (F := Ideal) k m (ix2 r (0 : Fin 1)) = Cert.Spec.mStep (m (ix2 r 0)) (fun q => k (ix2 r q)) := by
  unfold k0_pay13
  refine congrArg (max (m (ix2 r 0))) ?_
  refine (shapeCast_a_a1_apply _ shapeCasts_S64_S64x1 r 0).trans ?_
  exact rowMax_apply k _ _ r

theorem headM_apply (k : FVec Ideal S64x128 .f32) (m : Vec Ideal S64x1 .f32) (r : Fin 64) :
    headM (F := Ideal) k m (ix2 r (0 : Fin 1)) = Cert.Spec.mStep (m (ix2 r 0)) (fun q => k (ix2 r q)) := by
  show k0_pay18 (k0_pay10 k m) (ix2 r (0 : Fin 1)) = _
  unfold k0_pay18
  rw [shapeCast_self]
  exact pay10_apply k m r
theorem tailM_apply (k : FVec Ideal S64x128 .f32) (m : Vec Ideal S64x1 .f32) (r : Fin 64) :
    tailM (F := Ideal) k m (ix2 r (0 : Fin 1)) = Cert.Spec.mStep (m (ix2 r 0)) (fun q => k (ix2 r q)) := by
  show k0_pay19 (k0_pay13 k m) (ix2 r (0 : Fin 1)) = _
  unfold k0_pay19
  rw [shapeCast_self]
  exact pay13_apply k m r

/-! ## The running sum -/

/-- A cast to the same shape reads the operand at the same index. -/
theorem shapeCast_self_apply {s : Shape} {α : Type} (v : s.Idx → α) (h : s.ShapeCasts s) (i : s.Idx) :
    shapeCast s v h i = v i := congrFun (shapeCast_self v h) i

/-- The new sum, over any old maximum `m` beside the one `m0` the new maximum is taken from (the body loads the
    same buffer twice): the old sum rescaled by exp (m − m'), plus the chunk's exponentials relative to m'. -/
theorem pay11_apply (k : FVec Ideal S64x128 .f32) (m0 m l : Vec Ideal S64x1 .f32) (r : Fin 64) :
    k0_pay11 (F := Ideal) k m0 m l (ix2 r (0 : Fin 1))
      = Ideal.exp (m (ix2 r 0) - Cert.Spec.mStep (m0 (ix2 r 0)) (fun q => k (ix2 r q))) * l (ix2 r 0)
        + ∑ q : Fin 128, Ideal.exp (k (ix2 r q) - Cert.Spec.mStep (m0 (ix2 r 0)) (fun q => k (ix2 r q))) := by
  unfold k0_pay11
  refine (shapeCast_self_apply _ shapeCasts_S64x1_S64x1 _).trans ?_
  refine congrArg₂ (· + ·) ?_ ?_
  · exact congrArg (fun t => Ideal.exp (m (ix2 r 0) - t) * l (ix2 r 0)) (pay10_apply k m0 r)
  · refine (shapeCast_a_a1_apply _ shapeCasts_S64_S64x1 r 0).trans ?_
    refine (rowSum_apply _ _ _ r).trans ?_
    refine Finset.sum_congr rfl fun q _ => ?_
    refine congrArg (fun t => Ideal.exp (k (ix2 r q) - t)) ?_
    exact (broadcastTo_a1_ab_apply _ broadcasts_S64x1_S64x128 r q).trans (pay10_apply k m0 r)
theorem pay14_apply (k : FVec Ideal S64x128 .f32) (m0 m l : Vec Ideal S64x1 .f32) (r : Fin 64) :
    k0_pay14 (F := Ideal) k m0 m l (ix2 r (0 : Fin 1))
      = Ideal.exp (m (ix2 r 0) - Cert.Spec.mStep (m0 (ix2 r 0)) (fun q => k (ix2 r q))) * l (ix2 r 0)
        + ∑ q : Fin 128, Ideal.exp (k (ix2 r q) - Cert.Spec.mStep (m0 (ix2 r 0)) (fun q => k (ix2 r q))) := by
  unfold k0_pay14
  refine (shapeCast_self_apply _ shapeCasts_S64x1_S64x1 _).trans ?_
  refine congrArg₂ (· + ·) ?_ ?_
  · exact congrArg (fun t => Ideal.exp (m (ix2 r 0) - t) * l (ix2 r 0)) (pay13_apply k m0 r)
  · refine (shapeCast_a_a1_apply _ shapeCasts_S64_S64x1 r 0).trans ?_
    refine (rowSum_apply _ _ _ r).trans ?_
    refine Finset.sum_congr rfl fun q _ => ?_
    refine congrArg (fun t => Ideal.exp (k (ix2 r q) - t)) ?_
    exact (broadcastTo_a1_ab_apply _ broadcasts_S64x1_S64x128 r q).trans (pay13_apply k m0 r)

theorem headL_apply (k : FVec Ideal S64x128 .f32) (m l : Vec Ideal S64x1 .f32) (r : Fin 64) :
    headL (F := Ideal) k m l (ix2 r (0 : Fin 1))
      = Cert.Spec.lStep (m (ix2 r 0)) (l (ix2 r 0)) (fun q => k (ix2 r q)) :=
  pay11_apply k m m l r
theorem tailL_apply (k : FVec Ideal S64x128 .f32) (m l : Vec Ideal S64x1 .f32) (r : Fin 64) :
    tailL (F := Ideal) k m l (ix2 r (0 : Fin 1))
      = Cert.Spec.lStep (m (ix2 r 0)) (l (ix2 r 0)) (fun q => k (ix2 r q)) :=
  pay14_apply k m m l r

/-! ## The masked sum -/

/-- Column `q` of the chunk carries the word `q`. -/
theorem cols_apply (q : Fin 128) : cols (ix2 (0 : Fin 1) q) = BitVec.ofNat 32 q.val :=
  iota_single_apply .tc S1x128 32 1 iota_S1x128_d1_w32 (ix2 (0 : Fin 1) q)

/-- Word arithmetic of a head chunk's column: 128 · chunk + column, whatever the numbers (the words wrap alike). -/
theorem headCol_eq (cc q : ℕ) :
    IntOp.addi (Scalar.muli (BitVec.ofNat 32 cc) 128#32) (BitVec.ofNat 32 q) = BitVec.ofNat 32 (128 * cc + q) := by
  show BitVec.ofNat 32 cc * 128#32 + BitVec.ofNat 32 q = _
  rw [Nat.mul_comm 128 cc, BitVec.ofNat_add, BitVec.ofNat_mul]

/-- Word arithmetic of a tail chunk's column: from chunk 16 on the subtraction of 16 is the numbers'. -/
theorem tailCol_eq (cc q : ℕ) (h16 : 16 ≤ cc) :
    IntOp.addi (Scalar.muli (Scalar.subi (BitVec.ofNat 32 cc) 16#32) 128#32) (BitVec.ofNat 32 q)
      = BitVec.ofNat 32 (128 * (cc - 16) + q) := by
  have h : BitVec.ofNat 32 cc - 16#32 = BitVec.ofNat 32 (cc - 16) := by
    have e : BitVec.ofNat 32 cc = BitVec.ofNat 32 (cc - 16) + 16#32 := by
      rw [← BitVec.ofNat_add]; congr 1; omega
    rw [e, BitVec.add_sub_cancel]
  show (BitVec.ofNat 32 cc - 16#32) * 128#32 + BitVec.ofNat 32 q = _
  rw [h, Nat.mul_comm 128 (cc - 16), BitVec.ofNat_add, BitVec.ofNat_mul]

/-- The masked sum of a chunk whose first column carries the word `base`: the old sum plus the scores at the columns whose
    word `base + q` is the target. -/
theorem maskedSum_apply (base : BitVec 32) (k : FVec Ideal S64x128 .f32) (idx : IVec S64x1 32) (r : Fin 64)
    (hφ : FKind.Formats .f32) (hacc : (0x00000000#32 : BitVec 32) = FKind.add.neutral .f32 hφ) :
    shapeCast S64x1 (multiReduction .add [1] S64
        (select (cmpi .eq (broadcastTo S64x128 (shapeCast S64x1 idx shapeCasts_S64x1_S64x1) broadcasts_S64x1_S64x128)
            (broadcastTo S64x128 (addi (broadcast S1x128 base) cols) broadcasts_S1x128_S64x128))
          k (broadcast S64x128 (Scalar.ofBits (F := Ideal) .f32 0x00000000#32)))
        0x00000000#32 reduces_S64x128_S64 hφ hacc) shapeCasts_S64_S64x1 (ix2 r (0 : Fin 1))
      = ∑ q : Fin 128, Scalar.select (IntOp.cmpi .eq (idx (ix2 r 0)) (IntOp.addi base (BitVec.ofNat 32 q.val)))
          (k (ix2 r q)) Cert.Spec.c0 := by
  refine (shapeCast_a_a1_apply _ shapeCasts_S64_S64x1 r 0).trans ?_
  refine (rowSum_apply _ _ _ r).trans ?_
  refine Finset.sum_congr rfl fun q _ => ?_
  refine congrArg₂ (fun a b => Scalar.select (IntOp.cmpi .eq a b) (k (ix2 r q)) Cert.Spec.c0) ?_ ?_
  · exact (broadcastTo_a1_ab_apply _ broadcasts_S64x1_S64x128 r q).trans (shapeCast_self_apply idx shapeCasts_S64x1_S64x1 _)
  · refine (broadcastTo_1b_ab_apply _ broadcasts_S1x128_S64x128 r q).trans ?_
    exact congrArg (IntOp.addi base) (cols_apply q)

theorem headG_apply (cc : ℕ) (hcc : cc < 48) (k : FVec Ideal S64x128 .f32) (hidx : Vec Ideal S64x1 .i32)
    (g : Vec Ideal S64x1 .f32) (r : Fin 64) :
    headG (F := Ideal) (BitVec.ofNat 32 cc) k hidx g (ix2 r (0 : Fin 1))
      = Cert.Spec.gStep (g (ix2 r 0)) (hidx (ix2 r 0)) cc (fun q => k (ix2 r q)) := by
  show k0_pay9 (BitVec.ofNat 32 cc) k cols hidx g (ix2 r (0 : Fin 1)) = _
  unfold k0_pay9
  refine (shapeCast_self_apply _ shapeCasts_S64x1_S64x1 _).trans ?_
  refine congrArg (g (ix2 r 0) + ·) ?_
  refine (maskedSum_apply _ k hidx r _ _).trans ?_
  exact Finset.sum_congr rfl fun q _ => by rw [headCol_eq]

theorem tailG_apply (cc : ℕ) (h16 : 16 ≤ cc) (hcc : cc < 48) (k : FVec Ideal S64x128 .f32) (tidx : Vec Ideal S64x1 .i32)
    (g : Vec Ideal S64x1 .f32) (r : Fin 64) :
    tailG (F := Ideal) (BitVec.ofNat 32 cc) k tidx g (ix2 r (0 : Fin 1))
      = Cert.Spec.gStep (g (ix2 r 0)) (tidx (ix2 r 0)) (cc - 16) (fun q => k (ix2 r q)) := by
  show k0_pay12 (BitVec.ofNat 32 cc) k cols tidx g (ix2 r (0 : Fin 1)) = _
  unfold k0_pay12
  refine (shapeCast_self_apply _ shapeCasts_S64x1_S64x1 _).trans ?_
  refine congrArg (g (ix2 r 0) + ·) ?_
  refine (maskedSum_apply _ k tidx r _ _).trans ?_
  exact Finset.sum_congr rfl fun q _ => by rw [tailCol_eq cc q.val h16]

/-! ## h · U + b -/

theorem hubOf_apply (x0 : Vec Ideal S64x256 .f32) (x3 : Vec Ideal S256x256 .f32) (x4 : Vec Ideal S1x256 .f32)
    (r : Fin 64) (d : Fin 256) :
    hubOf (F := Ideal) x0 x3 x4 (ix2 r d)
      = (∑ e : Fin 256, x0 (ix2 r e) * x3 (ix2 e d)) + x4 (ix2 (0 : Fin 1) d) := by
  show k0_pay3 x0 x3 x4 (ix2 r d) = _
  unfold k0_pay3
  refine (shapeCast_self_apply _ shapeCasts_S64x256_S64x256 _).trans ?_
  refine congrArg₂ (· + ·) ?_ ?_
  · exact matmul_tile_apply _ _ r d
  · exact (broadcastTo_1b_ab_apply _ broadcasts_S1x256_S64x256 r d).trans
      (shapeCast_self_apply x4 shapeCasts_S1x256_S1x256 _)

/-! ## The scores -/

/-- The squared difference, from its three ingredients. -/
theorem sq_congr {A B C A' B' C' : EReal} (hA : A = A') (hB : B = B') (hC : C = C') :
    (A - Ideal.tanh (B + C)) * (A - Ideal.tanh (B + C)) = (A' - Ideal.tanh (B' + C')) * (A' - Ideal.tanh (B' + C')) := by
  subst hA hB hC; rfl

/-- emb · W of the chunk, with a unit axis in front and copied over the 64 rows, at (r, q, d): Σ_e emb(q, e) · W(e, d). -/
theorem ewB_apply (x1 : FVec Ideal S128x256 .f32) (x2 : FVec Ideal S256x256 .f32) (r : Fin 64) (q : Fin 128) (d : Fin 256) :
    broadcastTo S64x128x256 (shapeCast S1x128x256
        (matmul dot_S128x256_S256x256_S128x256_1_0_0_1_n_n none
          (truncf (F := Ideal) .bf16 (shapeCast S128x256 x1 shapeCasts_S128x256_S128x256) bitsLt_bf16_f32)
          (truncf (F := Ideal) .bf16 x2 bitsLt_bf16_f32) (constant (F := Ideal) S128x256 .f32 0x00000000#32))
        shapeCasts_S128x256_S1x128x256) broadcasts_S1x128x256_S64x128x256 (ix3 r q d)
      = ∑ e : Fin 256, x1 (ix2 q e) * x2 (ix2 e d) := by
  refine (broadcastTo_1bc_abc_apply _ broadcasts_S1x128x256_S64x128x256 r q d).trans ?_
  refine (shapeCast_ab_1ab_apply _ shapeCasts_S128x256_S1x128x256 0 q d).trans ?_
  refine (matmul_chunk_apply _ _ q d).trans ?_
  exact Finset.sum_congr rfl fun e _ =>
    congrArg (· * x2 (ix2 e d)) (shapeCast_self_apply x1 shapeCasts_S128x256_S128x256 _)

/-- A `[64, 256]` array with a unit axis in the middle and copied over the 128 columns, at (r, q, d): the array at (r, d). -/
theorem rowB_apply (v : FVec Ideal S64x256 .f32) (r : Fin 64) (q : Fin 128) (d : Fin 256) :
    broadcastTo S64x128x256 (shapeCast S64x1x256 v shapeCasts_S64x256_S64x1x256) broadcasts_S64x1x256_S64x128x256
      (ix3 r q d) = v (ix2 r d) :=
  (broadcastTo_a1c_abc_apply _ broadcasts_S64x1x256_S64x128x256 r q d).trans
    (shapeCast_ab_a1b_apply v shapeCasts_S64x256_S64x1x256 r 0 d)

theorem scores_apply (x0 : Vec Ideal S64x256 .f32) (x1 : Vec Ideal S128x256 .f32) (x2 : Vec Ideal S256x256 .f32)
    (hub : Vec Ideal S64x256 .f32) (r : Fin 64) (q : Fin 128) :
    scores (F := Ideal) x0 x1 x2 hub (ix2 r q) = Ideal.div Cert.Spec.c65 (Cert.Spec.c1 + ∑ d : Fin 256,
      (x0 (ix2 r d) - Ideal.tanh ((∑ e : Fin 256, x1 (ix2 q e) * x2 (ix2 e d)) + hub (ix2 r d)))
        * (x0 (ix2 r d) - Ideal.tanh ((∑ e : Fin 256, x1 (ix2 q e) * x2 (ix2 e d)) + hub (ix2 r d)))) := by
  show k0_pay17 x1 x2 x0 hub (ix2 r q) = _
  unfold k0_pay17
  refine congrArg (fun t => Ideal.div Cert.Spec.c65 (Cert.Spec.c1 + t)) ?_
  refine (Ideal.multiReduction_add_single _ _ reduces_S64x128x256_S64x128 _ _ (ix2 r q)).trans ?_
  refine Finset.sum_congr rfl fun d _ => ?_
  refine (congrArg _ (lift_S64x128x256 r q d)).trans ?_
  exact sq_congr (rowB_apply x0 r q d) (ewB_apply x1 x2 r q d) (rowB_apply hub r q d)

/-! ## The score of word 6144 -/

theorem tailcol_apply (x0 : Vec Ideal S128x256 .f32) (x1 : Vec Ideal S1x256 .f32) (x2 x3 : Vec Ideal S256x256 .f32)
    (x4 : Vec Ideal S1x256 .f32) (n : Fin 128) :
    k1_pay1 (F := Ideal) x0 x3 x4 x1 x2 x0 (ix2 n (0 : Fin 1)) = Ideal.div Cert.Spec.c65 (Cert.Spec.c1 + ∑ d : Fin 256,
      (x0 (ix2 n d) - Ideal.tanh ((∑ e : Fin 256, x1 (ix2 (0 : Fin 1) e) * x2 (ix2 e d))
          + ((∑ e : Fin 256, x0 (ix2 n e) * x3 (ix2 e d)) + x4 (ix2 (0 : Fin 1) d))))
        * (x0 (ix2 n d) - Ideal.tanh ((∑ e : Fin 256, x1 (ix2 (0 : Fin 1) e) * x2 (ix2 e d))
          + ((∑ e : Fin 256, x0 (ix2 n e) * x3 (ix2 e d)) + x4 (ix2 (0 : Fin 1) d))))) := by
  unfold k1_pay1
  refine congrArg (fun t => Ideal.div Cert.Spec.c65 (Cert.Spec.c1 + t)) ?_
  refine (shapeCast_a_a1_apply _ shapeCasts_S128_S128x1 n 0).trans ?_
  refine (Ideal.multiReduction_add_single _ _ reduces_S128x256_S128 _ _ (ix1 n)).trans ?_
  refine Finset.sum_congr rfl fun d _ => ?_
  refine (congrArg _ (lift_S128x256 n d)).trans ?_
  refine sq_congr rfl ?_ ?_
  · refine (broadcastTo_1b_ab_apply _ broadcasts_S1x256_S128x256 n d).trans ?_
    refine (shapeCast_self_apply _ shapeCasts_S1x256_S1x256 _).trans ?_
    refine (matmul_row_apply _ _ 0 d).trans ?_
    exact Finset.sum_congr rfl fun e _ =>
      congrArg (· * x2 (ix2 e d)) (shapeCast_self_apply x1 shapeCasts_S1x256_S1x256 _)
  · refine congrArg₂ (· + ·) ?_ ?_
    · exact matmul_chunk_apply _ _ n d
    · exact (broadcastTo_1b_ab_apply _ broadcasts_S1x256_S128x256 n d).trans
        (shapeCast_self_apply x4 shapeCasts_S1x256_S1x256 _)

end Cert.KernelIdeal.Val

end
-- ==== Proof.Val.Prefix.lean ====
/-
  What the first kernel region finds in the buffers it reads, as functions of the six argument arrays.

  Before the region the host computes, from the targets t (128 words): the flag  t < 2048,  the head word
  min 2047 (max 0 t)  and the tail word  min 4095 (max 0 (t − 2048)),  each of the two as a 128 × 1 column; from the
  embedding table (6145 rows) its first 6144 rows and its last row; and the bias as a 1 × 256 row. No host operation
  writes an argument array. The five stretches of host operations are read one at a time: a buffer a later stretch does
  not write keeps what the stretch that wrote it left there, and within its own stretch its contents are the
  operations' composed term; read at an index, a slice shifts the row by its offset, a reshape keeps the row-major
  position, a broadcast of a constant is the constant, and the integer operations act word by word.

  The region walks a 2 × 48 grid: point t is row tile t / 48 and vocabulary chunk t % 48. Its input windows cut
  the hidden rows and the two target columns into tiles of 64 rows (block index t / 48), the table's first 6144 rows
  into chunks of 128 rows (block index t % 48), and take the two matrices and the bias row whole. A block's coordinate
  on an axis is the block index times the block's extent plus the coordinate inside the block, so each block entry is
  one entry of an argument array, or the head / tail word of one target.
-/
import proofs.«430609_j28260884807701_2_alg».proof.Proof.KernelIdeal.Bounds
import proofs.«430609_j28260884807701_2_alg».proof.Proof.KernelIdeal.Cases0
import proofs.«430609_j28260884807701_2_alg».proof.Proof.Gen.KernelIdeal.Regions
import proofs.«430609_j28260884807701_2_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe Idealize.SL.Sem

variable (m : (ℓ : Loc nD τ sig) → Buf (Elt Ideal) ℓ) (ρ : Dev nD → PrngReg) (c : Dev nD)

/-! ## A buffer no later stretch writes keeps what the earlier stretch left -/

theorem W1_of (r : Ref sig .tc) (h : r ∉ hostOps0_W) : W1 m ρ c r = W0 m ρ c r :=
  StableHlo.after_of_writes_sub hostOps0 _ hostOps0_writes h
theorem W2_of (r : Ref sig .tc) (h : r ∉ hostOps0_1_W) : W2 m ρ c r = W1 m ρ c r :=
  StableHlo.after_of_writes_sub hostOps0_1 _ hostOps0_1_writes h
theorem W3_of (r : Ref sig .tc) (h : r ∉ hostOps0_2_W) : W3 m ρ c r = W2 m ρ c r :=
  StableHlo.after_of_writes_sub hostOps0_2 _ hostOps0_2_writes h
theorem W4_of (r : Ref sig .tc) (h : r ∉ hostOps0_3_W) : W4 m ρ c r = W3 m ρ c r :=
  StableHlo.after_of_writes_sub hostOps0_3 _ hostOps0_3_writes h
theorem W5_of (r : Ref sig .tc) (h : r ∉ hostOps0_4_W) : W5 m ρ c r = W4 m ρ c r :=
  StableHlo.after_of_writes_sub hostOps0_4 _ hostOps0_4_writes h

/-- A buffer none of the first two stretches writes holds its launch contents after them. -/
theorem W2_launch (r : Ref sig .tc) (h0 : r ∉ hostOps0_W) (h1 : r ∉ hostOps0_1_W) :
    W2 m ρ c r = m ((c : Thread nD τ).loc r) :=
  (W2_of m ρ c r h1).trans <| (W1_of m ρ c r h0).trans rfl
/-- A buffer none of the first four stretches writes holds its launch contents after them. -/
theorem W4_launch (r : Ref sig .tc) (h0 : r ∉ hostOps0_W) (h1 : r ∉ hostOps0_1_W) (h2 : r ∉ hostOps0_2_W) (h3 : r ∉ hostOps0_3_W) :
    W4 m ρ c r = m ((c : Thread nD τ).loc r) :=
  (W4_of m ρ c r h3).trans <| (W3_of m ρ c r h2).trans <| W2_launch m ρ c r h0 h1
/-- A buffer no stretch writes holds its launch contents when the region is entered. -/
theorem W5_launch (r : Ref sig .tc) (h0 : r ∉ hostOps0_W) (h1 : r ∉ hostOps0_1_W) (h2 : r ∉ hostOps0_2_W) (h3 : r ∉ hostOps0_3_W) (h4 : r ∉ hostOps0_4_W) :
    W5 m ρ c r = m ((c : Thread nD τ).loc r) :=
  (W5_of m ρ c r h4).trans <| W4_launch m ρ c r h0 h1 h2 h3

/-! ## The arguments: no host operation writes one -/

theorem V5_arg0 : V5 m ρ c main_arg0 = m ((c : Thread nD τ).loc main_arg0) :=
  W5_launch m ρ c main_arg0 (by decide) (by decide) (by decide) (by decide) (by decide)
theorem V5_arg3 : V5 m ρ c main_arg3 = m ((c : Thread nD τ).loc main_arg3) :=
  W5_launch m ρ c main_arg3 (by decide) (by decide) (by decide) (by decide) (by decide)
theorem V5_arg4 : V5 m ρ c main_arg4 = m ((c : Thread nD τ).loc main_arg4) :=
  W5_launch m ρ c main_arg4 (by decide) (by decide) (by decide) (by decide) (by decide)

/-! ## Each stretch's results, from any contents `X` before it -/

section Stretch

variable (X : Valuation τ sig (Elt Ideal))

/-- The first stretch: the flag (target < 2048), and the two bounds 0 and 2047 of the head clip. -/
theorem stretch0_v1 : (StableHlo.after hostOps0 X (Proc.devRef .tc main_v1) : S128.Idx → BitVec 1)
    = cmpi .slt (X (Proc.devRef .tc main_arg1) : S128.Idx → BitVec 32) (broadcastInDim S128 ![] bcast_S_S128 (constantI S_ 32 2048#32)) := by
  after_results <;> rfl
theorem stretch0_c0 : (StableHlo.after hostOps0 X (Proc.devRef .tc main_c_0) : S_.Idx → BitVec 32) = constantI S_ 32 0#32 := by
  after_results <;> rfl
theorem stretch0_c1 : (StableHlo.after hostOps0 X (Proc.devRef .tc main_c_1) : S_.Idx → BitVec 32) = constantI S_ 32 2047#32 := by
  after_results <;> rfl

/-- The second stretch: min upper (max lower target). -/
theorem stretch1_v2 : (StableHlo.after hostOps0_1 X (Proc.devRef .tc main_v2) : S128.Idx → BitVec 32)
    = minsi (broadcastInDim S128 ![] bcast_S_S128 (X (Proc.devRef .tc main_c_1) : S_.Idx → BitVec 32))
        (maxsi (broadcastInDim S128 ![] bcast_S_S128 (X (Proc.devRef .tc main_c_0) : S_.Idx → BitVec 32)) (X (Proc.devRef .tc main_arg1) : S128.Idx → BitVec 32)) := by
  after_results <;> rfl

/-- The third stretch: the clipped head words as a column, the target moved down by 2048, the bounds 0 and 4095. -/
theorem stretch2_v3 : (StableHlo.after hostOps0_2 X (Proc.devRef .tc main_v3) : S128x1.Idx → BitVec 32)
    = shapeCast S128x1 (X (Proc.devRef .tc main_v2) : S128.Idx → BitVec 32) shapeCasts_S128_S128x1 := by
  after_results <;> rfl
theorem stretch2_v5 : (StableHlo.after hostOps0_2 X (Proc.devRef .tc main_v5) : S128.Idx → BitVec 32)
    = subi (X (Proc.devRef .tc main_arg1) : S128.Idx → BitVec 32) (broadcastInDim S128 ![] bcast_S_S128 (constantI S_ 32 2048#32)) := by
  after_results <;> rfl
theorem stretch2_c3 : (StableHlo.after hostOps0_2 X (Proc.devRef .tc main_c_3) : S_.Idx → BitVec 32) = constantI S_ 32 0#32 := by
  after_results <;> rfl
theorem stretch2_c4 : (StableHlo.after hostOps0_2 X (Proc.devRef .tc main_c_4) : S_.Idx → BitVec 32) = constantI S_ 32 4095#32 := by
  after_results <;> rfl

/-- The fourth stretch: min upper (max lower moved target). -/
theorem stretch3_v6 : (StableHlo.after hostOps0_3 X (Proc.devRef .tc main_v6) : S128.Idx → BitVec 32)
    = minsi (broadcastInDim S128 ![] bcast_S_S128 (X (Proc.devRef .tc main_c_4) : S_.Idx → BitVec 32))
        (maxsi (broadcastInDim S128 ![] bcast_S_S128 (X (Proc.devRef .tc main_c_3) : S_.Idx → BitVec 32)) (X (Proc.devRef .tc main_v5) : S128.Idx → BitVec 32)) := by
  after_results <;> rfl

/-- The fifth stretch: the clipped tail words as a column, the table's first 6144 rows, its last row, the bias as a row. -/
theorem stretch4_v7 : (StableHlo.after hostOps0_4 X (Proc.devRef .tc main_v7) : S128x1.Idx → BitVec 32)
    = shapeCast S128x1 (X (Proc.devRef .tc main_v6) : S128.Idx → BitVec 32) shapeCasts_S128_S128x1 := by
  after_results <;> rfl
theorem stretch4_v8 : (StableHlo.after hostOps0_4 X (Proc.devRef .tc main_v8) : S6144x256.Idx → EReal)
    = extractStridedSlice S6144x256 ![0, 0] (X (Proc.devRef .tc main_arg2) : S6145x256.Idx → EReal) slices_S6145x256_S6144x256_0_0 := by
  after_results <;> rfl
theorem stretch4_v9 : (StableHlo.after hostOps0_4 X (Proc.devRef .tc main_v9) : S1x256.Idx → EReal)
    = extractStridedSlice S1x256 ![6144, 0] (X (Proc.devRef .tc main_arg2) : S6145x256.Idx → EReal) slices_S6145x256_S1x256_6144_0 := by
  after_results <;> rfl
theorem stretch4_v10 : (StableHlo.after hostOps0_4 X (Proc.devRef .tc main_v10) : S1x256.Idx → EReal)
    = shapeCast S1x256 (X (Proc.devRef .tc main_arg5) : S256.Idx → EReal) shapeCasts_S256_S1x256 := by
  after_results <;> rfl

end Stretch

/-! ## The region's entry contents, as functions of the launch contents -/

/-- The table's first 6144 rows. -/
theorem V5_v8 : (V5 m ρ c main_v8 : S6144x256.Idx → EReal)
    = extractStridedSlice S6144x256 ![0, 0] (m ((c : Thread nD τ).loc main_arg2) : S6145x256.Idx → EReal) slices_S6145x256_S6144x256_0_0 :=
  (stretch4_v8 (W4 m ρ c)).trans (congrArg (fun x : S6145x256.Idx → EReal => extractStridedSlice S6144x256 ![0, 0] x slices_S6145x256_S6144x256_0_0)
    (W4_launch m ρ c main_arg2 (by decide) (by decide) (by decide) (by decide)))
/-- The table's last row. -/
theorem V5_v9 : (V5 m ρ c main_v9 : S1x256.Idx → EReal)
    = extractStridedSlice S1x256 ![6144, 0] (m ((c : Thread nD τ).loc main_arg2) : S6145x256.Idx → EReal) slices_S6145x256_S1x256_6144_0 :=
  (stretch4_v9 (W4 m ρ c)).trans (congrArg (fun x : S6145x256.Idx → EReal => extractStridedSlice S1x256 ![6144, 0] x slices_S6145x256_S1x256_6144_0)
    (W4_launch m ρ c main_arg2 (by decide) (by decide) (by decide) (by decide)))
/-- The bias as a row. -/
theorem V5_v10 : (V5 m ρ c main_v10 : S1x256.Idx → EReal)
    = shapeCast S1x256 (m ((c : Thread nD τ).loc main_arg5) : S256.Idx → EReal) shapeCasts_S256_S1x256 :=
  (stretch4_v10 (W4 m ρ c)).trans (congrArg (fun x : S256.Idx → EReal => shapeCast S1x256 x shapeCasts_S256_S1x256)
    (W4_launch m ρ c main_arg5 (by decide) (by decide) (by decide) (by decide)))

/-- The targets clipped into 0 … 2047, before the column reshape. -/
theorem W2_v2 : (W2 m ρ c main_v2 : S128.Idx → BitVec 32)
    = minsi (broadcastInDim S128 ![] bcast_S_S128 (constantI S_ 32 2047#32))
        (maxsi (broadcastInDim S128 ![] bcast_S_S128 (constantI S_ 32 0#32)) (m ((c : Thread nD τ).loc main_arg1) : S128.Idx → BitVec 32)) := by
  refine (stretch1_v2 (W1 m ρ c)).trans ?_
  rw [show (W1 m ρ c (Proc.devRef .tc main_c_1) : S_.Idx → BitVec 32) = constantI S_ 32 2047#32 from stretch0_c1 (W0 m ρ c),
    show (W1 m ρ c (Proc.devRef .tc main_c_0) : S_.Idx → BitVec 32) = constantI S_ 32 0#32 from stretch0_c0 (W0 m ρ c),
    show (W1 m ρ c (Proc.devRef .tc main_arg1) : S128.Idx → BitVec 32) = m ((c : Thread nD τ).loc main_arg1) from W1_of m ρ c main_arg1 (by decide)]
/-- The head words as a column. -/
theorem V5_v3 : (V5 m ρ c main_v3 : S128x1.Idx → BitVec 32)
    = shapeCast S128x1 (minsi (broadcastInDim S128 ![] bcast_S_S128 (constantI S_ 32 2047#32))
        (maxsi (broadcastInDim S128 ![] bcast_S_S128 (constantI S_ 32 0#32)) (m ((c : Thread nD τ).loc main_arg1) : S128.Idx → BitVec 32))) shapeCasts_S128_S128x1 :=
  (W5_of m ρ c main_v3 (by decide)).trans <| (W4_of m ρ c main_v3 (by decide)).trans <| (stretch2_v3 (W2 m ρ c)).trans
    (congrArg (fun x : S128.Idx → BitVec 32 => shapeCast S128x1 x shapeCasts_S128_S128x1) (W2_v2 m ρ c))

/-- The targets moved down by 2048 and clipped into 0 … 4095, before the column reshape. -/
theorem W4_v6 : (W4 m ρ c main_v6 : S128.Idx → BitVec 32)
    = minsi (broadcastInDim S128 ![] bcast_S_S128 (constantI S_ 32 4095#32))
        (maxsi (broadcastInDim S128 ![] bcast_S_S128 (constantI S_ 32 0#32))
          (subi (m ((c : Thread nD τ).loc main_arg1) : S128.Idx → BitVec 32) (broadcastInDim S128 ![] bcast_S_S128 (constantI S_ 32 2048#32)))) := by
  refine (stretch3_v6 (W3 m ρ c)).trans ?_
  rw [show (W3 m ρ c (Proc.devRef .tc main_c_4) : S_.Idx → BitVec 32) = constantI S_ 32 4095#32 from stretch2_c4 (W2 m ρ c),
    show (W3 m ρ c (Proc.devRef .tc main_c_3) : S_.Idx → BitVec 32) = constantI S_ 32 0#32 from stretch2_c3 (W2 m ρ c),
    show (W3 m ρ c (Proc.devRef .tc main_v5) : S128.Idx → BitVec 32)
      = subi (m ((c : Thread nD τ).loc main_arg1) : S128.Idx → BitVec 32) (broadcastInDim S128 ![] bcast_S_S128 (constantI S_ 32 2048#32)) from
      (stretch2_v5 (W2 m ρ c)).trans (congrArg (fun x : S128.Idx → BitVec 32 => subi x (broadcastInDim S128 ![] bcast_S_S128 (constantI S_ 32 2048#32)))
        (W2_launch m ρ c main_arg1 (by decide) (by decide)))]
/-- The tail words as a column. -/
theorem V5_v7 : (V5 m ρ c main_v7 : S128x1.Idx → BitVec 32)
    = shapeCast S128x1 (minsi (broadcastInDim S128 ![] bcast_S_S128 (constantI S_ 32 4095#32))
        (maxsi (broadcastInDim S128 ![] bcast_S_S128 (constantI S_ 32 0#32))
          (subi (m ((c : Thread nD τ).loc main_arg1) : S128.Idx → BitVec 32) (broadcastInDim S128 ![] bcast_S_S128 (constantI S_ 32 2048#32))))) shapeCasts_S128_S128x1 :=
  (stretch4_v7 (W4 m ρ c)).trans (congrArg (fun x : S128.Idx → BitVec 32 => shapeCast S128x1 x shapeCasts_S128_S128x1) (W4_v6 m ρ c))

/-- The head flag of each target. -/
theorem V5_v1 : (V5 m ρ c main_v1 : S128.Idx → BitVec 1)
    = cmpi .slt (m ((c : Thread nD τ).loc main_arg1) : S128.Idx → BitVec 32) (broadcastInDim S128 ![] bcast_S_S128 (constantI S_ 32 2048#32)) :=
  (W5_of m ρ c main_v1 (by decide)).trans <| (W4_of m ρ c main_v1 (by decide)).trans <| (W3_of m ρ c main_v1 (by decide)).trans <|
    (W2_of m ρ c main_v1 (by decide)).trans <| stretch0_v1 (W0 m ρ c)

/-! ## The same, read at an index -/

/-- Row `j` of the table's first 6144 rows is row `j` of the table. -/
theorem V5_v8_apply (j : Fin 6144) (e : Fin 256) :
    V5 m ρ c main_v8 (ix2 j e) = m ((c : Thread nD τ).loc main_arg2) (ix2 (⟨j.val, by omega⟩ : Fin 6145) e) :=
  (congrFun (V5_v8 m ρ c) (ix2 j e)).trans
    (slice2_axis0_apply 0 _ slices_S6145x256_S6144x256_0_0 j e (⟨j.val, by omega⟩ : Fin 6145) (Nat.zero_add _).symm)
/-- The one row of the table's last-row slice is row 6144 of the table. -/
theorem V5_v9_apply (e : Fin 256) :
    V5 m ρ c main_v9 (ix2 (0 : Fin 1) e) = m ((c : Thread nD τ).loc main_arg2) (ix2 (⟨6144, by norm_num⟩ : Fin 6145) e) :=
  (congrFun (V5_v9 m ρ c) (ix2 (0 : Fin 1) e)).trans
    (slice2_axis0_apply 6144 _ slices_S6145x256_S1x256_6144_0 (0 : Fin 1) e (⟨6144, by norm_num⟩ : Fin 6145) rfl)
/-- The bias row at column `d` is the bias at `d`. -/
theorem V5_v10_apply (d : Fin 256) :
    V5 m ρ c main_v10 (ix2 (0 : Fin 1) d) = m ((c : Thread nD τ).loc main_arg5) (ix1 d) :=
  (congrFun (V5_v10 m ρ c) (ix2 (0 : Fin 1) d)).trans (shapeCast_a_1a_apply _ shapeCasts_S256_S1x256 (0 : Fin 1) d)

/-- A column reshape of a 128-vector reads, at row `n`, the vector at `n`: the two row-major positions are both `n`. -/
theorem shapeCast_S128_col_apply {α : Type} (x : S128.Idx → α) (n : Fin 128) :
    shapeCast S128x1 x shapeCasts_S128_S128x1 (ix2 n (0 : Fin 1)) = x (ix1 n) :=
  shapeCast_apply x shapeCasts_S128_S128x1 _ _ (by
    rw [Shape.rowMajor_val_two, Shape.rowMajor_val_one]
    show n.val = n.val * 1 + (0 : Fin 1).val
    simp)

/-- The head column at row `n` is the head word of target `n`. -/
theorem V5_v3_apply (n : Fin 128) :
    V5 m ρ c main_v3 (ix2 n (0 : Fin 1)) = Cert.Spec.headWord (m ((c : Thread nD τ).loc main_arg1) (ix1 n)) :=
  (congrFun (V5_v3 m ρ c) (ix2 n (0 : Fin 1))).trans ((shapeCast_S128_col_apply _ n).trans rfl)
/-- The tail column at row `n` is the tail word of target `n`. -/
theorem V5_v7_apply (n : Fin 128) :
    V5 m ρ c main_v7 (ix2 n (0 : Fin 1)) = Cert.Spec.tailWord (m ((c : Thread nD τ).loc main_arg1) (ix1 n)) :=
  (congrFun (V5_v7 m ρ c) (ix2 n (0 : Fin 1))).trans ((shapeCast_S128_col_apply _ n).trans rfl)
/-- The flag at `n` says whether target `n` is a head word. -/
theorem V5_v1_apply (n : Fin 128) :
    V5 m ρ c main_v1 (ix1 n) = Cert.Spec.isHead (m ((c : Thread nD τ).loc main_arg1) (ix1 n)) :=
  (congrFun (V5_v1 m ρ c) (ix1 n)).trans rfl

/-! ## The grid point's coordinates, and the windows' block indices over the grid

Point `t` of the 2 × 48 grid is row tile `t / 48`, chunk `t % 48`. The rows of `h` and the two target columns move
with the row tile, the table's rows with the chunk, the two matrices and the bias not at all. -/

/-- The chunk number as the body's word. -/
theorem chunkW_coords (t : Fin cfg0.N) : chunkW (grid0.coords t) = BitVec.ofNat 32 (t.val % 48) :=
  (by decide +kernel : ∀ t : Fin grid0.N, chunkW (grid0.coords t) = BitVec.ofNat 32 (t.val % 48)) t

theorem inIdx0_0 : ∀ t : Fin cfg0.N, win0_0.index t (0 : Fin 2) = t.val / 48 ∧ win0_0.index t (1 : Fin 2) = 0 :=
  (by decide +kernel : ∀ t : Fin grid0.N, win0_0.index t (0 : Fin 2) = t.val / 48 ∧ win0_0.index t (1 : Fin 2) = 0)
theorem inIdx0_1 : ∀ t : Fin cfg0.N, win0_1.index t (0 : Fin 2) = t.val % 48 ∧ win0_1.index t (1 : Fin 2) = 0 :=
  (by decide +kernel : ∀ t : Fin grid0.N, win0_1.index t (0 : Fin 2) = t.val % 48 ∧ win0_1.index t (1 : Fin 2) = 0)
theorem inIdx0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem inIdx0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem inIdx0_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem inIdx0_5 : ∀ t : Fin cfg0.N, win0_5.index t (0 : Fin 2) = t.val / 48 ∧ win0_5.index t (1 : Fin 2) = 0 :=
  (by decide +kernel : ∀ t : Fin grid0.N, win0_5.index t (0 : Fin 2) = t.val / 48 ∧ win0_5.index t (1 : Fin 2) = 0)
theorem inIdx0_6 : ∀ t : Fin cfg0.N, win0_6.index t (0 : Fin 2) = t.val / 48 ∧ win0_6.index t (1 : Fin 2) = 0 :=
  (by decide +kernel : ∀ t : Fin grid0.N, win0_6.index t (0 : Fin 2) = t.val / 48 ∧ win0_6.index t (1 : Fin 2) = 0)

/-! ## Region 0's blocks at a point, read at an index

A block's coordinate on an axis is the block index times the block's size plus the coordinate inside the block. -/

/-- Row `r` of the row tile is row `64 (t / 48) + r` of `h`. -/
theorem iblk0_0_apply (t : Fin cfg0.N) (r : Fin 64) (d : Fin 256) :
    iblk0 (V5 m ρ) c 0 t (ix2 r d)
      = m ((c : Thread nD τ).loc main_arg0) (ix2 (⟨64 * (t.val / 48) + r.val, by have := t.isLt; have : cfg0.N = 96 := N_0; omega⟩ : Fin 128) d) := by
  obtain ⟨e0, e1⟩ := inIdx0_0 t
  unfold iblk0
  rw [View.read_apply]
  show V5 m ρ c main_arg0 (((cfg0.win 0).blk t).view.emb (ix2 r d)) = _
  rw [V5_arg0]
  congr 1
  funext a
  apply Fin.ext
  match a with
  | ⟨0, _⟩ => show win0_0.index t (0 : Fin 2) * 64 + 1 * r.val = 64 * (t.val / 48) + r.val; omega
  | ⟨1, _⟩ => show win0_0.index t (1 : Fin 2) * 256 + 1 * d.val = d.val; omega

/-- Word `q` of the chunk is row `128 (t % 48) + q` of the table. -/
theorem iblk0_1_apply (t : Fin cfg0.N) (q : Fin 128) (e : Fin 256) :
    iblk0 (V5 m ρ) c 1 t (ix2 q e)
      = m ((c : Thread nD τ).loc main_arg2) (ix2 (⟨128 * (t.val % 48) + q.val, by omega⟩ : Fin 6145) e) := by
  obtain ⟨e0, e1⟩ := inIdx0_1 t
  unfold iblk0
  rw [View.read_apply]
  show V5 m ρ c main_v8 (((cfg0.win 1).blk t).view.emb (ix2 q e)) = _
  refine Eq.trans ?_ (V5_v8_apply m ρ c (⟨128 * (t.val % 48) + q.val, by omega⟩ : Fin 6144) e)
  congr 1
  funext a
  apply Fin.ext
  match a with
  | ⟨0, _⟩ => show win0_1.index t (0 : Fin 2) * 128 + 1 * q.val = 128 * (t.val % 48) + q.val; omega
  | ⟨1, _⟩ => show win0_1.index t (1 : Fin 2) * 256 + 1 * e.val = e.val; omega

/-- The one block of `W` is `W`. -/
theorem iblk0_2_apply (t : Fin cfg0.N) (e d : Fin 256) :
    iblk0 (V5 m ρ) c 2 t (ix2 e d) = m ((c : Thread nD τ).loc main_arg3) (ix2 e d) := by
  obtain ⟨e0, e1⟩ := inIdx0_2 t
  unfold iblk0
  rw [View.read_apply]
  show V5 m ρ c main_arg3 (((cfg0.win 2).blk t).view.emb (ix2 e d)) = _
  rw [V5_arg3]
  congr 1
  funext a
  apply Fin.ext
  match a with
  | ⟨0, _⟩ => show win0_2.index t (0 : Fin 2) * 256 + 1 * e.val = e.val; omega
  | ⟨1, _⟩ => show win0_2.index t (1 : Fin 2) * 256 + 1 * d.val = d.val; omega

/-- The one block of `U` is `U`. -/
theorem iblk0_3_apply (t : Fin cfg0.N) (e d : Fin 256) :
    iblk0 (V5 m ρ) c 3 t (ix2 e d) = m ((c : Thread nD τ).loc main_arg4) (ix2 e d) := by
  obtain ⟨e0, e1⟩ := inIdx0_3 t
  unfold iblk0
  rw [View.read_apply]
  show V5 m ρ c main_arg4 (((cfg0.win 3).blk t).view.emb (ix2 e d)) = _
  rw [V5_arg4]
  congr 1
  funext a
  apply Fin.ext
  match a with
  | ⟨0, _⟩ => show win0_3.index t (0 : Fin 2) * 256 + 1 * e.val = e.val; omega
  | ⟨1, _⟩ => show win0_3.index t (1 : Fin 2) * 256 + 1 * d.val = d.val; omega

/-- The one block of the bias row is the bias. -/
theorem iblk0_4_apply (t : Fin cfg0.N) (d : Fin 256) :
    iblk0 (V5 m ρ) c 4 t (ix2 (0 : Fin 1) d) = m ((c : Thread nD τ).loc main_arg5) (ix1 d) := by
  obtain ⟨e0, e1⟩ := inIdx0_4 t
  unfold iblk0
  rw [View.read_apply]
  show V5 m ρ c main_v10 (((cfg0.win 4).blk t).view.emb (ix2 (0 : Fin 1) d)) = _
  refine Eq.trans ?_ (V5_v10_apply m ρ c d)
  congr 1
  funext a
  apply Fin.ext
  match a with
  | ⟨0, _⟩ => show win0_4.index t (0 : Fin 2) * 1 + 1 * (0 : Fin 1).val = (0 : Fin 1).val; omega
  | ⟨1, _⟩ => show win0_4.index t (1 : Fin 2) * 256 + 1 * d.val = d.val; omega

/-- Row `r` of the head column's tile is the head word of target `64 (t / 48) + r`. -/
theorem iblk0_5_apply (t : Fin cfg0.N) (r : Fin 64) :
    iblk0 (V5 m ρ) c 5 t (ix2 r (0 : Fin 1))
      = Cert.Spec.headWord (m ((c : Thread nD τ).loc main_arg1) (ix1 (⟨64 * (t.val / 48) + r.val, by have := t.isLt; have : cfg0.N = 96 := N_0; omega⟩ : Fin 128))) := by
  obtain ⟨e0, e1⟩ := inIdx0_5 t
  unfold iblk0
  rw [View.read_apply]
  show V5 m ρ c main_v3 (((cfg0.win 5).blk t).view.emb (ix2 r (0 : Fin 1))) = _
  refine Eq.trans ?_ (V5_v3_apply m ρ c (⟨64 * (t.val / 48) + r.val, by have := t.isLt; have : cfg0.N = 96 := N_0; omega⟩ : Fin 128))
  congr 1
  funext a
  apply Fin.ext
  match a with
  | ⟨0, _⟩ => show win0_5.index t (0 : Fin 2) * 64 + 1 * r.val = 64 * (t.val / 48) + r.val; omega
  | ⟨1, _⟩ => show win0_5.index t (1 : Fin 2) * 1 + 1 * (0 : Fin 1).val = (0 : Fin 1).val; omega

/-- Row `r` of the tail column's tile is the tail word of target `64 (t / 48) + r`. -/
theorem iblk0_6_apply (t : Fin cfg0.N) (r : Fin 64) :
    iblk0 (V5 m ρ) c 6 t (ix2 r (0 : Fin 1))
      = Cert.Spec.tailWord (m ((c : Thread nD τ).loc main_arg1) (ix1 (⟨64 * (t.val / 48) + r.val, by have := t.isLt; have : cfg0.N = 96 := N_0; omega⟩ : Fin 128))) := by
  obtain ⟨e0, e1⟩ := inIdx0_6 t
  unfold iblk0
  rw [View.read_apply]
  show V5 m ρ c main_v7 (((cfg0.win 6).blk t).view.emb (ix2 r (0 : Fin 1))) = _
  refine Eq.trans ?_ (V5_v7_apply m ρ c (⟨64 * (t.val / 48) + r.val, by have := t.isLt; have : cfg0.N = 96 := N_0; omega⟩ : Fin 128))
  congr 1
  funext a
  apply Fin.ext
  match a with
  | ⟨0, _⟩ => show win0_6.index t (0 : Fin 2) * 64 + 1 * r.val = 64 * (t.val / 48) + r.val; omega
  | ⟨1, _⟩ => show win0_6.index t (1 : Fin 2) * 1 + 1 * (0 : Fin 1).val = (0 : Fin 1).val; omega

end Cert.KernelIdeal.Val

end
-- ==== Proof.Val.Fold.lean ====
/-
  The walk's invariant, at the ideal instance: what the seven carried buffers hold after each grid point IS the
  mathematics' state of the rows the point works on.

  Point t of the 2 × 48 grid works on row tile t / 48 (64 hidden rows) and vocabulary chunk t % 48 (128 words). Row r of
  the tile is hidden row n = 64 · (t / 48) + r. After point t,
    the first buffer, at (r, d), is  (h · U + b)(n, d),
    the six level buffers, at r, are the row's state  stateAt (k n ·) (head word) (tail word) (t % 48 + 1):
    maximum, rescaled sum and masked sum of the head level and of the tail level after the row's first t % 48 + 1 chunks.
  The proof is an induction on the point through the three shapes a point's update takes. At a tile's first chunk every
  buffer is stored afresh: h · U + b from the point's blocks, the head level by one head step from (−∞, 0, 0), the tail
  level at (−∞, 0, 0). At chunks 1 … 15 the head level takes one head step over what the point before left, at chunks
  16 … 47 the tail level one tail step; the point before works on the same row tile, so its rows are the same hidden
  rows. In each shape the point's scores at row r are chunk t % 48 of the hidden row's scores: the blocks read the
  arrays at the tile's rows and the chunk's words, and the specification's operand order is the kernel's.
-/
import proofs.«430609_j28260884807701_2_alg».proof.Proof.KernelIdeal.Data0
import proofs.«430609_j28260884807701_2_alg».proof.Proof.Val.Args
import proofs.«430609_j28260884807701_2_alg».proof.Proof.Val.Payloads
import proofs.«430609_j28260884807701_2_alg».proof.Proof.Val.Prefix

set_option maxRecDepth 16384

noncomputable section

namespace Cert.KernelIdeal.Val

open Cert.KernelIdeal Cert.KernelIdeal.Gen Cert.KernelIdeal.Hand Idealize.ShloMosaic Idealize.ShloMosaic.ValueIdx

variable (m : (ℓ : Loc nD τ sig) → Buf (Elt Ideal) ℓ) (ρ : Dev nD → PrngReg) (c : Dev nD)

/-- Row `r` of point `t`'s row tile is one of the 128 hidden rows. -/
theorem rowBound (t : Fin cfg0.N) (r : Fin 64) : 64 * (t.val / 48) + r.val < 128 := by
  have := t.isLt; have h : cfg0.N = 96 := N_0; have := r.isLt; omega
/-- Word `q` of point `t`'s chunk is one of the 6145 words. -/
theorem wordBound (t : Fin cfg0.N) (q : Fin 128) : 128 * (t.val % 48) + q.val < 6145 := by
  have := q.isLt; omega

/-! ## The point's blocks, in the arrays' coordinates -/

theorem blk0_at (t : Fin cfg0.N) (r : Fin 64) (d : Fin 256) :
    iblk0 (V5 m ρ) c 0 t (ix2 r d) = aH m c (rowOf t r) d :=
  (iblk0_0_apply m ρ c t r d).trans rfl
theorem blk1_at (t : Fin cfg0.N) (q : Fin 128) (e : Fin 256) :
    iblk0 (V5 m ρ) c 1 t (ix2 q e) = aE m c ⟨128 * (t.val % 48) + q.val, wordBound t q⟩ e :=
  (iblk0_1_apply m ρ c t q e).trans rfl
theorem blk2_at (t : Fin cfg0.N) (e : Fin 256) (d : Fin 256) :
    iblk0 (V5 m ρ) c 2 t (ix2 e d) = aW m c e d :=
  (iblk0_2_apply m ρ c t e d).trans rfl
theorem blk3_at (t : Fin cfg0.N) (e : Fin 256) (d : Fin 256) :
    iblk0 (V5 m ρ) c 3 t (ix2 e d) = aU m c e d :=
  (iblk0_3_apply m ρ c t e d).trans rfl
theorem blk4_at (t : Fin cfg0.N) (d : Fin 256) :
    iblk0 (V5 m ρ) c 4 t (ix2 (0 : Fin 1) d) = aB m c d :=
  (iblk0_4_apply m ρ c t d).trans rfl
theorem blk5_at (t : Fin cfg0.N) (r : Fin 64) :
    iblk0 (V5 m ρ) c 5 t (ix2 r (0 : Fin 1)) = hwOf m c (rowOf t r) :=
  (iblk0_5_apply m ρ c t r).trans rfl
theorem blk6_at (t : Fin cfg0.N) (r : Fin 64) :
    iblk0 (V5 m ρ) c 6 t (ix2 r (0 : Fin 1)) = twOf m c (rowOf t r) :=
  (iblk0_6_apply m ρ c t r).trans rfl

/-! ## The specification's recursion, one chunk at a time -/

/-- Chunk `cc` of a score row, when its words lie inside the row: no wrap-around. -/
theorem chunk_eq (K : Fin 6145 → EReal) (cc : ℕ) (q : Fin 128) (h : 128 * cc + q.val < 6145) :
    Cert.Spec.chunk K cc q = K ⟨128 * cc + q.val, h⟩ :=
  congrArg K (Fin.ext (Nat.mod_eq_of_lt h))

/-- After a head chunk the state is the head step of the state before it. -/
theorem stateAt_head (K : Fin 6145 → EReal) (hw tw : BitVec 32) (cc : ℕ) (h : cc < 16) :
    Cert.Spec.stateAt K hw tw (cc + 1)
      = Cert.Spec.headStep (Cert.Spec.stateAt K hw tw cc) hw cc (Cert.Spec.chunk K cc) := by
  rw [Cert.Spec.stateAt, if_pos h]

/-- After a tail chunk the state is the tail step of the state before it. -/
theorem stateAt_tail (K : Fin 6145 → EReal) (hw tw : BitVec 32) (cc : ℕ) (h : ¬ cc < 16) :
    Cert.Spec.stateAt K hw tw (cc + 1)
      = Cert.Spec.tailStep (Cert.Spec.stateAt K hw tw cc) tw cc (Cert.Spec.chunk K cc) := by
  rw [Cert.Spec.stateAt, if_neg h]

/-- Two row states with the same six numbers are the same. -/
theorem rowState_ext {a b : Cert.Spec.RowState} (h1 : a.mh = b.mh) (h2 : a.lh = b.lh) (h3 : a.gh = b.gh)
    (h4 : a.mt = b.mt) (h5 : a.lt = b.lt) (h6 : a.gt = b.gt) : a = b := by
  cases a; cases b
  simp only [Cert.Spec.RowState.mk.injEq]
  exact ⟨h1, h2, h3, h4, h5, h6⟩

/-! ## A row of the carried buffers, as a row state -/

/-- Row `r` of the six level buffers: (m, l, g) of the head level, then of the tail level. -/
def rowSt (s : Scr Ideal) (r : Fin 64) : Cert.Spec.RowState :=
  ⟨s.mh (ix2 r (0 : Fin 1)), s.lh (ix2 r (0 : Fin 1)), s.gh (ix2 r (0 : Fin 1)),
   s.mt (ix2 r (0 : Fin 1)), s.lt (ix2 r (0 : Fin 1)), s.gt (ix2 r (0 : Fin 1))⟩

/-- The reset followed by a head chunk: the head step of the initial state, the tail level at its initial numbers. -/
theorem rowSt_scrA (cc : ℕ) (hcc : cc < 48) (x0 : Vec Ideal S64x256 .f32) (x1 : Vec Ideal S128x256 .f32)
    (x2 x3 : Vec Ideal S256x256 .f32) (x4 : Vec Ideal S1x256 .f32) (x5 : Vec Ideal S64x1 .i32) (r : Fin 64) :
    rowSt (scrA (BitVec.ofNat 32 cc) x0 x1 x2 x3 x4 x5) r
      = Cert.Spec.headStep Cert.Spec.initState (x5 (ix2 r (0 : Fin 1))) cc
          (fun q => scores x0 x1 x2 (hubOf x0 x3 x4) (ix2 r q)) := by
  refine rowState_ext ?_ ?_ ?_ rfl rfl rfl
  · exact headM_apply (scores x0 x1 x2 (hubOf x0 x3 x4)) (k0_pay4 (F := Ideal)) r
  · exact headL_apply (scores x0 x1 x2 (hubOf x0 x3 x4)) (k0_pay4 (F := Ideal)) (k0_pay5 (F := Ideal)) r
  · exact headG_apply cc hcc (scores x0 x1 x2 (hubOf x0 x3 x4)) x5 (k0_pay6 (F := Ideal)) r

/-- A head chunk: the head step of the row's state before it. -/
theorem rowSt_scrB (cc : ℕ) (hcc : cc < 48) (x0 : Vec Ideal S64x256 .f32) (x1 : Vec Ideal S128x256 .f32)
    (x2 : Vec Ideal S256x256 .f32) (x5 : Vec Ideal S64x1 .i32) (s : Scr Ideal) (r : Fin 64) :
    rowSt (scrB (BitVec.ofNat 32 cc) x0 x1 x2 x5 s) r
      = Cert.Spec.headStep (rowSt s r) (x5 (ix2 r (0 : Fin 1))) cc (fun q => scores x0 x1 x2 s.hub (ix2 r q)) := by
  refine rowState_ext ?_ ?_ ?_ rfl rfl rfl
  · exact headM_apply (scores x0 x1 x2 s.hub) s.mh r
  · exact headL_apply (scores x0 x1 x2 s.hub) s.mh s.lh r
  · exact headG_apply cc hcc (scores x0 x1 x2 s.hub) x5 s.gh r

/-- A tail chunk: the tail step of the row's state before it. -/
theorem rowSt_scrC (cc : ℕ) (h16 : 16 ≤ cc) (hcc : cc < 48) (x0 : Vec Ideal S64x256 .f32) (x1 : Vec Ideal S128x256 .f32)
    (x2 : Vec Ideal S256x256 .f32) (x6 : Vec Ideal S64x1 .i32) (s : Scr Ideal) (r : Fin 64) :
    rowSt (scrC (BitVec.ofNat 32 cc) x0 x1 x2 x6 s) r
      = Cert.Spec.tailStep (rowSt s r) (x6 (ix2 r (0 : Fin 1))) cc (fun q => scores x0 x1 x2 s.hub (ix2 r q)) := by
  refine rowState_ext rfl rfl rfl ?_ ?_ ?_
  · exact tailM_apply (scores x0 x1 x2 s.hub) s.mt r
  · exact tailL_apply (scores x0 x1 x2 s.hub) s.mt s.lt r
  · exact tailG_apply cc h16 hcc (scores x0 x1 x2 s.hub) x6 s.gt r

/-! ## The point's payloads, in the arrays' coordinates -/

/-- h · U + b of the point's row tile, at row `r`, is h · U + b of the hidden row that row is. -/
theorem hub_at (t : Fin cfg0.N) (r : Fin 64) (d : Fin 256) :
    hubOf (iblk0 (V5 m ρ) c 0 t) (iblk0 (V5 m ρ) c 3 t) (iblk0 (V5 m ρ) c 4 t) (ix2 r d)
      = Cert.Spec.hub (aH m c) (aU m c) (aB m c) (rowOf t r) d := by
  refine (hubOf_apply (iblk0 (V5 m ρ) c 0 t) (iblk0 (V5 m ρ) c 3 t) (iblk0 (V5 m ρ) c 4 t) r d).trans ?_
  unfold Cert.Spec.hub
  rw [blk4_at m ρ c t d]
  refine congrArg (· + aB m c d) ?_
  exact Finset.sum_congr rfl fun e _ => by rw [blk0_at m ρ c t r e, blk3_at m ρ c t e d]

/-- The point's scores at row `r` are the chunk of that hidden row's scores, given h · U + b at that row. -/
theorem scores_row (t : Fin cfg0.N) (r : Fin 64) (hub : Vec Ideal S64x256 .f32)
    (hhub : ∀ d, hub (ix2 r d) = Cert.Spec.hub (aH m c) (aU m c) (aB m c) (rowOf t r) d) :
    (fun q => scores (iblk0 (V5 m ρ) c 0 t) (iblk0 (V5 m ρ) c 1 t) (iblk0 (V5 m ρ) c 2 t) hub (ix2 r q))
      = Cert.Spec.chunk (kRow m c (rowOf t r)) (t.val % 48) := by
  funext q
  refine ((scores_apply (iblk0 (V5 m ρ) c 0 t) (iblk0 (V5 m ρ) c 1 t) (iblk0 (V5 m ρ) c 2 t) hub r q).trans ?_).trans
    (chunk_eq (kRow m c (rowOf t r)) (t.val % 48) q (wordBound t q)).symm
  show _ = Cert.Spec.kmat (aH m c) (aE m c) (aW m c) (aU m c) (aB m c) (rowOf t r) ⟨128 * (t.val % 48) + q.val, wordBound t q⟩
  unfold Cert.Spec.kmat Cert.Spec.diff Cert.Spec.ew
  refine congrArg (fun z => Ideal.div Cert.Spec.c65 (Cert.Spec.c1 + z)) ?_
  refine Finset.sum_congr rfl fun d _ => ?_
  exact sq_congr (blk0_at m ρ c t r d)
    (Finset.sum_congr rfl fun e _ => congrArg₂ (· * ·) (blk1_at m ρ c t q e) (blk2_at m ρ c t e d)) (hhub d)

/-! ## The walk -/

/-- The point before a point that is not a tile's first works on the same row tile. -/
theorem rowOf_pred (t : Fin cfg0.N) (h0 : ¬ t.val % 48 = 0) (r : Fin 64) :
    rowOf ⟨t.val - 1, Nat.lt_of_le_of_lt (Nat.sub_le _ _) t.isLt⟩ r = rowOf t r :=
  Fin.ext (by
    show 64 * ((t.val - 1) / 48) + r.val = 64 * (t.val / 48) + r.val
    omega)

/-- After every point, row `r` of the carried buffers holds h · U + b of its hidden row and that row's state after the
    chunks walked so far: by induction on the point, through the three shapes a point's update takes. -/
theorem scr_fold_aux (k : ℕ) : ∀ (t : Fin cfg0.N), t.val = k → ∀ r : Fin 64,
    (∀ d, (scrAt0 (V5 m ρ) c t.val t.isLt).hub (ix2 r d) = Cert.Spec.hub (aH m c) (aU m c) (aB m c) (rowOf t r) d)
    ∧ rowSt (scrAt0 (V5 m ρ) c t.val t.isLt) r
        = Cert.Spec.stateAt (kRow m c (rowOf t r)) (hwOf m c (rowOf t r)) (twOf m c (rowOf t r)) (t.val % 48 + 1) := by
  induction k using Nat.strong_induction_on with
  | _ k ih =>
    intro t htk r
    have hN : t.val < 96 := lt_of_lt_of_eq t.isLt N_0
    have hcc : t.val % 48 < 48 := Nat.mod_lt _ (by norm_num)
    by_cases h0 : t.val % 48 = 0
    · -- the tile's first chunk: everything afresh
      have hA : scrAt0 (V5 m ρ) c t.val t.isLt
          = scrA (BitVec.ofNat 32 (t.val % 48)) (iblk0 (V5 m ρ) c 0 t) (iblk0 (V5 m ρ) c 1 t) (iblk0 (V5 m ρ) c 2 t)
              (iblk0 (V5 m ρ) c 3 t) (iblk0 (V5 m ρ) c 4 t) (iblk0 (V5 m ρ) c 5 t) :=
        (scrAt0_A (V5 m ρ) c t h0).trans
          (congrArg (fun a => scrA a (iblk0 (V5 m ρ) c 0 t) (iblk0 (V5 m ρ) c 1 t) (iblk0 (V5 m ρ) c 2 t)
              (iblk0 (V5 m ρ) c 3 t) (iblk0 (V5 m ρ) c 4 t) (iblk0 (V5 m ρ) c 5 t)) (chunkW_coords t))
      have hs : Cert.Spec.stateAt (kRow m c (rowOf t r)) (hwOf m c (rowOf t r)) (twOf m c (rowOf t r)) (t.val % 48)
          = Cert.Spec.initState := by rw [h0]; rfl
      rw [hA]
      refine ⟨fun d => hub_at m ρ c t r d, ?_⟩
      refine (rowSt_scrA (t.val % 48) hcc (iblk0 (V5 m ρ) c 0 t) (iblk0 (V5 m ρ) c 1 t) (iblk0 (V5 m ρ) c 2 t)
          (iblk0 (V5 m ρ) c 3 t) (iblk0 (V5 m ρ) c 4 t) (iblk0 (V5 m ρ) c 5 t) r).trans ?_
      rw [blk5_at m ρ c t r, scores_row m ρ c t r _ (fun d => hub_at m ρ c t r d),
        stateAt_head _ _ _ _ (by omega : t.val % 48 < 16), hs]
    · have hm : (t.val - 1) % 48 + 1 = t.val % 48 := by omega
      obtain ⟨ihH, ihS⟩ := ih (t.val - 1) (by omega) ⟨t.val - 1, Nat.lt_of_le_of_lt (Nat.sub_le _ _) t.isLt⟩ rfl r
      rw [rowOf_pred t h0 r] at ihH ihS
      have ihH' : ∀ d, (scrAt0 (V5 m ρ) c (t.val - 1) (Nat.lt_of_le_of_lt (Nat.sub_le _ _) t.isLt)).hub (ix2 r d)
          = Cert.Spec.hub (aH m c) (aU m c) (aB m c) (rowOf t r) d := ihH
      have ihS' : rowSt (scrAt0 (V5 m ρ) c (t.val - 1) (Nat.lt_of_le_of_lt (Nat.sub_le _ _) t.isLt)) r
          = Cert.Spec.stateAt (kRow m c (rowOf t r)) (hwOf m c (rowOf t r)) (twOf m c (rowOf t r)) (t.val % 48) :=
        ihS.trans (congrArg (Cert.Spec.stateAt (kRow m c (rowOf t r)) (hwOf m c (rowOf t r)) (twOf m c (rowOf t r))) hm)
      by_cases h1 : t.val % 48 < 16
      · -- a head chunk over what the point before left
        have hB : scrAt0 (V5 m ρ) c t.val t.isLt
            = scrB (BitVec.ofNat 32 (t.val % 48)) (iblk0 (V5 m ρ) c 0 t) (iblk0 (V5 m ρ) c 1 t) (iblk0 (V5 m ρ) c 2 t)
                (iblk0 (V5 m ρ) c 5 t) (scrAt0 (V5 m ρ) c (t.val - 1) (Nat.lt_of_le_of_lt (Nat.sub_le _ _) t.isLt)) :=
          (scrAt0_B (V5 m ρ) c t h0 h1).trans
            (congrArg (fun a => scrB a (iblk0 (V5 m ρ) c 0 t) (iblk0 (V5 m ρ) c 1 t) (iblk0 (V5 m ρ) c 2 t)
                (iblk0 (V5 m ρ) c 5 t) (scrAt0 (V5 m ρ) c (t.val - 1) (Nat.lt_of_le_of_lt (Nat.sub_le _ _) t.isLt)))
              (chunkW_coords t))
        rw [hB]
        refine ⟨ihH', ?_⟩
        refine (rowSt_scrB (t.val % 48) hcc (iblk0 (V5 m ρ) c 0 t) (iblk0 (V5 m ρ) c 1 t) (iblk0 (V5 m ρ) c 2 t)
            (iblk0 (V5 m ρ) c 5 t) (scrAt0 (V5 m ρ) c (t.val - 1) (Nat.lt_of_le_of_lt (Nat.sub_le _ _) t.isLt)) r).trans ?_
        rw [ihS', blk5_at m ρ c t r, scores_row m ρ c t r _ ihH', stateAt_head _ _ _ _ h1]
      · -- a tail chunk over what the point before left
        have hC : scrAt0 (V5 m ρ) c t.val t.isLt
            = scrC (BitVec.ofNat 32 (t.val % 48)) (iblk0 (V5 m ρ) c 0 t) (iblk0 (V5 m ρ) c 1 t) (iblk0 (V5 m ρ) c 2 t)
                (iblk0 (V5 m ρ) c 6 t) (scrAt0 (V5 m ρ) c (t.val - 1) (Nat.lt_of_le_of_lt (Nat.sub_le _ _) t.isLt)) :=
          (scrAt0_C (V5 m ρ) c t h1).trans
            (congrArg (fun a => scrC a (iblk0 (V5 m ρ) c 0 t) (iblk0 (V5 m ρ) c 1 t) (iblk0 (V5 m ρ) c 2 t)
                (iblk0 (V5 m ρ) c 6 t) (scrAt0 (V5 m ρ) c (t.val - 1) (Nat.lt_of_le_of_lt (Nat.sub_le _ _) t.isLt)))
              (chunkW_coords t))
        rw [hC]
        refine ⟨ihH', ?_⟩
        refine (rowSt_scrC (t.val % 48) (by omega) hcc (iblk0 (V5 m ρ) c 0 t) (iblk0 (V5 m ρ) c 1 t) (iblk0 (V5 m ρ) c 2 t)
            (iblk0 (V5 m ρ) c 6 t) (scrAt0 (V5 m ρ) c (t.val - 1) (Nat.lt_of_le_of_lt (Nat.sub_le _ _) t.isLt)) r).trans ?_
        rw [ihS', blk6_at m ρ c t r, scores_row m ρ c t r _ ihH', stateAt_tail _ _ _ _ h1]

/-- After point `t`, row `r` of the first carried buffer is h · U + b of the hidden row that row is. -/
theorem scr_hub (t : Fin cfg0.N) (r : Fin 64) (d : Fin 256) :
    (scrAt0 (V5 m ρ) c t.val t.isLt).hub (ix2 r d) = Cert.Spec.hub (aH m c) (aU m c) (aB m c) (rowOf t r) d :=
  (scr_fold_aux m ρ c t.val t rfl r).1 d

/-- After point `t`, row `r` of the six level buffers is the hidden row's state after its first `t % 48 + 1` chunks. -/
theorem scr_state (t : Fin cfg0.N) (r : Fin 64) :
    (scrAt0 (V5 m ρ) c t.val t.isLt).mh (ix2 r (0 : Fin 1)) = (Cert.Spec.stateAt (kRow m c (rowOf t r)) (hwOf m c (rowOf t r)) (twOf m c (rowOf t r)) (t.val % 48 + 1)).mh
    ∧ (scrAt0 (V5 m ρ) c t.val t.isLt).lh (ix2 r (0 : Fin 1)) = (Cert.Spec.stateAt (kRow m c (rowOf t r)) (hwOf m c (rowOf t r)) (twOf m c (rowOf t r)) (t.val % 48 + 1)).lh
    ∧ (scrAt0 (V5 m ρ) c t.val t.isLt).gh (ix2 r (0 : Fin 1)) = (Cert.Spec.stateAt (kRow m c (rowOf t r)) (hwOf m c (rowOf t r)) (twOf m c (rowOf t r)) (t.val % 48 + 1)).gh
    ∧ (scrAt0 (V5 m ρ) c t.val t.isLt).mt (ix2 r (0 : Fin 1)) = (Cert.Spec.stateAt (kRow m c (rowOf t r)) (hwOf m c (rowOf t r)) (twOf m c (rowOf t r)) (t.val % 48 + 1)).mt
    ∧ (scrAt0 (V5 m ρ) c t.val t.isLt).lt (ix2 r (0 : Fin 1)) = (Cert.Spec.stateAt (kRow m c (rowOf t r)) (hwOf m c (rowOf t r)) (twOf m c (rowOf t r)) (t.val % 48 + 1)).lt
    ∧ (scrAt0 (V5 m ρ) c t.val t.isLt).gt (ix2 r (0 : Fin 1)) = (Cert.Spec.stateAt (kRow m c (rowOf t r)) (hwOf m c (rowOf t r)) (twOf m c (rowOf t r)) (t.val % 48 + 1)).gt := by
  have h := (scr_fold_aux m ρ c t.val t rfl r).2
  exact ⟨congrArg Cert.Spec.RowState.mh h, congrArg Cert.Spec.RowState.lh h, congrArg Cert.Spec.RowState.gh h,
    congrArg Cert.Spec.RowState.mt h, congrArg Cert.Spec.RowState.lt h, congrArg Cert.Spec.RowState.gt h⟩

end Cert.KernelIdeal.Val

end
-- ==== Proof.Val.Outs.lean ====
/-
  What the two kernel regions leave in their result arrays, read at a hidden row, and the head/tail flag.

  Region 0 walks the 6144 words in 48 chunks for each of the two row tiles (64 hidden rows each) and writes its four
  result blocks back only after a row tile's last chunk. By then the walk has seen all 48 chunks, so row r of the
  tile's block holds, for hidden row n = 64 · tile + r, the four numbers the specification calls lseHead, gHead,
  lseTail and gTail of n's score row: the head level's  m + log l  and its masked sum, and the tail level's. The two
  tiles' blocks together cover each [128, 1] result array (row n lies in the block of tile n / 64, written back at
  grid point 48 · (n / 64) + 47), so each array ends at that function of the hidden row.

  Region 1 has one grid point, whose blocks are whole arrays; its result is, per hidden row n,
  65 / (1 + Σ_d (h n d − tanh ((emb 6144 · W) d + ((h n · U) d + b d)))²), the score of word 6144. Its five inputs
  are h, the table's last row, W, U and the bias row as region 0 found them: region 0 writes only its four results.

  The head/tail flag is written by neither region.
-/
import proofs.«430609_j28260884807701_2_alg».proof.Proof.KernelIdeal.Bounds2
import proofs.«430609_j28260884807701_2_alg».proof.Proof.Val.Args
import proofs.«430609_j28260884807701_2_alg».proof.Proof.Val.Fold
import proofs.«430609_j28260884807701_2_alg».proof.Proof.Val.Payloads
import proofs.«430609_j28260884807701_2_alg».proof.Proof.Val.Prefix
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg) (c : Dev nD)

/-! ## Region 0's four result arrays -/

/-- The block index of each of the four result windows at grid point t: row tile t / 48, column block 0. -/
theorem rowTile_index : ∀ t : Fin cfg0.N,
    (win0_7.index t (0 : Fin 2) = t.val / 48 ∧ win0_7.index t (1 : Fin 2) = 0)
    ∧ (win0_8.index t (0 : Fin 2) = t.val / 48 ∧ win0_8.index t (1 : Fin 2) = 0)
    ∧ (win0_9.index t (0 : Fin 2) = t.val / 48 ∧ win0_9.index t (1 : Fin 2) = 0)
    ∧ (win0_10.index t (0 : Fin 2) = t.val / 48 ∧ win0_10.index t (1 : Fin 2) = 0) :=
  (by decide +kernel : ∀ t : Fin grid0.N, _)

/-- After the last chunk of a row tile the walk has seen all 48 chunks. -/
theorem last_chunk {t : Fin cfg0.N} (h : t.val % 48 = 47) : t.val % 48 + 1 = 48 := by omega

/-- The head level's log-sum-exp of every hidden row, as one array. -/
def lseHeadArr : S128x1.Idx → EReal := fun i => Cert.Spec.lseHead (kRow m c (i 0)) (hwOf m c (i 0)) (twOf m c (i 0))

/-- What the last chunk's point of a row tile writes back is the tile's 64 rows of the array: row r of the block is hidden
    row 64 · (t / 48) + r, and that row's state after all 48 chunks gives m + log l of the head level. -/
theorem flushed_lseHead (t : Fin cfg0.N) (hf : (cfg0.win 7).flush t = true) :
    (dat0 (V5 m ρ) c).flushed 7 t = ((cfg0.win 7).blk t).view.read (Elt Ideal) (lseHeadArr m c) := by
  have h47 : t.val % 48 = 47 := (flush0_7 t).mp hf
  obtain ⟨⟨e0, e1⟩, -⟩ := rowTile_index t
  show (cfg0.win 7).cut (grid0.coords t) ((dat0 (V5 m ρ) c).after 7 t) = _
  rw [after0_7]
  funext y
  obtain ⟨r, u, rfl⟩ : ∃ (r : Fin 64) (u : Fin 1), y = ix2 r u := ⟨y 0, y 1, eq_ix2 (n0 := 64) (n1 := 1) y⟩
  obtain rfl : u = 0 := Subsingleton.elim _ _
  rw [View.read_apply]
  have hemb : ((cfg0.win 7).blk t).view.emb (ix2 r (0 : Fin 1)) = (ix2 (rowOf t r) (0 : Fin 1) : S128x1.Idx) := by
    funext a; apply Fin.ext
    match a with
    | ⟨0, _⟩ => show win0_7.index t (0 : Fin 2) * 64 + 1 * r.val = 64 * (t.val / 48) + r.val; rw [e0]; omega
    | ⟨1, _⟩ => show win0_7.index t (1 : Fin 2) * 1 + 1 * 0 = 0; rw [e1]
  show outLseH (scrAt0 (V5 m ρ) c t.val t.isLt) (ix2 r (0 : Fin 1)) = lseHeadArr m c (((cfg0.win 7).blk t).view.emb (ix2 r (0 : Fin 1)))
  rw [hemb, outLseH_apply]
  obtain ⟨hmh, hlh, -⟩ := scr_state m ρ c t r
  rw [hmh, hlh, last_chunk h47]
  rfl

/-- A hidden row lies in grid point t's block of a result array iff it is one of row tile t / 48's 64 rows. -/
theorem mem_blk0_7 (t : Fin cfg0.N) (i : S128x1.Idx) :
    i ∈ ((cfg0.win 7).blk t).view.set ↔ ∀ a : Fin 2, win0_7.index t a * S64x1.size a ≤ (i a).val ∧ (i a).val < win0_7.index t a * S64x1.size a + S64x1.size a := by
  show i ∈ ((View.whole main_v11_0).slice (win0_7.rect t)).set ↔ _
  rw [View.set_slice_whole, Rect.mem_set_unit]
  exact Iff.rfl

/-- The last chunk's point of hidden row n's row tile. -/
def lastPt (i : S128x1.Idx) : Fin cfg0.N := ⟨48 * ((i 0).val / 64) + 47, by have := idx2_lt0 i; have h : cfg0.N = 96 := N_0; omega⟩

/-- Every hidden row is in the block written back at its row tile's last chunk. -/
theorem cover0_7 (i : S128x1.Idx) : ∃ t : Fin cfg0.N, (cfg0.win 7).flush t = true ∧ i ∈ ((cfg0.win 7).blk t).view.set := by
  have hi0 : (i 0).val < 128 := idx2_lt0 i
  have hi1 : (i 1).val < 1 := idx2_lt1 i
  refine ⟨lastPt i, (flush0_7 _).mpr (by show (48 * ((i 0).val / 64) + 47) % 48 = 47; omega), ?_⟩
  obtain ⟨⟨e0, e1⟩, -⟩ := rowTile_index (lastPt i)
  have ht : (lastPt i).val / 48 = (i 0).val / 64 := by show (48 * ((i 0).val / 64) + 47) / 48 = _; omega
  rw [mem_blk0_7]
  intro a
  match a with
  | ⟨0, _⟩ => show win0_7.index (lastPt i) (0 : Fin 2) * 64 ≤ (i 0).val ∧ (i 0).val < win0_7.index (lastPt i) (0 : Fin 2) * 64 + 64; rw [e0, ht]; omega
  | ⟨1, _⟩ => show win0_7.index (lastPt i) (1 : Fin 2) * 1 ≤ (i 1).val ∧ (i 1).val < win0_7.index (lastPt i) (1 : Fin 2) * 1 + 1; rw [e1]; omega

/-- So the array ends at the head level's log-sum-exp of each hidden row. -/
theorem final_lseHead : (dat0 (V5 m ρ) c).arrAt 7 cfg0.N = lseHeadArr m c :=
  (dat0 (V5 m ρ) c).arrAt_eq_of_cover 7 (lseHeadArr m c) (flushed_lseHead m ρ c) cover0_7

theorem W7_v11_0_apply (n : Fin 128) : W7 m ρ c (Proc.devRef .tc main_v11_0) (ix2 n (0 : Fin 1)) = Cert.Spec.lseHead (kRow m c n) (hwOf m c n) (twOf m c n) := by
  rw [W7_of_ne m ρ c main_v11_0 (by decide)]
  have h7 : W6 m ρ c (Proc.devRef .tc main_v11_0) = (dat0 (V5 m ρ) c).arrAt 7 cfg0.N := W6_arr m ρ c 7
  rw [h7, final_lseHead]
  rfl

/-- The head level's masked sum (the target's score) of every hidden row, as one array. -/
def gHeadArr : S128x1.Idx → EReal := fun i => Cert.Spec.gHead (kRow m c (i 0)) (hwOf m c (i 0)) (twOf m c (i 0))

/-- The same block read for the head level's masked sum: the scratch's own g after all 48 chunks. -/
theorem flushed_gHead (t : Fin cfg0.N) (hf : (cfg0.win 8).flush t = true) :
    (dat0 (V5 m ρ) c).flushed 8 t = ((cfg0.win 8).blk t).view.read (Elt Ideal) (gHeadArr m c) := by
  have h47 : t.val % 48 = 47 := (flush0_8 t).mp hf
  obtain ⟨-, ⟨e0, e1⟩, -⟩ := rowTile_index t
  show (cfg0.win 8).cut (grid0.coords t) ((dat0 (V5 m ρ) c).after 8 t) = _
  rw [after0_8]
  funext y
  obtain ⟨r, u, rfl⟩ : ∃ (r : Fin 64) (u : Fin 1), y = ix2 r u := ⟨y 0, y 1, eq_ix2 (n0 := 64) (n1 := 1) y⟩
  obtain rfl : u = 0 := Subsingleton.elim _ _
  rw [View.read_apply]
  have hemb : ((cfg0.win 8).blk t).view.emb (ix2 r (0 : Fin 1)) = (ix2 (rowOf t r) (0 : Fin 1) : S128x1.Idx) := by
    funext a; apply Fin.ext
    match a with
    | ⟨0, _⟩ => show win0_8.index t (0 : Fin 2) * 64 + 1 * r.val = 64 * (t.val / 48) + r.val; rw [e0]; omega
    | ⟨1, _⟩ => show win0_8.index t (1 : Fin 2) * 1 + 1 * 0 = 0; rw [e1]
  show (scrAt0 (V5 m ρ) c t.val t.isLt).gh (ix2 r (0 : Fin 1)) = gHeadArr m c (((cfg0.win 8).blk t).view.emb (ix2 r (0 : Fin 1)))
  rw [hemb]
  obtain ⟨-, -, hgh, -⟩ := scr_state m ρ c t r
  rw [hgh, last_chunk h47]
  rfl

theorem mem_blk0_8 (t : Fin cfg0.N) (i : S128x1.Idx) :
    i ∈ ((cfg0.win 8).blk t).view.set ↔ ∀ a : Fin 2, win0_8.index t a * S64x1.size a ≤ (i a).val ∧ (i a).val < win0_8.index t a * S64x1.size a + S64x1.size a := by
  show i ∈ ((View.whole main_v11_1).slice (win0_8.rect t)).set ↔ _
  rw [View.set_slice_whole, Rect.mem_set_unit]
  exact Iff.rfl

theorem cover0_8 (i : S128x1.Idx) : ∃ t : Fin cfg0.N, (cfg0.win 8).flush t = true ∧ i ∈ ((cfg0.win 8).blk t).view.set := by
  have hi0 : (i 0).val < 128 := idx2_lt0 i
  have hi1 : (i 1).val < 1 := idx2_lt1 i
  refine ⟨lastPt i, (flush0_8 _).mpr (by show (48 * ((i 0).val / 64) + 47) % 48 = 47; omega), ?_⟩
  obtain ⟨-, ⟨e0, e1⟩, -⟩ := rowTile_index (lastPt i)
  have ht : (lastPt i).val / 48 = (i 0).val / 64 := by show (48 * ((i 0).val / 64) + 47) / 48 = _; omega
  rw [mem_blk0_8]
  intro a
  match a with
  | ⟨0, _⟩ => show win0_8.index (lastPt i) (0 : Fin 2) * 64 ≤ (i 0).val ∧ (i 0).val < win0_8.index (lastPt i) (0 : Fin 2) * 64 + 64; rw [e0, ht]; omega
  | ⟨1, _⟩ => show win0_8.index (lastPt i) (1 : Fin 2) * 1 ≤ (i 1).val ∧ (i 1).val < win0_8.index (lastPt i) (1 : Fin 2) * 1 + 1; rw [e1]; omega

/-- So the array ends at the head level's masked sum of each hidden row. -/
theorem final_gHead : (dat0 (V5 m ρ) c).arrAt 8 cfg0.N = gHeadArr m c :=
  (dat0 (V5 m ρ) c).arrAt_eq_of_cover 8 (gHeadArr m c) (flushed_gHead m ρ c) cover0_8

theorem W7_v11_1_apply (n : Fin 128) : W7 m ρ c (Proc.devRef .tc main_v11_1) (ix2 n (0 : Fin 1)) = Cert.Spec.gHead (kRow m c n) (hwOf m c n) (twOf m c n) := by
  rw [W7_of_ne m ρ c main_v11_1 (by decide)]
  have h8 : W6 m ρ c (Proc.devRef .tc main_v11_1) = (dat0 (V5 m ρ) c).arrAt 8 cfg0.N := W6_arr m ρ c 8
  rw [h8, final_gHead]
  rfl

/-- The tail level's log-sum-exp of every hidden row, as one array. -/
def lseTailArr : S128x1.Idx → EReal := fun i => Cert.Spec.lseTail (kRow m c (i 0)) (hwOf m c (i 0)) (twOf m c (i 0))

/-- The same block read for the tail level: m + log l after all 48 chunks. -/
theorem flushed_lseTail (t : Fin cfg0.N) (hf : (cfg0.win 9).flush t = true) :
    (dat0 (V5 m ρ) c).flushed 9 t = ((cfg0.win 9).blk t).view.read (Elt Ideal) (lseTailArr m c) := by
  have h47 : t.val % 48 = 47 := (flush0_9 t).mp hf
  obtain ⟨-, -, ⟨e0, e1⟩, -⟩ := rowTile_index t
  show (cfg0.win 9).cut (grid0.coords t) ((dat0 (V5 m ρ) c).after 9 t) = _
  rw [after0_9]
  funext y
  obtain ⟨r, u, rfl⟩ : ∃ (r : Fin 64) (u : Fin 1), y = ix2 r u := ⟨y 0, y 1, eq_ix2 (n0 := 64) (n1 := 1) y⟩
  obtain rfl : u = 0 := Subsingleton.elim _ _
  rw [View.read_apply]
  have hemb : ((cfg0.win 9).blk t).view.emb (ix2 r (0 : Fin 1)) = (ix2 (rowOf t r) (0 : Fin 1) : S128x1.Idx) := by
    funext a; apply Fin.ext
    match a with
    | ⟨0, _⟩ => show win0_9.index t (0 : Fin 2) * 64 + 1 * r.val = 64 * (t.val / 48) + r.val; rw [e0]; omega
    | ⟨1, _⟩ => show win0_9.index t (1 : Fin 2) * 1 + 1 * 0 = 0; rw [e1]
  show outLseT (scrAt0 (V5 m ρ) c t.val t.isLt) (ix2 r (0 : Fin 1)) = lseTailArr m c (((cfg0.win 9).blk t).view.emb (ix2 r (0 : Fin 1)))
  rw [hemb, outLseT_apply]
  obtain ⟨-, -, -, hmt, hlt, -⟩ := scr_state m ρ c t r
  rw [hmt, hlt, last_chunk h47]
  rfl

theorem mem_blk0_9 (t : Fin cfg0.N) (i : S128x1.Idx) :
    i ∈ ((cfg0.win 9).blk t).view.set ↔ ∀ a : Fin 2, win0_9.index t a * S64x1.size a ≤ (i a).val ∧ (i a).val < win0_9.index t a * S64x1.size a + S64x1.size a := by
  show i ∈ ((View.whole main_v11_2).slice (win0_9.rect t)).set ↔ _
  rw [View.set_slice_whole, Rect.mem_set_unit]
  exact Iff.rfl

theorem cover0_9 (i : S128x1.Idx) : ∃ t : Fin cfg0.N, (cfg0.win 9).flush t = true ∧ i ∈ ((cfg0.win 9).blk t).view.set := by
  have hi0 : (i 0).val < 128 := idx2_lt0 i
  have hi1 : (i 1).val < 1 := idx2_lt1 i
  refine ⟨lastPt i, (flush0_9 _).mpr (by show (48 * ((i 0).val / 64) + 47) % 48 = 47; omega), ?_⟩
  obtain ⟨-, -, ⟨e0, e1⟩, -⟩ := rowTile_index (lastPt i)
  have ht : (lastPt i).val / 48 = (i 0).val / 64 := by show (48 * ((i 0).val / 64) + 47) / 48 = _; omega
  rw [mem_blk0_9]
  intro a
  match a with
  | ⟨0, _⟩ => show win0_9.index (lastPt i) (0 : Fin 2) * 64 ≤ (i 0).val ∧ (i 0).val < win0_9.index (lastPt i) (0 : Fin 2) * 64 + 64; rw [e0, ht]; omega
  | ⟨1, _⟩ => show win0_9.index (lastPt i) (1 : Fin 2) * 1 ≤ (i 1).val ∧ (i 1).val < win0_9.index (lastPt i) (1 : Fin 2) * 1 + 1; rw [e1]; omega

/-- So the array ends at the tail level's log-sum-exp of each hidden row. -/
theorem final_lseTail : (dat0 (V5 m ρ) c).arrAt 9 cfg0.N = lseTailArr m c :=
  (dat0 (V5 m ρ) c).arrAt_eq_of_cover 9 (lseTailArr m c) (flushed_lseTail m ρ c) cover0_9

theorem W7_v11_2_apply (n : Fin 128) : W7 m ρ c (Proc.devRef .tc main_v11_2) (ix2 n (0 : Fin 1)) = Cert.Spec.lseTail (kRow m c n) (hwOf m c n) (twOf m c n) := by
  rw [W7_of_ne m ρ c main_v11_2 (by decide)]
  have h9 : W6 m ρ c (Proc.devRef .tc main_v11_2) = (dat0 (V5 m ρ) c).arrAt 9 cfg0.N := W6_arr m ρ c 9
  rw [h9, final_lseTail]
  rfl

/-- The tail level's masked sum of every hidden row, as one array. -/
def gTailArr : S128x1.Idx → EReal := fun i => Cert.Spec.gTail (kRow m c (i 0)) (hwOf m c (i 0)) (twOf m c (i 0))

/-- The same block read for the tail level's masked sum. -/
theorem flushed_gTail (t : Fin cfg0.N) (hf : (cfg0.win 10).flush t = true) :
    (dat0 (V5 m ρ) c).flushed 10 t = ((cfg0.win 10).blk t).view.read (Elt Ideal) (gTailArr m c) := by
  have h47 : t.val % 48 = 47 := (flush0_10 t).mp hf
  obtain ⟨-, -, -, e0, e1⟩ := rowTile_index t
  show (cfg0.win 10).cut (grid0.coords t) ((dat0 (V5 m ρ) c).after 10 t) = _
  rw [after0_10]
  funext y
  obtain ⟨r, u, rfl⟩ : ∃ (r : Fin 64) (u : Fin 1), y = ix2 r u := ⟨y 0, y 1, eq_ix2 (n0 := 64) (n1 := 1) y⟩
  obtain rfl : u = 0 := Subsingleton.elim _ _
  rw [View.read_apply]
  have hemb : ((cfg0.win 10).blk t).view.emb (ix2 r (0 : Fin 1)) = (ix2 (rowOf t r) (0 : Fin 1) : S128x1.Idx) := by
    funext a; apply Fin.ext
    match a with
    | ⟨0, _⟩ => show win0_10.index t (0 : Fin 2) * 64 + 1 * r.val = 64 * (t.val / 48) + r.val; rw [e0]; omega
    | ⟨1, _⟩ => show win0_10.index t (1 : Fin 2) * 1 + 1 * 0 = 0; rw [e1]
  show (scrAt0 (V5 m ρ) c t.val t.isLt).gt (ix2 r (0 : Fin 1)) = gTailArr m c (((cfg0.win 10).blk t).view.emb (ix2 r (0 : Fin 1)))
  rw [hemb]
  obtain ⟨-, -, -, -, -, hgt⟩ := scr_state m ρ c t r
  rw [hgt, last_chunk h47]
  rfl

theorem mem_blk0_10 (t : Fin cfg0.N) (i : S128x1.Idx) :
    i ∈ ((cfg0.win 10).blk t).view.set ↔ ∀ a : Fin 2, win0_10.index t a * S64x1.size a ≤ (i a).val ∧ (i a).val < win0_10.index t a * S64x1.size a + S64x1.size a := by
  show i ∈ ((View.whole main_v11_3).slice (win0_10.rect t)).set ↔ _
  rw [View.set_slice_whole, Rect.mem_set_unit]
  exact Iff.rfl

theorem cover0_10 (i : S128x1.Idx) : ∃ t : Fin cfg0.N, (cfg0.win 10).flush t = true ∧ i ∈ ((cfg0.win 10).blk t).view.set := by
  have hi0 : (i 0).val < 128 := idx2_lt0 i
  have hi1 : (i 1).val < 1 := idx2_lt1 i
  refine ⟨lastPt i, (flush0_10 _).mpr (by show (48 * ((i 0).val / 64) + 47) % 48 = 47; omega), ?_⟩
  obtain ⟨-, -, -, e0, e1⟩ := rowTile_index (lastPt i)
  have ht : (lastPt i).val / 48 = (i 0).val / 64 := by show (48 * ((i 0).val / 64) + 47) / 48 = _; omega
  rw [mem_blk0_10]
  intro a
  match a with
  | ⟨0, _⟩ => show win0_10.index (lastPt i) (0 : Fin 2) * 64 ≤ (i 0).val ∧ (i 0).val < win0_10.index (lastPt i) (0 : Fin 2) * 64 + 64; rw [e0, ht]; omega
  | ⟨1, _⟩ => show win0_10.index (lastPt i) (1 : Fin 2) * 1 ≤ (i 1).val ∧ (i 1).val < win0_10.index (lastPt i) (1 : Fin 2) * 1 + 1; rw [e1]; omega

/-- So the array ends at the tail level's masked sum of each hidden row. -/
theorem final_gTail : (dat0 (V5 m ρ) c).arrAt 10 cfg0.N = gTailArr m c :=
  (dat0 (V5 m ρ) c).arrAt_eq_of_cover 10 (gTailArr m c) (flushed_gTail m ρ c) cover0_10

theorem W7_v11_3_apply (n : Fin 128) : W7 m ρ c (Proc.devRef .tc main_v11_3) (ix2 n (0 : Fin 1)) = Cert.Spec.gTail (kRow m c n) (hwOf m c n) (twOf m c n) := by
  rw [W7_of_ne m ρ c main_v11_3 (by decide)]
  have h10 : W6 m ρ c (Proc.devRef .tc main_v11_3) = (dat0 (V5 m ρ) c).arrAt 10 cfg0.N := W6_arr m ρ c 10
  rw [h10, final_gTail]
  rfl

/-! ## Region 1's result array -/

/-- An input array of region 0 leaves the region as it entered it. -/
theorem W6_input (w : Fin cfg0.W) (hin : (cfg0.win w).isOut = false) :
    W6 m ρ c (Proc.devRef .tc (Pipeline.arrRef spec0 w)) = V5 m ρ c (Pipeline.arrRef spec0 w) := by
  rw [W6_arr, (dat0 (V5 m ρ) c).arrAt_in w hin, A_eq0]

/-- Region 1 has one grid point; every window's one block starts at the array's origin. -/
theorem origin_index : ∀ t : Fin cfg1.N,
    (win1_0.index t (0 : Fin 2) = 0 ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0) :=
  (by decide +kernel : ∀ t : Fin grid1.N, _)

/-- The block of h is h. -/
theorem iblk1_0_apply (t : Fin cfg1.N) (n : Fin 128) (d : Fin 256) :
    (iblk1 (V6 m ρ) c 0 t : Vec Ideal S128x256 .f32) (ix2 n d) = m ((c : Thread nD τ).loc main_arg0) (ix2 n d) := by
  obtain ⟨⟨e0, e1⟩, -⟩ := origin_index t
  unfold iblk1
  rw [View.read_apply]
  show W6 m ρ c (Proc.devRef .tc main_arg0) (((cfg1.win 0).blk t).view.emb (ix2 n d)) = _
  have hk : W6 m ρ c (Proc.devRef .tc main_arg0) = V5 m ρ c main_arg0 := W6_input m ρ c 0 rfl
  rw [hk, V5_arg0]
  congr 1
  funext a
  apply Fin.ext
  match a with
  | ⟨0, _⟩ => show win1_0.index t (0 : Fin 2) * 128 + 1 * n.val = n.val; omega
  | ⟨1, _⟩ => show win1_0.index t (1 : Fin 2) * 256 + 1 * d.val = d.val; omega

/-- The block of the table's last-row slice is row 6144 of the table. -/
theorem iblk1_1_apply (t : Fin cfg1.N) (e : Fin 256) :
    (iblk1 (V6 m ρ) c 1 t : Vec Ideal S1x256 .f32) (ix2 (0 : Fin 1) e) = m ((c : Thread nD τ).loc main_arg2) (ix2 (⟨6144, by norm_num⟩ : Fin 6145) e) := by
  obtain ⟨-, ⟨e0, e1⟩, -⟩ := origin_index t
  unfold iblk1
  rw [View.read_apply]
  show W6 m ρ c (Proc.devRef .tc main_v9) (((cfg1.win 1).blk t).view.emb (ix2 (0 : Fin 1) e)) = _
  rw [W6_of_ne m ρ c main_v9 (by decide)]
  refine Eq.trans ?_ (V5_v9_apply m ρ c e)
  show V5 m ρ c main_v9 _ = V5 m ρ c main_v9 _
  congr 1
  funext a
  apply Fin.ext
  match a with
  | ⟨0, _⟩ => show win1_1.index t (0 : Fin 2) * 1 + 1 * 0 = 0; omega
  | ⟨1, _⟩ => show win1_1.index t (1 : Fin 2) * 256 + 1 * e.val = e.val; omega

/-- The block of W is W. -/
theorem iblk1_2_apply (t : Fin cfg1.N) (e d : Fin 256) :
    (iblk1 (V6 m ρ) c 2 t : Vec Ideal S256x256 .f32) (ix2 e d) = m ((c : Thread nD τ).loc main_arg3) (ix2 e d) := by
  obtain ⟨-, -, ⟨e0, e1⟩, -⟩ := origin_index t
  unfold iblk1
  rw [View.read_apply]
  show W6 m ρ c (Proc.devRef .tc main_arg3) (((cfg1.win 2).blk t).view.emb (ix2 e d)) = _
  have hk : W6 m ρ c (Proc.devRef .tc main_arg3) = V5 m ρ c main_arg3 := W6_input m ρ c 2 rfl
  rw [hk, V5_arg3]
  congr 1
  funext a
  apply Fin.ext
  match a with
  | ⟨0, _⟩ => show win1_2.index t (0 : Fin 2) * 256 + 1 * e.val = e.val; omega
  | ⟨1, _⟩ => show win1_2.index t (1 : Fin 2) * 256 + 1 * d.val = d.val; omega

/-- The block of U is U. -/
theorem iblk1_3_apply (t : Fin cfg1.N) (e d : Fin 256) :
    (iblk1 (V6 m ρ) c 3 t : Vec Ideal S256x256 .f32) (ix2 e d) = m ((c : Thread nD τ).loc main_arg4) (ix2 e d) := by
  obtain ⟨-, -, -, ⟨e0, e1⟩, -⟩ := origin_index t
  unfold iblk1
  rw [View.read_apply]
  show W6 m ρ c (Proc.devRef .tc main_arg4) (((cfg1.win 3).blk t).view.emb (ix2 e d)) = _
  have hk : W6 m ρ c (Proc.devRef .tc main_arg4) = V5 m ρ c main_arg4 := W6_input m ρ c 3 rfl
  rw [hk, V5_arg4]
  congr 1
  funext a
  apply Fin.ext
  match a with
  | ⟨0, _⟩ => show win1_3.index t (0 : Fin 2) * 256 + 1 * e.val = e.val; omega
  | ⟨1, _⟩ => show win1_3.index t (1 : Fin 2) * 256 + 1 * d.val = d.val; omega

/-- The block of the bias row is the bias. -/
theorem iblk1_4_apply (t : Fin cfg1.N) (d : Fin 256) :
    (iblk1 (V6 m ρ) c 4 t : Vec Ideal S1x256 .f32) (ix2 (0 : Fin 1) d) = m ((c : Thread nD τ).loc main_arg5) (ix1 d) := by
  obtain ⟨-, -, -, -, ⟨e0, e1⟩, -⟩ := origin_index t
  unfold iblk1
  rw [View.read_apply]
  show W6 m ρ c (Proc.devRef .tc main_v10) (((cfg1.win 4).blk t).view.emb (ix2 (0 : Fin 1) d)) = _
  have hk : W6 m ρ c (Proc.devRef .tc main_v10) = V5 m ρ c main_v10 := W6_input m ρ c 4 rfl
  rw [hk]
  refine Eq.trans ?_ (V5_v10_apply m ρ c d)
  show V5 m ρ c main_v10 _ = V5 m ρ c main_v10 _
  congr 1
  funext a
  apply Fin.ext
  match a with
  | ⟨0, _⟩ => show win1_4.index t (0 : Fin 2) * 1 + 1 * 0 = 0; omega
  | ⟨1, _⟩ => show win1_4.index t (1 : Fin 2) * 256 + 1 * d.val = d.val; omega

/-- The score of word 6144 for every hidden row, as one array. -/
def tailColArr : S128x1.Idx → EReal := fun i => kRow m c (i 0) (⟨6144, by norm_num⟩ : Fin 6145)

/-- The one point writes back the whole array: per hidden row the body's quotient, over blocks that are the arrays
    themselves, is the specification's score at word 6144 term by term. -/
theorem flushed_tailCol (t : Fin cfg1.N) (hf : (cfg1.win 5).flush t = true) :
    (dat1 (V6 m ρ) c).flushed 5 t = ((cfg1.win 5).blk t).view.read (Elt Ideal) (tailColArr m c) := by
  obtain ⟨-, -, -, -, -, e0, e1⟩ := origin_index t
  show (cfg1.win 5).cut (grid1.coords t) ((dat1 (V6 m ρ) c).after 5 t) = _
  rw [after1_5]
  funext y
  obtain ⟨n, u, rfl⟩ : ∃ (n : Fin 128) (u : Fin 1), y = ix2 n u := ⟨y 0, y 1, eq_ix2 (n0 := 128) (n1 := 1) y⟩
  obtain rfl : u = 0 := Subsingleton.elim _ _
  rw [View.read_apply]
  have hemb : ((cfg1.win 5).blk t).view.emb (ix2 n (0 : Fin 1)) = (ix2 n (0 : Fin 1) : S128x1.Idx) := by
    funext a; apply Fin.ext
    match a with
    | ⟨0, _⟩ => show win1_5.index t (0 : Fin 2) * 128 + 1 * n.val = n.val; omega
    | ⟨1, _⟩ => show win1_5.index t (1 : Fin 2) * 1 + 1 * 0 = 0; omega
  show out1_5 (iblk1 (V6 m ρ) c 0 t) (iblk1 (V6 m ρ) c 1 t) (iblk1 (V6 m ρ) c 2 t) (iblk1 (V6 m ρ) c 3 t) (iblk1 (V6 m ρ) c 4 t) (ix2 n (0 : Fin 1))
    = tailColArr m c (((cfg1.win 5).blk t).view.emb (ix2 n (0 : Fin 1)))
  rw [hemb]
  unfold out1_5
  refine (tailcol_apply (iblk1 (V6 m ρ) c 0 t) (iblk1 (V6 m ρ) c 1 t) (iblk1 (V6 m ρ) c 2 t) (iblk1 (V6 m ρ) c 3 t) (iblk1 (V6 m ρ) c 4 t) n).trans ?_
  simp only [iblk1_0_apply, iblk1_1_apply, iblk1_2_apply, iblk1_3_apply, iblk1_4_apply]
  rfl

/-- A hidden row lies in the one block of region 1's result array iff it is inside the block's ranges. -/
theorem mem_blk_tailCol (t : Fin cfg1.N) (i : S128x1.Idx) :
    i ∈ ((cfg1.win 5).blk t).view.set ↔ ∀ a : Fin 2, win1_5.index t a * S128x1.size a ≤ (i a).val ∧ (i a).val < win1_5.index t a * S128x1.size a + S128x1.size a := by
  show i ∈ ((View.whole main_v12).slice (win1_5.rect t)).set ↔ _
  rw [View.set_slice_whole, Rect.mem_set_unit]
  exact Iff.rfl

/-- The one block is the whole array. -/
theorem covered_tailCol (i : S128x1.Idx) : ∃ t : Fin cfg1.N, (cfg1.win 5).flush t = true ∧ i ∈ ((cfg1.win 5).blk t).view.set := by
  have hi0 : (i 0).val < 128 := idx2_lt0 i
  have hi1 : (i 1).val < 1 := idx2_lt1 i
  refine ⟨t1_0, flush1_5 t1_0, ?_⟩
  obtain ⟨-, -, -, -, -, e0, e1⟩ := origin_index t1_0
  rw [mem_blk_tailCol]
  intro a
  match a with
  | ⟨0, _⟩ => show win1_5.index t1_0 (0 : Fin 2) * 128 ≤ (i 0).val ∧ (i 0).val < win1_5.index t1_0 (0 : Fin 2) * 128 + 128; rw [e0]; omega
  | ⟨1, _⟩ => show win1_5.index t1_0 (1 : Fin 2) * 1 ≤ (i 1).val ∧ (i 1).val < win1_5.index t1_0 (1 : Fin 2) * 1 + 1; rw [e1]; omega

/-- So the array ends at the score of word 6144 for each hidden row. -/
theorem final_tailCol : (dat1 (V6 m ρ) c).arrAt 5 cfg1.N = tailColArr m c :=
  (dat1 (V6 m ρ) c).arrAt_eq_of_cover 5 (tailColArr m c) (flushed_tailCol m ρ c) covered_tailCol

theorem W7_v12_apply (n : Fin 128) : W7 m ρ c (Proc.devRef .tc main_v12) (ix2 n (0 : Fin 1)) = kRow m c n (⟨6144, by norm_num⟩ : Fin 6145) := by
  have h5 : W7 m ρ c (Proc.devRef .tc main_v12) = (dat1 (V6 m ρ) c).arrAt 5 cfg1.N := W7_arr m ρ c 5
  rw [h5, final_tailCol]
  rfl

/-! ## The head/tail flag: no region writes it -/

theorem W7_v1_apply (n : Fin 128) : W7 m ρ c (Proc.devRef .tc main_v1) (ix1 n) = Cert.Spec.isHead (aT m c n) := by
  rw [W7_of_ne m ρ c main_v1 (by decide), W6_of_ne m ρ c main_v1 (by decide)]
  exact V5_v1_apply m ρ c n

end Cert.KernelIdeal.Val

end
-- ==== Proof.Val.Tail.lean ====
/-
  The value the idealized kernel program returns. After its two kernel regions the program holds, per hidden row, the
  four numbers of the chunked walk (the head level's log-sum-exp and masked sum, the tail level's) and the score of the
  extra word, each as a `[128, 1]` array. Three stretches of host operations follow: the five arrays as vectors and,
  row by row, the join of the head's log-sum-exp with the extra word's score (max, two exponentials, a logarithm) and
  the two candidate losses; the choice between them by the head/tail flag; the sum of the 128 losses from zero divided
  by 128. Read row by row, that arithmetic is `Cert.Spec.combine` on those five numbers, so the result is
  `Cert.Spec.kernelVal` of the six argument arrays.
-/
import proofs.«430609_j28260884807701_2_alg».proof.Proof.KernelIdeal.Bounds2
import proofs.«430609_j28260884807701_2_alg».proof.Proof.Val.Args
import proofs.«430609_j28260884807701_2_alg».proof.Proof.Val.Outs
import Idealize.ShloMosaic.Lib.StableHlo.Run
import Idealize.ShloMosaic.Lib.ValueIdx
import Idealize.ShloMosaic.Lib.ValueIdxRank1
import Idealize.ShloMosaic.Lib.ValueLayout
import Idealize.ShloMosaic.Lib.IdealHost
import Idealize.ShloMosaic.Lib.Pipeline.Value
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

namespace Tail

/-! ## Layout: a column as a vector -/

/-- A `[a, 1]` array cast to `[a]` reads, at `i`, the operand at `(i, 0)`: both have row-major position `i`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- One of the five `[128, 1]` results as the vector of its 128 rows. -/
def col (x : FVec Ideal S128x1 .f32) : FVec Ideal S128 .f32 := fun i => shapeCast S128 x shapeCasts_S128x1_S128 i

theorem col_apply (x : FVec Ideal S128x1 .f32) (n : Fin 128) : col x (ix1 n) = x (ix2 n (0 : Fin 1)) :=
  shapeCast_a1_a_apply x shapeCasts_S128x1_S128 n

/-! ## The three stretches, each from any contents `V` at its entry -/

/-- The head level's log-sum-exp joined with the score of the extra word: max, two exponentials, a logarithm. -/
def joined (V : Valuation τ sig (Elt Ideal)) : FVec Ideal S128 .f32 :=
  addf (F := Ideal)
    (maximumf (F := Ideal) (col (V (Proc.devRef .tc main_v11_0))) (col (V (Proc.devRef .tc main_v12))))
    (Host.log (F := Ideal) (addf (F := Ideal)
      (Host.exp (F := Ideal) (subf (F := Ideal) (col (V (Proc.devRef .tc main_v11_0)))
        (maximumf (F := Ideal) (col (V (Proc.devRef .tc main_v11_0))) (col (V (Proc.devRef .tc main_v12))))))
      (Host.exp (F := Ideal) (subf (F := Ideal) (col (V (Proc.devRef .tc main_v12)))
        (maximumf (F := Ideal) (col (V (Proc.devRef .tc main_v11_0))) (col (V (Proc.devRef .tc main_v12))))))))

/-- The head targets' loss after the first stretch. -/
theorem stretch1_v27 (V : Valuation τ sig (Elt Ideal)) :
    StableHlo.after (hostOps2 (F := Ideal)) V (Proc.devRef .tc main_v27)
      = Host.negf (F := Ideal) (subf (F := Ideal) (col (V (Proc.devRef .tc main_v11_1))) (joined V)) := by
  after_results_simp
  rfl

/-- The tail targets' loss after the first stretch. -/
theorem stretch1_v31 (V : Valuation τ sig (Elt Ideal)) :
    StableHlo.after (hostOps2 (F := Ideal)) V (Proc.devRef .tc main_v31)
      = Host.negf (F := Ideal) (addf (F := Ideal)
          (subf (F := Ideal) (col (V (Proc.devRef .tc main_v12))) (joined V))
          (subf (F := Ideal) (col (V (Proc.devRef .tc main_v11_3))) (col (V (Proc.devRef .tc main_v11_2))))) := by
  after_results_simp
  rfl

/-- The first stretch does not write the head/tail flags. -/
theorem stretch1_v1 (V : Valuation τ sig (Elt Ideal)) :
    StableHlo.after (hostOps2 (F := Ideal)) V (Proc.devRef .tc main_v1) = V (Proc.devRef .tc main_v1) := by
  after_results_simp

/-- The second stretch: the choice by the flag. -/
theorem stretch2_v32 (V : Valuation τ sig (Elt Ideal)) :
    StableHlo.after (hostOps2_1 (F := Ideal)) V (Proc.devRef .tc main_v32)
      = select (V (Proc.devRef .tc main_v1)) (V (Proc.devRef .tc main_v27)) (V (Proc.devRef .tc main_v31)) := by
  after_results
  rfl

/-- The third stretch: the sum of the 128 losses from zero, divided by 128. -/
theorem stretch3_v34 (V : Valuation τ sig (Elt Ideal)) :
    StableHlo.after (hostOps2_2 (F := Ideal)) V (Proc.devRef .tc main_v34)
      = Host.divf (F := Ideal)
          (Host.reduceAdd (F := Ideal) (V (Proc.devRef .tc main_v32)) (constant (F := Ideal) S_ .f32 0x00000000#32)
            reducesTo_S128_S_d0 h_S_)
          (constant (F := Ideal) S_ .f32 0x43000000#32) := by
  after_results

/-! ## The stretches read at a row -/

theorem joined_apply (V : Valuation τ sig (Elt Ideal)) (n : Fin 128) (a k : EReal)
    (ha : (V (Proc.devRef .tc main_v11_0) : FVec Ideal S128x1 .f32) (ix2 n (0 : Fin 1)) = a)
    (hk : (V (Proc.devRef .tc main_v12) : FVec Ideal S128x1 .f32) (ix2 n (0 : Fin 1)) = k) :
    joined V (ix1 n) = max a k + Ideal.log (Ideal.exp (a - max a k) + Ideal.exp (k - max a k)) := by
  show max (col _ (ix1 n)) (col _ (ix1 n))
      + Ideal.log (Ideal.exp (col _ (ix1 n) - max (col _ (ix1 n)) (col _ (ix1 n)))
        + Ideal.exp (col _ (ix1 n) - max (col _ (ix1 n)) (col _ (ix1 n)))) = _
  rw [col_apply, col_apply, ha, hk]

/-- The 128 chosen losses after the second stretch, as a vector of extended reals. -/
def losses : S128.Idx → EReal := W9 m ρ c (Proc.devRef .tc main_v32)

/-- Row `n` of the chosen losses is the chunked arrangement's loss of hidden row `n`: the reads of the five results
    and of the flag put the program's arithmetic on the four numbers of the walk and the score of the extra word. -/
theorem row_value (n : Fin 128) :
    losses m ρ c (ix1 n)
      = Cert.Spec.kernelRow (kRow m c n) (hwOf m c n) (twOf m c n) (Cert.Spec.isHead (aT m c n)) := by
  have h1 : (W8 m ρ c (Proc.devRef .tc main_v1) : IVec S128 1) (ix1 n) = Cert.Spec.isHead (aT m c n) :=
    (congrFun (stretch1_v1 (W7 m ρ c)) (ix1 n)).trans (W7_v1_apply m ρ c n)
  have hj := joined_apply (W7 m ρ c) n _ _ (W7_v11_0_apply m ρ c n)
    (W7_v12_apply m ρ c n)
  have h27 : (W8 m ρ c (Proc.devRef .tc main_v27) : FVec Ideal S128 .f32) (ix1 n)
      = -(Cert.Spec.gHead (kRow m c n) (hwOf m c n) (twOf m c n) - joined (W7 m ρ c) (ix1 n)) := by
    refine (congrFun (stretch1_v27 (W7 m ρ c)) (ix1 n)).trans ?_
    show -(col _ (ix1 n) - joined _ (ix1 n)) = _
    rw [col_apply, W7_v11_1_apply m ρ c n]
  have h31 : (W8 m ρ c (Proc.devRef .tc main_v31) : FVec Ideal S128 .f32) (ix1 n)
      = -((kRow m c n (⟨6144, by norm_num⟩ : Fin 6145) - joined (W7 m ρ c) (ix1 n))
          + (Cert.Spec.gTail (kRow m c n) (hwOf m c n) (twOf m c n)
              - Cert.Spec.lseTail (kRow m c n) (hwOf m c n) (twOf m c n))) := by
    refine (congrFun (stretch1_v31 (W7 m ρ c)) (ix1 n)).trans ?_
    show -((col _ (ix1 n) - joined _ (ix1 n)) + (col _ (ix1 n) - col _ (ix1 n))) = _
    rw [col_apply, col_apply, col_apply, W7_v12_apply m ρ c n,
      W7_v11_3_apply m ρ c n, W7_v11_2_apply m ρ c n]
  refine (congrFun (stretch2_v32 (W8 m ρ c)) (ix1 n)).trans ?_
  show Scalar.select ((W8 m ρ c (Proc.devRef .tc main_v1) : IVec S128 1) (ix1 n))
      ((W8 m ρ c (Proc.devRef .tc main_v27) : FVec Ideal S128 .f32) (ix1 n))
      ((W8 m ρ c (Proc.devRef .tc main_v31) : FVec Ideal S128 .f32) (ix1 n)) = _
  rw [h1, h27, h31, hj]
  rfl

end Tail

open Tail

/-! ## The program's value -/

/-- What @main returns from holds, in its one result, the mean of the 128 rows' losses in the chunked arrangement. -/
theorem kernel_value : W10 m ρ c (Proc.devRef .tc main_v34)
    = fun _ => Cert.Spec.kernelVal (aH m c) (aT m c) (aE m c) (aW m c) (aU m c) (aB m c) := by
  funext i
  -- the sum over the vector's index set, coordinate by coordinate
  have hs : (∑ j : S128.Idx, losses m ρ c j)
      = ∑ n : Fin 128, Cert.Spec.kernelRow (kRow m c n) (hwOf m c n) (twOf m c n) (Cert.Spec.isHead (aT m c n)) :=
    (Equiv.sum_comp (idxEquiv1 (n := 128)).symm _).symm.trans (Finset.sum_congr rfl fun n _ => row_value m ρ c n)
  refine (congrFun (stretch3_v34 (W9 m ρ c)) i).trans ?_
  refine (hostDivf_apply _ _ i).trans ?_
  rw [hostReduceAdd_apply, Ideal.hostReduceAdd_total reducesTo_S128_S_d0 (fun b => b.elim0)]
  show Ideal.div (Cert.Spec.c0 + ∑ j : S128.Idx, losses m ρ c j) Cert.Spec.c128 = _
  rw [hs]
  rfl

end Cert.KernelIdeal.Val

end
-- ==== Proof.LibGather.lean ====
/-
  The two rank-2 forms of StableHLO's gather that indexing a matrix by a vector of positions produces, each read at
  one result index.

  A ROW gather takes an operand [N, D] and a column [B, 1] of start indices to the result [B, D] whose row b is the
  operand's row named by the b-th start index. A COLUMN gather takes an operand [N, M] and a column [B, 1] of start
  indices to the result [N, B] whose column b is the operand's column named by the b-th start index. StableHLO reads a
  start index as a signed word and clamps it so that the slice fits inside the operand. For a 32-bit word whose
  unsigned value is below the extent of the indexed axis, and an extent of at most 2^31, the signed reading is the
  unsigned value and the clamp does nothing: the result element is the operand's element at that row (column).

  Both theorems are stated for any record of dimension numbers whose fields are the lists of these two
  forms; the record's well-formedness proof is left abstract.
-/
import Idealize.ShloMosaic.PureOps.Dims
import Idealize.ShloMosaic.PureOps.ShapeOps
import Idealize.ShloMosaic.Lib.ValueIdx

namespace Cert.LibGather

open Idealize.ShloMosaic Idealize.ShloMosaic.ValueIdx

/-- A 32-bit start index whose unsigned value is below an extent n ≤ 2^31, read signed and clamped into [0, n − 1],
    is its unsigned value: the sign bit is clear, and the value is already at most n − 1. -/
private theorem clamp_eq (v : BitVec 32) (n : Nat) (hn : n ≤ 2 ^ 31) (hlt : v.toNat < n) :
    min v.toInt.toNat (n - 1) = v.toNat := by
  have h2 : 2 * v.toNat < 2 ^ 32 := by omega
  rw [BitVec.toInt_eq_toNat_of_lt h2, Int.toNat_natCast]
  exact Nat.min_eq_left (by omega)

private theorem zero_mem : (0 : Fin 2) ∈ ([0] : List (Fin 2)) := by decide
private theorem one_mem : (1 : Fin 2) ∈ ([1] : List (Fin 2)) := by decide
private theorem one_not_mem : (1 : Fin 2) ∉ ([0] : List (Fin 2)) := by decide
private theorem zero_not_mem : (0 : Fin 2) ∉ ([1] : List (Fin 2)) := by decide

/-! ## The row gather -/

/-- The dimension numbers of a row gather (operand [N, D], start indices [B, 1], result [B, D]), over an abstract
    proof of their conditions. -/
private abbrev rowsDims (N D B : Nat)
    (wf : GatherDims.WF ⟨2, ![N, D]⟩ ⟨2, ![B, 1]⟩ ⟨2, ![B, D]⟩ [1] [0] [] [0] [] 1 ![1, D]) :
    GatherDims ⟨2, ![N, D]⟩ ⟨2, ![B, 1]⟩ ⟨2, ![B, D]⟩ where
  offsetDims := [1]
  collapsedSliceDims := [0]
  operandBatchingDims := []
  startIndicesBatchingDims := []
  startIndexMap := [0]
  indexVectorDim := 1
  sliceSizes := ![1, D]
  wf := wf

private theorem rows_apply {N D B : Nat} {α : Type}
    (wf : GatherDims.WF ⟨2, ![N, D]⟩ ⟨2, ![B, 1]⟩ ⟨2, ![B, D]⟩ [1] [0] [] [0] [] 1 ![1, D])
    (x : (⟨2, ![N, D]⟩ : Shape).Idx → α) (idx : IVec ⟨2, ![B, 1]⟩ 32) (b : Fin B) (c : Fin D)
    (hN : N ≤ 2 ^ 31) (hlt : (idx (ix2 b 0)).toNat < N) :
    Host.gather (rowsDims N D B wf) x idx (ix2 b c) = x (ix2 ⟨(idx (ix2 b 0)).toNat, hlt⟩ c) := by
  unfold Host.gather
  refine congrArg x ?_
  funext a
  refine Fin.ext ?_
  show (rowsDims N D B wf).start (ix2 b c) idx a + (rowsDims N D B wf).batchCoord (ix2 b c) a
      + (rowsDims N D B wf).offCoord (ix2 b c) a = _
  rw [GatherDims.batchCoord_eq_zero _ _ _ List.not_mem_nil, Nat.add_zero]
  match a with
  | ⟨0, _⟩ =>
    -- axis 0 is collapsed and start-indexed: the clamped start index, no offset
    show (rowsDims N D B wf).start (ix2 b c) idx (0 : Fin 2) + (rowsDims N D B wf).offCoord (ix2 b c) (0 : Fin 2)
      = (idx (ix2 b 0)).toNat
    rw [GatherDims.offCoord_eq_zero _ _ _ (fun h => ((GatherDims.mem_sKept _ _).mp h).1 zero_mem), Nat.add_zero]
    unfold GatherDims.start
    rw [dif_pos (show (0 : Fin 2) ∈ (rowsDims N D B wf).startIndexMap from zero_mem)]
    have hsi : (rowsDims N D B wf).siIdx (ix2 b c) ⟨List.idxOf (0 : Fin 2) (rowsDims N D B wf).startIndexMap,
        List.idxOf_lt_length_iff.2 zero_mem⟩ = ix2 b 0 := by
      funext k; refine Fin.ext ?_
      match k with
      | ⟨0, _⟩ => rfl
      | ⟨1, _⟩ => rfl
    rw [hsi]
    exact clamp_eq _ N hN hlt
  | ⟨1, _⟩ =>
    -- axis 1 is the offset axis, not start-indexed: start 0, the result's column coordinate
    show (rowsDims N D B wf).start (ix2 b c) idx (1 : Fin 2) + (rowsDims N D B wf).offCoord (ix2 b c) (1 : Fin 2)
      = c.val
    have hs : (rowsDims N D B wf).start (ix2 b c) idx (1 : Fin 2) = 0 := by
      unfold GatherDims.start
      rw [dif_neg (show (1 : Fin 2) ∉ (rowsDims N D B wf).startIndexMap from one_not_mem)]
    rw [hs, Nat.zero_add]
    rfl

/-- A row gather (operand [N, D], start indices [B, 1], result [B, D]; offset_dims = [1], collapsed_slice_dims = [0],
    start_index_map = [0], index_vector_dim = 1, slice sizes [1, D]) read at (b, c): row (idx b) of the operand at
    column c, when the word idx b names a row. -/
theorem gather_rows_apply {N D B : Nat} {α : Type} (d : GatherDims ⟨2, ![N, D]⟩ ⟨2, ![B, 1]⟩ ⟨2, ![B, D]⟩)
    (h1 : d.offsetDims = [1]) (h2 : d.collapsedSliceDims = [0]) (h3 : d.operandBatchingDims = [])
    (h4 : d.startIndicesBatchingDims = [])
    (h5 : d.startIndexMap = [0]) (h6 : d.indexVectorDim = 1) (h7 : d.sliceSizes = ![1, D])
    (x : (⟨2, ![N, D]⟩ : Shape).Idx → α) (idx : IVec ⟨2, ![B, 1]⟩ 32) (b : Fin B) (c : Fin D)
    (hN : N ≤ 2 ^ 31) (hlt : (idx (ix2 b 0)).toNat < N) :
    Host.gather d x idx (ix2 b c) = x (ix2 ⟨(idx (ix2 b 0)).toNat, hlt⟩ c) := by
  obtain ⟨od, cd, ob, sb, sm, iv, ss, wf⟩ := d
  dsimp only at h1 h2 h3 h4 h5 h6 h7
  subst h1 h2 h3 h4 h5 h6 h7
  exact rows_apply wf x idx b c hN hlt

/-! ## The column gather -/

/-- The dimension numbers of a column gather (operand [N, M], start indices [B, 1], result [N, B]), over an abstract
    proof of their conditions. -/
private abbrev colsDims (N M B : Nat)
    (wf : GatherDims.WF ⟨2, ![N, M]⟩ ⟨2, ![B, 1]⟩ ⟨2, ![N, B]⟩ [0] [1] [] [1] [] 1 ![N, 1]) :
    GatherDims ⟨2, ![N, M]⟩ ⟨2, ![B, 1]⟩ ⟨2, ![N, B]⟩ where
  offsetDims := [0]
  collapsedSliceDims := [1]
  operandBatchingDims := []
  startIndicesBatchingDims := []
  startIndexMap := [1]
  indexVectorDim := 1
  sliceSizes := ![N, 1]
  wf := wf

private theorem cols_apply {N M B : Nat} {α : Type}
    (wf : GatherDims.WF ⟨2, ![N, M]⟩ ⟨2, ![B, 1]⟩ ⟨2, ![N, B]⟩ [0] [1] [] [1] [] 1 ![N, 1])
    (x : (⟨2, ![N, M]⟩ : Shape).Idx → α) (idx : IVec ⟨2, ![B, 1]⟩ 32) (n : Fin N) (b : Fin B)
    (hM : M ≤ 2 ^ 31) (hlt : (idx (ix2 b 0)).toNat < M) :
    Host.gather (colsDims N M B wf) x idx (ix2 n b) = x (ix2 n ⟨(idx (ix2 b 0)).toNat, hlt⟩) := by
  unfold Host.gather
  refine congrArg x ?_
  funext a
  refine Fin.ext ?_
  show (colsDims N M B wf).start (ix2 n b) idx a + (colsDims N M B wf).batchCoord (ix2 n b) a
      + (colsDims N M B wf).offCoord (ix2 n b) a = _
  rw [GatherDims.batchCoord_eq_zero _ _ _ List.not_mem_nil, Nat.add_zero]
  match a with
  | ⟨0, _⟩ =>
    -- axis 0 is the offset axis, not start-indexed: start 0, the result's row coordinate
    show (colsDims N M B wf).start (ix2 n b) idx (0 : Fin 2) + (colsDims N M B wf).offCoord (ix2 n b) (0 : Fin 2)
      = n.val
    have hs : (colsDims N M B wf).start (ix2 n b) idx (0 : Fin 2) = 0 := by
      unfold GatherDims.start
      rw [dif_neg (show (0 : Fin 2) ∉ (colsDims N M B wf).startIndexMap from zero_not_mem)]
    rw [hs, Nat.zero_add]
    rfl
  | ⟨1, _⟩ =>
    -- axis 1 is collapsed and start-indexed: the clamped start index, no offset
    show (colsDims N M B wf).start (ix2 n b) idx (1 : Fin 2) + (colsDims N M B wf).offCoord (ix2 n b) (1 : Fin 2)
      = (idx (ix2 b 0)).toNat
    rw [GatherDims.offCoord_eq_zero _ _ _ (fun h => ((GatherDims.mem_sKept _ _).mp h).1 one_mem), Nat.add_zero]
    unfold GatherDims.start
    rw [dif_pos (show (1 : Fin 2) ∈ (colsDims N M B wf).startIndexMap from one_mem)]
    have hsi : (colsDims N M B wf).siIdx (ix2 n b) ⟨List.idxOf (1 : Fin 2) (colsDims N M B wf).startIndexMap,
        List.idxOf_lt_length_iff.2 one_mem⟩ = ix2 b 0 := by
      funext k; refine Fin.ext ?_
      match k with
      | ⟨0, _⟩ => rfl
      | ⟨1, _⟩ => rfl
    rw [hsi]
    exact clamp_eq _ M hM hlt

/-- A column gather (operand [N, M], start indices [B, 1], result [N, B]; offset_dims = [0], collapsed_slice_dims = [1],
    start_index_map = [1], index_vector_dim = 1, slice sizes [N, 1]) read at (n, b): column (idx b) of the operand at
    row n, when the word idx b names a column. -/
theorem gather_cols_apply {N M B : Nat} {α : Type} (d : GatherDims ⟨2, ![N, M]⟩ ⟨2, ![B, 1]⟩ ⟨2, ![N, B]⟩)
    (h1 : d.offsetDims = [0]) (h2 : d.collapsedSliceDims = [1]) (h3 : d.operandBatchingDims = [])
    (h4 : d.startIndicesBatchingDims = [])
    (h5 : d.startIndexMap = [1]) (h6 : d.indexVectorDim = 1) (h7 : d.sliceSizes = ![N, 1])
    (x : (⟨2, ![N, M]⟩ : Shape).Idx → α) (idx : IVec ⟨2, ![B, 1]⟩ 32) (n : Fin N) (b : Fin B)
    (hM : M ≤ 2 ^ 31) (hlt : (idx (ix2 b 0)).toNat < M) :
    Host.gather d x idx (ix2 n b) = x (ix2 n ⟨(idx (ix2 b 0)).toNat, hlt⟩) := by
  obtain ⟨od, cd, ob, sb, sm, iv, ss, wf⟩ := d
  dsimp only at h1 h2 h3 h4 h5 h6 h7
  subst h1 h2 h3 h4 h5 h6 h7
  exact cols_apply wf x idx n b hM hlt

end Cert.LibGather
-- ==== Proof.RefOps.lean ====
/-
  The eight operations of the whole-level program that are read at an index by hand, each stated at the ideal
  instance in the form of the read-at-an-index lemmas of the module this one builds on.

  * The head level's word list: the concatenation of the counting-up list 0 … 2047 with the one word 6144. Position j
    holds j below 2048 and 6144 at 2048 (`val_main_v1_apply`).
  * The rows of the embedding at those words: a row gather whose start indices are the word list, none of them
    negative, all of them below the embedding's 6145 rows; row j of the result is row `headId j` of the embedding
    (`val_main_v8_apply`).
  * The two row maxima inside the two log-softmaxes: a reduce with a maximum body from −∞ over the columns; at row n
    it is the fold of max from −∞ over that row's scores (`val_main_call0_v0_apply`, `val_main_call1_v0_apply`).
  * The two takes of a log-probability along a row at the clipped target word. Each wraps a negative index round by
    the row's length, gathers batched over the rows, tests 0 ≤ index ≤ bound, "and"-reduces that test over an axis of
    extent 1, and selects the gathered element where the test holds and a NaN elsewhere. A clipped word w satisfies
    0 ≤ w ≤ 2047 (head) or 0 ≤ w ≤ 4095 (tail): the wrap leaves it, the test is set
    (`val_main_call4_v12_apply`, `val_main_call5_v12_apply`), the gather reads the row at column w
    (`val_main_call4_v13_apply`, `val_main_call5_v13_apply`), and the select keeps it (`val_main_v59_apply`,
    `val_main_v65_apply`). Since w is below the row's length, w is also w modulo that length, the form in which the
    specification names the column.
-/
import proofs.«430609_j28260884807701_2_alg».proof.Proof.RefRead
import proofs.«430609_j28260884807701_2_alg».proof.Proof.LibGather
import proofs.«430609_j28260884807701_2_alg».proof.Proof.Spec
import Idealize.ShloMosaic.Lib.StableHlo.Predicate
import Idealize.ShloMosaic.Lib.Pipeline.Value
import Idealize.ShloMosaic.PureOps.Reduce

noncomputable section

namespace Cert.ReferenceIdeal.RefOps

open Cert.ReferenceIdeal Cert.ReferenceIdeal.Gen Cert.ReferenceIdeal.ReadP Idealize.ShloMosaic Idealize.ShloMosaic.TcCoe Idealize.SL.Sem Idealize.ShloMosaic.StableHlo

/-! ## The clipped target words are in range -/

/-- A 32-bit word whose signed reading lies in [0, hi] has its unsigned value at most hi. -/
private theorem toNat_le_of_toInt (m : BitVec 32) (hi : Nat) (h0 : 0 ≤ m.toInt) (h1 : m.toInt ≤ hi) : m.toNat ≤ hi := by
  rw [BitVec.toInt_eq_toNat_cond] at h0 h1
  split at h0 <;> omega

/-- The signed clip min hi (max lo t) lies, read signed, between 0 and hi when 0 ≤ lo ≤ hi. -/
private theorem clip_le (lo hi t : BitVec 32) (hlo : 0 ≤ lo.toInt) (hlh : lo.toInt ≤ hi.toInt) :
    0 ≤ (IntOp.minsi hi (IntOp.maxsi lo t)).toInt ∧ (IntOp.minsi hi (IntOp.maxsi lo t)).toInt ≤ hi.toInt := by
  unfold IntOp.minsi IntOp.maxsi
  simp only [BitVec.slt, decide_eq_true_eq]
  split <;> split <;> constructor <;> omega

/-- The head's clipped target is one of the words 0 … 2047. -/
theorem headWord_lt (t : BitVec 32) : (Cert.Spec.headWord t).toNat < 2048 := by
  have h := clip_le 0#32 2047#32 t (by decide) (by decide)
  have := toNat_le_of_toInt _ 2047 h.1 (by have e : (2047#32 : BitVec 32).toInt = 2047 := by decide
                                           rw [e] at h; exact h.2)
  unfold Cert.Spec.headWord; omega

/-- The tail's clipped target is one of the words 0 … 4095. -/
theorem tailWord_lt (t : BitVec 32) : (Cert.Spec.tailWord t).toNat < 4096 := by
  have h := clip_le 0#32 4095#32 (IntOp.subi t 2048#32) (by decide) (by decide)
  have := toNat_le_of_toInt _ 4095 h.1 (by have e : (4095#32 : BitVec 32).toInt = 4095 := by decide
                                           rw [e] at h; exact h.2)
  unfold Cert.Spec.tailWord; omega

/-! ## Words that are not negative -/

/-- A word that is not negative is left alone by the wrap-around of negative indices. -/
private theorem wrap_id (w a : BitVec 32) (hw : w.toNat < 2 ^ 31) : Scalar.select (IntOp.cmpi .slt w 0#32) a w = w := by
  have hc : IntOp.cmpi .slt w 0#32 ≠ 1#1 := fun h => by
    have := (Predicate.slt_iff_toNat hw (by decide)).1 h
    simp at this
  rw [ValueIdx.eq_zero_of_ne_one hc, ValueIdx.select_zero]

/-! ## The head level's word list and the rows of the embedding it names -/

/-- The head level's word list (the words 0 … 2047 followed by the one word 6144) at position j. -/
theorem val_main_v1_apply (j : Fin 2049) :
    val_main_v1 (F := Ideal) (ValueIdx.ix1 j) = if j.val < 2048 then BitVec.ofNat 32 j.val else 6144#32 := by
  unfold val_main_v1
  by_cases hj : j.val < 2048
  · -- a position below 2048 falls in the first piece, the counting-up list
    rw [if_pos hj, concatenate_pair_apply_left (0 : Fin S2049.rank) _ _ concatenates_S2048_S1_S2049_d0 (ValueIdx.ix1 j) rfl
        (ValueIdx.ix1 (⟨j.val, hj⟩ : Fin 2048)) (fun b => by match b with | ⟨0, _⟩ => rfl)]
    rfl
  · -- position 2048 falls in the second piece, the one constant
    rw [if_neg hj, concatenate_pair_apply_right (0 : Fin S2049.rank) _ _ concatenates_S2048_S1_S2049_d0 (ValueIdx.ix1 j) rfl rfl
        (ValueIdx.ix1 (0 : Fin 1)) (fun b hb => absurd (Subsingleton.elim _ _) hb)
        (by have := j.isLt; show 0 + 2048 = j.val; omega)]
    rfl

private theorem idx_v7 (j : Fin 2049) : idx_main_v7 (ValueIdx.ix2 j (0 : Fin 1)) = ValueIdx.ix1 j := by
  funext a; match a with | ⟨0, _⟩ => rfl

/-- The word list as the column of start indices: no word is negative, so the wrap-around of negative indices
    leaves each as it is. -/
private theorem val_main_v7_at (j : Fin 2049) :
    val_main_v7 (F := Ideal) (ValueIdx.ix2 j (0 : Fin 1)) = if j.val < 2048 then BitVec.ofNat 32 j.val else 6144#32 := by
  rw [val_main_v7_apply, idx_v7, val_main_v6_apply, val_main_v3_apply, val_main_v2_apply, val_main_c_0_apply]
  have hlt : (val_main_v1 (F := Ideal) (ValueIdx.ix1 j)).toNat < 2 ^ 31 := by
    rw [val_main_v1_apply]; split
    · rw [BitVec.toNat_ofNat]; have := j.isLt; omega
    · decide
  rw [wrap_id _ _ hlt]
  exact val_main_v1_apply j

/-- Row j of the gathered embedding is the embedding's row for the head level's word number j. -/
theorem val_main_v8_apply (x2 : (⟨S6145x256, .f32⟩ : BufTy).Contents (Elt Ideal)) (j : Fin 2049) (e : Fin 256) :
    val_main_v8 (F := Ideal) x2 (ValueIdx.ix2 j e) = x2 (ValueIdx.ix2 (Cert.Spec.headId j) e) := by
  have hw : (val_main_v7 (F := Ideal) (ValueIdx.ix2 j (0 : Fin 1))).toNat = (Cert.Spec.headId j).val := by
    rw [val_main_v7_at]; unfold Cert.Spec.headId
    by_cases h : j.val < 2048
    · rw [if_pos h, dif_pos h, BitVec.toNat_ofNat]; show j.val % 2 ^ 32 = j.val; omega
    · rw [if_neg h, dif_neg h]; rfl
  have hlt : (val_main_v7 (F := Ideal) (ValueIdx.ix2 j (0 : Fin 1))).toNat < 6145 := by
    rw [hw]; exact (Cert.Spec.headId j).isLt
  unfold val_main_v8
  rw [Cert.LibGather.gather_rows_apply _ rfl rfl rfl rfl rfl rfl rfl x2 (val_main_v7 (F := Ideal)) j e (by norm_num) hlt]
  exact congrArg (fun r => x2 (ValueIdx.ix2 r e)) (Fin.ext hw)

/-! ## The two row maxima -/

/-- A row index n with the coordinate k put back on the dropped second axis is (n, k). -/
private theorem lift_cols {m c : Nat} (h : (⟨2, ![m, c]⟩ : Shape).Reduces [1] (⟨1, ![m]⟩ : Shape)) (n : Fin m)
    (k : Fin ((⟨2, ![m, c]⟩ : Shape).size 1)) :
    h.lift (ValueIdx.ix1 n) k = ValueIdx.ix2 n (⟨k.val, k.isLt⟩ : Fin c) := by
  funext a; apply Fin.ext
  match a with
  | ⟨0, _⟩ => rfl
  | ⟨1, _⟩ => rfl

/-- A reduce with a maximum body from −∞ over the columns of an [m, c] array is, at row n, the fold of max from −∞
    over that row's c entries. -/
private theorem rowMax_apply {m c : Nat} (x : FVec Ideal ⟨2, ![m, c]⟩ .f32)
    (h' : (⟨2, ![m, c]⟩ : Shape).ReducesTo [1] (⟨1, ![m]⟩ : Shape))
    (h : (⟨2, ![m, c]⟩ : Shape).Reduces [1] (⟨1, ![m]⟩ : Shape)) (hu : 0 < (⟨0, ![]⟩ : Shape).numel) (n : Fin m) :
    Host.reduce FloatOps.maximumf x (constant (⟨0, ![]⟩ : Shape) .f32 0xFF800000#32) h' hu (ValueIdx.ix1 n)
      = (Finset.univ : Finset (Fin c)).fold max Cert.Spec.cNegInf (fun j => x (ValueIdx.ix2 n j)) := by
  rw [Host.reduce_eq_fold_single FloatOps.maximumf x _ h' h hu]
  have hf : (x ∘ h.lift (ValueIdx.ix1 n)) = fun k : Fin c => x (ValueIdx.ix2 n k) :=
    funext fun k => congrArg x (lift_cols h n k)
  exact congrArg (fun f => Finset.fold max Cert.Spec.cNegInf f (Finset.univ : Finset (Fin c))) hf

/-- The head level's row maximum: the fold of max from −∞ over the row's 2049 scores. -/
theorem val_main_call0_v0_apply (x0 : (⟨S128x256, .f32⟩ : BufTy).Contents (Elt Ideal)) (x2 : (⟨S6145x256, .f32⟩ : BufTy).Contents (Elt Ideal)) (x3 x4 : (⟨S256x256, .f32⟩ : BufTy).Contents (Elt Ideal)) (x5 : (⟨S256, .f32⟩ : BufTy).Contents (Elt Ideal)) (n : Fin 128) :
    val_main_call0_v0 (F := Ideal) x0 x2 x3 x4 x5 (ValueIdx.ix1 n)
      = (Finset.univ : Finset (Fin 2049)).fold max Cert.Spec.cNegInf (fun j => val_main_v28 (F := Ideal) x0 x2 x3 x4 x5 (ValueIdx.ix2 n j)) := by
  unfold val_main_call0_v0
  exact rowMax_apply (val_main_v28 (F := Ideal) x0 x2 x3 x4 x5) reducesTo_S128x2049_S128_d1 (by decide) h_S_ n

/-- The tail level's row maximum: the fold of max from −∞ over the row's 4096 scores. -/
theorem val_main_call1_v0_apply (x0 : (⟨S128x256, .f32⟩ : BufTy).Contents (Elt Ideal)) (x2 : (⟨S6145x256, .f32⟩ : BufTy).Contents (Elt Ideal)) (x3 x4 : (⟨S256x256, .f32⟩ : BufTy).Contents (Elt Ideal)) (x5 : (⟨S256, .f32⟩ : BufTy).Contents (Elt Ideal)) (n : Fin 128) :
    val_main_call1_v0 (F := Ideal) x0 x2 x3 x4 x5 (ValueIdx.ix1 n)
      = (Finset.univ : Finset (Fin 4096)).fold max Cert.Spec.cNegInf (fun j => val_main_v50 (F := Ideal) x0 x2 x3 x4 x5 (ValueIdx.ix2 n j)) := by
  unfold val_main_call1_v0
  exact rowMax_apply (val_main_v50 (F := Ideal) x0 x2 x3 x4 x5) reducesTo_S128x4096_S128_d1 (by decide) h_S_ n

/-! ## The take along a row: a gather batched over the rows -/

/-- A 32-bit start index whose unsigned value is below an extent n ≤ 2^31, read signed and clamped into [0, n − 1],
    is its unsigned value. -/
private theorem clamp_eq (v : BitVec 32) (n : Nat) (hn : n ≤ 2 ^ 31) (hlt : v.toNat < n) :
    min v.toInt.toNat (n - 1) = v.toNat := by
  have h2 : 2 * v.toNat < 2 ^ 32 := by omega
  rw [BitVec.toInt_eq_toNat_of_lt h2, Int.toNat_natCast]
  exact Nat.min_eq_left (by omega)

private theorem zero_mem : (0 : Fin 2) ∈ ([0] : List (Fin 2)) := by decide
private theorem one_mem : (1 : Fin 2) ∈ ([1] : List (Fin 2)) := by decide
private theorem zero_not_mem : (0 : Fin 2) ∉ ([1] : List (Fin 2)) := by decide
private theorem one_not_mem : (1 : Fin 2) ∉ ([0] : List (Fin 2)) := by decide

/-- The dimension numbers of a take along the rows (operand [N, M], start indices [N, 1, 1], result [N, 1]: the rows
    are a batching axis on both sides, the columns collapsed and start-indexed), over an abstract proof of their
    conditions. -/
private abbrev takeRowDims (N M : Nat)
    (wf : GatherDims.WF ⟨2, ![N, M]⟩ ⟨3, ![N, 1, 1]⟩ ⟨2, ![N, 1]⟩ [] [1] [0] [1] [0] 2 ![1, 1]) :
    GatherDims ⟨2, ![N, M]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

private theorem takeRow_apply' {N M : Nat} {α : Type}
    (wf : GatherDims.WF ⟨2, ![N, M]⟩ ⟨3, ![N, 1, 1]⟩ ⟨2, ![N, 1]⟩ [] [1] [0] [1] [0] 2 ![1, 1])
    (x : (⟨2, ![N, M]⟩ : Shape).Idx → α) (idx : IVec ⟨3, ![N, 1, 1]⟩ 32) (n : Fin N)
    (hM : M ≤ 2 ^ 31) (hlt : (idx (ValueIdx.ix3 n (0 : Fin 1) (0 : Fin 1))).toNat < M) :
    Host.gather (takeRowDims N M wf) x idx (ValueIdx.ix2 n (0 : Fin 1))
      = x (ValueIdx.ix2 n ⟨(idx (ValueIdx.ix3 n (0 : Fin 1) (0 : Fin 1))).toNat, hlt⟩) := by
  unfold Host.gather
  refine congrArg x ?_
  funext a
  refine Fin.ext ?_
  show (takeRowDims N M wf).start (ValueIdx.ix2 n (0 : Fin 1)) idx a + (takeRowDims N M wf).batchCoord (ValueIdx.ix2 n (0 : Fin 1)) a
      + (takeRowDims N M wf).offCoord (ValueIdx.ix2 n (0 : Fin 1)) a = _
  match a with
  | ⟨0, _⟩ =>
    -- axis 0 is the batching axis: not start-indexed, no offset, the result's row coordinate
    show (takeRowDims N M wf).start (ValueIdx.ix2 n (0 : Fin 1)) idx (0 : Fin 2) + (takeRowDims N M wf).batchCoord (ValueIdx.ix2 n (0 : Fin 1)) (0 : Fin 2)
      + (takeRowDims N M wf).offCoord (ValueIdx.ix2 n (0 : Fin 1)) (0 : Fin 2) = n.val
    rw [GatherDims.start_batching _ _ _ _ zero_mem,
      GatherDims.offCoord_eq_zero _ _ _ (fun h => ((GatherDims.mem_sKept _ _).mp h).2 zero_mem), Nat.zero_add, Nat.add_zero]
    unfold GatherDims.batchCoord
    rw [dif_pos (show (0 : Fin 2) ∈ (takeRowDims N M wf).operandBatchingDims from zero_mem)]
    rfl
  | ⟨1, _⟩ =>
    -- axis 1 is collapsed and start-indexed: the clamped start index, no batching coordinate, no offset
    show (takeRowDims N M wf).start (ValueIdx.ix2 n (0 : Fin 1)) idx (1 : Fin 2) + (takeRowDims N M wf).batchCoord (ValueIdx.ix2 n (0 : Fin 1)) (1 : Fin 2)
      + (takeRowDims N M wf).offCoord (ValueIdx.ix2 n (0 : Fin 1)) (1 : Fin 2) = (idx (ValueIdx.ix3 n (0 : Fin 1) (0 : Fin 1))).toNat
    rw [GatherDims.batchCoord_eq_zero _ _ _ one_not_mem,
      GatherDims.offCoord_eq_zero _ _ _ (fun h => ((GatherDims.mem_sKept _ _).mp h).1 one_mem), Nat.add_zero]
    unfold GatherDims.start
    rw [dif_pos (show (1 : Fin 2) ∈ (takeRowDims N M wf).startIndexMap from one_mem)]
    have hsi : (takeRowDims N M wf).siIdx (ValueIdx.ix2 n (0 : Fin 1)) ⟨List.idxOf (1 : Fin 2) (takeRowDims N M wf).startIndexMap,
        List.idxOf_lt_length_iff.2 one_mem⟩ = ValueIdx.ix3 n (0 : Fin 1) (0 : Fin 1) := by
      funext k; refine Fin.ext ?_
      match k with
      | ⟨0, _⟩ => rfl
      | ⟨1, _⟩ => rfl
      | ⟨2, _⟩ => rfl
    rw [hsi]
    exact clamp_eq _ M hM hlt

/-- A take along the rows (operand [N, M], start indices [N, 1, 1], result [N, 1]; collapsed_slice_dims = [1],
    operand_batching_dims = [0], start_indices_batching_dims = [0], start_index_map = [1], index_vector_dim = 2, slice
    sizes [1, 1]) read at (n, 0): row n of the operand at the column the word idx n names, when it names one. -/
theorem takeRow_apply {N M : Nat} {α : Type} (d : GatherDims ⟨2, ![N, M]⟩ ⟨3, ![N, 1, 1]⟩ ⟨2, ![N, 1]⟩)
    (h1 : d.offsetDims = []) (h2 : d.collapsedSliceDims = [1]) (h3 : d.operandBatchingDims = [0])
    (h4 : d.startIndicesBatchingDims = [0])
    (h5 : d.startIndexMap = [1]) (h6 : d.indexVectorDim = 2) (h7 : d.sliceSizes = ![1, 1])
    (x : (⟨2, ![N, M]⟩ : Shape).Idx → α) (idx : IVec ⟨3, ![N, 1, 1]⟩ 32) (n : Fin N)
    (hM : M ≤ 2 ^ 31) (hlt : (idx (ValueIdx.ix3 n (0 : Fin 1) (0 : Fin 1))).toNat < M) :
    Host.gather d x idx (ValueIdx.ix2 n (0 : Fin 1))
      = x (ValueIdx.ix2 n ⟨(idx (ValueIdx.ix3 n (0 : Fin 1) (0 : Fin 1))).toNat, hlt⟩) := by
  obtain ⟨od, cd, ob, sb, sm, iv, ss, wf⟩ := d
  dsimp only at h1 h2 h3 h4 h5 h6 h7
  subst h1 h2 h3 h4 h5 h6 h7
  exact takeRow_apply' wf x idx n hM hlt

/-! ## The two takes of a log-probability at the clipped target word

A take along a row first wraps a negative index round by the row's length, then keeps the gathered element only where
the wrapped index is in bounds, and puts a NaN elsewhere. The clipped target word is neither negative nor out of
bounds, so the wrap leaves it, the in-bounds mask is set, and the result is the row's entry at that word. -/

/-- The in-bounds test 0 ≤ w ∧ w ≤ hi of a word with 0 ≤ w ≤ hi is set. -/
private theorem inb_mask (w hi : BitVec 32) (hhi : hi.toNat < 2 ^ 31) (hw : w.toNat ≤ hi.toNat) :
    IntOp.andi (IntOp.cmpi .sge w 0#32) (IntOp.cmpi .sle w hi) = 1#1 := by
  have hw' : w.toNat < 2 ^ 31 := by omega
  rw [(Predicate.sge_iff_toNat hw' (by decide)).2 (by simp), (Predicate.sle_iff_toNat hw' hhi).2 hw]
  rfl

/-- A fold of "and" from 1 over bits that are all 1 is 1. -/
private theorem fold_and_ones {ι : Type} (s : Finset ι) : s.fold IntOp.andi 1#1 (fun _ => 1#1) = 1#1 := by
  induction s using Finset.cons_induction with
  | empty => rfl
  | cons a s ha ih => rw [Finset.fold_cons, ih]; rfl

/-- An index (n, 0) with a coordinate put back on the dropped third axis, of extent 1, is (n, 0, 0). -/
private theorem lift_last {N : Nat} (h : (⟨3, ![N, 1, 1]⟩ : Shape).Reduces [2] (⟨2, ![N, 1]⟩ : Shape)) (n : Fin N)
    (k : Fin ((⟨3, ![N, 1, 1]⟩ : Shape).size 2)) :
    h.lift (ValueIdx.ix2 n (0 : Fin 1)) k = ValueIdx.ix3 n (0 : Fin 1) (0 : Fin 1) := by
  funext a; apply Fin.ext
  match a with
  | ⟨0, _⟩ => rfl
  | ⟨1, _⟩ => rfl
  | ⟨2, _⟩ => show k.val = 0; have : k.val < 1 := k.isLt; omega

/-- A reduce with an "and" body from 1 over a third axis of extent 1 is set at (n, 0) when the mask is set at (n, 0, 0). -/
private theorem andAll_one {N : Nat} (mask : IVec ⟨3, ![N, 1, 1]⟩ 1)
    (h' : (⟨3, ![N, 1, 1]⟩ : Shape).ReducesTo [2] (⟨2, ![N, 1]⟩ : Shape))
    (h : (⟨3, ![N, 1, 1]⟩ : Shape).Reduces [2] (⟨2, ![N, 1]⟩ : Shape)) (hu : 0 < (⟨0, ![]⟩ : Shape).numel) (n : Fin N)
    (hm : mask (ValueIdx.ix3 n (0 : Fin 1) (0 : Fin 1)) = 1#1) :
    Host.reduce IntOp.andi mask (constantI (⟨0, ![]⟩ : Shape) 1 1#1) h' hu (ValueIdx.ix2 n (0 : Fin 1)) = 1#1 := by
  rw [Host.reduce_eq_fold_single IntOp.andi mask _ h' h hu]
  have hf : (mask ∘ h.lift (ValueIdx.ix2 n (0 : Fin 1))) = fun _ => 1#1 :=
    funext fun k => by show mask (h.lift _ k) = _; rw [lift_last h n k, hm]
  rw [hf]
  exact fold_and_ones _

private theorem idx_v58 (n : Fin 128) : idx_main_v58 (ValueIdx.ix2 n (0 : Fin 1)) = ValueIdx.ix1 n := by
  funext a; match a with | ⟨0, _⟩ => rfl

private theorem idx_v64 (n : Fin 128) : idx_main_v64 (ValueIdx.ix2 n (0 : Fin 1)) = ValueIdx.ix1 n := by
  funext a; match a with | ⟨0, _⟩ => rfl

private theorem idx_call4_v5 (n : Fin 128) :
    idx_main_call4_v5 (ValueIdx.ix3 n (0 : Fin 1) (0 : Fin 1)) = ValueIdx.ix2 n (0 : Fin 1) := by
  funext a; apply Fin.ext
  match a with
  | ⟨0, _⟩ => show ((n.val * 1 + 0) * 1 + 0) / 1 = n.val; omega
  | ⟨1, _⟩ => rfl

private theorem idx_call5_v5 (n : Fin 128) :
    idx_main_call5_v5 (ValueIdx.ix3 n (0 : Fin 1) (0 : Fin 1)) = ValueIdx.ix2 n (0 : Fin 1) := by
  funext a; apply Fin.ext
  match a with
  | ⟨0, _⟩ => show ((n.val * 1 + 0) * 1 + 0) / 1 = n.val; omega
  | ⟨1, _⟩ => rfl

/-- The head's column of positions holds, at row n, the target of row n clipped into the head's words. -/
private theorem head_word (x1 : (⟨S128, .i32⟩ : BufTy).Contents (Elt Ideal)) (n : Fin 128) :
    val_main_v58 (F := Ideal) x1 (ValueIdx.ix2 n (0 : Fin 1)) = Cert.Spec.headWord (x1 (ValueIdx.ix1 n)) := by
  rw [val_main_v58_apply, idx_v58, val_main_v54_apply, val_main_call2_v4_apply, val_main_call2_v3_apply, val_main_c_9_apply,
    val_main_call2_v2_apply, val_main_call2_v1_apply, val_main_call2_v0_apply, val_main_c_8_apply]
  rfl

/-- The tail's column of positions holds, at row n, the target of row n moved down by 2048 and clipped into the tail's
    words. -/
private theorem tail_word (x1 : (⟨S128, .i32⟩ : BufTy).Contents (Elt Ideal)) (n : Fin 128) :
    val_main_v64 (F := Ideal) x1 (ValueIdx.ix2 n (0 : Fin 1)) = Cert.Spec.tailWord (x1 (ValueIdx.ix1 n)) := by
  rw [val_main_v64_apply, idx_v64, val_main_v57_apply, val_main_call3_v4_apply, val_main_call3_v3_apply, val_main_c_12_apply,
    val_main_call3_v2_apply, val_main_call3_v1_apply, val_main_call3_v0_apply, val_main_c_11_apply,
    val_main_v56_apply, val_main_v55_apply, val_main_c_10_apply]
  rfl

/-- The head take's start index at row n is the clipped word itself: it is not negative. -/
private theorem head_start (x1 : (⟨S128, .i32⟩ : BufTy).Contents (Elt Ideal)) (n : Fin 128) :
    val_main_call4_v5 (F := Ideal) x1 (ValueIdx.ix3 n (0 : Fin 1) (0 : Fin 1)) = Cert.Spec.headWord (x1 (ValueIdx.ix1 n)) := by
  rw [val_main_call4_v5_apply, idx_call4_v5, val_main_call4_v4_apply, val_main_call4_v1_apply, val_main_call4_v0_apply,
    val_main_call4_c_apply, head_word]
  exact wrap_id _ _ (by have := headWord_lt (x1 (ValueIdx.ix1 n)); omega)

/-- The tail take's start index at row n is the clipped word itself. -/
private theorem tail_start (x1 : (⟨S128, .i32⟩ : BufTy).Contents (Elt Ideal)) (n : Fin 128) :
    val_main_call5_v5 (F := Ideal) x1 (ValueIdx.ix3 n (0 : Fin 1) (0 : Fin 1)) = Cert.Spec.tailWord (x1 (ValueIdx.ix1 n)) := by
  rw [val_main_call5_v5_apply, idx_call5_v5, val_main_call5_v4_apply, val_main_call5_v1_apply, val_main_call5_v0_apply,
    val_main_call5_c_apply, tail_word]
  exact wrap_id _ _ (by have := tailWord_lt (x1 (ValueIdx.ix1 n)); omega)

/-- The head take's in-bounds mask (0 ≤ index ≤ 2048, "and"-ed over an axis of extent 1) is set in every row. -/
theorem val_main_call4_v12_apply (x1 : (⟨S128, .i32⟩ : BufTy).Contents (Elt Ideal)) (n : Fin 128) :
    val_main_call4_v12 (F := Ideal) x1 (ValueIdx.ix2 n (0 : Fin 1)) = 1#1 := by
  unfold val_main_call4_v12
  refine andAll_one _ reducesTo_S128x1x1_S128x1_d2 (by decide) h_S_ n ?_
  rw [val_main_call4_v11_apply, val_main_call4_v7_apply, val_main_call4_v10_apply, val_main_call4_v6_apply,
    val_main_call4_c_2_apply, val_main_call4_v9_apply, val_main_call4_v8_apply, val_main_call4_c_1_apply, head_start]
  exact inb_mask _ 2048#32 (by decide) (by have := headWord_lt (x1 (ValueIdx.ix1 n)); show _ ≤ 2048; omega)

/-- The tail take's in-bounds mask (0 ≤ index ≤ 4095) is set in every row. -/
theorem val_main_call5_v12_apply (x1 : (⟨S128, .i32⟩ : BufTy).Contents (Elt Ideal)) (n : Fin 128) :
    val_main_call5_v12 (F := Ideal) x1 (ValueIdx.ix2 n (0 : Fin 1)) = 1#1 := by
  unfold val_main_call5_v12
  refine andAll_one _ reducesTo_S128x1x1_S128x1_d2 (by decide) h_S_ n ?_
  rw [val_main_call5_v11_apply, val_main_call5_v7_apply, val_main_call5_v10_apply, val_main_call5_v6_apply,
    val_main_call5_c_2_apply, val_main_call5_v9_apply, val_main_call5_v8_apply, val_main_call5_c_1_apply, tail_start]
  exact inb_mask _ 4095#32 (by decide) (by have := tailWord_lt (x1 (ValueIdx.ix1 n)); show _ ≤ 4095; omega)

/-- The head take's gather at row n reads the head's log-probabilities of row n at the clipped word. -/
theorem val_main_call4_v13_apply (x0 : (⟨S128x256, .f32⟩ : BufTy).Contents (Elt Ideal)) (x1 : (⟨S128, .i32⟩ : BufTy).Contents (Elt Ideal)) (x2 : (⟨S6145x256, .f32⟩ : BufTy).Contents (Elt Ideal)) (x3 x4 : (⟨S256x256, .f32⟩ : BufTy).Contents (Elt Ideal)) (x5 : (⟨S256, .f32⟩ : BufTy).Contents (Elt Ideal)) (n : Fin 128) :
    val_main_call4_v13 (F := Ideal) x0 x1 x2 x3 x4 x5 (ValueIdx.ix2 n (0 : Fin 1))
      = val_main_v29 (F := Ideal) x0 x2 x3 x4 x5 (ValueIdx.ix2 n ⟨(Cert.Spec.headWord (x1 (ValueIdx.ix1 n))).toNat % 2049, Nat.mod_lt _ (by norm_num)⟩) := by
  have hlt : (val_main_call4_v5 (F := Ideal) x1 (ValueIdx.ix3 n (0 : Fin 1) (0 : Fin 1))).toNat < 2049 := by
    rw [head_start]; have := headWord_lt (x1 (ValueIdx.ix1 n)); omega
  unfold val_main_call4_v13
  rw [takeRow_apply _ rfl rfl rfl rfl rfl rfl rfl _ _ n (by norm_num) hlt]
  refine congrArg (fun r => val_main_v29 (F := Ideal) x0 x2 x3 x4 x5 (ValueIdx.ix2 n r)) (Fin.ext ?_)
  show (val_main_call4_v5 (F := Ideal) x1 (ValueIdx.ix3 n (0 : Fin 1) (0 : Fin 1))).toNat = (Cert.Spec.headWord (x1 (ValueIdx.ix1 n))).toNat % 2049
  rw [head_start, Nat.mod_eq_of_lt (by have := headWord_lt (x1 (ValueIdx.ix1 n)); omega)]

/-- The tail take's gather at row n reads the tail's log-probabilities of row n at the clipped word. -/
theorem val_main_call5_v13_apply (x0 : (⟨S128x256, .f32⟩ : BufTy).Contents (Elt Ideal)) (x1 : (⟨S128, .i32⟩ : BufTy).Contents (Elt Ideal)) (x2 : (⟨S6145x256, .f32⟩ : BufTy).Contents (Elt Ideal)) (x3 x4 : (⟨S256x256, .f32⟩ : BufTy).Contents (Elt Ideal)) (x5 : (⟨S256, .f32⟩ : BufTy).Contents (Elt Ideal)) (n : Fin 128) :
    val_main_call5_v13 (F := Ideal) x0 x1 x2 x3 x4 x5 (ValueIdx.ix2 n (0 : Fin 1))
      = val_main_v51 (F := Ideal) x0 x2 x3 x4 x5 (ValueIdx.ix2 n ⟨(Cert.Spec.tailWord (x1 (ValueIdx.ix1 n))).toNat % 4096, Nat.mod_lt _ (by norm_num)⟩) := by
  have hlt : (val_main_call5_v5 (F := Ideal) x1 (ValueIdx.ix3 n (0 : Fin 1) (0 : Fin 1))).toNat < 4096 := by
    rw [tail_start]; exact tailWord_lt (x1 (ValueIdx.ix1 n))
  unfold val_main_call5_v13
  rw [takeRow_apply _ rfl rfl rfl rfl rfl rfl rfl _ _ n (by norm_num) hlt]
  refine congrArg (fun r => val_main_v51 (F := Ideal) x0 x2 x3 x4 x5 (ValueIdx.ix2 n r)) (Fin.ext ?_)
  show (val_main_call5_v5 (F := Ideal) x1 (ValueIdx.ix3 n (0 : Fin 1) (0 : Fin 1))).toNat = (Cert.Spec.tailWord (x1 (ValueIdx.ix1 n))).toNat % 4096
  rw [tail_start, Nat.mod_eq_of_lt (tailWord_lt (x1 (ValueIdx.ix1 n)))]

/-- The head take at row n: the in-bounds mask is set, so the select keeps the gathered log-probability. -/
theorem val_main_v59_apply (x0 : (⟨S128x256, .f32⟩ : BufTy).Contents (Elt Ideal)) (x1 : (⟨S128, .i32⟩ : BufTy).Contents (Elt Ideal)) (x2 : (⟨S6145x256, .f32⟩ : BufTy).Contents (Elt Ideal)) (x3 x4 : (⟨S256x256, .f32⟩ : BufTy).Contents (Elt Ideal)) (x5 : (⟨S256, .f32⟩ : BufTy).Contents (Elt Ideal)) (n : Fin 128) :
    val_main_v59 (F := Ideal) x0 x1 x2 x3 x4 x5 (ValueIdx.ix2 n 0)
      = val_main_v29 (F := Ideal) x0 x2 x3 x4 x5 (ValueIdx.ix2 n ⟨(Cert.Spec.headWord (x1 (ValueIdx.ix1 n))).toNat % 2049, Nat.mod_lt _ (by norm_num)⟩) := by
  rw [ReadP.val_main_v59_apply, val_main_call4_v12_apply, ValueIdx.select_one]
  exact val_main_call4_v13_apply x0 x1 x2 x3 x4 x5 n

/-- The tail take at row n: the in-bounds mask is set, so the select keeps the gathered log-probability. -/
theorem val_main_v65_apply (x0 : (⟨S128x256, .f32⟩ : BufTy).Contents (Elt Ideal)) (x1 : (⟨S128, .i32⟩ : BufTy).Contents (Elt Ideal)) (x2 : (⟨S6145x256, .f32⟩ : BufTy).Contents (Elt Ideal)) (x3 x4 : (⟨S256x256, .f32⟩ : BufTy).Contents (Elt Ideal)) (x5 : (⟨S256, .f32⟩ : BufTy).Contents (Elt Ideal)) (n : Fin 128) :
    val_main_v65 (F := Ideal) x0 x1 x2 x3 x4 x5 (ValueIdx.ix2 n 0)
      = val_main_v51 (F := Ideal) x0 x2 x3 x4 x5 (ValueIdx.ix2 n ⟨(Cert.Spec.tailWord (x1 (ValueIdx.ix1 n))).toNat % 4096, Nat.mod_lt _ (by norm_num)⟩) := by
  rw [ReadP.val_main_v65_apply, val_main_call5_v12_apply, ValueIdx.select_one]
  exact val_main_call5_v13_apply x0 x1 x2 x3 x4 x5 n

end Cert.ReferenceIdeal.RefOps

end
-- ==== Proof.RefValue.lean ====
/-
  The reference's result read down to its six argument arrays.

  Every lemma reads one stretch of the reference's operations at one index and names what it finds in the words of
  the specification: (h · U + b) at a row and a feature, (emb · W) at a word and a feature, the difference
  h − tanh(emb · W + (h · U + b)), the score 65 / (1 + Σ_d difference²) of a word for a row (head words through
  the head level's word list, tail words through the slice that starts at word 2048), a level's log-softmax (the
  row maximum joined with −∞, the sum of exponentials started from zero, the logarithm), the row's loss chosen by
  "target < 2048", and the mean over the 128 rows. Each step only unfolds: the specification lists its operands in
  the program's order.
-/
import proofs.«430609_j28260884807701_2_alg».proof.Proof.RefRead
import proofs.«430609_j28260884807701_2_alg».proof.Proof.RefOps
import proofs.«430609_j28260884807701_2_alg».proof.Proof.Spec
import Idealize.ShloMosaic.Lib.ValueIdxRank1

noncomputable section

namespace Cert.ReferenceIdeal.RefValue

open Cert.ReferenceIdeal Cert.ReferenceIdeal.Gen Cert.ReferenceIdeal.ReadP Cert.Spec Idealize.ShloMosaic Idealize.ShloMosaic.ValueIdx

variable (x0 : (⟨S128x256, .f32⟩ : BufTy).Contents (Elt Ideal)) (x1 : (⟨S128, .i32⟩ : BufTy).Contents (Elt Ideal))
  (x2 : (⟨S6145x256, .f32⟩ : BufTy).Contents (Elt Ideal)) (x3 x4 : (⟨S256x256, .f32⟩ : BufTy).Contents (Elt Ideal))
  (x5 : (⟨S256, .f32⟩ : BufTy).Contents (Elt Ideal))

/-! ## Where each operation reads its operand, by coordinates -/

theorem lidx10_ix (n : Fin 128) (d k : Fin 256) : lidx_main_v10 (ix2 n d) k = ix2 n k :=
  funext fun a => Fin.ext (by match a with | ⟨0, _⟩ => rfl | ⟨1, _⟩ => rfl)
theorem ridx10_ix (n : Fin 128) (d k : Fin 256) : ridx_main_v10 (ix2 n d) k = ix2 k d :=
  funext fun a => Fin.ext (by match a with | ⟨0, _⟩ => rfl | ⟨1, _⟩ => rfl)
theorem idx11_12_ix (n : Fin 128) (d : Fin 256) : idx_main_v11 (idx_main_v12 (ix2 n d)) = ix1 d :=
  funext fun a => Fin.ext (by match a with | ⟨0, _⟩ => rfl)
theorem lidx32_ix (n : Fin 128) (d k : Fin 256) : lidx_main_v32 (ix2 n d) k = ix2 n k :=
  funext fun a => Fin.ext (by match a with | ⟨0, _⟩ => rfl | ⟨1, _⟩ => rfl)
theorem ridx32_ix (n : Fin 128) (d k : Fin 256) : ridx_main_v32 (ix2 n d) k = ix2 k d :=
  funext fun a => Fin.ext (by match a with | ⟨0, _⟩ => rfl | ⟨1, _⟩ => rfl)
theorem idx33_34_ix (n : Fin 128) (d : Fin 256) : idx_main_v33 (idx_main_v34 (ix2 n d)) = ix1 d :=
  funext fun a => Fin.ext (by match a with | ⟨0, _⟩ => rfl)
theorem lidx9_ix (j : Fin 2049) (d k : Fin 256) : lidx_main_v9 (ix2 j d) k = ix2 j k :=
  funext fun a => Fin.ext (by match a with | ⟨0, _⟩ => rfl | ⟨1, _⟩ => rfl)
theorem ridx9_ix (j : Fin 2049) (d k : Fin 256) : ridx_main_v9 (ix2 j d) k = ix2 k d :=
  funext fun a => Fin.ext (by match a with | ⟨0, _⟩ => rfl | ⟨1, _⟩ => rfl)
theorem lidx31_ix (j : Fin 4096) (d k : Fin 256) : lidx_main_v31 (ix2 j d) k = ix2 j k :=
  funext fun a => Fin.ext (by match a with | ⟨0, _⟩ => rfl | ⟨1, _⟩ => rfl)
theorem ridx31_ix (j : Fin 4096) (d k : Fin 256) : ridx_main_v31 (ix2 j d) k = ix2 k d :=
  funext fun a => Fin.ext (by match a with | ⟨0, _⟩ => rfl | ⟨1, _⟩ => rfl)
theorem idx30_ix (j : Fin 4096) (k : Fin 256) : idx_main_v30 (ix2 j k) = ix2 (tailId j) k :=
  funext fun a => Fin.ext (by match a with | ⟨0, _⟩ => rfl | ⟨1, _⟩ => rfl)
theorem idx20_21_ix (n : Fin 128) (j : Fin 2049) (d : Fin 256) : idx_main_v20 (idx_main_v21 (ix3 n j d)) = ix2 n d :=
  funext fun a => Fin.ext (by match a with | ⟨0, _⟩ => rfl | ⟨1, _⟩ => rfl)
theorem idx15_16_ix (n : Fin 128) (j : Fin 2049) (d : Fin 256) : idx_main_v15 (idx_main_v16 (ix3 n j d)) = ix2 j d :=
  funext fun a => Fin.ext (by match a with | ⟨0, _⟩ => rfl | ⟨1, _⟩ => rfl)
theorem idx14_17_ix (n : Fin 128) (j : Fin 2049) (d : Fin 256) : idx_main_v14 (idx_main_v17 (ix3 n j d)) = ix2 n d :=
  funext fun a => Fin.ext (by match a with | ⟨0, _⟩ => rfl | ⟨1, _⟩ => rfl)
theorem idx24_ix (n : Fin 128) (j : Fin 2049) (d : Fin 256) : idx_main_v24 (ix2 n j) d = ix3 n j d :=
  funext fun a => Fin.ext (by match a with | ⟨0, _⟩ => rfl | ⟨1, _⟩ => rfl | ⟨2, _⟩ => rfl)
theorem idx42_43_ix (n : Fin 128) (j : Fin 4096) (d : Fin 256) : idx_main_v42 (idx_main_v43 (ix3 n j d)) = ix2 n d :=
  funext fun a => Fin.ext (by match a with | ⟨0, _⟩ => rfl | ⟨1, _⟩ => rfl)
theorem idx37_38_ix (n : Fin 128) (j : Fin 4096) (d : Fin 256) : idx_main_v37 (idx_main_v38 (ix3 n j d)) = ix2 j d :=
  funext fun a => Fin.ext (by match a with | ⟨0, _⟩ => rfl | ⟨1, _⟩ => rfl)
theorem idx36_39_ix (n : Fin 128) (j : Fin 4096) (d : Fin 256) : idx_main_v36 (idx_main_v39 (ix3 n j d)) = ix2 n d :=
  funext fun a => Fin.ext (by match a with | ⟨0, _⟩ => rfl | ⟨1, _⟩ => rfl)
theorem idx46_ix (n : Fin 128) (j : Fin 4096) (d : Fin 256) : idx_main_v46 (ix2 n j) d = ix3 n j d :=
  funext fun a => Fin.ext (by match a with | ⟨0, _⟩ => rfl | ⟨1, _⟩ => rfl | ⟨2, _⟩ => rfl)
theorem idxc0_3_4_ix (n : Fin 128) (j : Fin 2049) : idx_main_call0_v3 (idx_main_call0_v4 (ix2 n j)) = ix1 n :=
  funext fun a => Fin.ext (by match a with | ⟨0, _⟩ => rfl)
theorem idxc0_8_10_ix (n : Fin 128) (j : Fin 2049) : idx_main_call0_v8 (idx_main_call0_v10 (ix2 n j)) = ix1 n :=
  funext fun a => Fin.ext (by match a with | ⟨0, _⟩ => rfl)
theorem idxc0_7_ix (n : Fin 128) (j : Fin 2049) : idx_main_call0_v7 (ix1 n) j = ix2 n j :=
  funext fun a => Fin.ext (by match a with | ⟨0, _⟩ => rfl | ⟨1, _⟩ => rfl)
theorem idxc1_3_4_ix (n : Fin 128) (j : Fin 4096) : idx_main_call1_v3 (idx_main_call1_v4 (ix2 n j)) = ix1 n :=
  funext fun a => Fin.ext (by match a with | ⟨0, _⟩ => rfl)
theorem idxc1_8_10_ix (n : Fin 128) (j : Fin 4096) : idx_main_call1_v8 (idx_main_call1_v10 (ix2 n j)) = ix1 n :=
  funext fun a => Fin.ext (by match a with | ⟨0, _⟩ => rfl)
theorem idxc1_7_ix (n : Fin 128) (j : Fin 4096) : idx_main_call1_v7 (ix1 n) j = ix2 n j :=
  funext fun a => Fin.ext (by match a with | ⟨0, _⟩ => rfl | ⟨1, _⟩ => rfl)
theorem idx60_ix (n : Fin 128) : idx_main_v60 (ix1 n) = ix2 n (0 : Fin 1) :=
  funext fun a => Fin.ext (by match a with | ⟨0, _⟩ => exact Nat.div_one _ | ⟨1, _⟩ => rfl)
theorem idx66_ix (n : Fin 128) : idx_main_v66 (ix1 n) = ix2 n (0 : Fin 1) :=
  funext fun a => Fin.ext (by match a with | ⟨0, _⟩ => exact Nat.div_one _ | ⟨1, _⟩ => rfl)
theorem idx62_63_ix (n : Fin 128) : idx_main_v62 (idx_main_v63 (ix1 n)) = ix2 n (⟨2048, by norm_num⟩ : Fin 2049) :=
  funext fun a => Fin.ext (by match a with | ⟨0, _⟩ => exact Nat.div_one _ | ⟨1, _⟩ => rfl)

/-! ## The scores -/

/-- (h · U + b), as the head level computes it. -/
theorem hub_head (n : Fin 128) (d : Fin 256) :
    val_main_v13 (F := Ideal) x0 x4 x5 (ix2 n d) = hub (cur2 x0) (cur2 x4) (cur1 x5) n d := by
  rw [val_main_v13_apply, val_main_v10_apply, val_main_v12_apply, val_main_v11_apply]
  simp only [lidx10_ix, ridx10_ix, idx11_12_ix, Ideal.addf_def]
  rfl

/-- (h · U + b), as the tail level computes it again. -/
theorem hub_tail (n : Fin 128) (d : Fin 256) :
    val_main_v35 (F := Ideal) x0 x4 x5 (ix2 n d) = hub (cur2 x0) (cur2 x4) (cur1 x5) n d := by
  rw [val_main_v35_apply, val_main_v32_apply, val_main_v34_apply, val_main_v33_apply]
  simp only [lidx32_ix, ridx32_ix, idx33_34_ix, Ideal.addf_def]
  rfl

/-- (emb · W) at the head level's word number j: the gathered row is emb's row of word headId j. -/
theorem ew_head (j : Fin 2049) (d : Fin 256) :
    val_main_v9 (F := Ideal) x2 x3 (ix2 j d) = ew (cur2 x2) (cur2 x3) (headId j) d := by
  rw [val_main_v9_apply]
  simp only [lidx9_ix, ridx9_ix, RefOps.val_main_v8_apply]
  rfl

/-- (emb · W) at the tail level's word number j: the slice's row j is emb's row 2048 + j. -/
theorem ew_tail (j : Fin 4096) (d : Fin 256) :
    val_main_v31 (F := Ideal) x2 x3 (ix2 j d) = ew (cur2 x2) (cur2 x3) (tailId j) d := by
  rw [val_main_v31_apply]
  simp only [lidx31_ix, ridx31_ix, val_main_v30_apply, idx30_ix]
  rfl

/-- h − tanh (emb · W + (h · U + b)) at a row, a head word and a feature. -/
theorem diff_head (n : Fin 128) (j : Fin 2049) (d : Fin 256) :
    val_main_v22 (F := Ideal) x0 x2 x3 x4 x5 (ix3 n j d)
      = diff (cur2 x0) (cur2 x2) (cur2 x3) (cur2 x4) (cur1 x5) n (headId j) d := by
  rw [val_main_v22_apply, val_main_v21_apply, val_main_v20_apply, val_main_v19_apply, val_main_v18_apply,
    val_main_v16_apply, val_main_v15_apply, val_main_v17_apply, val_main_v14_apply,
    idx20_21_ix, idx15_16_ix, idx14_17_ix, ew_head, hub_head]
  simp only [Ideal.subf_def, Ideal.addf_def, Ideal.hostUnary_tanh_def]
  rfl

/-- The same at a tail word. -/
theorem diff_tail (n : Fin 128) (j : Fin 4096) (d : Fin 256) :
    val_main_v44 (F := Ideal) x0 x2 x3 x4 x5 (ix3 n j d)
      = diff (cur2 x0) (cur2 x2) (cur2 x3) (cur2 x4) (cur1 x5) n (tailId j) d := by
  rw [val_main_v44_apply, val_main_v43_apply, val_main_v42_apply, val_main_v41_apply, val_main_v40_apply,
    val_main_v38_apply, val_main_v37_apply, val_main_v39_apply, val_main_v36_apply,
    idx42_43_ix, idx37_38_ix, idx36_39_ix, ew_tail, hub_tail]
  simp only [Ideal.subf_def, Ideal.addf_def, Ideal.hostUnary_tanh_def]
  rfl

/-- The score of head word number j for row n: 65 / (1 + (0 + Σ_d difference²)), the sum's zero start dropped. -/
theorem kmat_head (n : Fin 128) (j : Fin 2049) :
    val_main_v28 (F := Ideal) x0 x2 x3 x4 x5 (ix2 n j)
      = kmat (cur2 x0) (cur2 x2) (cur2 x3) (cur2 x4) (cur1 x5) n (headId j) := by
  rw [val_main_v28_apply, val_main_v27_apply, val_main_cst_3_apply, val_main_v26_apply, val_main_v25_apply,
    val_main_cst_2_apply, val_main_v24_apply, val_main_cst_apply]
  simp only [idx24_ix, val_main_v23_apply, diff_head, Ideal.ofBits_def, Ideal.ofBits_zero_f32, zero_add,
    Ideal.hostDivf_def, Ideal.addf_def, Ideal.mulf_def]
  rfl

/-- The score of tail word number j for row n. -/
theorem kmat_tail (n : Fin 128) (j : Fin 4096) :
    val_main_v50 (F := Ideal) x0 x2 x3 x4 x5 (ix2 n j)
      = kmat (cur2 x0) (cur2 x2) (cur2 x3) (cur2 x4) (cur1 x5) n (tailId j) := by
  rw [val_main_v50_apply, val_main_v49_apply, val_main_cst_6_apply, val_main_v48_apply, val_main_v47_apply,
    val_main_cst_5_apply, val_main_v46_apply, val_main_cst_4_apply]
  simp only [idx46_ix, val_main_v45_apply, diff_tail, Ideal.ofBits_def, Ideal.ofBits_zero_f32, zero_add,
    Ideal.hostDivf_def, Ideal.addf_def, Ideal.mulf_def]
  rfl

/-! ## A level's log-softmax -/

/-- The head level's row maximum joined with −∞. -/
theorem max_head (n : Fin 128) :
    val_main_call0_v2 (F := Ideal) x0 x2 x3 x4 x5 (ix1 n)
      = max cNegInf ((Finset.univ : Finset (Fin 2049)).fold max cNegInf fun j => kmat (cur2 x0) (cur2 x2) (cur2 x3) (cur2 x4) (cur1 x5) n (headId j)) := by
  rw [val_main_call0_v2_apply, val_main_call0_v1_apply, val_main_call0_cst_0_apply, RefOps.val_main_call0_v0_apply]
  simp only [kmat_head, Ideal.maximumf_def, Ideal.ofBits_def]

/-- A head score minus that maximum. -/
theorem shifted_head (n : Fin 128) (j : Fin 2049) :
    val_main_call0_v5 (F := Ideal) x0 x2 x3 x4 x5 (ix2 n j)
      = kmat (cur2 x0) (cur2 x2) (cur2 x3) (cur2 x4) (cur1 x5) n (headId j)
        - max cNegInf ((Finset.univ : Finset (Fin 2049)).fold max cNegInf fun j => kmat (cur2 x0) (cur2 x2) (cur2 x3) (cur2 x4) (cur1 x5) n (headId j)) := by
  rw [val_main_call0_v5_apply, val_main_call0_v4_apply, val_main_call0_v3_apply, idxc0_3_4_ix, max_head, kmat_head]
  rfl

/-- The head level's log-softmax at position t of row n. -/
theorem lsm_head (n : Fin 128) (t : Fin 2049) :
    val_main_v29 (F := Ideal) x0 x2 x3 x4 x5 (ix2 n t)
      = logSoftmax (fun j : Fin 2049 => kmat (cur2 x0) (cur2 x2) (cur2 x3) (cur2 x4) (cur1 x5) n (headId j)) t := by
  rw [val_main_v29_apply, val_main_call0_v10_apply, val_main_call0_v9_apply, val_main_call0_v8_apply,
    idxc0_8_10_ix, val_main_call0_v7_apply, val_main_call0_cst_1_apply, shifted_head]
  simp only [idxc0_7_ix, val_main_call0_v6_apply, shifted_head, Ideal.subf_def, Ideal.hostUnary_exp_def,
    Ideal.hostUnary_log_def, Ideal.ofBits_def]
  rfl

/-- The tail level's row maximum joined with −∞. -/
theorem max_tail (n : Fin 128) :
    val_main_call1_v2 (F := Ideal) x0 x2 x3 x4 x5 (ix1 n)
      = max cNegInf ((Finset.univ : Finset (Fin 4096)).fold max cNegInf fun j => kmat (cur2 x0) (cur2 x2) (cur2 x3) (cur2 x4) (cur1 x5) n (tailId j)) := by
  rw [val_main_call1_v2_apply, val_main_call1_v1_apply, val_main_call1_cst_0_apply, RefOps.val_main_call1_v0_apply]
  simp only [kmat_tail, Ideal.maximumf_def, Ideal.ofBits_def]

/-- A tail score minus that maximum. -/
theorem shifted_tail (n : Fin 128) (j : Fin 4096) :
    val_main_call1_v5 (F := Ideal) x0 x2 x3 x4 x5 (ix2 n j)
      = kmat (cur2 x0) (cur2 x2) (cur2 x3) (cur2 x4) (cur1 x5) n (tailId j)
        - max cNegInf ((Finset.univ : Finset (Fin 4096)).fold max cNegInf fun j => kmat (cur2 x0) (cur2 x2) (cur2 x3) (cur2 x4) (cur1 x5) n (tailId j)) := by
  rw [val_main_call1_v5_apply, val_main_call1_v4_apply, val_main_call1_v3_apply, idxc1_3_4_ix, max_tail, kmat_tail]
  rfl

/-- The tail level's log-softmax at position t of row n. -/
theorem lsm_tail (n : Fin 128) (t : Fin 4096) :
    val_main_v51 (F := Ideal) x0 x2 x3 x4 x5 (ix2 n t)
      = logSoftmax (fun j : Fin 4096 => kmat (cur2 x0) (cur2 x2) (cur2 x3) (cur2 x4) (cur1 x5) n (tailId j)) t := by
  rw [val_main_v51_apply, val_main_call1_v10_apply, val_main_call1_v9_apply, val_main_call1_v8_apply,
    idxc1_8_10_ix, val_main_call1_v7_apply, val_main_call1_cst_1_apply, shifted_tail]
  simp only [idxc1_7_ix, val_main_call1_v6_apply, shifted_tail, Ideal.subf_def, Ideal.hostUnary_exp_def,
    Ideal.hostUnary_log_def, Ideal.ofBits_def]
  rfl

/-! ## The row's loss and the mean -/

/-- Row n's loss: the head level's log-probability of the clipped target, or that of the extra word plus the tail
    level's, negated, chosen by "target < 2048". -/
theorem row_read (n : Fin 128) :
    val_main_v69 (F := Ideal) x0 x1 x2 x3 x4 x5 (ix1 n)
      = refRow (kmat (cur2 x0) (cur2 x2) (cur2 x3) (cur2 x4) (cur1 x5) n) (headWord (cur1 x1 n)) (tailWord (cur1 x1 n)) (isHead (cur1 x1 n)) := by
  rw [val_main_v69_apply, val_main_v53_apply, val_main_v52_apply, val_main_c_7_apply,
    val_main_v61_apply, val_main_v60_apply, idx60_ix, RefOps.val_main_v59_apply, lsm_head,
    val_main_v68_apply, val_main_v67_apply, val_main_v63_apply, val_main_v62_apply, idx62_63_ix, lsm_head,
    val_main_v66_apply, idx66_ix, RefOps.val_main_v65_apply, lsm_tail]
  simp only [Ideal.hostNegf_def, Ideal.negf_def, Ideal.addf_def]
  rfl

/-- A sum over a rank-1 array's indices is the sum over its coordinate. -/
theorem sum_rank1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- The result: the rows' losses summed from zero and divided by 128. -/
theorem val_main_v71_spec (x0 : (⟨S128x256, .f32⟩ : BufTy).Contents (Elt Ideal)) (x1 : (⟨S128, .i32⟩ : BufTy).Contents (Elt Ideal)) (x2 : (⟨S6145x256, .f32⟩ : BufTy).Contents (Elt Ideal)) (x3 x4 : (⟨S256x256, .f32⟩ : BufTy).Contents (Elt Ideal)) (x5 : (⟨S256, .f32⟩ : BufTy).Contents (Elt Ideal)) (i : S_.Idx) :
    Cert.ReferenceIdeal.ReadP.val_main_v71 (F := Ideal) x0 x1 x2 x3 x4 x5 i = Cert.Spec.refVal (Cert.Spec.cur2 x0) (Cert.Spec.cur1 x1) (Cert.Spec.cur2 x2) (Cert.Spec.cur2 x3) (Cert.Spec.cur2 x4) (Cert.Spec.cur1 x5) := by
  rw [val_main_v71_apply, val_main_v70_apply, val_main_cst_13_apply, val_main_cst_14_apply, sum_rank1]
  simp only [row_read, Ideal.hostDivf_def, Ideal.ofBits_def]
  rfl

end Cert.ReferenceIdeal.RefValue

end
-- ==== Proof.Math.lean ====
/-
  The two arrangements of the two-level cross entropy agree on real-valued scores.

  With real scores x_j, write LSE := log Σ_j exp x_j for a level.  The chunked walk keeps a real M and the sum
  Σ_seen exp (x_j − M); moving M to M' multiplies the sum by exp (M − M') (exp (a + b) = exp a · exp b), so after the
  last chunk M + log (Σ exp (x_j − M)) = LSE, whatever M is.  The whole-level arrangement subtracts one real M from
  every score and so reaches the same LSE.  The masked sum picks the one column whose word number is the target's.
-/
import proofs.«430609_j28260884807701_2_alg».proof.Proof.Spec
import Mathlib.Analysis.SpecialFunctions.Log.Basic
import Mathlib.Analysis.SpecialFunctions.Exp
import Mathlib.Data.EReal.Basic
import Mathlib.Data.EReal.Operations
import Mathlib.Algebra.BigOperators.Fin

noncomputable section

namespace Cert.Spec

open Idealize.ShloMosaic

/-! ## The clipped targets lie in their levels -/

/-- A word clipped from below at 0 and from above at `hi` (signed) is at most `hi` as a natural number. -/
theorem clip_toNat_le (hi : ℕ) (hhi : hi < 2 ^ 31) (x : BitVec 32) :
    (IntOp.minsi (BitVec.ofNat 32 hi) (IntOp.maxsi 0#32 x)).toNat ≤ hi := by
  have hhiI : (BitVec.ofNat 32 hi).toInt = hi := by
    rw [BitVec.toInt_eq_toNat_cond, BitVec.toNat_ofNat]; omega
  have h0 : (0#32 : BitVec 32).toInt = 0 := by decide
  have hu : 0 ≤ (IntOp.maxsi 0#32 x).toInt := by
    unfold IntOp.maxsi
    split <;> rename_i hc <;> simp only [BitVec.slt, h0, decide_eq_true_eq] at hc <;> omega
  generalize IntOp.maxsi 0#32 x = u at hu
  unfold IntOp.minsi
  split <;> rename_i hc <;> simp only [BitVec.slt, hhiI, decide_eq_true_eq] at hc
  · rw [BitVec.toNat_ofNat]; omega
  · rw [BitVec.toInt_eq_toNat_cond] at hc hu; omega

theorem headWord_lt (t : BitVec 32) : (headWord t).toNat < 2048 :=
  Nat.lt_succ_of_le (clip_toNat_le 2047 (by norm_num) t)

theorem tailWord_lt (t : BitVec 32) : (tailWord t).toNat < 4096 :=
  Nat.lt_succ_of_le (clip_toNat_le 4095 (by norm_num) (IntOp.subi t 2048#32))

/-! ## The literals -/

theorem cNegInf_eq : cNegInf = ⊥ := by simp [Ideal.ofBits, Ideal.ieee]

theorem c0_eq : c0 = 0 := by simp [Ideal.ofBits, Ideal.ieee]

/-! ## Real sums and maxima inside the extended reals -/

/-- The inclusion of ℝ commutes with finite sums. -/
theorem coe_finsum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of ℝ is monotone, so it commutes with `max`. -/
theorem coe_max' (a b : ℝ) : ((max a b : ℝ) : EReal) = max (a : EReal) (b : EReal) :=
  EReal.coe_strictMono.monotone.map_max

/-- The fold of `max` from −∞ over a nonempty family of reals is a real. -/
theorem fold_max_coe {ι : Type*} (s : Finset ι) (hs : s.Nonempty) (x : ι → ℝ) :
    ∃ M : ℝ, s.fold max (⊥ : EReal) (fun j => (x j : EReal)) = (M : EReal) := by
  classical
  induction s using Finset.induction_on with
  | empty => exact absurd hs Finset.not_nonempty_empty
  | insert a s ha ih =>
    rw [Finset.fold_insert ha]
    rcases s.eq_empty_or_nonempty with rfl | hne
    · exact ⟨x a, by rw [Finset.fold_empty, max_eq_left bot_le]⟩
    · obtain ⟨M, hM⟩ := ih hne
      exact ⟨max (x a) M, by rw [hM, coe_max']⟩

/-- Moving the reference point from M to M' multiplies the sum of exponentials by exp (M − M'). -/
theorem rescale_sum {ι : Type*} (s : Finset ι) (f : ι → ℝ) (M M' : ℝ) :
    Real.exp (M - M') * ∑ i ∈ s, Real.exp (f i - M) = ∑ i ∈ s, Real.exp (f i - M') := by
  rw [Finset.mul_sum]
  refine Finset.sum_congr rfl fun i _ => ?_
  rw [← Real.exp_add]; congr 1; ring

/-- Whatever the reference point M, M + log Σ exp (x − M) is the log of the sum of exponentials. -/
theorem lse_shift {ι : Type*} (s : Finset ι) (hs : s.Nonempty) (f : ι → ℝ) (M : ℝ) :
    M + Real.log (∑ i ∈ s, Real.exp (f i - M)) = Real.log (∑ i ∈ s, Real.exp (f i)) := by
  have hpos : 0 < ∑ i ∈ s, Real.exp (f i) := Finset.sum_pos (fun i _ => Real.exp_pos _) hs
  have h : ∑ i ∈ s, Real.exp (f i - M) = Real.exp (-M) * ∑ i ∈ s, Real.exp (f i) := by
    rw [Finset.mul_sum]; refine Finset.sum_congr rfl fun i _ => ?_
    rw [← Real.exp_add]; congr 1; ring
  rw [h, Real.log_mul (Real.exp_ne_zero _) hpos.ne', Real.log_exp]; ring

/-- The words below 128 (c + 1) are the words below 128 c and the 128 words of chunk c. -/
theorem sum_chunk (g : ℕ → ℝ) (c : ℕ) :
    ∑ i ∈ Finset.range (128 * (c + 1)), g i
      = (∑ i ∈ Finset.range (128 * c), g i) + ∑ q : Fin 128, g (128 * c + q.val) := by
  rw [Nat.mul_succ, Finset.sum_range_add, Finset.sum_range fun x => g (128 * c + x)]

/-! ## One chunk step on real scores -/

theorem chunkMax_coe (xr : Fin 128 → ℝ) : ∃ C : ℝ, chunkMax (fun q => (xr q : EReal)) = (C : EReal) := by
  unfold chunkMax; rw [cNegInf_eq]
  exact fold_max_coe _ Finset.univ_nonempty xr

theorem mStep_bot (xr : Fin 128 → ℝ) : ∃ M' : ℝ, mStep ⊥ (fun q => (xr q : EReal)) = (M' : EReal) := by
  obtain ⟨C, hC⟩ := chunkMax_coe xr
  exact ⟨C, by unfold mStep; rw [hC, max_eq_right bot_le]⟩

theorem mStep_coe (M : ℝ) (xr : Fin 128 → ℝ) :
    ∃ M' : ℝ, mStep (M : EReal) (fun q => (xr q : EReal)) = (M' : EReal) := by
  obtain ⟨C, hC⟩ := chunkMax_coe xr
  exact ⟨max M C, by unfold mStep; rw [hC, coe_max']⟩

/-- First chunk: the old maximum is −∞, exp (−∞ − M') = 0, and the old sum 0 contributes nothing. -/
theorem lStep_bot (xr : Fin 128 → ℝ) (M' : ℝ) (hM : mStep ⊥ (fun q => (xr q : EReal)) = (M' : EReal)) :
    lStep ⊥ 0 (fun q => (xr q : EReal)) = ((∑ q, Real.exp (xr q - M') : ℝ) : EReal) := by
  unfold lStep
  rw [hM, EReal.bot_sub, Ideal.exp_bot, mul_zero, zero_add, coe_finsum]
  refine Finset.sum_congr rfl fun q _ => ?_
  rw [← EReal.coe_sub, Ideal.exp_coe]

/-- A later chunk: all quantities are real, and the step is the real one. -/
theorem lStep_coe (M S : ℝ) (xr : Fin 128 → ℝ) (M' : ℝ)
    (hM : mStep (M : EReal) (fun q => (xr q : EReal)) = (M' : EReal)) :
    lStep (M : EReal) (S : EReal) (fun q => (xr q : EReal))
      = ((Real.exp (M - M') * S + ∑ q, Real.exp (xr q - M') : ℝ) : EReal) := by
  unfold lStep
  rw [hM, ← EReal.coe_sub, Ideal.exp_coe, ← EReal.coe_mul, EReal.coe_add, coe_finsum]
  exact congrArg _ (Finset.sum_congr rfl fun q _ => by rw [← EReal.coe_sub, Ideal.exp_coe])

/-! ## One level of the chunked walk -/

/-- The running maximum and the rescaled sum of one level after the chunks `y 0 … y (c − 1)`. -/
def lvl (y : ℕ → Fin 128 → EReal) : ℕ → EReal × EReal
  | 0 => (cNegInf, c0)
  | c + 1 => (mStep (lvl y c).1 (y c), lStep (lvl y c).1 (lvl y c).2 (y c))

/-- The masked sum of one level after the chunks `y 0 … y (c − 1)`. -/
def gfold (w : BitVec 32) (y : ℕ → Fin 128 → EReal) : ℕ → EReal
  | 0 => c0
  | c + 1 => gStep (gfold w y c) w c (y c)

/-- After c + 1 chunks of real scores f 0, f 1, … the maximum is a real M and the sum is Σ_{i < 128 (c+1)} exp (f i − M). -/
theorem lvl_spec (y : ℕ → Fin 128 → EReal) (f : ℕ → ℝ)
    (hy : ∀ c q, y c q = ((f (128 * c + q.val) : ℝ) : EReal)) (c : ℕ) :
    ∃ M : ℝ, (lvl y (c + 1)).1 = (M : EReal) ∧
      (lvl y (c + 1)).2 = ((∑ i ∈ Finset.range (128 * (c + 1)), Real.exp (f i - M) : ℝ) : EReal) := by
  have hyc : ∀ c, y c = fun q : Fin 128 => ((f (128 * c + q.val) : ℝ) : EReal) := fun c => funext (hy c)
  induction c with
  | zero =>
    obtain ⟨M', hM'⟩ := mStep_bot (fun q : Fin 128 => f (128 * 0 + q.val))
    refine ⟨M', ?_, ?_⟩
    · show mStep cNegInf (y 0) = _
      rw [cNegInf_eq, hyc 0]; exact hM'
    · show lStep cNegInf c0 (y 0) = _
      rw [cNegInf_eq, c0_eq, hyc 0, lStep_bot _ M' hM', sum_chunk _ 0, Nat.mul_zero, Finset.range_zero,
        Finset.sum_empty, zero_add]
  | succ c ih =>
    obtain ⟨M, hM, hS⟩ := ih
    obtain ⟨M', hM'⟩ := mStep_coe M (fun q : Fin 128 => f (128 * (c + 1) + q.val))
    refine ⟨M', ?_, ?_⟩
    · show mStep (lvl y (c + 1)).1 (y (c + 1)) = _
      rw [hM, hyc (c + 1)]; exact hM'
    · show lStep (lvl y (c + 1)).1 (lvl y (c + 1)).2 (y (c + 1)) = _
      rw [hM, hS, hyc (c + 1), lStep_coe _ _ _ M' hM', rescale_sum, sum_chunk _ (c + 1)]

/-- So maximum + log sum is the log of the sum of exponentials of the scores seen. -/
theorem lvl_lse (y : ℕ → Fin 128 → EReal) (f : ℕ → ℝ)
    (hy : ∀ c q, y c q = ((f (128 * c + q.val) : ℝ) : EReal)) (c : ℕ) :
    (lvl y (c + 1)).1 + Ideal.log (lvl y (c + 1)).2
      = ((Real.log (∑ i ∈ Finset.range (128 * (c + 1)), Real.exp (f i)) : ℝ) : EReal) := by
  obtain ⟨M, hM, hS⟩ := lvl_spec y f hy c
  have hne : (Finset.range (128 * (c + 1))).Nonempty := Finset.nonempty_range_iff.mpr (by omega)
  have hpos : 0 < ∑ i ∈ Finset.range (128 * (c + 1)), Real.exp (f i - M) :=
    Finset.sum_pos (fun i _ => Real.exp_pos _) hne
  rw [hM, hS, Ideal.log_coe, if_neg (not_le.mpr hpos), ← EReal.coe_add, lse_shift _ hne]

/-! ## The masked sum picks the target's score -/

/-- The mask of a column is set exactly when the target is that column's word. -/
theorem select_eq_ite {α : Type} (w v : BitVec 32) (a b : α) :
    Scalar.select (IntOp.cmpi .eq w v) a b = if w = v then a else b := by
  have hb : ∀ b : Bool, BitVec.ofBool b = (1 : BitVec 1) ↔ b = true := by intro b; cases b <;> decide
  have hiff : IntOp.cmpi .eq w v = (1 : BitVec 1) ↔ w = v := by
    show BitVec.ofBool (w == v) = (1 : BitVec 1) ↔ w = v
    rw [hb, beq_iff_eq]
  unfold Scalar.select
  by_cases h : w = v
  · rw [if_pos h, if_pos (hiff.mpr h)]
  · rw [if_neg h, if_neg fun hc => h (hiff.mp hc)]

/-- Of the 128 columns of chunk c at most one has the target's word number (128 c + q < 2³², so the equation of
    words is the equation of numbers); every other term is 0. -/
theorem mask_sum (w : BitVec 32) (c : ℕ) (hc : 128 * c + 128 ≤ 2 ^ 32) (f : ℕ → ℝ) :
    ∑ q : Fin 128, Scalar.select (IntOp.cmpi .eq w (BitVec.ofNat 32 (128 * c + q.val)))
        ((f (128 * c + q.val) : ℝ) : EReal) c0
      = if 128 * c ≤ w.toNat ∧ w.toNat < 128 * c + 128 then ((f w.toNat : ℝ) : EReal) else 0 := by
  have hq : ∀ q : Fin 128, (w = BitVec.ofNat 32 (128 * c + q.val)) ↔ w.toNat = 128 * c + q.val := by
    intro q
    have := q.isLt
    rw [← BitVec.toNat_inj, BitVec.toNat_ofNat, Nat.mod_eq_of_lt (by omega)]
  simp only [select_eq_ite, c0_eq]
  split_ifs with h
  · rw [Finset.sum_eq_single (⟨w.toNat - 128 * c, by omega⟩ : Fin 128)]
    · have e : 128 * c + (w.toNat - 128 * c) = w.toNat := by omega
      rw [if_pos ((hq _).mpr e.symm)]
      show ((f (128 * c + (w.toNat - 128 * c)) : ℝ) : EReal) = _
      rw [e]
    · intro q _ hne
      rw [if_neg]
      intro heq
      exact hne (Fin.ext (by have := (hq q).mp heq; show q.val = w.toNat - 128 * c; omega))
    · intro hn; exact absurd (Finset.mem_univ _) hn
  · refine Finset.sum_eq_zero fun q _ => ?_
    rw [if_neg]
    intro heq
    have := (hq q).mp heq
    have := q.isLt
    omega

/-- After c chunks the masked sum is the target's score if the target lies in those chunks, and 0 otherwise. -/
theorem gfold_spec (w : BitVec 32) (y : ℕ → Fin 128 → EReal) (f : ℕ → ℝ)
    (hy : ∀ c q, y c q = ((f (128 * c + q.val) : ℝ) : EReal)) (c : ℕ) (hc : 128 * c ≤ 2 ^ 32) :
    gfold w y c = if w.toNat < 128 * c then ((f w.toNat : ℝ) : EReal) else 0 := by
  induction c with
  | zero => show c0 = _; rw [c0_eq, if_neg (by omega)]
  | succ c ih =>
    show gStep (gfold w y c) w c (y c) = _
    unfold gStep
    rw [ih (by omega)]
    have hs : (∑ q : Fin 128, Scalar.select (IntOp.cmpi .eq w (BitVec.ofNat 32 (128 * c + q.val))) (y c q) c0)
        = if 128 * c ≤ w.toNat ∧ w.toNat < 128 * c + 128 then ((f w.toNat : ℝ) : EReal) else 0 := by
      simp only [hy]; exact mask_sum w c (by omega) f
    rw [hs]
    by_cases h1 : w.toNat < 128 * c
    · rw [if_pos h1, if_neg (by omega), if_pos (by omega), add_zero]
    · by_cases h2 : w.toNat < 128 * c + 128
      · rw [if_neg h1, if_pos ⟨by omega, h2⟩, if_pos (by omega), zero_add]
      · rw [if_neg h1, if_neg (by omega), if_neg (by omega), add_zero]

/-! ## The join of the head's 2048-word sum with word 6144 -/

theorem join_real (a b : ℝ) :
    max a b + Real.log (Real.exp (a - max a b) + Real.exp (b - max a b)) = Real.log (Real.exp a + Real.exp b) := by
  have hpos : 0 < Real.exp a + Real.exp b := add_pos (Real.exp_pos _) (Real.exp_pos _)
  have h : Real.exp (a - max a b) + Real.exp (b - max a b) = Real.exp (-(max a b)) * (Real.exp a + Real.exp b) := by
    rw [mul_add, ← Real.exp_add, ← Real.exp_add]; congr 2 <;> ring
  rw [h, Real.log_mul (Real.exp_ne_zero _) hpos.ne', Real.log_exp]; ring

theorem join_coe (a b : ℝ) :
    max (a : EReal) (b : EReal)
        + Ideal.log (Ideal.exp ((a : EReal) - max (a : EReal) (b : EReal))
            + Ideal.exp ((b : EReal) - max (a : EReal) (b : EReal)))
      = ((Real.log (Real.exp a + Real.exp b) : ℝ) : EReal) := by
  have hpos : 0 < Real.exp (a - max a b) + Real.exp (b - max a b) := add_pos (Real.exp_pos _) (Real.exp_pos _)
  rw [← coe_max', ← EReal.coe_sub, ← EReal.coe_sub, Ideal.exp_coe, Ideal.exp_coe, ← EReal.coe_add, Ideal.log_coe,
    if_neg (not_le.mpr hpos), ← EReal.coe_add, join_real]

/-! ## The whole-level arrangement on real scores -/

/-- Subtracting the level's maximum (a real) and then the log of the sum is subtracting the level's LSE. -/
theorem logSoftmax_coe {N : ℕ} (hN : 0 < N) (xr : Fin N → ℝ) (t : Fin N) :
    logSoftmax (fun j => (xr j : EReal)) t = ((xr t - Real.log (∑ j, Real.exp (xr j)) : ℝ) : EReal) := by
  haveI : Nonempty (Fin N) := ⟨⟨0, hN⟩⟩
  have hne : (Finset.univ : Finset (Fin N)).Nonempty := Finset.univ_nonempty
  obtain ⟨M, hM⟩ := fold_max_coe (Finset.univ : Finset (Fin N)) hne xr
  have hpos : 0 < ∑ j, Real.exp (xr j - M) := Finset.sum_pos (fun i _ => Real.exp_pos _) hne
  have hs : (∑ j : Fin N, Ideal.exp ((xr j : EReal) - (M : EReal))) = ((∑ j, Real.exp (xr j - M) : ℝ) : EReal) := by
    rw [coe_finsum]; exact Finset.sum_congr rfl fun j _ => by rw [← EReal.coe_sub, Ideal.exp_coe]
  unfold logSoftmax
  rw [cNegInf_eq, c0_eq, hM, max_eq_right bot_le, zero_add, hs, Ideal.log_coe, if_neg (not_le.mpr hpos),
    ← EReal.coe_sub, ← EReal.coe_sub]
  congr 1
  rw [← lse_shift _ hne xr M]; ring

/-! ## The 48 chunks as two levels -/

theorem stateAt_succ (K : Fin 6145 → EReal) (hw tw : BitVec 32) (c : ℕ) :
    stateAt K hw tw (c + 1)
      = if c < 16 then headStep (stateAt K hw tw c) hw c (chunk K c)
        else tailStep (stateAt K hw tw c) tw c (chunk K c) := rfl

/-- Through the first 16 chunks only the head level moves. -/
theorem stateAt_head (K : Fin 6145 → EReal) (hw tw : BitVec 32) (c : ℕ) (hc : c ≤ 16) :
    stateAt K hw tw c
      = ⟨(lvl (chunk K) c).1, (lvl (chunk K) c).2, gfold hw (chunk K) c, cNegInf, c0, c0⟩ := by
  induction c with
  | zero => rfl
  | succ c ih =>
    rw [stateAt_succ, if_pos (by omega), ih (by omega)]
    rfl

/-- From chunk 16 on the head level rests and the tail level walks the chunks 16, 17, …, its own chunk number
    being c − 16. -/
theorem stateAt_tail (K : Fin 6145 → EReal) (hw tw : BitVec 32) (c : ℕ) :
    stateAt K hw tw (16 + c)
      = ⟨(lvl (chunk K) 16).1, (lvl (chunk K) 16).2, gfold hw (chunk K) 16,
          (lvl (fun c => chunk K (16 + c)) c).1, (lvl (fun c => chunk K (16 + c)) c).2,
          gfold tw (fun c => chunk K (16 + c)) c⟩ := by
  induction c with
  | zero => exact stateAt_head K hw tw 16 le_rfl
  | succ c ih =>
    rw [show 16 + (c + 1) = (16 + c) + 1 from rfl, stateAt_succ, if_neg (by omega), ih]
    unfold tailStep
    rw [Nat.add_sub_cancel_left]
    rfl

/-! ## Re-indexing the two levels' words -/

/-- The head level's 2049 words are the words 0 … 2047 and word 6144. -/
theorem head_sum (g : Fin 6145 → ℝ) :
    ∑ j : Fin 2049, g (headId j)
      = (∑ i ∈ Finset.range 2048, g ⟨i % 6145, Nat.mod_lt _ (by norm_num)⟩) + g ⟨6144, by norm_num⟩ := by
  have h1 : ∀ j : Fin 2048, headId (Fin.castSucc j) = ⟨j.val % 6145, Nat.mod_lt _ (by norm_num)⟩ := by
    intro j
    have hj := j.isLt
    unfold headId
    rw [dif_pos (show (Fin.castSucc j).val < 2048 from hj)]
    exact Fin.ext (show j.val = j.val % 6145 by omega)
  have h2 : headId (Fin.last 2048) = ⟨6144, by norm_num⟩ := by
    unfold headId
    rw [dif_neg (show ¬ (Fin.last 2048).val < 2048 from lt_irrefl _)]
  rw [Fin.sum_univ_castSucc, Finset.sum_range, h2]
  exact congrArg (· + _) (Finset.sum_congr rfl fun j _ => by rw [h1 j])

/-- The tail level's 4096 words are the words 2048 + i. -/
theorem tail_sum (g : Fin 6145 → ℝ) :
    ∑ j : Fin 4096, g (tailId j)
      = ∑ i ∈ Finset.range 4096, g ⟨(2048 + i) % 6145, Nat.mod_lt _ (by norm_num)⟩ := by
  rw [Finset.sum_range]
  refine Finset.sum_congr rfl fun j _ => ?_
  have hj := j.isLt
  congr 1
  exact Fin.ext (show 2048 + j.val = (2048 + j.val) % 6145 by omega)

/-! ## The two arrangements of a row agree -/

/-- The real score of word number i (taken modulo 6145, as the chunks read it). -/
def wordScore (xr : Fin 6145 → ℝ) (i : ℕ) : ℝ := xr ⟨i % 6145, Nat.mod_lt _ (by norm_num)⟩

theorem rows_agree (K : Fin 6145 → EReal) (hK : ∀ j, ∃ x : ℝ, K j = (x : EReal)) (hw tw : BitVec 32)
    (hhw : hw.toNat < 2048) (htw : tw.toNat < 4096) (ih : BitVec 1) : kernelRow K hw tw ih = refRow K hw tw ih := by
  choose xr hxr using hK
  -- the chunks of the head level read f, those of the tail level read f (2048 + ·)
  have hyH : ∀ c (q : Fin 128), chunk K c q = ((wordScore xr (128 * c + q.val) : ℝ) : EReal) := fun c q => hxr _
  have hyT : ∀ c (q : Fin 128),
      (fun c => chunk K (16 + c)) c q = (((fun i => wordScore xr (2048 + i)) (128 * c + q.val) : ℝ) : EReal) := by
    intro c q
    have e : 128 * (16 + c) + q.val = 2048 + (128 * c + q.val) := by omega
    show chunk K (16 + c) q = ((wordScore xr (2048 + (128 * c + q.val)) : ℝ) : EReal)
    rw [hyH, e]
  have hst : stateAt K hw tw 48 = _ := stateAt_tail K hw tw 32
  -- the four numbers the chunked walk hands on
  have hLH : lseHead K hw tw
      = ((Real.log (∑ i ∈ Finset.range 2048, Real.exp (wordScore xr i)) : ℝ) : EReal) := by
    unfold lseHead; rw [hst]; exact lvl_lse (chunk K) (wordScore xr) hyH 15
  have hGH : gHead K hw tw = ((wordScore xr hw.toNat : ℝ) : EReal) := by
    unfold gHead; rw [hst]
    show gfold hw (chunk K) 16 = _
    rw [gfold_spec hw (chunk K) (wordScore xr) hyH 16 (by norm_num), if_pos (by omega)]
  have hLT : lseTail K hw tw
      = ((Real.log (∑ i ∈ Finset.range 4096, Real.exp (wordScore xr (2048 + i))) : ℝ) : EReal) := by
    unfold lseTail; rw [hst]; exact lvl_lse _ (fun i => wordScore xr (2048 + i)) hyT 31
  have hGT : gTail K hw tw = ((wordScore xr (2048 + tw.toNat) : ℝ) : EReal) := by
    unfold gTail; rw [hst]
    show gfold tw (fun c => chunk K (16 + c)) 32 = _
    rw [gfold_spec tw _ (fun i => wordScore xr (2048 + i)) hyT 32 (by norm_num), if_pos (by omega)]
  -- the whole-level side: sums and targets re-indexed
  have hKH : (fun j : Fin 2049 => K (headId j)) = fun j => ((xr (headId j) : ℝ) : EReal) := funext fun j => hxr _
  have hKT : (fun j : Fin 4096 => K (tailId j)) = fun j => ((xr (tailId j) : ℝ) : EReal) := funext fun j => hxr _
  have hSH : ∑ j : Fin 2049, Real.exp (xr (headId j))
      = (∑ i ∈ Finset.range 2048, Real.exp (wordScore xr i)) + Real.exp (xr ⟨6144, by norm_num⟩) :=
    head_sum fun j => Real.exp (xr j)
  have hST : ∑ j : Fin 4096, Real.exp (xr (tailId j))
      = ∑ i ∈ Finset.range 4096, Real.exp (wordScore xr (2048 + i)) :=
    tail_sum fun j => Real.exp (xr j)
  have htH : xr (headId ⟨hw.toNat % 2049, Nat.mod_lt _ (by norm_num)⟩) = wordScore xr hw.toNat := by
    unfold headId wordScore
    rw [dif_pos (show hw.toNat % 2049 < 2048 by omega)]
    exact congrArg xr (Fin.ext (show hw.toNat % 2049 = hw.toNat % 6145 by omega))
  have htL : headId ⟨2048, by norm_num⟩ = ⟨6144, by norm_num⟩ := by
    unfold headId; rw [dif_neg (show ¬ (2048 : ℕ) < 2048 from lt_irrefl _)]
  have htT : xr (tailId ⟨tw.toNat % 4096, Nat.mod_lt _ (by norm_num)⟩) = wordScore xr (2048 + tw.toNat) :=
    congrArg xr (Fin.ext (show 2048 + tw.toNat % 4096 = (2048 + tw.toNat) % 6145 by omega))
  have hpH : 0 < ∑ i ∈ Finset.range 2048, Real.exp (wordScore xr i) :=
    Finset.sum_pos (fun i _ => Real.exp_pos _) (Finset.nonempty_range_iff.mpr (by norm_num))
  -- the head's joined LSE, on both sides log (Σ_{i < 2048} exp x_i + exp x_6144)
  have hJ : max (lseHead K hw tw) (K ⟨6144, by norm_num⟩)
        + Ideal.log (Ideal.exp (lseHead K hw tw - max (lseHead K hw tw) (K ⟨6144, by norm_num⟩))
            + Ideal.exp (K ⟨6144, by norm_num⟩ - max (lseHead K hw tw) (K ⟨6144, by norm_num⟩)))
      = ((Real.log (∑ j : Fin 2049, Real.exp (xr (headId j))) : ℝ) : EReal) := by
    rw [hLH, hxr ⟨6144, by norm_num⟩, join_coe, Real.exp_log hpH, hSH]
  unfold kernelRow refRow combine
  rw [hJ, hGH, hLT, hGT, hxr ⟨6144, by norm_num⟩, hKH, hKT]
  refine congrArg₂ (Scalar.select ih) ?_ ?_
  · rw [logSoftmax_coe (by norm_num), htH, ← EReal.coe_sub]
  · rw [logSoftmax_coe (by norm_num), logSoftmax_coe (by norm_num), htL, htT, hST, ← EReal.coe_sub, ← EReal.coe_sub]

/-! ## The mean over the rows -/

theorem kernelVal_eq_refVal (h : Fin 128 → Fin 256 → EReal) (tg : Fin 128 → BitVec 32)
    (emb : Fin 6145 → Fin 256 → EReal) (W U : Fin 256 → Fin 256 → EReal) (b : Fin 256 → EReal)
    (hreal : ∀ n j, ∃ x : ℝ, kmat h emb W U b n j = (x : EReal)) :
    kernelVal h tg emb W U b = refVal h tg emb W U b :=
  congrArg total (funext fun n =>
    rows_agree (kmat h emb W U b n) (hreal n) _ _ (headWord_lt (tg n)) (tailWord_lt (tg n)) _)

end Cert.Spec

end
-- ==== Proof.Finite.lean ====
/-
  Real-valued inputs give real-valued scores, and the precondition makes the inputs real-valued.

  The precondition says, of each float input x, that every entry satisfies |x| < +∞ where |x| = max x (−x) on the
  extended reals: at −∞ and at +∞ that maximum is +∞ itself, so only a real passes.  The score
  65 / (1 + Σ_d (h − tanh (emb · W + (h · U + b)))²) of real entries is built from finite sums, products,
  differences and tanh of reals, and its denominator is a real that is at least 1, so the quotient is a real.
-/
import proofs.«430609_j28260884807701_2_alg».proof.Pre_finite_inputs
import proofs.«430609_j28260884807701_2_alg».proof.Proof.Spec
import Idealize.ShloMosaic.Lib.ReduceAll
import Idealize.ShloMosaic.Lib.IdealHost
import Mathlib.Data.EReal.Basic
import Mathlib.Data.EReal.Operations
import Mathlib.Data.EReal.Inv
import Mathlib.Algebra.BigOperators.Group.Finset.Basic
import Mathlib.Algebra.Order.BigOperators.Group.Finset

noncomputable section

namespace Cert.Finite

open Idealize.ShloMosaic

/-! ## The literals as reals -/

/-- The word 0x3F800000 is the real 1. -/
theorem c1_eq : Cert.Spec.c1 = ((1 : ℝ) : EReal) := by
  rw [Cert.Spec.c1, Ideal.ofBits_one_f32]; rfl

/-- The word 0x42820000 is the real 65 (sign 0, exponent 133, fraction 2¹⁷: (2²³ + 2¹⁷) · 2⁻¹⁷ = 65). -/
theorem c65_eq : Cert.Spec.c65 = ((65 : ℝ) : EReal) := by
  simp [Cert.Spec.c65, Ideal.ofBits, Ideal.ieee, -EReal.coe_mul]; norm_num

/-- The word 0x7F800000 is +∞. -/
theorem inf_eq : Ideal.ofBits .f32 0x7F800000#32 = (⊤ : EReal) := by
  simp [Ideal.ofBits, Ideal.ieee]

/-! ## Finite sums of reals -/

/-- A finite sum of reals, taken in the extended reals, is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-! ## The scores of real entries -/

/-- Real-valued inputs give real-valued scores. -/
theorem kmat_real (h : Fin 128 → Fin 256 → EReal) (emb : Fin 6145 → Fin 256 → EReal) (W U : Fin 256 → Fin 256 → EReal) (b : Fin 256 → EReal)
    (hh : ∀ n d, ∃ x : ℝ, h n d = (x : EReal)) (hemb : ∀ j d, ∃ x : ℝ, emb j d = (x : EReal)) (hW : ∀ e d, ∃ x : ℝ, W e d = (x : EReal))
    (hU : ∀ e d, ∃ x : ℝ, U e d = (x : EReal)) (hb : ∀ d, ∃ x : ℝ, b d = (x : EReal)) (n : Fin 128) (j : Fin 6145) :
    ∃ x : ℝ, Cert.Spec.kmat h emb W U b n j = (x : EReal) := by
  choose h' hh using hh
  choose emb' hemb using hemb
  choose W' hW using hW
  choose U' hU using hU
  choose b' hb using hb
  -- h · U + b is the real matrix product plus the real bias
  have hhub : ∀ d, Cert.Spec.hub h U b n d = (((∑ e : Fin 256, h' n e * U' e d) + b' d : ℝ) : EReal) := by
    intro d
    simp only [Cert.Spec.hub, hh, hU, hb, ← EReal.coe_mul, coe_sum, ← EReal.coe_add]
  -- emb · W is the real matrix product
  have hew : ∀ d, Cert.Spec.ew emb W j d = ((∑ e : Fin 256, emb' j e * W' e d : ℝ) : EReal) := by
    intro d
    simp only [Cert.Spec.ew, hemb, hW, ← EReal.coe_mul, coe_sum]
  -- the difference h − tanh (…) is a real
  have hdiff : ∀ d, Cert.Spec.diff h emb W U b n j d
      = ((h' n d - Real.tanh ((∑ e : Fin 256, emb' j e * W' e d) + ((∑ e : Fin 256, h' n e * U' e d) + b' d)) : ℝ) : EReal) := by
    intro d
    rw [Cert.Spec.diff, hew, hhub, hh, ← EReal.coe_add, Ideal.tanh_coe, ← EReal.coe_sub]
  -- name the real differences D d; the denominator 1 + Σ_d D d² is a real, at least 1
  obtain ⟨D, hdiff⟩ : ∃ D : Fin 256 → ℝ, ∀ d, Cert.Spec.diff h emb W U b n j d = (D d : EReal) := ⟨_, hdiff⟩
  have hden : Cert.Spec.c1 + ∑ d : Fin 256, Cert.Spec.diff h emb W U b n j d * Cert.Spec.diff h emb W U b n j d
      = ((1 + ∑ d : Fin 256, D d * D d : ℝ) : EReal) := by
    simp only [hdiff, c1_eq, ← EReal.coe_mul, coe_sum, ← EReal.coe_add]
  have hpos : (1 + ∑ d : Fin 256, D d * D d : ℝ) ≠ 0 := by
    have : 0 ≤ ∑ d : Fin 256, D d * D d := Finset.sum_nonneg fun d _ => mul_self_nonneg (D d)
    linarith
  refine ⟨65 * (1 / (1 + ∑ d : Fin 256, D d * D d)), ?_⟩
  rw [Cert.Spec.kmat, hden, c65_eq, Ideal.div_coe hpos, ← EReal.coe_mul]

/-! ## The precondition -/

open Cert.Pre_finite_inputs in
/-- The scalar shape has one index. -/
instance : Subsingleton Cert.Pre_finite_inputs.S_.Idx := ⟨fun a b => funext fun d => d.elim0⟩

/-- An extended real whose absolute value max x (−x) is strictly below +∞ is a real: at either infinity that
    maximum is +∞. -/
theorem real_of_abs_lt_top (x : EReal) (hx : Ideal.cmp .olt (max x (-x)) (Ideal.ofBits .f32 0x7F800000#32) = 1#1) :
    ∃ r : ℝ, x = (r : EReal) := by
  rw [inf_eq] at hx
  induction x using EReal.rec with
  | bot => simp [Ideal.cmp] at hx
  | top => simp [Ideal.cmp] at hx
  | coe r => exact ⟨r, rfl⟩

/-- `all (|a| < +∞)` over a whole array says every entry is a real. -/
theorem all_real {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf a) (broadcastInDim s ![] hb (constant Cert.Pre_finite_inputs.S_ .f32 0x7F800000#32)))
          (constantI Cert.Pre_finite_inputs.S_ 1 1#1) hr hu ValueIdx.ix0 = 1#1) :
    ∀ i, ∃ r : ℝ, a i = (r : EReal) := by
  intro i
  have hi := Host.reduce_andi_all _ _ hr hu ValueIdx.ix0 e i
  exact real_of_abs_lt_top (a i) hi

open Cert.Pre_finite_inputs in
/-- The precondition makes every float input real-valued. -/
theorem real_of_pre [Cert.Pre_finite_inputs.Facts] (a0 : FVec Ideal S128x256 .f32) (a1 : IVec S128 32)
    (a2 : FVec Ideal S6145x256 .f32) (a3 a4 : FVec Ideal S256x256 .f32) (a5 : FVec Ideal S256 .f32)
    (hpre : Cert.Pre_finite_inputs.fn (F := Ideal) a0 a1 a2 a3 a4 a5 = fun _ => 1#1) :
    (∀ i, ∃ x : ℝ, a0 i = (x : EReal)) ∧ (∀ i, ∃ x : ℝ, a2 i = (x : EReal)) ∧ (∀ i, ∃ x : ℝ, a3 i = (x : EReal))
      ∧ (∀ i, ∃ x : ℝ, a4 i = (x : EReal)) ∧ (∀ i, ∃ x : ℝ, a5 i = (x : EReal)) := by
  have h := congrFun hpre ValueIdx.ix0
  dsimp only [Cert.Pre_finite_inputs.fn, Cert.Pre_finite_inputs.fn_part1, andi] at h
  obtain ⟨h0123, h5⟩ := IntOp.andi_eq_one.1 h
  obtain ⟨h012, h4⟩ := IntOp.andi_eq_one.1 h0123
  obtain ⟨h01, h3⟩ := IntOp.andi_eq_one.1 h012
  obtain ⟨h0, h2⟩ := IntOp.andi_eq_one.1 h01
  exact ⟨all_real a0 _ _ _ h0, all_real a2 _ _ _ h2, all_real a3 _ _ _ h3, all_real a4 _ _ _ h4, all_real a5 _ _ _ h5⟩

open Cert.Pre_finite_inputs in
/-- So under the precondition the scores of the argument arrays are real-valued. -/
theorem kmat_real_of_pre [Cert.Pre_finite_inputs.Facts] (a0 : FVec Ideal S128x256 .f32) (a1 : IVec S128 32)
    (a2 : FVec Ideal S6145x256 .f32) (a3 a4 : FVec Ideal S256x256 .f32) (a5 : FVec Ideal S256 .f32)
    (hpre : Cert.Pre_finite_inputs.fn (F := Ideal) a0 a1 a2 a3 a4 a5 = fun _ => 1#1) (n : Fin 128) (j : Fin 6145) :
    ∃ x : ℝ, Cert.Spec.kmat (Cert.Spec.cur2 a0) (Cert.Spec.cur2 a2) (Cert.Spec.cur2 a3) (Cert.Spec.cur2 a4)
      (Cert.Spec.cur1 a5) n j = (x : EReal) := by
  obtain ⟨r0, r2, r3, r4, r5⟩ := real_of_pre a0 a1 a2 a3 a4 a5 hpre
  exact kmat_real _ _ _ _ _ (fun n d => r0 _) (fun j d => r2 _) (fun e d => r3 _) (fun e d => r4 _) (fun d => r5 _) n j

end Cert.Finite

end
-- ==== Proof.Claims.lean ====
/-
  The five claims, assembled.

  The two kernel programs' frames are the run of @main read at the argument arrays: every weakly fair execution ends
  with each unscoped buffer at the last boundary's contents, and no host operation and no region writes an argument.
  The reference's frame is its run with the result dropped. No operation was rewritten by the idealization, so there
  is nothing to preserve. For the value claim both runs end at one number: the kernel program's result buffer holds
  the mean of the rows' losses in the chunked arrangement (running maximum, rescaled sum, masked sum per level, the
  head level joined with word 6144), the reference's holds it in the whole-level arrangement (log-softmax per level);
  the precondition makes every float input, hence every score 65 / (1 + squared distance), a real number, and on real
  scores the two arrangements agree (exp (a + b) = exp a · exp b, log (exp a) = a).
-/
import proofs.«430609_j28260884807701_2_alg».proof.Defs
import proofs.«430609_j28260884807701_2_alg».proof.Proof.Gen.Kernel
import proofs.«430609_j28260884807701_2_alg».proof.Proof.Gen.KernelIdeal
import proofs.«430609_j28260884807701_2_alg».proof.Proof.Gen.ReferenceIdeal
import proofs.«430609_j28260884807701_2_alg».proof.Proof.Gen.Pre_finite_inputs
import proofs.«430609_j28260884807701_2_alg».proof.Proof.Kernel.MainRun
import proofs.«430609_j28260884807701_2_alg».proof.Proof.Kernel.Runs0All
import proofs.«430609_j28260884807701_2_alg».proof.Proof.KernelIdeal.MainRun
import proofs.«430609_j28260884807701_2_alg».proof.Proof.KernelIdeal.Runs0All
import proofs.«430609_j28260884807701_2_alg».proof.Proof.Val.Tail
import proofs.«430609_j28260884807701_2_alg».proof.Proof.RefRun
import proofs.«430609_j28260884807701_2_alg».proof.Proof.RefRunEq
import proofs.«430609_j28260884807701_2_alg».proof.Proof.RefValue
import proofs.«430609_j28260884807701_2_alg».proof.Proof.Math
import proofs.«430609_j28260884807701_2_alg».proof.Proof.Finite

set_option maxRecDepth 16384

noncomputable section

namespace Cert.Proof.Claims

open Idealize.ShloMosaic Idealize.ShloMosaic.TcCoe Idealize.SL.Sem

/-- The word-level kernel program runs and leaves its arguments as launched. -/
theorem frame_k : Cert.frame_Kernel := fun m ρ _ => Cert.Kernel.Hand.frame Cert.Kernel.Hand.runs0 m ρ

/-- So does the idealized kernel program. -/
theorem frame_ki : Cert.frame_KernelIdeal := fun m ρ _ => Cert.KernelIdeal.Hand.frame Cert.KernelIdeal.Hand.runs0 m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

open Cert.KernelIdeal Cert.KernelIdeal.Hand Cert.KernelIdeal.Val in
/-- Both idealized programs end at the mean of the rows' two-level cross entropies. -/
theorem algebraic : Cert.algebraic_KernelIdeal_ReferenceIdeal := by
  intro m ρ m' ρ' hpre hagree
  refine ⟨fun c => fun _ => Cert.Spec.kernelVal (aH m c) (aT m c) (aE m c) (aW m c) (aU m c) (aB m c), ?_, ?_⟩
  · refine (θ_run Cert.KernelIdeal.defs _ _).mono (fun r h c => ⟨?_, ?_, ?_, ?_, ?_, ?_, ?_⟩) (run_all runs0 m ρ)
    · exact (h c _ (mem_uc main_v34 (by decide))).trans (kernel_value m ρ c)
    · exact (h c _ (mem_uc main_arg0 (by decide))).trans (W10_main_arg0 m ρ c)
    · exact (h c _ (mem_uc main_arg1 (by decide))).trans (W10_main_arg1 m ρ c)
    · exact (h c _ (mem_uc main_arg2 (by decide))).trans (W10_main_arg2 m ρ c)
    · exact (h c _ (mem_uc main_arg3 (by decide))).trans (W10_main_arg3 m ρ c)
    · exact (h c _ (mem_uc main_arg4 (by decide))).trans (W10_main_arg4 m ρ c)
    · exact (h c _ (mem_uc main_arg5 (by decide))).trans (W10_main_arg5 m ρ c)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v71_eq]
    funext i
    rw [Cert.ReferenceIdeal.RefValue.val_main_v71_spec, (hagree c).1, (hagree c).2.1, (hagree c).2.2.1, (hagree c).2.2.2.1,
      (hagree c).2.2.2.2.1, (hagree c).2.2.2.2.2]
    exact (Cert.Spec.kernelVal_eq_refVal (aH m c) (aT m c) (aE m c) (aW m c) (aU m c) (aB m c)
      (fun n j => Cert.Finite.kmat_real_of_pre _ _ _ _ _ _ (hpre c) n j)).symm

end Cert.Proof.Claims

end
-- ==== Proof.lean ====
/-
  The proof of `Cert.Claim`: an online-softmax kernel (two levels of a cross entropy over a 6145-word vocabulary,
  walked in 48 chunks of 128 words with a running maximum, a rescaled sum of exponentials and a masked sum that picks
  the target's score, plus one small kernel for the extra head word) against the plain jnp reference (log-softmax per
  level, gather of the target's column), equal over the extended reals on finite inputs.

  The two kernel programs' frames and the idealized kernel's value are read off ONE run of @main written by hand over
  the pipeline library (no frame is generated for this program: the first region's kernel carries seven scratch
  buffers across grid points): per region the proof data and the body obligation (Proof/KernelIdeal/: the body's four
  cases by the chunk number, each a run of the body; the scratch state after each point by recursion), then the
  launch over @main's ten items (Proof/KernelIdeal/MainRun.lean), written once generic in the float instance and
  laid out again for the word-level program (Proof/Kernel/). The value at the ideal instance: the payloads read at
  an index (Proof/Val/Payloads.lean), the host prefix and the blocks (Proof/Val/Prefix.lean), the carried state is
  the mathematics' state (Proof/Val/Fold.lean), the result arrays (Proof/Val/Outs.lean), the host tail
  (Proof/Val/Tail.lean). The reference: its run and read-at-an-index lemmas (patched copies of the generated
  modules, Proof/RefRun.lean, Proof/RefRead.lean), the operations those do not read (Proof/RefOps.lean), and the
  chain down to the arguments (Proof/RefValue.lean). The mathematics both sides are stated over is Proof/Spec.lean;
  that its two arrangements agree on real scores is Proof/Math.lean; that the precondition makes the scores real is
  Proof/Finite.lean. The five claims are assembled in Proof/Claims.lean.
-/
import proofs.«430609_j28260884807701_2_alg».proof.Defs
import proofs.«430609_j28260884807701_2_alg».proof.Proof.Claims
import proofs.«430609_j28260884807701_2_alg».proof.Proof.Gen.Kernel
import proofs.«430609_j28260884807701_2_alg».proof.Proof.Gen.KernelIdeal
import proofs.«430609_j28260884807701_2_alg».proof.Proof.Gen.ReferenceIdeal
import proofs.«430609_j28260884807701_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
